-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v30_0)) (v2 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v30_0) = v1 c
          ∧ r.2.mem ((c.tc : Thread Cert.KernelIdeal.nD Cert.KernelIdeal.τ).loc Cert.KernelIdeal.main_v67) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S800000x2 : Shape := ⟨2, ![800000, 2]⟩
abbrev S100000x32 : Shape := ⟨2, ![100000, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x64 : S_.BroadcastsInDim S1x64 (![] : Fin 0 → Fin S1x64.rank)
  reducesTo_S1x64_S_d0_1 : S1x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x128 : S_.BroadcastsInDim S192x128 (![] : Fin 0 → Fin S192x128.rank)
  reducesTo_S192x128_S_d0_1 : S192x128.ReducesTo [0, 1] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S192x128 .f32) (main_arg12 : FVec F S128 .f32) (main_arg13 : FVec F S128x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S192x128 .f32 := Host.absf main_arg11
  let main_cst_20 : FVec F S_ .f32 := constant S_ .f32 0x7F800000#32
  let main_v55 : FVec F S192x128 .f32 := broadcastInDim S192x128 ![] bcast_S_S192x128 main_cst_20
  let main_v56 : IVec S192x128 1 := cmpf .olt main_v54 main_v55
  let main_c_21 : IVec S_ 1 := constantI S_ 1 1#1
  let main_v57 : IVec S_ 1 := (fun x v => Host.reduce IntOp.andi x v reducesTo_S192x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_v63 main_v67

def fn_part2 {F : FTy → Type} [FloatOps F] (main_arg7 : FVec F S256x128 .f32) (main_arg8 : FVec F S128 .f32) (main_arg9 : FVec F S128x64 .f32) (main_arg10 : FVec F S64 .f32) (main_arg11 : FVec F S192x128 .f32) (main_arg12 : FVec F S128 .f32) (main_arg13 : FVec F S128x64 .f32) (main_arg14 : FVec F S64 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S128 .f32) (main_arg5 : FVec F S128x64 .f32) (main_arg6 : FVec F S64 .f32) (main_arg7 : FVec F S256x128 .f32) (main_arg8 : FVec F S128 .f32) (main_arg9 : FVec F S128x64 .f32) (main_arg10 : FVec F S64 .f32) (main_arg11 : FVec F S192x128 .f32) (main_arg12 : FVec F S128 .f32) (main_arg13 : FVec F S128x64 .f32) (main_arg14 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x64 .f32) (main_arg1 : FVec F S800000x64 .f32) (main_arg2 : FVec F S1x64 .f32) (main_arg3 : FVec F S256x128 .f32) (main_arg4 : FVec F S128 .f32) (main_arg5 : FVec F S128x64 .f32) (main_arg6 : FVec F S64 .f32) (main_arg7 : FVec F S256x128 .f32) (main_arg8 : FVec F S128 .f32) (main_arg9 : FVec F S128x64 .f32) (main_arg10 : FVec F S64 .f32) (main_arg11 : FVec F S192x128 .f32) (main_arg12 : FVec F S128 .f32) (main_arg13 : FVec F S128x64 .f32) (main_arg14 : FVec F S64 .f32) (main_arg15 : IVec S800000x2 32) (main_arg16 : IVec S100000x32 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x64 : Shape := ⟨2, ![100000, 64]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S800000x2 : Shape := ⟨2, ![800000, 2]⟩
abbrev S100000x32 : Shape := ⟨2, ![100000, 32]⟩
abbrev S800000x1 : Shape := ⟨2, ![800000, 1]⟩
abbrev S800000 : Shape := ⟨1, ![800000]⟩
abbrev S_ : Shape := ⟨0, ![]⟩
abbrev S64x128 : Shape := ⟨2, ![64, 128]⟩
abbrev S1x128 : Shape := ⟨2, ![1, 128]⟩
abbrev S8000x64 : Shape := ⟨2, ![8000, 64]⟩
abbrev S8000x128 : Shape := ⟨2, ![8000, 128]⟩
abbrev S100000x32x1 : Shape := ⟨3, ![100000, 32, 1]⟩
abbrev S100000x32x64 : Shape := ⟨3, ![100000, 32, 64]⟩
abbrev S1000x64 : Shape := ⟨2, ![1000, 64]⟩
abbrev S1000x32x64 : Shape := ⟨3, ![1000, 32, 64]⟩
abbrev S1000x32 : Shape := ⟨2, ![1000, 32]⟩
abbrev S1000x32x1 : Shape := ⟨3, ![1000, 32, 1]⟩
abbrev S1000 : Shape := ⟨1, ![1000]⟩
abbrev S1000x1 : Shape := ⟨2, ![1000, 1]⟩
abbrev S1000x128 : Shape := ⟨2, ![1000, 128]⟩
abbrev S1x192 : Shape := ⟨2, ![1, 192]⟩

abbrev nBuf : Space → Nat
  | .hbm => 112
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S800000x64, .f32⟩
  | .hbm, ⟨2, _⟩ => ⟨S1x64, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S192x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S800000x2, .i32⟩
  | .hbm, ⟨16, _⟩ => ⟨S100000x32, .i32⟩
  | .hbm, ⟨17, _⟩ => ⟨S800000x1, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x1, .i32⟩
  | .hbm, ⟨29, _⟩ => ⟨S800000, .i32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S64x128, .f32⟩
  | .hbm, ⟨40, _⟩ => ⟨S64x128, .bf16⟩
  | .hbm, ⟨41, _⟩ => ⟨S64x128, .f32⟩
  | .hbm, ⟨42, _⟩ => ⟨S64x128, .bf16⟩
  | .hbm, ⟨43, _⟩ => ⟨S64x128, .f32⟩
  | .hbm, ⟨44, _⟩ => ⟨S64x128, .bf16⟩
  | .hbm, ⟨45, _⟩ => ⟨S64x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S128x64, .bf16⟩
  | .hbm, ⟨50, _⟩ => ⟨S1x64, .f32⟩
  | .hbm, ⟨51, _⟩ => ⟨S800000x64, .f32⟩
  | .hbm, ⟨52, _⟩ => ⟨S1x64, .f32⟩
  | .hbm, ⟨53, _⟩ => ⟨S_, .i32⟩
  | .hbm, ⟨54, _⟩ => ⟨S100000x32, .i32⟩
  | .hbm, ⟨55, _⟩ => ⟨S100000x32, .i1⟩
  | .hbm, ⟨56, _⟩ => ⟨S_, .i32⟩
  | .hbm, ⟨57, _⟩ => ⟨S_, .i32⟩
  | .hbm, ⟨58, _⟩ => ⟨S100000x32, .i32⟩
  | .hbm, ⟨59, _⟩ => ⟨S100000x32, .i32⟩
  | .hbm, ⟨60, _⟩ => ⟨S_, .i32⟩
  | .hbm, ⟨61, _⟩ => ⟨S100000x32, .i32⟩
  | .hbm, ⟨62, _⟩ => ⟨S100000x32, .i1⟩
  | .hbm, ⟨63, _⟩ => ⟨S_, .i32⟩
  | .hbm, ⟨64, _⟩ => ⟨S100000x32, .i32⟩
  | .hbm, ⟨65, _⟩ => ⟨S100000x32, .i32⟩
  | .hbm, ⟨66, _⟩ => ⟨S100000x32, .i32⟩
  | .hbm, ⟨67, _⟩ => ⟨S100000x32x1, .i32⟩
  | .hbm, ⟨68, _⟩ => ⟨S100000x32x64, .f32⟩
  | .hbm, ⟨69, _⟩ => ⟨S100000x32, .f32⟩
  | .hbm, ⟨70, _⟩ => ⟨S64x128, .f32⟩
  | .hbm, ⟨71, _⟩ => ⟨S64x128, .f32⟩
  | .hbm, ⟨72, _⟩ => ⟨S64x128, .f32⟩
  | .hbm, ⟨73, _⟩ => ⟨S64x128, .bf16⟩
  | .hbm, ⟨74, _⟩ => ⟨S64x128, .f32⟩
  | .hbm, ⟨75, _⟩ => ⟨S64x128, .bf16⟩
  | .hbm, ⟨76, _⟩ => ⟨S64x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S128x64, .bf16⟩
  | .hbm, ⟨81, _⟩ => ⟨S1x64, .f32⟩
  | .hbm, ⟨82, _⟩ => ⟨S100000x64, .f32⟩
  | .hbm, ⟨83, _⟩ => ⟨S1x64, .f32⟩
  | .hbm, ⟨84, _⟩ => ⟨S_, .f32⟩
  | .hbm, ⟨85, _⟩ => ⟨S1x64, .f32⟩
  | .hbm, ⟨86, _⟩ => ⟨S1x64, .f32⟩
  | .hbm, ⟨87, _⟩ => ⟨S_, .f32⟩
  | .hbm, ⟨88, _⟩ => ⟨S1x64, .f32⟩
  | .hbm, ⟨89, _⟩ => ⟨S1x64, .f32⟩
  | .hbm, ⟨90, _⟩ => ⟨S1x192, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S_, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .i1⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x64, .f32⟩
  | .hbm, ⟨109, _⟩ => ⟨S1x64, .f32⟩
  | .hbm, ⟨110, _⟩ => ⟨S1x64, .f32⟩
  | .hbm, ⟨111, _⟩ => ⟨S1x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S64x128, .bf16⟩
  | .local _ .vmem, ⟨7, _⟩ => ⟨S64x128, .bf16⟩
  | .local _ .vmem, ⟨8, _⟩ => ⟨S64x128, .bf16⟩
  | .local _ .vmem, ⟨9, _⟩ => ⟨S1x128, .f32⟩
  | .local _ .vmem, ⟨10, _⟩ => ⟨S128x64, .bf16⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S1x64, .f32⟩
  | .local _ .vmem, ⟨15, _⟩ => ⟨S1000x64, .f32⟩
  | .local _ .vmem, ⟨16, _⟩ => ⟨S1000x64, .f32⟩
  | .local _ .vmem, ⟨17, _⟩ => ⟨S1000x32x64, .f32⟩
  | .local _ .vmem, ⟨18, _⟩ => ⟨S1000x32x64, .f32⟩
  | .local _ .vmem, ⟨19, _⟩ => ⟨S1000x32, .f32⟩
  | .local _ .vmem, ⟨20, _⟩ => ⟨S1000x32, .f32⟩
  | .local _ .vmem, ⟨21, _⟩ => ⟨S64x128, .bf16⟩
  | .local _ .vmem, ⟨22, _⟩ => ⟨S64x128, .bf16⟩
  | .local _ .vmem, ⟨23, _⟩ => ⟨S1x128, .f32⟩
  | .local _ .vmem, ⟨24, _⟩ => ⟨S128x64, .bf16⟩
  | .local _ .vmem, ⟨25, _⟩ => ⟨S1x64, .f32⟩
  | .local _ .vmem, ⟨26, _⟩ => ⟨S1000x64, .f32⟩
  | .local _ .vmem, ⟨27, _⟩ => ⟨S1000x64, .f32⟩
  | .local _ .vmem, ⟨28, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30_0 : Ref sig .tc := ⟨.hbm, 51, rfl⟩
abbrev main_v30_1 : Ref sig .tc := ⟨.hbm, 52, rfl⟩
abbrev main_c_3 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_call0_v0 : Ref sig .tc := ⟨.hbm, 57, rfl⟩
abbrev main_call0_v1 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54_0 : Ref sig .tc := ⟨.hbm, 82, rfl⟩
abbrev main_v54_1 : Ref sig .tc := ⟨.hbm, 83, rfl⟩
abbrev main_cst : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x32x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  slices_S256x128_S64x128_0_0 : S256x128.Slices ![0, 0] S64x128
  bitsLt_bf16_f32 : FTy.bits .bf16 < FTy.bits .f32
  slices_S256x128_S64x128_64_0 : S256x128.Slices ![64, 0] S64x128
  slices_S256x128_S64x128_128_0 : S256x128.Slices ![128, 0] S64x128
  slices_S256x128_S64x128_192_0 : S256x128.Slices ![192, 0] S64x128
  bcast_S128_S1x128_1 : S128.BroadcastsInDim S1x128 (![1] : Fin 1 → Fin S1x128.rank)
  bcast_S64_S1x64_1 : S64.BroadcastsInDim S1x64 (![1] : Fin 1 → Fin S1x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S64 : S8000x64.Reduces [0] S64
  shapeCasts_S64_S1x64 : S64.ShapeCasts S1x64
  bcast_S_S100000x32 : S_.BroadcastsInDim S100000x32 (![] : Fin 0 → Fin S100000x32.rank)
  bcast_S100000x32_S100000x32x1_0_1 : S100000x32.BroadcastsInDim S100000x32x1 (![0, 1] : Fin 2 → Fin S100000x32x1.rank)
  inb_S1000x64_S1000x64_0_0 : ∀ a, (![0, 0] : Fin 2 → Nat) a + S1000x64.size a ≤ S1000x64.size a
  h_S1000x64 : 0 < S1000x64.numel
  inb_S1000x32x64_S1000x32x64_0_0_0 : ∀ a, (![0, 0, 0] : Fin 3 → Nat) a + S1000x32x64.size a ≤ S1000x32x64.size a
  h_S1000x32x64 : 0 < S1000x32x64.numel
  shapeCasts_S1000x32x64_S1000x32x64 : S1000x32x64.ShapeCasts S1000x32x64
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  shapeCasts_S1000x32_S1000x32x1 : S1000x32.ShapeCasts S1000x32x1
  broadcasts_S1000x32x1_S1000x32x64 : S1000x32x1.Broadcasts S1000x32x64
  reduces_S1000x32_S1000 : S1000x32.Reduces [1] S1000
  shapeCasts_S1000_S1000x1 : S1000.ShapeCasts S1000x1
  reduces_S1000x32x64_S1000x64 : S1000x32x64.Reduces [1] S1000x64
  broadcasts_S1000x1_S1000x64 : S1000x1.Broadcasts S1000x64
  broadcasts_S1x128_S1000x128 : S1x128.Broadcasts S1000x128
  broadcasts_S1x64_S1000x64 : S1x64.Broadcasts S1000x64
  reduces_S1000x64_S64 : S1000x64.Reduces [0] S64
  bcast_S_S1x64 : S_.BroadcastsInDim S1x64 (![] : Fin 0 → Fin S1x64.rank)
  concatenates_S1x64_S1x64_S1x64_S1x192_d1 : Shape.Concatenates [S1x64, S1x64, S1x64] S1x192 1
  bcast_S_S1x128 : S_.BroadcastsInDim S1x128 (![] : Fin 0 → Fin S1x128.rank)
  gather_S100000x64_S800000x1_S800000x64_1_0_n_n_0_1_164_wf : GatherDims.WF S100000x64 S800000x1 S800000x64 [1] [0] [] [0] [] 1 ![1, 64]
  dot_S1x64_S64x128_S1x128_1_0_0_1_n_n_wf : DotDims.WF S1x64 S64x128 S1x128 [1] [0] [0] [1] [] []
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  gather_S800000x64_S100000x32x1_S100000x32x64_2_0_n_n_0_2_164_wf : GatherDims.WF S800000x64 S100000x32x1 S100000x32x64 [2] [0] [] [0] [] 2 ![1, 64]
  dot_S1000x64_S64x128_S1000x128_1_0_0_1_n_n_wf : DotDims.WF S1000x64 S64x128 S1000x128 [1] [0] [0] [1] [] []
  dot_S1000x128_S128x64_S1000x64_1_0_0_1_n_n_wf : DotDims.WF S1000x128 S128x64 S1000x64 [1] [0] [0] [1] [] []
  dot_S1x192_S192x128_S1x128_1_0_0_1_n_n_wf : DotDims.WF S1x192 S192x128 S1x128 [1] [0] [0] [1] [] []
  dot_S1x128_S128x64_S1x64_1_0_0_1_n_n_wf : DotDims.WF S1x128 S128x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S100000x64.size a
  hwx1_0 : ∀ i : grid1.Coords, EltTy.bits .f32 = 32 ∨ (Rect.block (s := S100000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x32x64.size a ≤ S100000x32x64.size a
  hwx1_1 : ∀ i : grid1.Coords, EltTy.bits .f32 = 32 ∨ (Rect.block (s := S100000x32x64) S1000x32x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x32.size a ≤ S100000x32.size a
  hwx1_2 : ∀ i : grid1.Coords, EltTy.bits .f32 = 32 ∨ (Rect.block (s := S100000x32) S1000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .bf16 = 32 ∨ (Rect.block (s := S64x128) S64x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .bf16 = 32 ∨ (Rect.block (s := S128x64) S128x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x64.size a ≤ S100000x64.size a
  hwx1_8 : ∀ i : grid1.Coords, EltTy.bits .f32 = 32 ∨ (Rect.block (s := S100000x64) S1000x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def gather_S800000x64_S100000x32x1_S100000x32x64_2_0_n_n_0_2_164 : GatherDims S800000x64 S100000x32x1 S100000x32x64 where
  offsetDims := [2]
  collapsedSliceDims := [0]
  operandBatchingDims := []
  startIndicesBatchingDims := []
  startIndexMap := [0]
  indexVectorDim := 2
  sliceSizes := ![1, 64]
  wf := gather_S800000x64_S100000x32x1_S100000x32x64_2_0_n_n_0_2_164_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1x192_S192x128_S1x128_1_0_0_1_n_n : DotDims S1x192 S192x128 S1x128 where
  lhsContracting := [1]
  rhsContracting := [0]
  lhsNonContracting := [0]
  rhsNonContracting := [1]
  lhsBatch := []
  rhsBatch := []
  wf := dot_S1x192_S192x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

abbrev win0_0 : Pipeline.Window sig grid0 :=
  Pipeline.Window.ofSpec (Memref.whole main_v8) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30_0) S8000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v30_1) S1x64.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1000x32x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54_0) S1000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v54_1) S1x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S800000x2 : Shape := ⟨2, ![800000, 2]⟩
abbrev S100000x32 : Shape := ⟨2, ![100000, 32]⟩
abbrev S800000x1 : Shape := ⟨2, ![800000, 1]⟩
abbrev S800000 : Shape := ⟨1, ![800000]⟩
abbrev S_ : Shape := ⟨0, ![]⟩
abbrev S800000x256 : Shape := ⟨2, ![800000, 256]⟩
abbrev S800000x128 : Shape := ⟨2, ![800000, 128]⟩
abbrev S1x128 : Shape := ⟨2, ![1, 128]⟩
abbrev S100000x32x1 : Shape := ⟨3, ![100000, 32, 1]⟩
abbrev S100000x32x64 : Shape := ⟨3, ![100000, 32, 64]⟩
abbrev S100000 : Shape := ⟨1, ![100000]⟩
abbrev S100000x1 : Shape := ⟨2, ![100000, 1]⟩
abbrev S100000x256 : Shape := ⟨2, ![100000, 256]⟩
abbrev S100000x128 : Shape := ⟨2, ![100000, 128]⟩
abbrev S1x192 : Shape := ⟨2, ![1, 192]⟩

abbrev nBuf : Space → Nat
  | .hbm => 155
  | .vmem => 0
  | .smem => 0
  | _ => 0

abbrev hbmTy0_0 (i : Nat) : BufTy := match i % 128 with
  | 0 => ⟨S100000x64, .f32⟩
  | 1 => ⟨S800000x64, .f32⟩
  | 2 => ⟨S1x64, .f32⟩
  | 3 => ⟨S256x128, .f32⟩
  | 4 => ⟨S128, .f32⟩
  | 5 => ⟨S128x64, .f32⟩
  | 6 => ⟨S64, .f32⟩
  | 7 => ⟨S256x128, .f32⟩
  | 8 => ⟨S128, .f32⟩
  | 9 => ⟨S128x64, .f32⟩
  | 10 => ⟨S64, .f32⟩
  | 11 => ⟨S192x128, .f32⟩
  | 12 => ⟨S128, .f32⟩
  | 13 => ⟨S128x64, .f32⟩
  | 14 => ⟨S64, .f32⟩
  | 15 => ⟨S800000x2, .i32⟩
  | 16 => ⟨S100000x32, .i32⟩
  | 17 => ⟨S800000x1, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x1, .i32⟩
  | 29 => ⟨S800000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S800000x64, .f32⟩
  | 40 => ⟨S800000x256, .f32⟩
  | 41 => ⟨S800000x128, .f32⟩
  | 42 => ⟨S1x128, .f32⟩
  | 43 => ⟨S800000x128, .f32⟩
  | 44 => ⟨S800000x128, .f32⟩
  | 45 => ⟨S_, .f32⟩
  | 46 => ⟨S800000x128, .f32⟩
  | 47 => ⟨S800000x128, .f32⟩
  | 48 => ⟨S800000x128, .f32⟩
  | 49 => ⟨S800000x128, .f32⟩
  | 50 => ⟨S800000x128, .i1⟩
  | 51 => ⟨S800000x128, .f32⟩
  | 52 => ⟨S800000x128, .f32⟩
  | 53 => ⟨S800000x128, .f32⟩
  | 54 => ⟨S800000x128, .f32⟩
  | 55 => ⟨S800000x128, .f32⟩
  | 56 => ⟨S800000x128, .f32⟩
  | 57 => ⟨S800000x128, .f32⟩
  | 58 => ⟨S800000x128, .f32⟩
  | 59 => ⟨S800000x64, .f32⟩
  | 60 => ⟨S1x64, .f32⟩
  | 61 => ⟨S800000x64, .f32⟩
  | 62 => ⟨S800000x64, .f32⟩
  | 63 => ⟨S800000x64, .f32⟩
  | 64 => ⟨S_, .i32⟩
  | 65 => ⟨S100000x32, .i32⟩
  | 66 => ⟨S100000x32, .i1⟩
  | 67 => ⟨S_, .i32⟩
  | 68 => ⟨S_, .i32⟩
  | 69 => ⟨S100000x32, .i32⟩
  | 70 => ⟨S100000x32, .i32⟩
  | 71 => ⟨S_, .i32⟩
  | 72 => ⟨S100000x32, .i32⟩
  | 73 => ⟨S100000x32, .i1⟩
  | 74 => ⟨S_, .i32⟩
  | 75 => ⟨S100000x32, .i32⟩
  | 76 => ⟨S100000x32, .i32⟩
  | 77 => ⟨S100000x32, .i32⟩
  | 78 => ⟨S100000x32x1, .i32⟩
  | 79 => ⟨S100000x32x64, .f32⟩
  | 80 => ⟨S100000x32x1, .i1⟩
  | 81 => ⟨S100000x32x1, .f32⟩
  | 82 => ⟨S100000x32x64, .f32⟩
  | 83 => ⟨S100000x32x64, .f32⟩
  | 84 => ⟨S100000x32, .i32⟩
  | 85 => ⟨S_, .i32⟩
  | 86 => ⟨S100000, .i32⟩
  | 87 => ⟨S100000x1, .i32⟩
  | 88 => ⟨S100000x1, .f32⟩
  | 89 => ⟨S_, .f32⟩
  | 90 => ⟨S100000x64, .f32⟩
  | 91 => ⟨S_, .f32⟩
  | 92 => ⟨S100000x1, .f32⟩
  | 93 => ⟨S100000x1, .f32⟩
  | 94 => ⟨S100000x64, .f32⟩
  | 95 => ⟨S100000x64, .f32⟩
  | 96 => ⟨S100000x64, .f32⟩
  | 97 => ⟨S100000x256, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S100000x128, .f32⟩
  | 107 => ⟨S100000x128, .i1⟩
  | 108 => ⟨S100000x128, .f32⟩
  | 109 => ⟨S100000x128, .f32⟩
  | 110 => ⟨S100000x128, .f32⟩
  | 111 => ⟨S100000x128, .f32⟩
  | 112 => ⟨S100000x128, .f32⟩
  | 113 => ⟨S100000x128, .f32⟩
  | 114 => ⟨S100000x128, .f32⟩
  | 115 => ⟨S100000x128, .f32⟩
  | 116 => ⟨S100000x64, .f32⟩
  | 117 => ⟨S1x64, .f32⟩
  | 118 => ⟨S100000x64, .f32⟩
  | 119 => ⟨S100000x64, .f32⟩
  | 120 => ⟨S100000x64, .f32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S_, .f32⟩
  | _ => ⟨S100000x64, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S1x192, .f32⟩
  | 6 => ⟨S1x128, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S1x128, .f32⟩
  | 13 => ⟨S1x128, .f32⟩
  | 14 => ⟨S1x128, .i1⟩
  | 15 => ⟨S1x128, .f32⟩
  | 16 => ⟨S1x128, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S1x64, .f32⟩
  | 24 => ⟨S1x64, .f32⟩
  | 25 => ⟨S1x64, .f32⟩
  | 26 => ⟨S1x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_3 : Ref sig .tc := ⟨.hbm, 64, rfl⟩
abbrev main_v30 : Ref sig .tc := ⟨.hbm, 65, rfl⟩
abbrev main_v31 : Ref sig .tc := ⟨.hbm, 66, rfl⟩
abbrev main_c_4 : Ref sig .tc := ⟨.hbm, 67, rfl⟩
abbrev main_call1_v0 : Ref sig .tc := ⟨.hbm, 68, rfl⟩
abbrev main_call1_v1 : Ref sig .tc := ⟨.hbm, 69, rfl⟩
abbrev main_v32 : Ref sig .tc := ⟨.hbm, 70, rfl⟩
abbrev main_c_5 : Ref sig .tc := ⟨.hbm, 71, rfl⟩
abbrev main_v33 : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_7 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst : Ref sig .tc := ⟨.hbm, 89, rfl⟩
abbrev main_v48 : Ref sig .tc := ⟨.hbm, 90, rfl⟩
abbrev main_cst_8 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_cst_9 : Ref sig .tc := ⟨.hbm, 121, rfl⟩
abbrev main_v65 : Ref sig .tc := ⟨.hbm, 122, rfl⟩
abbrev main_v66 : Ref sig .tc := ⟨.hbm, 123, rfl⟩
abbrev main_cst_10 : Ref sig .tc := ⟨.hbm, 124, rfl⟩
abbrev main_v67 : Ref sig .tc := ⟨.hbm, 125, rfl⟩
abbrev main_v68 : Ref sig .tc := ⟨.hbm, 126, rfl⟩
abbrev main_cst_11 : Ref sig .tc := ⟨.hbm, 127, rfl⟩
abbrev main_v69 : Ref sig .tc := ⟨.hbm, 128, rfl⟩
abbrev main_v70 : Ref sig .tc := ⟨.hbm, 129, rfl⟩
abbrev main_cst_12 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_call3_cst : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_v7 : Ref sig .tc := ⟨.hbm, 145, rfl⟩
abbrev main_call3_v8 : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  bcast_S1x64_S800000x64_0_1 : S1x64.BroadcastsInDim S800000x64 (![0, 1] : Fin 2 → Fin S800000x64.rank)
  concatenates_S800000x64_S800000x64_S800000x64_S800000x64_S800000x256_d1 : Shape.Concatenates [S800000x64, S800000x64, S800000x64, S800000x64] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S_S100000x32 : S_.BroadcastsInDim S100000x32 (![] : Fin 0 → Fin S100000x32.rank)
  bcast_S100000x32_S100000x32x1_0_1 : S100000x32.BroadcastsInDim S100000x32x1 (![0, 1] : Fin 2 → Fin S100000x32x1.rank)
  bcast_S100000x32x1_S100000x32x64_0_1_2 : S100000x32x1.BroadcastsInDim S100000x32x64 (![0, 1, 2] : Fin 3 → Fin S100000x32x64.rank)
  natLt_1_32 : 1 < 32
  reducesTo_S100000x32_S100000_d1 : S100000x32.ReducesTo [1] S100000
  h_S_ : 0 < S_.numel
  bcast_S100000_S100000x1_0 : S100000.BroadcastsInDim S100000x1 (![0] : Fin 1 → Fin S100000x1.rank)
  reducesTo_S100000x32x64_S100000x64_d1 : S100000x32x64.ReducesTo [1] S100000x64
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  concatenates_S100000x64_S100000x64_S100000x64_S100000x64_S100000x256_d1 : Shape.Concatenates [S100000x64, S100000x64, S100000x64, S100000x64] S100000x256 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x64_S64_d0 : S100000x64.ReducesTo [0] S64
  bcast_S_S1x64 : S_.BroadcastsInDim S1x64 (![] : Fin 0 → Fin S1x64.rank)
  reducesTo_S800000x64_S64_d0 : S800000x64.ReducesTo [0] S64
  concatenates_S1x64_S1x64_S1x64_S1x192_d1 : Shape.Concatenates [S1x64, S1x64, S1x64] S1x192 1
  bcast_S_S1x128 : S_.BroadcastsInDim S1x128 (![] : Fin 0 → Fin S1x128.rank)
  gather_S100000x64_S800000x1_S800000x64_1_0_n_n_0_1_164_wf : GatherDims.WF S100000x64 S800000x1 S800000x64 [1] [0] [] [0] [] 1 ![1, 64]
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  gather_S800000x64_S100000x32x1_S100000x32x64_2_0_n_n_0_2_164_wf : GatherDims.WF S800000x64 S100000x32x1 S100000x32x64 [2] [0] [] [0] [] 2 ![1, 64]
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []
  dot_S1x192_S192x128_S1x128_1_0_0_1_n_n_wf : DotDims.WF S1x192 S192x128 S1x128 [1] [0] [0] [1] [] []
  dot_S1x128_S128x64_S1x64_1_0_0_1_n_n_wf : DotDims.WF S1x128 S128x64 S1x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def gather_S800000x64_S100000x32x1_S100000x32x64_2_0_n_n_0_2_164 : GatherDims S800000x64 S100000x32x1 S100000x32x64 where
  offsetDims := [2]
  collapsedSliceDims := [0]
  operandBatchingDims := []
  startIndicesBatchingDims := []
  startIndexMap := [0]
  indexVectorDim := 2
  sliceSizes := ![1, 64]
  wf := gather_S800000x64_S100000x32x1_S100000x32x64_2_0_n_n_0_2_164_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1x192_S192x128_S1x128_1_0_0_1_n_n : DotDims S1x192 S192x128 S1x128 where
  lhsContracting := [1]
  rhsContracting := [0]
  lhsNonContracting := [0]
  rhsNonContracting := [1]
  lhsBatch := []
  rhsBatch := []
  wf := dot_S1x192_S192x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

class Facts : Prop extends Facts₀ where

variable [Facts]
-- ==== Proof.KBondPoint.lean ====
/-
  Region 0 of the program (the bond update), at a parameter `V`: what the core's buffers hold when the region is
  entered. A window's block at a grid point is the part of its array the point's index map selects; an input
  window's staging buffer holds exactly that block whenever the body runs, whether the pipeline fetched it at this
  point or kept it from an earlier one (the index has not moved since). The body branches on one condition, "this
  is the first grid point", which is decided over the grid in closed form.
-/
import proofs.«112152_j7275674599671_1_alg».proof.Proof.Gen.Kernel.Launch
import proofs.«112152_j7275674599671_1_alg».proof.Proof.Gen.Kernel.Skeleton
import proofs.«112152_j7275674599671_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is the
    region-entry one and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data whose array is the
    region-entry one and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data whose array is the
    region-entry one and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data whose array is the
    region-entry one and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data whose array is the
    region-entry one and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, for any proof data whose array is the
    region-entry one and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, for any proof data whose array is the
    region-entry one and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, for any proof data whose array is the
    region-entry one and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, for any proof data whose array is the
    region-entry one and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end

/-- The body's one branch condition, from the grid coordinates: "the first point". -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 100 = 0 :=
  (by decide +kernel : ∀ t : Fin grid0.N, cond0_0 (grid0.coords t) ↔ t.val % 100 = 0)

/-- One staging buffer of output window 9, through which its contents are stated. -/
abbrev VO0_9 : View sig .tc .vmem S8000x64 .f32 := (Memref.whole cc0_stg9_0 : Memref sig .tc .vmem S8000x64 .f32).view
/-- One staging buffer of output window 10, through which its contents are stated. -/
abbrev VO0_10 : View sig .tc .vmem S1x64 .f32 := (Memref.whole cc0_stg10_0 : Memref sig .tc .vmem S1x64 .f32).view
/-- Each window's current staging memref at point `t`, as the pipeline passes it to the body, and its wholeness. -/
abbrev ms0_0 (t : Fin cfg0.N) : Memref sig .tc .vmem S8000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8000x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8000x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)

end Cert.Kernel.Gen

end
-- ==== Proof.KBondRunFirst.lean ====
/-
  The bond kernel's body at the FIRST grid point, run whole on its staging buffers. The nine input buffers hold
  their blocks and come back as they were. The per-bond output block is stored once, whole. The running column sum
  is first reset to zero and then has this block's column sums added to it, so its old contents do not matter.
  What each output buffer ends with is recorded as the list of pieces the body's stores wrote, last first.
-/
import proofs.«112152_j7275674599671_1_alg».proof.Proof.KBondPoint

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is taken: the pieces each output buffer ends with, and the proof that the
    body runs from the inputs at their contents and the outputs at anything to the continuation holding the inputs
    unchanged and the outputs with those pieces written. -/
noncomputable def kernelRun0_A (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S64x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S8000x64 .f32) (harg10 : arg10.IsWhole) (arg11 : Memref sig .tc .vmem S1x64 .f32) (harg11 : arg11.IsWhole) (hc0 : cond0_0 i)
    (x0 : Vec F S8000x64 .f32) (x1 : Vec F S8000x64 .f32) (x2 : Vec F S8000x64 .f32) (x3 : Vec F S64x128 .bf16) (x4 : Vec F S64x128 .bf16) (x5 : Vec F S64x128 .bf16) (x6 : Vec F S1x128 .f32) (x7 : Vec F S128x64 .bf16) (x8 : Vec F S1x64 .f32) :
    Σ' (L9 : List (View.Piece (Elt F) S8000x64 .f32)), { L10 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0__bond_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__bond_kernel_eq_skeleton]; unfold cc0__bond_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; iexact H10

end Cert.Kernel.Gen

end
-- ==== Proof.KBondRunLater.lean ====
/-
  The bond kernel's body at a LATER grid point (not the first), run whole on its staging buffers. The nine input
  buffers hold their blocks and come back as they were. The per-bond output block is stored once, whole. The
  running column sum is not reset: the body reads what the point before left in it and stores that plus this
  block's column sums. What each output buffer ends with is recorded as the list of pieces the stores wrote.
-/
import proofs.«112152_j7275674599671_1_alg».proof.Proof.KBondRunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is not taken: as at the first point, but the running sum's buffer is read
    at its contents `xo10` before it is stored into. -/
noncomputable def kernelRun0_B (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S64x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S8000x64 .f32) (harg10 : arg10.IsWhole) (arg11 : Memref sig .tc .vmem S1x64 .f32) (harg11 : arg11.IsWhole) (hc0 : ¬cond0_0 i)
    (x0 : Vec F S8000x64 .f32) (x1 : Vec F S8000x64 .f32) (x2 : Vec F S8000x64 .f32) (x3 : Vec F S64x128 .bf16) (x4 : Vec F S64x128 .bf16) (x5 : Vec F S64x128 .bf16) (x6 : Vec F S1x128 .f32) (x7 : Vec F S128x64 .bf16) (x8 : Vec F S1x64 .f32) (xo10 : Vec F S1x64 .f32) :
    Σ' (L9 : List (View.Piece (Elt F) S8000x64 .f32)), { L10 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0__bond_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__bond_kernel_eq_skeleton]; unfold cc0__bond_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg11.eq_unread hf10
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; iexact H10

end Cert.Kernel.Gen

end
-- ==== Proof.KBondData.lean ====
/-
  Region 0 (the bond update) point by point. At each grid point the body leaves two things in its output buffers:
  the block of updated bond rows for this point, a function of this point's input blocks alone, and the running
  column sum, which at the first point is zero plus this block's column sums and at every later point is what the
  point before left plus this block's column sums. The running sum's buffer is written back only after the last
  point, so between two consecutive points it still holds what the earlier one left. From this: the proof data of
  the region's pipeline at the region-entry contents `V`, and the obligation that the body, called at any point
  with the buffers the pipeline hands it, returns them as the proof data says.
-/
import proofs.«112152_j7275674599671_1_alg».proof.Proof.KBondRunLater

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The first-point run at grid point `t`, on that point's staging memrefs and input blocks. -/
abbrev run0A (c : Dev nD) (t : Fin cfg0.N) (h : t.val % 100 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t)

/-- The later-point run at grid point `t`, the running sum's buffer at `xo`. -/
abbrev run0B (c : Dev nD) (t : Fin cfg0.N) (h : ¬t.val % 100 = 0) (xo : Vec F S1x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun hc => h ((hcond0_0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) xo

/-- The pieces a first-point run stores into the bond block tile it. -/
theorem cover0_A_9 (c : Dev nD) (t : Fin cfg0.N) (h : t.val % 100 = 0) (y : S8000x64.Idx) :
    ∃ pc ∈ (run0A V c t h).1, y ∈ pc.1.set :=
  View.cover_of_tiledL (run0A V c t h).1 S8000x64.size (by sl_kernel_rfl) y
/-- The pieces a first-point run stores into the running sum tile it. -/
theorem cover0_A_10 (c : Dev nD) (t : Fin cfg0.N) (h : t.val % 100 = 0) (y : S1x64.Idx) :
    ∃ pc ∈ (run0A V c t h).2.1, y ∈ pc.1.set :=
  View.cover_of_tiledL (run0A V c t h).2.1 S1x64.size (by sl_kernel_rfl) y
/-- The pieces a later-point run stores into the bond block tile it. -/
theorem cover0_B_9 (c : Dev nD) (t : Fin cfg0.N) (h : ¬t.val % 100 = 0) (xo : Vec F S1x64 .f32) (y : S8000x64.Idx) :
    ∃ pc ∈ (run0B V c t h xo).1, y ∈ pc.1.set :=
  View.cover_of_tiledL (run0B V c t h xo).1 S8000x64.size (by sl_kernel_rfl) y
/-- The pieces a later-point run stores into the running sum tile it. -/
theorem cover0_B_10 (c : Dev nD) (t : Fin cfg0.N) (h : ¬t.val % 100 = 0) (xo : Vec F S1x64 .f32) (y : S1x64.Idx) :
    ∃ pc ∈ (run0B V c t h xo).2.1, y ∈ pc.1.set :=
  View.cover_of_tiledL (run0B V c t h xo).2.1 S1x64.size (by sl_kernel_rfl) y

/-- What a first-point run leaves in the bond block's buffer: its pieces read back. -/
def out0_A_9 (c : Dev nD) (t : Fin cfg0.N) (h : t.val % 100 = 0) : Vec F S8000x64 .f32 :=
  VO0_9.read (Elt F) (VO0_9.writes (Elt F) VO0_9.junk (run0A V c t h).1)
/-- What a first-point run leaves in the running sum's buffer. -/
def out0_A_10 (c : Dev nD) (t : Fin cfg0.N) (h : t.val % 100 = 0) : Vec F S1x64 .f32 :=
  VO0_10.read (Elt F) (VO0_10.writes (Elt F) VO0_10.junk (run0A V c t h).2.1)
/-- What a later-point run leaves in the bond block's buffer. -/
def out0_B_9 (c : Dev nD) (t : Fin cfg0.N) (h : ¬t.val % 100 = 0) (xo : Vec F S1x64 .f32) : Vec F S8000x64 .f32 :=
  VO0_9.read (Elt F) (VO0_9.writes (Elt F) VO0_9.junk (run0B V c t h xo).1)
/-- What a later-point run leaves in the running sum's buffer, over its earlier contents `xo`. -/
def out0_B_10 (c : Dev nD) (t : Fin cfg0.N) (h : ¬t.val % 100 = 0) (xo : Vec F S1x64 .f32) : Vec F S1x64 .f32 :=
  VO0_10.read (Elt F) (VO0_10.writes (Elt F) VO0_10.junk (run0B V c t h xo).2.1)

/-- What the two output buffers hold after the body at position `n`: the bond block, and the running sum — the
    latter over what position `n - 1` left when `n` is not the first. -/
def outsAt0 (c : Dev nD) : (n : ℕ) → n < cfg0.N → Vec F S8000x64 .f32 × Vec F S1x64 .f32
  | 0, hn => (out0_A_9 V c ⟨0, hn⟩ (Nat.zero_mod _), out0_A_10 V c ⟨0, hn⟩ (Nat.zero_mod _))
  | n + 1, hn =>
    if h0 : (n + 1) % 100 = 0 then
      (out0_A_9 V c ⟨n + 1, hn⟩ h0, out0_A_10 V c ⟨n + 1, hn⟩ h0)
    else
      (out0_B_9 V c ⟨n + 1, hn⟩ h0 (outsAt0 c n (Nat.lt_of_succ_lt hn)).2, out0_B_10 V c ⟨n + 1, hn⟩ h0 (outsAt0 c n (Nat.lt_of_succ_lt hn)).2)

/-- At a first point. -/
theorem outsAt0_A (c : Dev nD) (t : Fin cfg0.N) (h0 : t.val % 100 = 0) :
    outsAt0 V c t.val t.isLt = (out0_A_9 V c t h0, out0_A_10 V c t h0) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 100 = 0) :
    outsAt0 V c t.val t.isLt = (out0_B_9 V c t h0 (outsAt0 V c (t.val - 1) (Nat.lt_of_le_of_lt (Nat.sub_le _ _) t.isLt)).2,
      out0_B_10 V c t h0 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of region 0's pipeline on core `c`: the arrays as the region finds them; after the body at point
    `t` each input's buffer at its block, the outputs' at `outsAt0`; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- At a later point the running sum's buffer holds what the body left at the point before: it is not the first
    point, and the buffer was not written back in between (that happens after the last point only). -/
theorem before0_10_B (c : Dev nD) (t : Fin cfg0.N) (h0 : ¬t.val % 100 = 0) (d) :
    (dat0 V c).before 10 t d = (outsAt0 V c (t.val - 1) (Nat.lt_of_le_of_lt (Nat.sub_le _ _) t.isLt)).2 := by
  have hN : t.val < 100 := lt_of_lt_of_eq t.isLt (show cfg0.N = 100 from N_0)
  rw [Dat.before_out_kept _ 10 rfl t (by omega) (Bool.eq_false_iff.mpr fun h => by have := (flush0_10 _).mp h; dsimp only at this; omega)
    (fun _ => rfl) (fun _ _ => rfl)]
  dsimp only [dat0]

/-- What the body is called with at point `t`: the invariant, the core's dues, and each window's staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- And what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 1600000 in
/-- The body at any point. The inputs' buffers hold their blocks; the point is the first or a later one; at a later
    one the running sum's buffer holds what the point before left; so that case's run applies. The invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  have hN : t.val < 100 := lt_of_lt_of_eq t.isLt (show cfg0.N = 100 from N_0)
  by_cases h0 : t.val % 100 = 0
  · rw [outsAt0_A V c t h0]
    dsimp only
    unfold out0_A_9 out0_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run0A V c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 V c t h0)
    unfold owns; iexists _; isplitr
    swap; · iexact H10
    ipureintro; exact View.read_writes_of_cover _ _ _ _ _ (cover0_A_10 V c t h0)
  · rw [outsAt0_B V c t h0]
    dsimp only
    simp only [before0_10_B V c t h0]
    unfold out0_B_9 out0_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run0B V c t h0 _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9 V c t h0 _)
    unfold owns; iexists _; isplitr
    swap; · iexact H10
    ipureintro; exact View.read_writes_of_cover _ _ _ _ _ (cover0_B_10 V c t h0 _)

/-- The pipeline library's body obligation for region 0, at every point. -/
theorem body_obligation0 (c : Dev nD) : BodyObligation (dat0 (F := F) V c) (defs₀ (F := F)) Variants.none () Set.univ := fun t => by
  rw [bigSep_W0, bigSep_W0]
  exact sound_body0 V c t

end

end Cert.Kernel.Gen

end
-- ==== Proof.KAtomPoint.lean ====
/-
  Region 1 of the program (the atom update), at a parameter `V`: what the core's buffers hold when the region is
  entered. A window's block at a grid point is the part of its array the point's index map selects; an input
  window's staging buffer holds exactly that block whenever the body runs, whether the pipeline fetched it at this
  point or kept it from an earlier one (the index has not moved since). The body branches on one condition, "this
  is the first grid point", which is decided over the grid in closed form.
-/
import proofs.«112152_j7275674599671_1_alg».proof.Proof.Gen.Kernel.Launch
import proofs.«112152_j7275674599671_1_alg».proof.Proof.Gen.Kernel.Skeleton
import proofs.«112152_j7275674599671_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the atom rows): its staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the gathered neighbour bond rows). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the neighbour mask). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the summed weight bands met by the atom row), fetched once. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the weight band met by the neighbour mean), fetched once. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the first bias row, the global row's contraction folded in), fetched once. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the second weight matrix), fetched once. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 (the second bias row), fetched once. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-- The body's one branch condition, from the grid coordinates: "the first point". -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 100 = 0 :=
  (by decide +kernel : ∀ t : Fin grid1.N, cond1_0 (grid1.coords t) ↔ t.val % 100 = 0)

/-- One staging buffer of each output window, through which its contents are stated. -/
abbrev VO1_8 : View sig .tc .vmem S1000x64 .f32 := (Memref.whole cc1_stg8_0 : Memref sig .tc .vmem S1000x64 .f32).view
abbrev VO1_9 : View sig .tc .vmem S1x64 .f32 := (Memref.whole cc1_stg9_0 : Memref sig .tc .vmem S1x64 .f32).view
/-- Each window's current staging memref at point `t`, as the pipeline passes it to the body, and its wholeness. -/
abbrev ms1_0 (t : Fin cfg1.N) : Memref sig .tc .vmem S1000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1000x32x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x64 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1000x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)

end Cert.Kernel.Gen

end
-- ==== Proof.KAtomRunFirst.lean ====
/-
  The atom kernel's body at the FIRST grid point, run whole on its staging buffers. The eight input buffers hold
  their blocks and come back as they were. The per-atom output block is stored once, whole. The running column sum
  is first reset to zero and then has this block's column sums added to it, so its old contents do not matter.
  What each output buffer ends with is recorded as the list of pieces the body's stores wrote, last first.
-/
import proofs.«112152_j7275674599671_1_alg».proof.Proof.KAtomPoint

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is taken: the pieces each output buffer ends with, and the proof that the
    body runs from the inputs at their contents and the outputs at anything to the continuation holding the inputs
    unchanged and the outputs with those pieces written. -/
noncomputable def kernelRun1_A (c : Dev nD) (i : grid1.Coords) (arg1 : Memref sig .tc .vmem S1000x64 .f32) (harg1 : arg1.IsWhole) (arg2 : Memref sig .tc .vmem S1000x32x64 .f32) (harg2 : arg2.IsWhole) (arg3 : Memref sig .tc .vmem S1000x32 .f32) (harg3 : arg3.IsWhole) (arg4 : Memref sig .tc .vmem S64x128 .bf16) (harg4 : arg4.IsWhole) (arg5 : Memref sig .tc .vmem S64x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S1000x64 .f32) (harg9 : arg9.IsWhole) (arg10 : Memref sig .tc .vmem S1x64 .f32) (harg10 : arg10.IsWhole) (hc0 : cond1_0 i)
    (x0 : Vec F S1000x64 .f32) (x1 : Vec F S1000x32x64 .f32) (x2 : Vec F S1000x32 .f32) (x3 : Vec F S64x128 .bf16) (x4 : Vec F S64x128 .bf16) (x5 : Vec F S1x128 .f32) (x6 : Vec F S128x64 .bf16) (x7 : Vec F S1x64 .f32) :
    Σ' (L8 : List (View.Piece (Elt F) S1000x64 .f32)), { L9 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__atom_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__atom_kernel_eq_skeleton]; unfold cc1__atom_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.Kernel.Gen

end
-- ==== Proof.KAtomRunLater.lean ====
/-
  The atom kernel's body at a LATER grid point (not the first), run whole on its staging buffers. The eight input
  buffers hold their blocks and come back as they were. The per-atom output block is stored once, whole. The
  running column sum is not reset: the body reads what the point before left in it and stores that plus this
  block's column sums. What each output buffer ends with is recorded as the list of pieces the stores wrote.
-/
import proofs.«112152_j7275674599671_1_alg».proof.Proof.KAtomRunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is not taken: as at the first point, but the running sum's buffer is read
    at its contents `xo9` before it is stored into. -/
noncomputable def kernelRun1_B (c : Dev nD) (i : grid1.Coords) (arg1 : Memref sig .tc .vmem S1000x64 .f32) (harg1 : arg1.IsWhole) (arg2 : Memref sig .tc .vmem S1000x32x64 .f32) (harg2 : arg2.IsWhole) (arg3 : Memref sig .tc .vmem S1000x32 .f32) (harg3 : arg3.IsWhole) (arg4 : Memref sig .tc .vmem S64x128 .bf16) (harg4 : arg4.IsWhole) (arg5 : Memref sig .tc .vmem S64x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S1000x64 .f32) (harg9 : arg9.IsWhole) (arg10 : Memref sig .tc .vmem S1x64 .f32) (harg10 : arg10.IsWhole) (hc0 : ¬cond1_0 i)
    (x0 : Vec F S1000x64 .f32) (x1 : Vec F S1000x32x64 .f32) (x2 : Vec F S1000x32 .f32) (x3 : Vec F S64x128 .bf16) (x4 : Vec F S64x128 .bf16) (x5 : Vec F S1x128 .f32) (x6 : Vec F S128x64 .bf16) (x7 : Vec F S1x64 .f32) (xo9 : Vec F S1x64 .f32) :
    Σ' (L8 : List (View.Piece (Elt F) S1000x64 .f32)), { L9 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__atom_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__atom_kernel_eq_skeleton]; unfold cc1__atom_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.Kernel.Gen

end
-- ==== Proof.KAtomData.lean ====
/-
  Region 1 (the atom update) point by point. At each grid point the body leaves two things in its output buffers:
  the block of updated atom rows for this point, a function of this point's input blocks alone, and the running
  column sum, which at the first point is zero plus this block's column sums and at every later point is what the
  point before left plus this block's column sums. The running sum's buffer is written back only after the last
  point, so between two consecutive points it still holds what the earlier one left. From this: the proof data of
  the region's pipeline at the region-entry contents `V`, and the obligation that the body, called at any point
  with the buffers the pipeline hands it, returns them as the proof data says.
-/
import proofs.«112152_j7275674599671_1_alg».proof.Proof.KAtomRunLater

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The first-point run at grid point `t`, on that point's staging memrefs and input blocks. -/
abbrev run1A (c : Dev nD) (t : Fin cfg1.N) (h : t.val % 100 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h) (iblk1 V c 0 t) (iblk1 V c 1 t) (iblk1 V c 2 t) (iblk1 V c 3 t) (iblk1 V c 4 t) (iblk1 V c 5 t) (iblk1 V c 6 t) (iblk1 V c 7 t)

/-- The later-point run at grid point `t`, the running sum's buffer at `xo`. -/
abbrev run1B (c : Dev nD) (t : Fin cfg1.N) (h : ¬t.val % 100 = 0) (xo : Vec F S1x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun hc => h ((hcond1_0 t).mp hc)) (iblk1 V c 0 t) (iblk1 V c 1 t) (iblk1 V c 2 t) (iblk1 V c 3 t) (iblk1 V c 4 t) (iblk1 V c 5 t) (iblk1 V c 6 t) (iblk1 V c 7 t) xo

/-- The pieces a first-point run stores into the atom block tile it. -/
theorem cover1_A_8 (c : Dev nD) (t : Fin cfg1.N) (h : t.val % 100 = 0) (y : S1000x64.Idx) :
    ∃ pc ∈ (run1A V c t h).1, y ∈ pc.1.set :=
  View.cover_of_tiledL (run1A V c t h).1 S1000x64.size (by sl_kernel_rfl) y
/-- The pieces a first-point run stores into the running sum tile it. -/
theorem cover1_A_9 (c : Dev nD) (t : Fin cfg1.N) (h : t.val % 100 = 0) (y : S1x64.Idx) :
    ∃ pc ∈ (run1A V c t h).2.1, y ∈ pc.1.set :=
  View.cover_of_tiledL (run1A V c t h).2.1 S1x64.size (by sl_kernel_rfl) y
/-- The pieces a later-point run stores into the atom block tile it. -/
theorem cover1_B_8 (c : Dev nD) (t : Fin cfg1.N) (h : ¬t.val % 100 = 0) (xo : Vec F S1x64 .f32) (y : S1000x64.Idx) :
    ∃ pc ∈ (run1B V c t h xo).1, y ∈ pc.1.set :=
  View.cover_of_tiledL (run1B V c t h xo).1 S1000x64.size (by sl_kernel_rfl) y
/-- The pieces a later-point run stores into the running sum tile it. -/
theorem cover1_B_9 (c : Dev nD) (t : Fin cfg1.N) (h : ¬t.val % 100 = 0) (xo : Vec F S1x64 .f32) (y : S1x64.Idx) :
    ∃ pc ∈ (run1B V c t h xo).2.1, y ∈ pc.1.set :=
  View.cover_of_tiledL (run1B V c t h xo).2.1 S1x64.size (by sl_kernel_rfl) y

/-- What a first-point run leaves in the atom block's buffer: its pieces read back. -/
def out1_A_8 (c : Dev nD) (t : Fin cfg1.N) (h : t.val % 100 = 0) : Vec F S1000x64 .f32 :=
  VO1_8.read (Elt F) (VO1_8.writes (Elt F) VO1_8.junk (run1A V c t h).1)
/-- What a first-point run leaves in the running sum's buffer. -/
def out1_A_9 (c : Dev nD) (t : Fin cfg1.N) (h : t.val % 100 = 0) : Vec F S1x64 .f32 :=
  VO1_9.read (Elt F) (VO1_9.writes (Elt F) VO1_9.junk (run1A V c t h).2.1)
/-- What a later-point run leaves in the atom block's buffer. -/
def out1_B_8 (c : Dev nD) (t : Fin cfg1.N) (h : ¬t.val % 100 = 0) (xo : Vec F S1x64 .f32) : Vec F S1000x64 .f32 :=
  VO1_8.read (Elt F) (VO1_8.writes (Elt F) VO1_8.junk (run1B V c t h xo).1)
/-- What a later-point run leaves in the running sum's buffer, over its earlier contents `xo`. -/
def out1_B_9 (c : Dev nD) (t : Fin cfg1.N) (h : ¬t.val % 100 = 0) (xo : Vec F S1x64 .f32) : Vec F S1x64 .f32 :=
  VO1_9.read (Elt F) (VO1_9.writes (Elt F) VO1_9.junk (run1B V c t h xo).2.1)

/-- What the two output buffers hold after the body at position `n`: the atom block, and the running sum — the
    latter over what position `n - 1` left when `n` is not the first. -/
def outsAt1 (c : Dev nD) : (n : ℕ) → n < cfg1.N → Vec F S1000x64 .f32 × Vec F S1x64 .f32
  | 0, hn => (out1_A_8 V c ⟨0, hn⟩ (Nat.zero_mod _), out1_A_9 V c ⟨0, hn⟩ (Nat.zero_mod _))
  | n + 1, hn =>
    if h0 : (n + 1) % 100 = 0 then
      (out1_A_8 V c ⟨n + 1, hn⟩ h0, out1_A_9 V c ⟨n + 1, hn⟩ h0)
    else
      (out1_B_8 V c ⟨n + 1, hn⟩ h0 (outsAt1 c n (Nat.lt_of_succ_lt hn)).2, out1_B_9 V c ⟨n + 1, hn⟩ h0 (outsAt1 c n (Nat.lt_of_succ_lt hn)).2)

/-- At a first point. -/
theorem outsAt1_A (c : Dev nD) (t : Fin cfg1.N) (h0 : t.val % 100 = 0) :
    outsAt1 V c t.val t.isLt = (out1_A_8 V c t h0, out1_A_9 V c t h0) := by
  obtain ⟨n, hn⟩ := t
  cases n with
  | zero => exact rfl
  | succ n => exact (dif_pos h0).trans rfl

/-- At a later point: over what the point before left. -/
theorem outsAt1_B (c : Dev nD) (t : Fin cfg1.N) (h0 : ¬t.val % 100 = 0) :
    outsAt1 V c t.val t.isLt = (out1_B_8 V c t h0 (outsAt1 V c (t.val - 1) (Nat.lt_of_le_of_lt (Nat.sub_le _ _) t.isLt)).2,
      out1_B_9 V c t h0 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of region 1's pipeline on core `c`: the arrays as the region finds them; after the body at point
    `t` each input's buffer at its block, the outputs' at `outsAt1`; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- At a later point the running sum's buffer holds what the body left at the point before: it is not the first
    point, and the buffer was not written back in between (that happens after the last point only). -/
theorem before1_9_B (c : Dev nD) (t : Fin cfg1.N) (h0 : ¬t.val % 100 = 0) (d) :
    (dat1 V c).before 9 t d = (outsAt1 V c (t.val - 1) (Nat.lt_of_le_of_lt (Nat.sub_le _ _) t.isLt)).2 := by
  have hN : t.val < 100 := lt_of_lt_of_eq t.isLt (show cfg1.N = 100 from N_1)
  rw [Dat.before_out_kept _ 9 rfl t (by omega) (Bool.eq_false_iff.mpr fun h => by have := (flush1_9 _).mp h; dsimp only at this; omega)
    (fun _ => rfl) (fun _ _ => rfl)]
  dsimp only [dat1]

/-- What the body is called with at point `t`: the invariant, the core's dues, and each window's staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- And what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
/-- The body at any point. The inputs' buffers hold their blocks; the point is the first or a later one; at a later
    one the running sum's buffer holds what the point before left; so that case's run applies. The invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 100 := lt_of_lt_of_eq t.isLt (show cfg1.N = 100 from N_1)
  by_cases h0 : t.val % 100 = 0
  · rw [outsAt1_A V c t h0]
    dsimp only
    unfold out1_A_8 out1_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run1A V c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_A_8 V c t h0)
    unfold owns; iexists _; isplitr
    swap; · iexact H9
    ipureintro; exact View.read_writes_of_cover _ _ _ _ _ (cover1_A_9 V c t h0)
  · rw [outsAt1_B V c t h0]
    dsimp only
    simp only [before1_9_B V c t h0]
    unfold out1_B_8 out1_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run1B V c t h0 _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_B_8 V c t h0 _)
    unfold owns; iexists _; isplitr
    swap; · iexact H9
    ipureintro; exact View.read_writes_of_cover _ _ _ _ _ (cover1_B_9 V c t h0 _)

/-- The pipeline library's body obligation for region 1, at every point. -/
theorem body_obligation1 (c : Dev nD) : BodyObligation (dat1 (F := F) V c) (defs₀ (F := F)) Variants.none () Set.univ := fun t => by
  rw [bigSep_W1, bigSep_W1]
  exact sound_body1 V c t

end

end Cert.Kernel.Gen

end
-- ==== Proof.KMainRun.lean ====
/-
  The whole run of the program. @main is nine items in a row: a stretch of host operations, the bond region, three
  host stretches, the atom region, three host stretches. What the core's unscoped buffers hold at each of the ten
  boundaries is a fold from the launch memory: a host stretch applies its operations; a region leaves each of its
  arrays at what its pipeline's write-backs make of it (an input array as entered, an output array as the blocks the
  body left) and every other buffer as entered. Each region is entered with exactly the buffers the boundary
  before it names and left with the next boundary's, so the items chain, and the launch runs them all: every weakly
  fair execution terminates, and the final memory holds every unscoped buffer at the last boundary's contents.
  Read at an argument, the fold walks back to the launch memory: no host operation writes an argument and a region
  only reads the two it stages.
-/
import proofs.«112152_j7275674599671_1_alg».proof.Proof.KBondData
import proofs.«112152_j7275674599671_1_alg».proof.Proof.KAtomData
import proofs.«112152_j7275674599671_1_alg».proof.Proof.Gen.Kernel.Regions
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev St0 : Dev nD → Valuation τ sig (Elt F) := fun c b => m (c, b)
/-- After the first host stretch: the bond region's entry. -/
abbrev St1 : Dev nD → Valuation τ sig (Elt F) := fun c => StableHlo.after hostOps0 (St0 m c)
/-- The same, read at the core's references: what the bond region's proof data take. -/
abbrev En0 : (c : Dev nD) → (b : Ref sig .tc) → Buf (Elt F) ((c : Thread nD τ).loc b) := fun c b => St1 m c b
/-- At the bond region's exit: its arrays at what the pipeline leaves, every other buffer as entered. -/
def St2 (c : Dev nD) : Valuation τ sig (Elt F) :=
  Pipeline.withArrays spec0 c (St1 m c) fun w => (dat0 (En0 m) c).arrAt w cfg0.N
theorem St2_arr (c : Dev nD) (w : Fin cfg0.W) :
    St2 m c (Proc.devRef .tc (Pipeline.arrRef spec0 w)) = (dat0 (En0 m) c).arrAt w cfg0.N := by
  unfold St2; exact Pipeline.withArrays_arr spec0 launch0.win.arr_inj c _ _ w
theorem St2_of_ne (c : Dev nD) (b : Ref sig .tc) (hb : ∀ w, Pipeline.arrRef spec0 w ≠ b) :
    St2 m c (Proc.devRef .tc b) = St1 m c (Proc.devRef .tc b) := by
  unfold St2; exact Pipeline.withArrays_of_ne spec0 c _ _ b hb
abbrev Ex0 : (c : Dev nD) → (b : Ref sig .tc) → Buf (Elt F) ((c : Thread nD τ).loc b) := fun c b => St2 m c b
theorem hF0 (c : Dev nD) (w : Fin cfg0.W) : (dat0 (En0 m) c).arrAt w cfg0.N = Ex0 m c (Pipeline.arrRef spec0 w) :=
  (St2_arr m c w).symm
theorem hrest0 (c : Dev nD) : ∀ b, b ∉ Finset.univ.image (Pipeline.arrRef spec0) → Ex0 m c b = En0 m c b :=
  fun b hb => St2_of_ne m c b fun w e => hb (Finset.mem_image.mpr ⟨w, Finset.mem_univ _, e⟩)

/-- After the three host stretches between the regions: the atom region's entry. -/
abbrev St3 : Dev nD → Valuation τ sig (Elt F) := fun c => StableHlo.after hostOps1 (St2 m c)
abbrev St4 : Dev nD → Valuation τ sig (Elt F) := fun c => StableHlo.after hostOps1_1 (St3 m c)
abbrev St5 : Dev nD → Valuation τ sig (Elt F) := fun c => StableHlo.after hostOps1_2 (St4 m c)
abbrev En1 : (c : Dev nD) → (b : Ref sig .tc) → Buf (Elt F) ((c : Thread nD τ).loc b) := fun c b => St5 m c b
/-- At the atom region's exit. -/
def St6 (c : Dev nD) : Valuation τ sig (Elt F) :=
  Pipeline.withArrays spec1 c (St5 m c) fun w => (dat1 (En1 m) c).arrAt w cfg1.N
theorem St6_arr (c : Dev nD) (w : Fin cfg1.W) :
    St6 m c (Proc.devRef .tc (Pipeline.arrRef spec1 w)) = (dat1 (En1 m) c).arrAt w cfg1.N := by
  unfold St6; exact Pipeline.withArrays_arr spec1 launch1.win.arr_inj c _ _ w
theorem St6_of_ne (c : Dev nD) (b : Ref sig .tc) (hb : ∀ w, Pipeline.arrRef spec1 w ≠ b) :
    St6 m c (Proc.devRef .tc b) = St5 m c (Proc.devRef .tc b) := by
  unfold St6; exact Pipeline.withArrays_of_ne spec1 c _ _ b hb
abbrev Ex1 : (c : Dev nD) → (b : Ref sig .tc) → Buf (Elt F) ((c : Thread nD τ).loc b) := fun c b => St6 m c b
theorem hF1 (c : Dev nD) (w : Fin cfg1.W) : (dat1 (En1 m) c).arrAt w cfg1.N = Ex1 m c (Pipeline.arrRef spec1 w) :=
  (St6_arr m c w).symm
theorem hrest1 (c : Dev nD) : ∀ b, b ∉ Finset.univ.image (Pipeline.arrRef spec1) → Ex1 m c b = En1 m c b :=
  fun b hb => St6_of_ne m c b fun w e => hb (Finset.mem_image.mpr ⟨w, Finset.mem_univ _, e⟩)

/-- After the three closing host stretches: the end. -/
abbrev St7 : Dev nD → Valuation τ sig (Elt F) := fun c => StableHlo.after hostOps2 (St6 m c)
abbrev St8 : Dev nD → Valuation τ sig (Elt F) := fun c => StableHlo.after hostOps2_1 (St7 m c)
abbrev St9 : Dev nD → Valuation τ sig (Elt F) := fun c => StableHlo.after hostOps2_2 (St8 m c)

/-! ## What each item leaves alone -/

/-- A buffer no host stretch writes and no region stages keeps its launch contents to the end. -/
theorem St9_keep (c : Dev nD) (b : Ref sig .tc)
    (h0 : b ∉ hostOps0_W) (hr0 : ∀ w, Pipeline.arrRef spec0 w ≠ b) (h2 : b ∉ hostOps1_W) (h3 : b ∉ hostOps1_1_W) (h4 : b ∉ hostOps1_2_W)
    (hr1 : ∀ w, Pipeline.arrRef spec1 w ≠ b) (h6 : b ∉ hostOps2_W) (h7 : b ∉ hostOps2_1_W) (h8 : b ∉ hostOps2_2_W) :
    St9 m c b = m ((c : Thread nD τ).loc b) :=
  (StableHlo.after_of_writes_sub hostOps2_2 _ hostOps2_2_writes h8).trans <|
  (StableHlo.after_of_writes_sub hostOps2_1 _ hostOps2_1_writes h7).trans <|
  (StableHlo.after_of_writes_sub hostOps2 _ hostOps2_writes h6).trans <|
  (St6_of_ne m c b hr1).trans <|
  (StableHlo.after_of_writes_sub hostOps1_2 _ hostOps1_2_writes h4).trans <|
  (StableHlo.after_of_writes_sub hostOps1_1 _ hostOps1_1_writes h3).trans <|
  (StableHlo.after_of_writes_sub hostOps1 _ hostOps1_writes h2).trans <|
  (St2_of_ne m c b hr0).trans <|
  (StableHlo.after_of_writes_sub hostOps0 _ hostOps0_writes h0).trans rfl

/-- The bond features are staged by the bond region as an input: it hands them back as entered. -/
theorem St9_main_arg1 (c : Dev nD) : St9 m c main_arg1 = m ((c : Thread nD τ).loc main_arg1) :=
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (St6_of_ne m c main_arg1 (by decide)).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  ((St2_arr m c 2).trans (((dat0 (En0 m) c).arrAt_in 2 rfl _).trans (A_eq0 (En0 m) c 2))).trans <|
  (StableHlo.after_of_writes_sub hostOps0 _ hostOps0_writes (by decide)).trans rfl

/-- The atom features are staged by the atom region as an input: it hands them back as entered. -/
theorem St9_main_arg0 (c : Dev nD) : St9 m c main_arg0 = m ((c : Thread nD τ).loc main_arg0) :=
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  ((St6_arr m c 0).trans (((dat1 (En1 m) c).arrAt_in 0 rfl _).trans (A_eq1 (En1 m) c 0))).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  (St2_of_ne m c main_arg0 (by decide)).trans <|
  (StableHlo.after_of_writes_sub hostOps0 _ hostOps0_writes (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)
/-- A host stretch as an item over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (St9 m c) ∗ ∃ r, prngReg c r)

/-! ## The regions as items -/

set_option backward.isDefEq.respectTransparency.types false in
/-- The bond region: entered from every unscoped buffer at `St1`, left at `St2`. Its arrays are split out of the
    unscoped buffers and put back at the exit contents; the generator register goes into the region's invariant and
    comes back; nothing is owed; the kernel has no semaphore of its own. -/
def reg0 : Pipeline.RegionSeg (pcfgs (F := F)) adm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ Lr lvr 0 fun _ _ => rfl
  pre c := iprop(StableHlo.held (c : Thread nD τ) (Pipeline.ucRefs τ sig) (St1 m c) ∗ Rr c)
  post c := iprop(StableHlo.held (c : Thread nD τ) (Pipeline.ucRefs τ sig) (St2 m c) ∗ Rr c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The atom region: entered from every unscoped buffer at `St5`, left at `St6`. -/
def reg1 : Pipeline.RegionSeg (pcfgs (F := F)) adm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ Lr lvr 1 fun _ _ => rfl
  pre c := iprop(StableHlo.held (c : Thread nD τ) (Pipeline.ucRefs τ sig) (St5 m c) ∗ Rr c)
  post c := iprop(StableHlo.held (c : Thread nD τ) (Pipeline.ucRefs τ sig) (St6 m c) ∗ Rr c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's nine items in order. -/
abbrev rsegs : List (Pipeline.Seg (pcfgs (F := F)) adm (pdats m) () defs₀ 𝒱r Lr lvr) :=
  [ .host (hseg hostOps0 hostOps0_sub hostOps0_fresh (St0 m)),
    .region (reg0 m),
    .host (hseg hostOps1 hostOps1_sub hostOps1_fresh (St2 m)),
    .host (hseg hostOps1_1 hostOps1_1_sub hostOps1_1_fresh (St3 m)),
    .host (hseg hostOps1_2 hostOps1_2_sub hostOps1_2_fresh (St4 m)),
    .region (reg1 m),
    .host (hseg hostOps2 hostOps2_sub hostOps2_fresh (St6 m)),
    .host (hseg hostOps2_1 hostOps2_1_sub hostOps2_1_fresh (St7 m)),
    .host (hseg hostOps2_2 hostOps2_2_sub hostOps2_2_fresh (St8 m)) ]

/-- @main is the run of its items. -/
theorem main_run (c : Dev nD) : main (F := F) c = Pipeline.Seg.run (rsegs m) := by
  rw [main_chain c, Pipeline.Seg.run_eq_chain,
    show (rsegs m).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()),
      StableHlo.seq hostOps2,
      StableHlo.seq hostOps2_1,
      StableHlo.seq hostOps2_2 ] from rfl]

set_option backward.isDefEq.respectTransparency.types false in
/-- THE RUN. From any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = St9 m c b) :=
  Pipeline.θ_run_regions_kit (pcfgs (F := F)) adm (pdats m) () cellOf_inj emb₁ defs₀ 𝒱r Lr lvr m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (St0 m c) ∗ Rr c)) (Tₙ := Tend m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (St9 m c) ∗ Rr c)
          ⊢ iprop(Tend m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach Lr lvr fun c => ?_
      rw [show unscopedBufs c (fun b => m ((c : Thread nD τ).loc b)) = StableHlo.held (c : Thread nD τ) (Pipeline.ucRefs τ sig) (St0 m c)
        from Pipeline.unscopedBufs_held c (St0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = St9 m c b)
    (hfin := fun c s' => by
      iintro ⟨⟨Hh, -⟩, HSI⟩
      unfold StableHlo.held
      imodintro
      iapply (pointsTo_read_all (Pipeline.ucRefs τ sig) (fun b => (((c : Thread nD τ)).1, b)) (St9 m c) s')
      isplitl [Hh] <;> iassumption)
    (hQ := fun s h c => h c)

/-- A memory that holds every unscoped buffer at the last boundary's contents holds each argument as launched. -/
theorem args_kept (mem : (ℓ : Loc nD τ sig) → Buf (Elt F) ℓ)
    (h : ∀ c : Dev nD, ∀ b ∈ Pipeline.ucRefs τ sig, mem (((c : Thread nD τ)).1, b) = St9 m c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16) :=
  ⟨(h c _ (mem_uc main_arg0 (by decide))).trans (St9_main_arg0 m c),
   (h c _ (mem_uc main_arg1 (by decide))).trans (St9_main_arg1 m c),
   (h c _ (mem_uc main_arg2 (by decide))).trans (St9_keep m c main_arg2 (by decide) (by decide) (by decide) (by decide) (by decide) (by decide) (by decide) (by decide) (by decide)),
   (h c _ (mem_uc main_arg3 (by decide))).trans (St9_keep m c main_arg3 (by decide) (by decide) (by decide) (by decide) (by decide) (by decide) (by decide) (by decide) (by decide)),
   (h c _ (mem_uc main_arg4 (by decide))).trans (St9_keep m c main_arg4 (by decide) (by decide) (by decide) (by decide) (by decide) (by decide) (by decide) (by decide) (by decide)),
   (h c _ (mem_uc main_arg5 (by decide))).trans (St9_keep m c main_arg5 (by decide) (by decide) (by decide) (by decide) (by decide) (by decide) (by decide) (by decide) (by decide)),
   (h c _ (mem_uc main_arg6 (by decide))).trans (St9_keep m c main_arg6 (by decide) (by decide) (by decide) (by decide) (by decide) (by decide) (by decide) (by decide) (by decide)),
   (h c _ (mem_uc main_arg7 (by decide))).trans (St9_keep m c main_arg7 (by decide) (by decide) (by decide) (by decide) (by decide) (by decide) (by decide) (by decide) (by decide)),
   (h c _ (mem_uc main_arg8 (by decide))).trans (St9_keep m c main_arg8 (by decide) (by decide) (by decide) (by decide) (by decide) (by decide) (by decide) (by decide) (by decide)),
   (h c _ (mem_uc main_arg9 (by decide))).trans (St9_keep m c main_arg9 (by decide) (by decide) (by decide) (by decide) (by decide) (by decide) (by decide) (by decide) (by decide)),
   (h c _ (mem_uc main_arg10 (by decide))).trans (St9_keep m c main_arg10 (by decide) (by decide) (by decide) (by decide) (by decide) (by decide) (by decide) (by decide) (by decide)),
   (h c _ (mem_uc main_arg11 (by decide))).trans (St9_keep m c main_arg11 (by decide) (by decide) (by decide) (by decide) (by decide) (by decide) (by decide) (by decide) (by decide)),
   (h c _ (mem_uc main_arg12 (by decide))).trans (St9_keep m c main_arg12 (by decide) (by decide) (by decide) (by decide) (by decide) (by decide) (by decide) (by decide) (by decide)),
   (h c _ (mem_uc main_arg13 (by decide))).trans (St9_keep m c main_arg13 (by decide) (by decide) (by decide) (by decide) (by decide) (by decide) (by decide) (by decide) (by decide)),
   (h c _ (mem_uc main_arg14 (by decide))).trans (St9_keep m c main_arg14 (by decide) (by decide) (by decide) (by decide) (by decide) (by decide) (by decide) (by decide) (by decide)),
   (h c _ (mem_uc main_arg15 (by decide))).trans (St9_keep m c main_arg15 (by decide) (by decide) (by decide) (by decide) (by decide) (by decide) (by decide) (by decide) (by decide)),
   (h c _ (mem_uc main_arg16 (by decide))).trans (St9_keep m c main_arg16 (by decide) (by decide) (by decide) (by decide) (by decide) (by decide) (by decide) (by decide) (by decide))⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => args_kept m r.2.mem h c) (run_all m ρ)

end Cert.Kernel.Gen

end
-- ==== Proof.KiBondPoint.lean ====
/-
  Region 0 of the program (the bond update), at a parameter `V`: what the core's buffers hold when the region is
  entered. A window's block at a grid point is the part of its array the point's index map selects; an input
  window's staging buffer holds exactly that block whenever the body runs, whether the pipeline fetched it at this
  point or kept it from an earlier one (the index has not moved since). The body branches on one condition, "this
  is the first grid point", which is decided over the grid in closed form.
-/
import proofs.«112152_j7275674599671_1_alg».proof.Proof.Gen.KernelIdeal.Launch
import proofs.«112152_j7275674599671_1_alg».proof.Proof.Gen.KernelIdeal.Skeleton
import proofs.«112152_j7275674599671_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is the
    region-entry one and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data whose array is the
    region-entry one and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data whose array is the
    region-entry one and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data whose array is the
    region-entry one and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data whose array is the
    region-entry one and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, for any proof data whose array is the
    region-entry one and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, for any proof data whose array is the
    region-entry one and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, for any proof data whose array is the
    region-entry one and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, for any proof data whose array is the
    region-entry one and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end

/-- The body's one branch condition, from the grid coordinates: "the first point". -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 100 = 0 :=
  (by decide +kernel : ∀ t : Fin grid0.N, cond0_0 (grid0.coords t) ↔ t.val % 100 = 0)

/-- One staging buffer of output window 9, through which its contents are stated. -/
abbrev VO0_9 : View sig .tc .vmem S8000x64 .f32 := (Memref.whole cc0_stg9_0 : Memref sig .tc .vmem S8000x64 .f32).view
/-- One staging buffer of output window 10, through which its contents are stated. -/
abbrev VO0_10 : View sig .tc .vmem S1x64 .f32 := (Memref.whole cc0_stg10_0 : Memref sig .tc .vmem S1x64 .f32).view
/-- Each window's current staging memref at point `t`, as the pipeline passes it to the body, and its wholeness. -/
abbrev ms0_0 (t : Fin cfg0.N) : Memref sig .tc .vmem S8000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8000x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8000x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)

end Cert.KernelIdeal.Gen

end
-- ==== Proof.KiBondRunFirst.lean ====
/-
  The bond kernel's body at the FIRST grid point, run whole on its staging buffers. The nine input buffers hold
  their blocks and come back as they were. The per-bond output block is stored once, whole. The running column sum
  is first reset to zero and then has this block's column sums added to it, so its old contents do not matter.
  What each output buffer ends with is recorded as the list of pieces the body's stores wrote, last first.
-/
import proofs.«112152_j7275674599671_1_alg».proof.Proof.KiBondPoint

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is taken: the pieces each output buffer ends with, and the proof that the
    body runs from the inputs at their contents and the outputs at anything to the continuation holding the inputs
    unchanged and the outputs with those pieces written. -/
noncomputable def kernelRun0_A (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S64x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S8000x64 .f32) (harg10 : arg10.IsWhole) (arg11 : Memref sig .tc .vmem S1x64 .f32) (harg11 : arg11.IsWhole) (hc0 : cond0_0 i)
    (x0 : Vec F S8000x64 .f32) (x1 : Vec F S8000x64 .f32) (x2 : Vec F S8000x64 .f32) (x3 : Vec F S64x128 .bf16) (x4 : Vec F S64x128 .bf16) (x5 : Vec F S64x128 .bf16) (x6 : Vec F S1x128 .f32) (x7 : Vec F S128x64 .bf16) (x8 : Vec F S1x64 .f32) :
    Σ' (L9 : List (View.Piece (Elt F) S8000x64 .f32)), { L10 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0__bond_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__bond_kernel_eq_skeleton]; unfold cc0__bond_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; iexact H10

end Cert.KernelIdeal.Gen

end
-- ==== Proof.KiBondRunLater.lean ====
/-
  The bond kernel's body at a LATER grid point (not the first), run whole on its staging buffers. The nine input
  buffers hold their blocks and come back as they were. The per-bond output block is stored once, whole. The
  running column sum is not reset: the body reads what the point before left in it and stores that plus this
  block's column sums. What each output buffer ends with is recorded as the list of pieces the stores wrote.
-/
import proofs.«112152_j7275674599671_1_alg».proof.Proof.KiBondRunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is not taken: as at the first point, but the running sum's buffer is read
    at its contents `xo10` before it is stored into. -/
noncomputable def kernelRun0_B (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S64x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S8000x64 .f32) (harg10 : arg10.IsWhole) (arg11 : Memref sig .tc .vmem S1x64 .f32) (harg11 : arg11.IsWhole) (hc0 : ¬cond0_0 i)
    (x0 : Vec F S8000x64 .f32) (x1 : Vec F S8000x64 .f32) (x2 : Vec F S8000x64 .f32) (x3 : Vec F S64x128 .bf16) (x4 : Vec F S64x128 .bf16) (x5 : Vec F S64x128 .bf16) (x6 : Vec F S1x128 .f32) (x7 : Vec F S128x64 .bf16) (x8 : Vec F S1x64 .f32) (xo10 : Vec F S1x64 .f32) :
    Σ' (L9 : List (View.Piece (Elt F) S8000x64 .f32)), { L10 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0__bond_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__bond_kernel_eq_skeleton]; unfold cc0__bond_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg11.eq_unread hf10
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; iexact H10

end Cert.KernelIdeal.Gen

end
-- ==== Proof.KiBondData.lean ====
/-
  Region 0 (the bond update) point by point. At each grid point the body leaves two things in its output buffers:
  the block of updated bond rows for this point, a function of this point's input blocks alone, and the running
  column sum, which at the first point is zero plus this block's column sums and at every later point is what the
  point before left plus this block's column sums. The running sum's buffer is written back only after the last
  point, so between two consecutive points it still holds what the earlier one left. From this: the proof data of
  the region's pipeline at the region-entry contents `V`, and the obligation that the body, called at any point
  with the buffers the pipeline hands it, returns them as the proof data says.
-/
import proofs.«112152_j7275674599671_1_alg».proof.Proof.KiBondRunLater

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The first-point run at grid point `t`, on that point's staging memrefs and input blocks. -/
abbrev run0A (c : Dev nD) (t : Fin cfg0.N) (h : t.val % 100 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t)

/-- The later-point run at grid point `t`, the running sum's buffer at `xo`. -/
abbrev run0B (c : Dev nD) (t : Fin cfg0.N) (h : ¬t.val % 100 = 0) (xo : Vec F S1x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun hc => h ((hcond0_0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) xo

/-- The pieces a first-point run stores into the bond block tile it. -/
theorem cover0_A_9 (c : Dev nD) (t : Fin cfg0.N) (h : t.val % 100 = 0) (y : S8000x64.Idx) :
    ∃ pc ∈ (run0A V c t h).1, y ∈ pc.1.set :=
  View.cover_of_tiledL (run0A V c t h).1 S8000x64.size (by sl_kernel_rfl) y
/-- The pieces a first-point run stores into the running sum tile it. -/
theorem cover0_A_10 (c : Dev nD) (t : Fin cfg0.N) (h : t.val % 100 = 0) (y : S1x64.Idx) :
    ∃ pc ∈ (run0A V c t h).2.1, y ∈ pc.1.set :=
  View.cover_of_tiledL (run0A V c t h).2.1 S1x64.size (by sl_kernel_rfl) y
/-- The pieces a later-point run stores into the bond block tile it. -/
theorem cover0_B_9 (c : Dev nD) (t : Fin cfg0.N) (h : ¬t.val % 100 = 0) (xo : Vec F S1x64 .f32) (y : S8000x64.Idx) :
    ∃ pc ∈ (run0B V c t h xo).1, y ∈ pc.1.set :=
  View.cover_of_tiledL (run0B V c t h xo).1 S8000x64.size (by sl_kernel_rfl) y
/-- The pieces a later-point run stores into the running sum tile it. -/
theorem cover0_B_10 (c : Dev nD) (t : Fin cfg0.N) (h : ¬t.val % 100 = 0) (xo : Vec F S1x64 .f32) (y : S1x64.Idx) :
    ∃ pc ∈ (run0B V c t h xo).2.1, y ∈ pc.1.set :=
  View.cover_of_tiledL (run0B V c t h xo).2.1 S1x64.size (by sl_kernel_rfl) y

/-- What a first-point run leaves in the bond block's buffer: its pieces read back. -/
def out0_A_9 (c : Dev nD) (t : Fin cfg0.N) (h : t.val % 100 = 0) : Vec F S8000x64 .f32 :=
  VO0_9.read (Elt F) (VO0_9.writes (Elt F) VO0_9.junk (run0A V c t h).1)
/-- What a first-point run leaves in the running sum's buffer. -/
def out0_A_10 (c : Dev nD) (t : Fin cfg0.N) (h : t.val % 100 = 0) : Vec F S1x64 .f32 :=
  VO0_10.read (Elt F) (VO0_10.writes (Elt F) VO0_10.junk (run0A V c t h).2.1)
/-- What a later-point run leaves in the bond block's buffer. -/
def out0_B_9 (c : Dev nD) (t : Fin cfg0.N) (h : ¬t.val % 100 = 0) (xo : Vec F S1x64 .f32) : Vec F S8000x64 .f32 :=
  VO0_9.read (Elt F) (VO0_9.writes (Elt F) VO0_9.junk (run0B V c t h xo).1)
/-- What a later-point run leaves in the running sum's buffer, over its earlier contents `xo`. -/
def out0_B_10 (c : Dev nD) (t : Fin cfg0.N) (h : ¬t.val % 100 = 0) (xo : Vec F S1x64 .f32) : Vec F S1x64 .f32 :=
  VO0_10.read (Elt F) (VO0_10.writes (Elt F) VO0_10.junk (run0B V c t h xo).2.1)

/-- What the two output buffers hold after the body at position `n`: the bond block, and the running sum — the
    latter over what position `n - 1` left when `n` is not the first. -/
def outsAt0 (c : Dev nD) : (n : ℕ) → n < cfg0.N → Vec F S8000x64 .f32 × Vec F S1x64 .f32
  | 0, hn => (out0_A_9 V c ⟨0, hn⟩ (Nat.zero_mod _), out0_A_10 V c ⟨0, hn⟩ (Nat.zero_mod _))
  | n + 1, hn =>
    if h0 : (n + 1) % 100 = 0 then
      (out0_A_9 V c ⟨n + 1, hn⟩ h0, out0_A_10 V c ⟨n + 1, hn⟩ h0)
    else
      (out0_B_9 V c ⟨n + 1, hn⟩ h0 (outsAt0 c n (Nat.lt_of_succ_lt hn)).2, out0_B_10 V c ⟨n + 1, hn⟩ h0 (outsAt0 c n (Nat.lt_of_succ_lt hn)).2)

/-- At a first point. -/
theorem outsAt0_A (c : Dev nD) (t : Fin cfg0.N) (h0 : t.val % 100 = 0) :
    outsAt0 V c t.val t.isLt = (out0_A_9 V c t h0, out0_A_10 V c t h0) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 100 = 0) :
    outsAt0 V c t.val t.isLt = (out0_B_9 V c t h0 (outsAt0 V c (t.val - 1) (Nat.lt_of_le_of_lt (Nat.sub_le _ _) t.isLt)).2,
      out0_B_10 V c t h0 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of region 0's pipeline on core `c`: the arrays as the region finds them; after the body at point
    `t` each input's buffer at its block, the outputs' at `outsAt0`; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- At a later point the running sum's buffer holds what the body left at the point before: it is not the first
    point, and the buffer was not written back in between (that happens after the last point only). -/
theorem before0_10_B (c : Dev nD) (t : Fin cfg0.N) (h0 : ¬t.val % 100 = 0) (d) :
    (dat0 V c).before 10 t d = (outsAt0 V c (t.val - 1) (Nat.lt_of_le_of_lt (Nat.sub_le _ _) t.isLt)).2 := by
  have hN : t.val < 100 := lt_of_lt_of_eq t.isLt (show cfg0.N = 100 from N_0)
  rw [Dat.before_out_kept _ 10 rfl t (by omega) (Bool.eq_false_iff.mpr fun h => by have := (flush0_10 _).mp h; dsimp only at this; omega)
    (fun _ => rfl) (fun _ _ => rfl)]
  dsimp only [dat0]

/-- What the body is called with at point `t`: the invariant, the core's dues, and each window's staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- And what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 1600000 in
/-- The body at any point. The inputs' buffers hold their blocks; the point is the first or a later one; at a later
    one the running sum's buffer holds what the point before left; so that case's run applies. The invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  have hN : t.val < 100 := lt_of_lt_of_eq t.isLt (show cfg0.N = 100 from N_0)
  by_cases h0 : t.val % 100 = 0
  · rw [outsAt0_A V c t h0]
    dsimp only
    unfold out0_A_9 out0_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run0A V c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 V c t h0)
    unfold owns; iexists _; isplitr
    swap; · iexact H10
    ipureintro; exact View.read_writes_of_cover _ _ _ _ _ (cover0_A_10 V c t h0)
  · rw [outsAt0_B V c t h0]
    dsimp only
    simp only [before0_10_B V c t h0]
    unfold out0_B_9 out0_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run0B V c t h0 _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9 V c t h0 _)
    unfold owns; iexists _; isplitr
    swap; · iexact H10
    ipureintro; exact View.read_writes_of_cover _ _ _ _ _ (cover0_B_10 V c t h0 _)

/-- The pipeline library's body obligation for region 0, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Gen

end
-- ==== Proof.KiAtomPoint.lean ====
/-
  Region 1 of the program (the atom update), at a parameter `V`: what the core's buffers hold when the region is
  entered. A window's block at a grid point is the part of its array the point's index map selects; an input
  window's staging buffer holds exactly that block whenever the body runs, whether the pipeline fetched it at this
  point or kept it from an earlier one (the index has not moved since). The body branches on one condition, "this
  is the first grid point", which is decided over the grid in closed form.
-/
import proofs.«112152_j7275674599671_1_alg».proof.Proof.Gen.KernelIdeal.Launch
import proofs.«112152_j7275674599671_1_alg».proof.Proof.Gen.KernelIdeal.Skeleton
import proofs.«112152_j7275674599671_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the atom rows): its staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the gathered neighbour bond rows). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the neighbour mask). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the summed weight bands met by the atom row), fetched once. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the weight band met by the neighbour mean), fetched once. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the first bias row, the global row's contraction folded in), fetched once. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the second weight matrix), fetched once. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 (the second bias row), fetched once. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-- The body's one branch condition, from the grid coordinates: "the first point". -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 100 = 0 :=
  (by decide +kernel : ∀ t : Fin grid1.N, cond1_0 (grid1.coords t) ↔ t.val % 100 = 0)

/-- One staging buffer of each output window, through which its contents are stated. -/
abbrev VO1_8 : View sig .tc .vmem S1000x64 .f32 := (Memref.whole cc1_stg8_0 : Memref sig .tc .vmem S1000x64 .f32).view
abbrev VO1_9 : View sig .tc .vmem S1x64 .f32 := (Memref.whole cc1_stg9_0 : Memref sig .tc .vmem S1x64 .f32).view
/-- Each window's current staging memref at point `t`, as the pipeline passes it to the body, and its wholeness. -/
abbrev ms1_0 (t : Fin cfg1.N) : Memref sig .tc .vmem S1000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1000x32x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x64 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1000x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)

end Cert.KernelIdeal.Gen

end
-- ==== Proof.KiAtomRunFirst.lean ====
/-
  The atom kernel's body at the FIRST grid point, run whole on its staging buffers. The eight input buffers hold
  their blocks and come back as they were. The per-atom output block is stored once, whole. The running column sum
  is first reset to zero and then has this block's column sums added to it, so its old contents do not matter.
  What each output buffer ends with is recorded as the list of pieces the body's stores wrote, last first.
-/
import proofs.«112152_j7275674599671_1_alg».proof.Proof.KiAtomPoint

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is taken: the pieces each output buffer ends with, and the proof that the
    body runs from the inputs at their contents and the outputs at anything to the continuation holding the inputs
    unchanged and the outputs with those pieces written. -/
noncomputable def kernelRun1_A (c : Dev nD) (i : grid1.Coords) (arg1 : Memref sig .tc .vmem S1000x64 .f32) (harg1 : arg1.IsWhole) (arg2 : Memref sig .tc .vmem S1000x32x64 .f32) (harg2 : arg2.IsWhole) (arg3 : Memref sig .tc .vmem S1000x32 .f32) (harg3 : arg3.IsWhole) (arg4 : Memref sig .tc .vmem S64x128 .bf16) (harg4 : arg4.IsWhole) (arg5 : Memref sig .tc .vmem S64x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S1000x64 .f32) (harg9 : arg9.IsWhole) (arg10 : Memref sig .tc .vmem S1x64 .f32) (harg10 : arg10.IsWhole) (hc0 : cond1_0 i)
    (x0 : Vec F S1000x64 .f32) (x1 : Vec F S1000x32x64 .f32) (x2 : Vec F S1000x32 .f32) (x3 : Vec F S64x128 .bf16) (x4 : Vec F S64x128 .bf16) (x5 : Vec F S1x128 .f32) (x6 : Vec F S128x64 .bf16) (x7 : Vec F S1x64 .f32) :
    Σ' (L8 : List (View.Piece (Elt F) S1000x64 .f32)), { L9 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__atom_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__atom_kernel_eq_skeleton]; unfold cc1__atom_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.KernelIdeal.Gen

end
-- ==== Proof.KiAtomRunLater.lean ====
/-
  The atom kernel's body at a LATER grid point (not the first), run whole on its staging buffers. The eight input
  buffers hold their blocks and come back as they were. The per-atom output block is stored once, whole. The
  running column sum is not reset: the body reads what the point before left in it and stores that plus this
  block's column sums. What each output buffer ends with is recorded as the list of pieces the stores wrote.
-/
import proofs.«112152_j7275674599671_1_alg».proof.Proof.KiAtomRunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is not taken: as at the first point, but the running sum's buffer is read
    at its contents `xo9` before it is stored into. -/
noncomputable def kernelRun1_B (c : Dev nD) (i : grid1.Coords) (arg1 : Memref sig .tc .vmem S1000x64 .f32) (harg1 : arg1.IsWhole) (arg2 : Memref sig .tc .vmem S1000x32x64 .f32) (harg2 : arg2.IsWhole) (arg3 : Memref sig .tc .vmem S1000x32 .f32) (harg3 : arg3.IsWhole) (arg4 : Memref sig .tc .vmem S64x128 .bf16) (harg4 : arg4.IsWhole) (arg5 : Memref sig .tc .vmem S64x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S1000x64 .f32) (harg9 : arg9.IsWhole) (arg10 : Memref sig .tc .vmem S1x64 .f32) (harg10 : arg10.IsWhole) (hc0 : ¬cond1_0 i)
    (x0 : Vec F S1000x64 .f32) (x1 : Vec F S1000x32x64 .f32) (x2 : Vec F S1000x32 .f32) (x3 : Vec F S64x128 .bf16) (x4 : Vec F S64x128 .bf16) (x5 : Vec F S1x128 .f32) (x6 : Vec F S128x64 .bf16) (x7 : Vec F S1x64 .f32) (xo9 : Vec F S1x64 .f32) :
    Σ' (L8 : List (View.Piece (Elt F) S1000x64 .f32)), { L9 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__atom_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__atom_kernel_eq_skeleton]; unfold cc1__atom_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.KernelIdeal.Gen

end
-- ==== Proof.KiAtomData.lean ====
/-
  Region 1 (the atom update) point by point. At each grid point the body leaves two things in its output buffers:
  the block of updated atom rows for this point, a function of this point's input blocks alone, and the running
  column sum, which at the first point is zero plus this block's column sums and at every later point is what the
  point before left plus this block's column sums. The running sum's buffer is written back only after the last
  point, so between two consecutive points it still holds what the earlier one left. From this: the proof data of
  the region's pipeline at the region-entry contents `V`, and the obligation that the body, called at any point
  with the buffers the pipeline hands it, returns them as the proof data says.
-/
import proofs.«112152_j7275674599671_1_alg».proof.Proof.KiAtomRunLater

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The first-point run at grid point `t`, on that point's staging memrefs and input blocks. -/
abbrev run1A (c : Dev nD) (t : Fin cfg1.N) (h : t.val % 100 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h) (iblk1 V c 0 t) (iblk1 V c 1 t) (iblk1 V c 2 t) (iblk1 V c 3 t) (iblk1 V c 4 t) (iblk1 V c 5 t) (iblk1 V c 6 t) (iblk1 V c 7 t)

/-- The later-point run at grid point `t`, the running sum's buffer at `xo`. -/
abbrev run1B (c : Dev nD) (t : Fin cfg1.N) (h : ¬t.val % 100 = 0) (xo : Vec F S1x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun hc => h ((hcond1_0 t).mp hc)) (iblk1 V c 0 t) (iblk1 V c 1 t) (iblk1 V c 2 t) (iblk1 V c 3 t) (iblk1 V c 4 t) (iblk1 V c 5 t) (iblk1 V c 6 t) (iblk1 V c 7 t) xo

/-- The pieces a first-point run stores into the atom block tile it. -/
theorem cover1_A_8 (c : Dev nD) (t : Fin cfg1.N) (h : t.val % 100 = 0) (y : S1000x64.Idx) :
    ∃ pc ∈ (run1A V c t h).1, y ∈ pc.1.set :=
  View.cover_of_tiledL (run1A V c t h).1 S1000x64.size (by sl_kernel_rfl) y
/-- The pieces a first-point run stores into the running sum tile it. -/
theorem cover1_A_9 (c : Dev nD) (t : Fin cfg1.N) (h : t.val % 100 = 0) (y : S1x64.Idx) :
    ∃ pc ∈ (run1A V c t h).2.1, y ∈ pc.1.set :=
  View.cover_of_tiledL (run1A V c t h).2.1 S1x64.size (by sl_kernel_rfl) y
/-- The pieces a later-point run stores into the atom block tile it. -/
theorem cover1_B_8 (c : Dev nD) (t : Fin cfg1.N) (h : ¬t.val % 100 = 0) (xo : Vec F S1x64 .f32) (y : S1000x64.Idx) :
    ∃ pc ∈ (run1B V c t h xo).1, y ∈ pc.1.set :=
  View.cover_of_tiledL (run1B V c t h xo).1 S1000x64.size (by sl_kernel_rfl) y
/-- The pieces a later-point run stores into the running sum tile it. -/
theorem cover1_B_9 (c : Dev nD) (t : Fin cfg1.N) (h : ¬t.val % 100 = 0) (xo : Vec F S1x64 .f32) (y : S1x64.Idx) :
    ∃ pc ∈ (run1B V c t h xo).2.1, y ∈ pc.1.set :=
  View.cover_of_tiledL (run1B V c t h xo).2.1 S1x64.size (by sl_kernel_rfl) y

/-- What a first-point run leaves in the atom block's buffer: its pieces read back. -/
def out1_A_8 (c : Dev nD) (t : Fin cfg1.N) (h : t.val % 100 = 0) : Vec F S1000x64 .f32 :=
  VO1_8.read (Elt F) (VO1_8.writes (Elt F) VO1_8.junk (run1A V c t h).1)
/-- What a first-point run leaves in the running sum's buffer. -/
def out1_A_9 (c : Dev nD) (t : Fin cfg1.N) (h : t.val % 100 = 0) : Vec F S1x64 .f32 :=
  VO1_9.read (Elt F) (VO1_9.writes (Elt F) VO1_9.junk (run1A V c t h).2.1)
/-- What a later-point run leaves in the atom block's buffer. -/
def out1_B_8 (c : Dev nD) (t : Fin cfg1.N) (h : ¬t.val % 100 = 0) (xo : Vec F S1x64 .f32) : Vec F S1000x64 .f32 :=
  VO1_8.read (Elt F) (VO1_8.writes (Elt F) VO1_8.junk (run1B V c t h xo).1)
/-- What a later-point run leaves in the running sum's buffer, over its earlier contents `xo`. -/
def out1_B_9 (c : Dev nD) (t : Fin cfg1.N) (h : ¬t.val % 100 = 0) (xo : Vec F S1x64 .f32) : Vec F S1x64 .f32 :=
  VO1_9.read (Elt F) (VO1_9.writes (Elt F) VO1_9.junk (run1B V c t h xo).2.1)

/-- What the two output buffers hold after the body at position `n`: the atom block, and the running sum — the
    latter over what position `n - 1` left when `n` is not the first. -/
def outsAt1 (c : Dev nD) : (n : ℕ) → n < cfg1.N → Vec F S1000x64 .f32 × Vec F S1x64 .f32
  | 0, hn => (out1_A_8 V c ⟨0, hn⟩ (Nat.zero_mod _), out1_A_9 V c ⟨0, hn⟩ (Nat.zero_mod _))
  | n + 1, hn =>
    if h0 : (n + 1) % 100 = 0 then
      (out1_A_8 V c ⟨n + 1, hn⟩ h0, out1_A_9 V c ⟨n + 1, hn⟩ h0)
    else
      (out1_B_8 V c ⟨n + 1, hn⟩ h0 (outsAt1 c n (Nat.lt_of_succ_lt hn)).2, out1_B_9 V c ⟨n + 1, hn⟩ h0 (outsAt1 c n (Nat.lt_of_succ_lt hn)).2)

/-- At a first point. -/
theorem outsAt1_A (c : Dev nD) (t : Fin cfg1.N) (h0 : t.val % 100 = 0) :
    outsAt1 V c t.val t.isLt = (out1_A_8 V c t h0, out1_A_9 V c t h0) := by
  obtain ⟨n, hn⟩ := t
  cases n with
  | zero => exact rfl
  | succ n => exact (dif_pos h0).trans rfl

/-- At a later point: over what the point before left. -/
theorem outsAt1_B (c : Dev nD) (t : Fin cfg1.N) (h0 : ¬t.val % 100 = 0) :
    outsAt1 V c t.val t.isLt = (out1_B_8 V c t h0 (outsAt1 V c (t.val - 1) (Nat.lt_of_le_of_lt (Nat.sub_le _ _) t.isLt)).2,
      out1_B_9 V c t h0 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of region 1's pipeline on core `c`: the arrays as the region finds them; after the body at point
    `t` each input's buffer at its block, the outputs' at `outsAt1`; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- At a later point the running sum's buffer holds what the body left at the point before: it is not the first
    point, and the buffer was not written back in between (that happens after the last point only). -/
theorem before1_9_B (c : Dev nD) (t : Fin cfg1.N) (h0 : ¬t.val % 100 = 0) (d) :
    (dat1 V c).before 9 t d = (outsAt1 V c (t.val - 1) (Nat.lt_of_le_of_lt (Nat.sub_le _ _) t.isLt)).2 := by
  have hN : t.val < 100 := lt_of_lt_of_eq t.isLt (show cfg1.N = 100 from N_1)
  rw [Dat.before_out_kept _ 9 rfl t (by omega) (Bool.eq_false_iff.mpr fun h => by have := (flush1_9 _).mp h; dsimp only at this; omega)
    (fun _ => rfl) (fun _ _ => rfl)]
  dsimp only [dat1]

/-- What the body is called with at point `t`: the invariant, the core's dues, and each window's staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- And what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
/-- The body at any point. The inputs' buffers hold their blocks; the point is the first or a later one; at a later
    one the running sum's buffer holds what the point before left; so that case's run applies. The invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 100 := lt_of_lt_of_eq t.isLt (show cfg1.N = 100 from N_1)
  by_cases h0 : t.val % 100 = 0
  · rw [outsAt1_A V c t h0]
    dsimp only
    unfold out1_A_8 out1_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run1A V c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_A_8 V c t h0)
    unfold owns; iexists _; isplitr
    swap; · iexact H9
    ipureintro; exact View.read_writes_of_cover _ _ _ _ _ (cover1_A_9 V c t h0)
  · rw [outsAt1_B V c t h0]
    dsimp only
    simp only [before1_9_B V c t h0]
    unfold out1_B_8 out1_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run1B V c t h0 _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_B_8 V c t h0 _)
    unfold owns; iexists _; isplitr
    swap; · iexact H9
    ipureintro; exact View.read_writes_of_cover _ _ _ _ _ (cover1_B_9 V c t h0 _)

/-- The pipeline library's body obligation for region 1, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Gen

end
-- ==== Proof.KiMainRun.lean ====
/-
  The whole run of the program. @main is nine items in a row: a stretch of host operations, the bond region, three
  host stretches, the atom region, three host stretches. What the core's unscoped buffers hold at each of the ten
  boundaries is a fold from the launch memory: a host stretch applies its operations; a region leaves each of its
  arrays at what its pipeline's write-backs make of it (an input array as entered, an output array as the blocks the
  body left) and every other buffer as entered. Each region is entered with exactly the buffers the boundary
  before it names and left with the next boundary's, so the items chain, and the launch runs them all: every weakly
  fair execution terminates, and the final memory holds every unscoped buffer at the last boundary's contents.
  Read at an argument, the fold walks back to the launch memory: no host operation writes an argument and a region
  only reads the two it stages.
-/
import proofs.«112152_j7275674599671_1_alg».proof.Proof.KiBondData
import proofs.«112152_j7275674599671_1_alg».proof.Proof.KiAtomData
import proofs.«112152_j7275674599671_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev St0 : Dev nD → Valuation τ sig (Elt F) := fun c b => m (c, b)
/-- After the first host stretch: the bond region's entry. -/
abbrev St1 : Dev nD → Valuation τ sig (Elt F) := fun c => StableHlo.after hostOps0 (St0 m c)
/-- The same, read at the core's references: what the bond region's proof data take. -/
abbrev En0 : (c : Dev nD) → (b : Ref sig .tc) → Buf (Elt F) ((c : Thread nD τ).loc b) := fun c b => St1 m c b
/-- At the bond region's exit: its arrays at what the pipeline leaves, every other buffer as entered. -/
def St2 (c : Dev nD) : Valuation τ sig (Elt F) :=
  Pipeline.withArrays spec0 c (St1 m c) fun w => (dat0 (En0 m) c).arrAt w cfg0.N
theorem St2_arr (c : Dev nD) (w : Fin cfg0.W) :
    St2 m c (Proc.devRef .tc (Pipeline.arrRef spec0 w)) = (dat0 (En0 m) c).arrAt w cfg0.N := by
  unfold St2; exact Pipeline.withArrays_arr spec0 launch0.win.arr_inj c _ _ w
theorem St2_of_ne (c : Dev nD) (b : Ref sig .tc) (hb : ∀ w, Pipeline.arrRef spec0 w ≠ b) :
    St2 m c (Proc.devRef .tc b) = St1 m c (Proc.devRef .tc b) := by
  unfold St2; exact Pipeline.withArrays_of_ne spec0 c _ _ b hb
abbrev Ex0 : (c : Dev nD) → (b : Ref sig .tc) → Buf (Elt F) ((c : Thread nD τ).loc b) := fun c b => St2 m c b
theorem hF0 (c : Dev nD) (w : Fin cfg0.W) : (dat0 (En0 m) c).arrAt w cfg0.N = Ex0 m c (Pipeline.arrRef spec0 w) :=
  (St2_arr m c w).symm
theorem hrest0 (c : Dev nD) : ∀ b, b ∉ Finset.univ.image (Pipeline.arrRef spec0) → Ex0 m c b = En0 m c b :=
  fun b hb => St2_of_ne m c b fun w e => hb (Finset.mem_image.mpr ⟨w, Finset.mem_univ _, e⟩)

/-- After the three host stretches between the regions: the atom region's entry. -/
abbrev St3 : Dev nD → Valuation τ sig (Elt F) := fun c => StableHlo.after hostOps1 (St2 m c)
abbrev St4 : Dev nD → Valuation τ sig (Elt F) := fun c => StableHlo.after hostOps1_1 (St3 m c)
abbrev St5 : Dev nD → Valuation τ sig (Elt F) := fun c => StableHlo.after hostOps1_2 (St4 m c)
abbrev En1 : (c : Dev nD) → (b : Ref sig .tc) → Buf (Elt F) ((c : Thread nD τ).loc b) := fun c b => St5 m c b
/-- At the atom region's exit. -/
def St6 (c : Dev nD) : Valuation τ sig (Elt F) :=
  Pipeline.withArrays spec1 c (St5 m c) fun w => (dat1 (En1 m) c).arrAt w cfg1.N
theorem St6_arr (c : Dev nD) (w : Fin cfg1.W) :
    St6 m c (Proc.devRef .tc (Pipeline.arrRef spec1 w)) = (dat1 (En1 m) c).arrAt w cfg1.N := by
  unfold St6; exact Pipeline.withArrays_arr spec1 launch1.win.arr_inj c _ _ w
theorem St6_of_ne (c : Dev nD) (b : Ref sig .tc) (hb : ∀ w, Pipeline.arrRef spec1 w ≠ b) :
    St6 m c (Proc.devRef .tc b) = St5 m c (Proc.devRef .tc b) := by
  unfold St6; exact Pipeline.withArrays_of_ne spec1 c _ _ b hb
abbrev Ex1 : (c : Dev nD) → (b : Ref sig .tc) → Buf (Elt F) ((c : Thread nD τ).loc b) := fun c b => St6 m c b
theorem hF1 (c : Dev nD) (w : Fin cfg1.W) : (dat1 (En1 m) c).arrAt w cfg1.N = Ex1 m c (Pipeline.arrRef spec1 w) :=
  (St6_arr m c w).symm
theorem hrest1 (c : Dev nD) : ∀ b, b ∉ Finset.univ.image (Pipeline.arrRef spec1) → Ex1 m c b = En1 m c b :=
  fun b hb => St6_of_ne m c b fun w e => hb (Finset.mem_image.mpr ⟨w, Finset.mem_univ _, e⟩)

/-- After the three closing host stretches: the end. -/
abbrev St7 : Dev nD → Valuation τ sig (Elt F) := fun c => StableHlo.after hostOps2 (St6 m c)
abbrev St8 : Dev nD → Valuation τ sig (Elt F) := fun c => StableHlo.after hostOps2_1 (St7 m c)
abbrev St9 : Dev nD → Valuation τ sig (Elt F) := fun c => StableHlo.after hostOps2_2 (St8 m c)

/-! ## What each item leaves alone -/

/-- A buffer no host stretch writes and no region stages keeps its launch contents to the end. -/
theorem St9_keep (c : Dev nD) (b : Ref sig .tc)
    (h0 : b ∉ hostOps0_W) (hr0 : ∀ w, Pipeline.arrRef spec0 w ≠ b) (h2 : b ∉ hostOps1_W) (h3 : b ∉ hostOps1_1_W) (h4 : b ∉ hostOps1_2_W)
    (hr1 : ∀ w, Pipeline.arrRef spec1 w ≠ b) (h6 : b ∉ hostOps2_W) (h7 : b ∉ hostOps2_1_W) (h8 : b ∉ hostOps2_2_W) :
    St9 m c b = m ((c : Thread nD τ).loc b) :=
  (StableHlo.after_of_writes_sub hostOps2_2 _ hostOps2_2_writes h8).trans <|
  (StableHlo.after_of_writes_sub hostOps2_1 _ hostOps2_1_writes h7).trans <|
  (StableHlo.after_of_writes_sub hostOps2 _ hostOps2_writes h6).trans <|
  (St6_of_ne m c b hr1).trans <|
  (StableHlo.after_of_writes_sub hostOps1_2 _ hostOps1_2_writes h4).trans <|
  (StableHlo.after_of_writes_sub hostOps1_1 _ hostOps1_1_writes h3).trans <|
  (StableHlo.after_of_writes_sub hostOps1 _ hostOps1_writes h2).trans <|
  (St2_of_ne m c b hr0).trans <|
  (StableHlo.after_of_writes_sub hostOps0 _ hostOps0_writes h0).trans rfl

/-- The bond features are staged by the bond region as an input: it hands them back as entered. -/
theorem St9_main_arg1 (c : Dev nD) : St9 m c main_arg1 = m ((c : Thread nD τ).loc main_arg1) :=
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (St6_of_ne m c main_arg1 (by decide)).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  ((St2_arr m c 2).trans (((dat0 (En0 m) c).arrAt_in 2 rfl _).trans (A_eq0 (En0 m) c 2))).trans <|
  (StableHlo.after_of_writes_sub hostOps0 _ hostOps0_writes (by decide)).trans rfl

/-- The atom features are staged by the atom region as an input: it hands them back as entered. -/
theorem St9_main_arg0 (c : Dev nD) : St9 m c main_arg0 = m ((c : Thread nD τ).loc main_arg0) :=
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  ((St6_arr m c 0).trans (((dat1 (En1 m) c).arrAt_in 0 rfl _).trans (A_eq1 (En1 m) c 0))).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  (St2_of_ne m c main_arg0 (by decide)).trans <|
  (StableHlo.after_of_writes_sub hostOps0 _ hostOps0_writes (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)
/-- A host stretch as an item over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (St9 m c) ∗ ∃ r, prngReg c r)

/-! ## The regions as items -/

set_option backward.isDefEq.respectTransparency.types false in
/-- The bond region: entered from every unscoped buffer at `St1`, left at `St2`. Its arrays are split out of the
    unscoped buffers and put back at the exit contents; the generator register goes into the region's invariant and
    comes back; nothing is owed; the kernel has no semaphore of its own. -/
def reg0 : Pipeline.RegionSeg (pcfgs (F := F)) adm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ Lr lvr 0 fun _ _ => rfl
  pre c := iprop(StableHlo.held (c : Thread nD τ) (Pipeline.ucRefs τ sig) (St1 m c) ∗ Rr c)
  post c := iprop(StableHlo.held (c : Thread nD τ) (Pipeline.ucRefs τ sig) (St2 m c) ∗ Rr c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The atom region: entered from every unscoped buffer at `St5`, left at `St6`. -/
def reg1 : Pipeline.RegionSeg (pcfgs (F := F)) adm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ Lr lvr 1 fun _ _ => rfl
  pre c := iprop(StableHlo.held (c : Thread nD τ) (Pipeline.ucRefs τ sig) (St5 m c) ∗ Rr c)
  post c := iprop(StableHlo.held (c : Thread nD τ) (Pipeline.ucRefs τ sig) (St6 m c) ∗ Rr c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's nine items in order. -/
abbrev rsegs : List (Pipeline.Seg (pcfgs (F := F)) adm (pdats m) () defs₀ 𝒱r Lr lvr) :=
  [ .host (hseg hostOps0 hostOps0_sub hostOps0_fresh (St0 m)),
    .region (reg0 m),
    .host (hseg hostOps1 hostOps1_sub hostOps1_fresh (St2 m)),
    .host (hseg hostOps1_1 hostOps1_1_sub hostOps1_1_fresh (St3 m)),
    .host (hseg hostOps1_2 hostOps1_2_sub hostOps1_2_fresh (St4 m)),
    .region (reg1 m),
    .host (hseg hostOps2 hostOps2_sub hostOps2_fresh (St6 m)),
    .host (hseg hostOps2_1 hostOps2_1_sub hostOps2_1_fresh (St7 m)),
    .host (hseg hostOps2_2 hostOps2_2_sub hostOps2_2_fresh (St8 m)) ]

/-- @main is the run of its items. -/
theorem main_run (c : Dev nD) : main (F := F) c = Pipeline.Seg.run (rsegs m) := by
  rw [main_chain c, Pipeline.Seg.run_eq_chain,
    show (rsegs m).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()),
      StableHlo.seq hostOps2,
      StableHlo.seq hostOps2_1,
      StableHlo.seq hostOps2_2 ] from rfl]

set_option backward.isDefEq.respectTransparency.types false in
/-- THE RUN. From any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = St9 m c b) :=
  Pipeline.θ_run_regions_kit (pcfgs (F := F)) adm (pdats m) () cellOf_inj emb₁ defs₀ 𝒱r Lr lvr m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (St0 m c) ∗ Rr c)) (Tₙ := Tend m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (St9 m c) ∗ Rr c)
          ⊢ iprop(Tend m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach Lr lvr fun c => ?_
      rw [show unscopedBufs c (fun b => m ((c : Thread nD τ).loc b)) = StableHlo.held (c : Thread nD τ) (Pipeline.ucRefs τ sig) (St0 m c)
        from Pipeline.unscopedBufs_held c (St0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = St9 m c b)
    (hfin := fun c s' => by
      iintro ⟨⟨Hh, -⟩, HSI⟩
      unfold StableHlo.held
      imodintro
      iapply (pointsTo_read_all (Pipeline.ucRefs τ sig) (fun b => (((c : Thread nD τ)).1, b)) (St9 m c) s')
      isplitl [Hh] <;> iassumption)
    (hQ := fun s h c => h c)

/-- A memory that holds every unscoped buffer at the last boundary's contents holds each argument as launched. -/
theorem args_kept (mem : (ℓ : Loc nD τ sig) → Buf (Elt F) ℓ)
    (h : ∀ c : Dev nD, ∀ b ∈ Pipeline.ucRefs τ sig, mem (((c : Thread nD τ)).1, b) = St9 m c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16) :=
  ⟨(h c _ (mem_uc main_arg0 (by decide))).trans (St9_main_arg0 m c),
   (h c _ (mem_uc main_arg1 (by decide))).trans (St9_main_arg1 m c),
   (h c _ (mem_uc main_arg2 (by decide))).trans (St9_keep m c main_arg2 (by decide) (by decide) (by decide) (by decide) (by decide) (by decide) (by decide) (by decide) (by decide)),
   (h c _ (mem_uc main_arg3 (by decide))).trans (St9_keep m c main_arg3 (by decide) (by decide) (by decide) (by decide) (by decide) (by decide) (by decide) (by decide) (by decide)),
   (h c _ (mem_uc main_arg4 (by decide))).trans (St9_keep m c main_arg4 (by decide) (by decide) (by decide) (by decide) (by decide) (by decide) (by decide) (by decide) (by decide)),
   (h c _ (mem_uc main_arg5 (by decide))).trans (St9_keep m c main_arg5 (by decide) (by decide) (by decide) (by decide) (by decide) (by decide) (by decide) (by decide) (by decide)),
   (h c _ (mem_uc main_arg6 (by decide))).trans (St9_keep m c main_arg6 (by decide) (by decide) (by decide) (by decide) (by decide) (by decide) (by decide) (by decide) (by decide)),
   (h c _ (mem_uc main_arg7 (by decide))).trans (St9_keep m c main_arg7 (by decide) (by decide) (by decide) (by decide) (by decide) (by decide) (by decide) (by decide) (by decide)),
   (h c _ (mem_uc main_arg8 (by decide))).trans (St9_keep m c main_arg8 (by decide) (by decide) (by decide) (by decide) (by decide) (by decide) (by decide) (by decide) (by decide)),
   (h c _ (mem_uc main_arg9 (by decide))).trans (St9_keep m c main_arg9 (by decide) (by decide) (by decide) (by decide) (by decide) (by decide) (by decide) (by decide) (by decide)),
   (h c _ (mem_uc main_arg10 (by decide))).trans (St9_keep m c main_arg10 (by decide) (by decide) (by decide) (by decide) (by decide) (by decide) (by decide) (by decide) (by decide)),
   (h c _ (mem_uc main_arg11 (by decide))).trans (St9_keep m c main_arg11 (by decide) (by decide) (by decide) (by decide) (by decide) (by decide) (by decide) (by decide) (by decide)),
   (h c _ (mem_uc main_arg12 (by decide))).trans (St9_keep m c main_arg12 (by decide) (by decide) (by decide) (by decide) (by decide) (by decide) (by decide) (by decide) (by decide)),
   (h c _ (mem_uc main_arg13 (by decide))).trans (St9_keep m c main_arg13 (by decide) (by decide) (by decide) (by decide) (by decide) (by decide) (by decide) (by decide) (by decide)),
   (h c _ (mem_uc main_arg14 (by decide))).trans (St9_keep m c main_arg14 (by decide) (by decide) (by decide) (by decide) (by decide) (by decide) (by decide) (by decide) (by decide)),
   (h c _ (mem_uc main_arg15 (by decide))).trans (St9_keep m c main_arg15 (by decide) (by decide) (by decide) (by decide) (by decide) (by decide) (by decide) (by decide) (by decide)),
   (h c _ (mem_uc main_arg16 (by decide))).trans (St9_keep m c main_arg16 (by decide) (by decide) (by decide) (by decide) (by decide) (by decide) (by decide) (by decide) (by decide))⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => args_kept m r.2.mem h c) (run_all m ρ)

end Cert.KernelIdeal.Gen

end
-- ==== Proof.RefRunQ.lean ====
/-
  The reference program's run over the stages of its operations. The list of its 138 operations is cut after the
  bonds' result and after the atoms' result; the contents after a stretch of a list are the contents after the rest
  applied to the contents after its beginning. Each stretch is read back over arbitrary contents of the stretch
  before it, of which only the earlier results and the arguments are known; inside a stretch the pieces a
  concatenation joins are read first, each by itself, and put in place. The three results are stated as the stages of
  the read-at-an-index module with the earlier results kept as stages, and the arguments are untouched because no
  operation writes one.
-/
import proofs.«112152_j7275674599671_1_alg».proof.Proof.RefReadP
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## Reading a stretch of operations -/

/-- The operations' results read back in one simplification pass, with an operation over a family of references read
    at each literal position and the typed references' transports removed. -/
macro "after_results_flat" loc:(Lean.Parser.Tactic.location)? : tactic =>
  `(tactic| (simp (disch := decide) only [after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne',
      Matrix.cons_val, TRef.ofBuf, TRef.toBuf, cast_eq] $[$loc]?))

/-- Operations run one list after the other are their concatenation run as one. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A list of operations cut after its first `k`. -/
theorem after_cut (k : ℕ) (l : List (HloOp τ sig (Elt F))) (V : Valuation τ sig (Elt F)) :
    after l V = after (l.drop k) (after (l.take k) V) := by
  rw [← after_append', List.take_append_drop]

/-! ## The three results -/

set_option maxRecDepth 8192 in
set_option maxHeartbeats 4000000 in
/-- The first stretch (through the bonds' result), read in two parts cut before its concatenation: the concatenated
    pieces are read over the first part, everything after over opaque contents. -/
theorem take47_v29 (m : (ℓ : Loc nD τ sig) → Buf (Elt F) ℓ) (c : Dev nD) :
    after (List.take 47 (ops (F := F))) (launchContents m c) (Proc.devRef .tc main_v29) = Read.val_main_v29 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg15)) := by
  obtain ⟨x_main_v8, e_main_v8⟩ : ∃ x, after (List.take 23 (List.take 47 (ops (F := F)))) (launchContents m c) (Proc.devRef .tc main_v8) = x := ⟨_, rfl⟩
  obtain ⟨x_main_v17, e_main_v17⟩ : ∃ x, after (List.take 23 (List.take 47 (ops (F := F)))) (launchContents m c) (Proc.devRef .tc main_v17) = x := ⟨_, rfl⟩
  obtain ⟨x_main_v18, e_main_v18⟩ : ∃ x, after (List.take 23 (List.take 47 (ops (F := F)))) (launchContents m c) (Proc.devRef .tc main_v18) = x := ⟨_, rfl⟩
  obtain ⟨x_main_arg1, e_main_arg1⟩ : ∃ x, after (List.take 23 (List.take 47 (ops (F := F)))) (launchContents m c) (Proc.devRef .tc main_arg1) = x := ⟨_, rfl⟩
  have f8 := e_main_v8; have f17 := e_main_v17; have f18 := e_main_v18; have f1 := e_main_arg1
  simp only [ops, List.take_succ_cons, List.take_zero, List.drop_succ_cons, List.drop_zero] at f8 f17 f18 f1
  after_results_flat at f8 f17 f18 f1
  rw [after_cut 23 (List.take 47 (ops (F := F)))]
  generalize hW : after (List.take 23 (List.take 47 (ops (F := F)))) (launchContents m c) = W1 at e_main_v8 e_main_v17 e_main_v18 e_main_arg1 ⊢
  simp only [ops, List.take_succ_cons, List.take_zero, List.drop_succ_cons, List.drop_zero]
  after_results_flat
  rw [e_main_v8, e_main_v17, e_main_v18, e_main_arg1]
  subst hW
  simp only [ops, List.take_succ_cons, List.take_zero, List.drop_succ_cons, List.drop_zero]
  after_results_flat
  subst f8 f17 f18 f1
  rfl

set_option maxRecDepth 8192 in
set_option maxHeartbeats 4000000 in
/-- The arguments the second stretch reads are untouched by the first. -/
theorem take47_args (m : (ℓ : Loc nD τ sig) → Buf (Elt F) ℓ) (c : Dev nD) :
    after (List.take 47 (ops (F := F))) (launchContents m c) (Proc.devRef .tc main_arg0) = launchContents m c (Proc.devRef .tc main_arg0)
    ∧ after (List.take 47 (ops (F := F))) (launchContents m c) (Proc.devRef .tc main_arg2) = launchContents m c (Proc.devRef .tc main_arg2)
    ∧ after (List.take 47 (ops (F := F))) (launchContents m c) (Proc.devRef .tc main_arg7) = launchContents m c (Proc.devRef .tc main_arg7)
    ∧ after (List.take 47 (ops (F := F))) (launchContents m c) (Proc.devRef .tc main_arg8) = launchContents m c (Proc.devRef .tc main_arg8)
    ∧ after (List.take 47 (ops (F := F))) (launchContents m c) (Proc.devRef .tc main_arg9) = launchContents m c (Proc.devRef .tc main_arg9)
    ∧ after (List.take 47 (ops (F := F))) (launchContents m c) (Proc.devRef .tc main_arg10) = launchContents m c (Proc.devRef .tc main_arg10)
    ∧ after (List.take 47 (ops (F := F))) (launchContents m c) (Proc.devRef .tc main_arg16) = launchContents m c (Proc.devRef .tc main_arg16) := by
  simp only [ops, List.take_succ_cons, List.take_zero, List.drop_succ_cons, List.drop_zero]
  refine ⟨?_, ?_, ?_, ?_, ?_, ?_, ?_⟩ <;> after_results_flat

set_option maxRecDepth 8192 in
set_option maxHeartbeats 8000000 in
/-- The second stretch read back over the contents the first leaves, cut before its concatenation: the atoms' result.
    The pieces the concatenation joins are folded into their stage functions before the rest is read, so that the
    closing comparison meets them as names, not as terms. -/
theorem s64 (m : (ℓ : Loc nD τ sig) → Buf (Elt F) ℓ) (c : Dev nD) :
    after (ops (F := F)) (launchContents m c) (Proc.devRef .tc main_v64) = Read.val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) := by
  have h29 := take47_v29 m c
  obtain ⟨a0, a2, a7, a8, a9, a10, a16⟩ := take47_args m c
  rw [after_cut 47 (ops (F := F))]
  generalize after (List.take 47 (ops (F := F))) (launchContents m c) = W2 at h29 a0 a2 a7 a8 a9 a10 a16 ⊢
  replace a0 : W2 (Proc.devRef .tc main_arg0) = m ((c.tc : Thread nD τ).loc main_arg0) := a0
  replace a2 : W2 (Proc.devRef .tc main_arg2) = m ((c.tc : Thread nD τ).loc main_arg2) := a2
  replace a7 : W2 (Proc.devRef .tc main_arg7) = m ((c.tc : Thread nD τ).loc main_arg7) := a7
  replace a8 : W2 (Proc.devRef .tc main_arg8) = m ((c.tc : Thread nD τ).loc main_arg8) := a8
  replace a9 : W2 (Proc.devRef .tc main_arg9) = m ((c.tc : Thread nD τ).loc main_arg9) := a9
  replace a10 : W2 (Proc.devRef .tc main_arg10) = m ((c.tc : Thread nD τ).loc main_arg10) := a10
  replace a16 : W2 (Proc.devRef .tc main_arg16) = m ((c.tc : Thread nD τ).loc main_arg16) := a16
  obtain ⟨x_main_v52, e_main_v52⟩ : ∃ x, after (List.take 33 (List.drop 47 (ops (F := F)))) W2 (Proc.devRef .tc main_v52) = x := ⟨_, rfl⟩
  obtain ⟨x_main_v53, e_main_v53⟩ : ∃ x, after (List.take 33 (List.drop 47 (ops (F := F)))) W2 (Proc.devRef .tc main_v53) = x := ⟨_, rfl⟩
  obtain ⟨x_main_arg0, e_main_arg0⟩ : ∃ x, after (List.take 33 (List.drop 47 (ops (F := F)))) W2 (Proc.devRef .tc main_arg0) = x := ⟨_, rfl⟩
  have f52 := e_main_v52; have f53 := e_main_v53; have fa0 := e_main_arg0
  simp only [ops, List.take_succ_cons, List.take_zero, List.drop_succ_cons, List.drop_zero] at f52 f53 fa0
  after_results_flat at f52 f53 fa0
  have g52 : x_main_v52 = Read.val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg15)) (m ((c.tc : Thread nD τ).loc main_arg16)) := by
    refine f52.symm.trans ?_
    rw [h29, a16]
    rfl
  have g53 : x_main_v53 = Read.val_main_v53 (F := F) (m ((c.tc : Thread nD τ).loc main_arg2)) := by
    refine f53.symm.trans ?_
    rw [a2]
    rfl
  have ga0 : x_main_arg0 = m ((c.tc : Thread nD τ).loc main_arg0) := fa0.symm.trans a0
  rw [after_cut 33 (List.drop 47 (ops (F := F)))]
  generalize hW3 : after (List.take 33 (List.drop 47 (ops (F := F)))) W2 = W3 at e_main_v52 e_main_v53 e_main_arg0 ⊢
  simp only [ops, List.take_succ_cons, List.take_zero, List.drop_succ_cons, List.drop_zero]
  after_results_flat
  rw [e_main_v52, e_main_v53, e_main_arg0]
  subst hW3
  simp only [ops, List.take_succ_cons, List.take_zero, List.drop_succ_cons, List.drop_zero]
  after_results_flat
  rw [g52, g53, ga0, a7, a8, a9, a10]
  rfl

set_option maxRecDepth 8192 in
set_option maxHeartbeats 4000000 in
/-- No operation after the first stretch writes the bonds' result. -/
theorem drop47_v29 (W : Valuation τ sig (Elt F)) :
    after (List.drop 47 (ops (F := F))) W (Proc.devRef .tc main_v29) = W (Proc.devRef .tc main_v29) := by
  simp only [ops, List.take_succ_cons, List.take_zero, List.drop_succ_cons, List.drop_zero]
  after_results_flat

/-- The bonds' result after the whole list. -/
theorem s29 (m : (ℓ : Loc nD τ sig) → Buf (Elt F) ℓ) (c : Dev nD) :
    after (ops (F := F)) (launchContents m c) (Proc.devRef .tc main_v29) = Read.val_main_v29 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg15)) := by
  rw [after_cut 47 (ops (F := F)), drop47_v29, take47_v29]

set_option maxRecDepth 8192 in
set_option maxHeartbeats 4000000 in
/-- No operation of the last stretch writes the two earlier results. -/
theorem drop104_kept (W : Valuation τ sig (Elt F)) :
    after (List.drop 104 (ops (F := F))) W (Proc.devRef .tc main_v64) = W (Proc.devRef .tc main_v64)
    ∧ after (List.drop 104 (ops (F := F))) W (Proc.devRef .tc main_v29) = W (Proc.devRef .tc main_v29) := by
  simp only [ops, List.take_succ_cons, List.take_zero, List.drop_succ_cons, List.drop_zero]
  refine ⟨?_, ?_⟩ <;> after_results_flat

set_option maxRecDepth 8192 in
set_option maxHeartbeats 4000000 in
/-- The arguments the last stretch reads are untouched by the first two. -/
theorem take104_args (m : (ℓ : Loc nD τ sig) → Buf (Elt F) ℓ) (c : Dev nD) :
    after (List.take 104 (ops (F := F))) (launchContents m c) (Proc.devRef .tc main_arg2) = launchContents m c (Proc.devRef .tc main_arg2)
    ∧ after (List.take 104 (ops (F := F))) (launchContents m c) (Proc.devRef .tc main_arg11) = launchContents m c (Proc.devRef .tc main_arg11)
    ∧ after (List.take 104 (ops (F := F))) (launchContents m c) (Proc.devRef .tc main_arg12) = launchContents m c (Proc.devRef .tc main_arg12)
    ∧ after (List.take 104 (ops (F := F))) (launchContents m c) (Proc.devRef .tc main_arg13) = launchContents m c (Proc.devRef .tc main_arg13)
    ∧ after (List.take 104 (ops (F := F))) (launchContents m c) (Proc.devRef .tc main_arg14) = launchContents m c (Proc.devRef .tc main_arg14) := by
  simp only [ops, List.take_succ_cons, List.take_zero, List.drop_succ_cons, List.drop_zero]
  refine ⟨?_, ?_, ?_, ?_, ?_⟩ <;> after_results_flat

set_option maxRecDepth 8192 in
set_option maxHeartbeats 8000000 in
/-- The last stretch read back over the contents the first two leave, cut before its concatenation: the global result. -/
theorem s81 (m : (ℓ : Loc nD τ sig) → Buf (Elt F) ℓ) (c : Dev nD) :
    after (ops (F := F)) (launchContents m c) (Proc.devRef .tc main_v81) = Read.val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  obtain ⟨k64, k29⟩ := drop104_kept (F := F) (after (List.take 104 (ops (F := F))) (launchContents m c))
  have h64 : after (List.take 104 (ops (F := F))) (launchContents m c) (Proc.devRef .tc main_v64) = Read.val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) :=
    k64.symm.trans ((congrFun (after_cut 104 (ops (F := F)) (launchContents m c)) _).symm.trans (s64 m c))
  have h29 : after (List.take 104 (ops (F := F))) (launchContents m c) (Proc.devRef .tc main_v29) = Read.val_main_v29 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg15)) :=
    k29.symm.trans ((congrFun (after_cut 104 (ops (F := F)) (launchContents m c)) _).symm.trans (s29 m c))
  obtain ⟨a2, a11, a12, a13, a14⟩ := take104_args m c
  rw [after_cut 104 (ops (F := F))]
  generalize after (List.take 104 (ops (F := F))) (launchContents m c) = W4 at h64 h29 a2 a11 a12 a13 a14 ⊢
  obtain ⟨x_main_v68, e_main_v68⟩ : ∃ x, after (List.take 12 (List.drop 104 (ops (F := F)))) W4 (Proc.devRef .tc main_v68) = x := ⟨_, rfl⟩
  obtain ⟨x_main_v72, e_main_v72⟩ : ∃ x, after (List.take 12 (List.drop 104 (ops (F := F)))) W4 (Proc.devRef .tc main_v72) = x := ⟨_, rfl⟩
  obtain ⟨x_main_arg2, e_main_arg2⟩ : ∃ x, after (List.take 12 (List.drop 104 (ops (F := F)))) W4 (Proc.devRef .tc main_arg2) = x := ⟨_, rfl⟩
  have f68 := e_main_v68; have f72 := e_main_v72; have fa2 := e_main_arg2
  simp only [ops, List.take_succ_cons, List.take_zero, List.drop_succ_cons, List.drop_zero] at f68 f72 fa2
  after_results_flat at f68 f72 fa2
  rw [after_cut 12 (List.drop 104 (ops (F := F)))]
  generalize hW5 : after (List.take 12 (List.drop 104 (ops (F := F)))) W4 = W5 at e_main_v68 e_main_v72 e_main_arg2 ⊢
  simp only [ops, List.take_succ_cons, List.take_zero, List.drop_succ_cons, List.drop_zero]
  after_results_flat
  rw [e_main_v68, e_main_v72, e_main_arg2]
  subst hW5
  simp only [ops, List.take_succ_cons, List.take_zero, List.drop_succ_cons, List.drop_zero]
  after_results_flat
  subst f68 f72 fa2
  rw [h64, h29, a2]
  simp only [a11, a12, a13, a14]
  rfl

/-! ## The arguments: no operation writes one -/

/-- The references @main's 138 operations write: each operation's result buffer, in program order. -/
abbrev ops_W : List (Ref sig .tc) :=
  [
    main_v0, main_v1, main_c, main_v2, main_v3, main_c_0, main_v4, main_v5, main_v6, main_v7,
    main_v8, main_v9, main_v10, main_c_1, main_v11, main_v12, main_c_2, main_v13, main_v14, main_v15,
    main_v16, main_v17, main_v18, main_v19, main_v20, main_v21, main_v22, main_v23, main_call0_cst, main_call0_v0,
    main_call0_v1, main_call0_v2, main_call0_v3, main_call0_v4, main_call0_v5, main_call0_v6, main_call0_v7, main_call0_v8, main_call0_v9, main_call0_v10,
    main_call0_v11, main_v24, main_v25, main_v26, main_v27, main_v28, main_v29, main_c_3, main_v30, main_v31,
    main_c_4, main_call1_v0, main_call1_v1, main_v32, main_c_5, main_v33, main_v34, main_c_6, main_v35, main_v36,
    main_v37, main_v38, main_v39, main_v40, main_v41, main_v42, main_v43, main_v44, main_c_7, main_v45,
    main_v46, main_v47, main_cst, main_v48, main_cst_8, main_v49, main_v50, main_v51, main_v52, main_v53,
    main_v54, main_v55, main_v56, main_v57, main_v58, main_call2_cst, main_call2_v0, main_call2_v1, main_call2_v2, main_call2_v3,
    main_call2_v4, main_call2_v5, main_call2_v6, main_call2_v7, main_call2_v8, main_call2_v9, main_call2_v10, main_call2_v11, main_v59, main_v60,
    main_v61, main_v62, main_v63, main_v64, main_cst_9, main_v65, main_v66, main_cst_10, main_v67, main_v68,
    main_cst_11, main_v69, main_v70, main_cst_12, main_v71, main_v72, main_v73, main_v74, main_v75, main_v76,
    main_call3_cst, main_call3_v0, main_call3_v1, main_call3_v2, main_call3_v3, main_call3_v4, main_call3_v5, main_call3_v6, main_call3_v7, main_call3_v8,
    main_call3_v9, main_call3_v10, main_call3_v11, main_v77, main_v78, main_v79, main_v80, main_v81 ]

/-- A result buffer named in `ops_W`, as a one-element set of device buffers, lies in the set `ops_W` names. -/
theorem writes_sub_of_mem {y : Ref sig .tc} (h : y ∈ ops_W) :
    ({Proc.devRef (τ := τ) .tc y} : Finset (DevRef τ sig)) ⊆ (ops_W.map (Proc.devRef (τ := τ) .tc)).toFinset :=
  Finset.singleton_subset_iff.mpr (List.mem_toFinset.mpr (List.mem_map_of_mem h))

set_option maxRecDepth 8192 in
/-- Every operation of @main writes only buffers that `ops_W` lists (an operation writes its one result buffer). -/
theorem ops_writes : (ops : List (HloOp τ sig (Elt F))).Forall fun op => op.writes ⊆ (ops_W.map (Proc.devRef (τ := τ) .tc)).toFinset :=
  ⟨writes_sub_of_mem (y := main_v0) (by decide),
   writes_sub_of_mem (y := main_v1) (by decide),
   writes_sub_of_mem (y := main_c) (by decide),
   writes_sub_of_mem (y := main_v2) (by decide),
   writes_sub_of_mem (y := main_v3) (by decide),
   writes_sub_of_mem (y := main_c_0) (by decide),
   writes_sub_of_mem (y := main_v4) (by decide),
   writes_sub_of_mem (y := main_v5) (by decide),
   writes_sub_of_mem (y := main_v6) (by decide),
   writes_sub_of_mem (y := main_v7) (by decide),
   writes_sub_of_mem (y := main_v8) (by decide),
   writes_sub_of_mem (y := main_v9) (by decide),
   writes_sub_of_mem (y := main_v10) (by decide),
   writes_sub_of_mem (y := main_c_1) (by decide),
   writes_sub_of_mem (y := main_v11) (by decide),
   writes_sub_of_mem (y := main_v12) (by decide),
   writes_sub_of_mem (y := main_c_2) (by decide),
   writes_sub_of_mem (y := main_v13) (by decide),
   writes_sub_of_mem (y := main_v14) (by decide),
   writes_sub_of_mem (y := main_v15) (by decide),
   writes_sub_of_mem (y := main_v16) (by decide),
   writes_sub_of_mem (y := main_v17) (by decide),
   writes_sub_of_mem (y := main_v18) (by decide),
   writes_sub_of_mem (y := main_v19) (by decide),
   writes_sub_of_mem (y := main_v20) (by decide),
   writes_sub_of_mem (y := main_v21) (by decide),
   writes_sub_of_mem (y := main_v22) (by decide),
   writes_sub_of_mem (y := main_v23) (by decide),
   writes_sub_of_mem (y := main_call0_cst) (by decide),
   writes_sub_of_mem (y := main_call0_v0) (by decide),
   writes_sub_of_mem (y := main_call0_v1) (by decide),
   writes_sub_of_mem (y := main_call0_v2) (by decide),
   writes_sub_of_mem (y := main_call0_v3) (by decide),
   writes_sub_of_mem (y := main_call0_v4) (by decide),
   writes_sub_of_mem (y := main_call0_v5) (by decide),
   writes_sub_of_mem (y := main_call0_v6) (by decide),
   writes_sub_of_mem (y := main_call0_v7) (by decide),
   writes_sub_of_mem (y := main_call0_v8) (by decide),
   writes_sub_of_mem (y := main_call0_v9) (by decide),
   writes_sub_of_mem (y := main_call0_v10) (by decide),
   writes_sub_of_mem (y := main_call0_v11) (by decide),
   writes_sub_of_mem (y := main_v24) (by decide),
   writes_sub_of_mem (y := main_v25) (by decide),
   writes_sub_of_mem (y := main_v26) (by decide),
   writes_sub_of_mem (y := main_v27) (by decide),
   writes_sub_of_mem (y := main_v28) (by decide),
   writes_sub_of_mem (y := main_v29) (by decide),
   writes_sub_of_mem (y := main_c_3) (by decide),
   writes_sub_of_mem (y := main_v30) (by decide),
   writes_sub_of_mem (y := main_v31) (by decide),
   writes_sub_of_mem (y := main_c_4) (by decide),
   writes_sub_of_mem (y := main_call1_v0) (by decide),
   writes_sub_of_mem (y := main_call1_v1) (by decide),
   writes_sub_of_mem (y := main_v32) (by decide),
   writes_sub_of_mem (y := main_c_5) (by decide),
   writes_sub_of_mem (y := main_v33) (by decide),
   writes_sub_of_mem (y := main_v34) (by decide),
   writes_sub_of_mem (y := main_c_6) (by decide),
   writes_sub_of_mem (y := main_v35) (by decide),
   writes_sub_of_mem (y := main_v36) (by decide),
   writes_sub_of_mem (y := main_v37) (by decide),
   writes_sub_of_mem (y := main_v38) (by decide),
   writes_sub_of_mem (y := main_v39) (by decide),
   writes_sub_of_mem (y := main_v40) (by decide),
   writes_sub_of_mem (y := main_v41) (by decide),
   writes_sub_of_mem (y := main_v42) (by decide),
   writes_sub_of_mem (y := main_v43) (by decide),
   writes_sub_of_mem (y := main_v44) (by decide),
   writes_sub_of_mem (y := main_c_7) (by decide),
   writes_sub_of_mem (y := main_v45) (by decide),
   writes_sub_of_mem (y := main_v46) (by decide),
   writes_sub_of_mem (y := main_v47) (by decide),
   writes_sub_of_mem (y := main_cst) (by decide),
   writes_sub_of_mem (y := main_v48) (by decide),
   writes_sub_of_mem (y := main_cst_8) (by decide),
   writes_sub_of_mem (y := main_v49) (by decide),
   writes_sub_of_mem (y := main_v50) (by decide),
   writes_sub_of_mem (y := main_v51) (by decide),
   writes_sub_of_mem (y := main_v52) (by decide),
   writes_sub_of_mem (y := main_v53) (by decide),
   writes_sub_of_mem (y := main_v54) (by decide),
   writes_sub_of_mem (y := main_v55) (by decide),
   writes_sub_of_mem (y := main_v56) (by decide),
   writes_sub_of_mem (y := main_v57) (by decide),
   writes_sub_of_mem (y := main_v58) (by decide),
   writes_sub_of_mem (y := main_call2_cst) (by decide),
   writes_sub_of_mem (y := main_call2_v0) (by decide),
   writes_sub_of_mem (y := main_call2_v1) (by decide),
   writes_sub_of_mem (y := main_call2_v2) (by decide),
   writes_sub_of_mem (y := main_call2_v3) (by decide),
   writes_sub_of_mem (y := main_call2_v4) (by decide),
   writes_sub_of_mem (y := main_call2_v5) (by decide),
   writes_sub_of_mem (y := main_call2_v6) (by decide),
   writes_sub_of_mem (y := main_call2_v7) (by decide),
   writes_sub_of_mem (y := main_call2_v8) (by decide),
   writes_sub_of_mem (y := main_call2_v9) (by decide),
   writes_sub_of_mem (y := main_call2_v10) (by decide),
   writes_sub_of_mem (y := main_call2_v11) (by decide),
   writes_sub_of_mem (y := main_v59) (by decide),
   writes_sub_of_mem (y := main_v60) (by decide),
   writes_sub_of_mem (y := main_v61) (by decide),
   writes_sub_of_mem (y := main_v62) (by decide),
   writes_sub_of_mem (y := main_v63) (by decide),
   writes_sub_of_mem (y := main_v64) (by decide),
   writes_sub_of_mem (y := main_cst_9) (by decide),
   writes_sub_of_mem (y := main_v65) (by decide),
   writes_sub_of_mem (y := main_v66) (by decide),
   writes_sub_of_mem (y := main_cst_10) (by decide),
   writes_sub_of_mem (y := main_v67) (by decide),
   writes_sub_of_mem (y := main_v68) (by decide),
   writes_sub_of_mem (y := main_cst_11) (by decide),
   writes_sub_of_mem (y := main_v69) (by decide),
   writes_sub_of_mem (y := main_v70) (by decide),
   writes_sub_of_mem (y := main_cst_12) (by decide),
   writes_sub_of_mem (y := main_v71) (by decide),
   writes_sub_of_mem (y := main_v72) (by decide),
   writes_sub_of_mem (y := main_v73) (by decide),
   writes_sub_of_mem (y := main_v74) (by decide),
   writes_sub_of_mem (y := main_v75) (by decide),
   writes_sub_of_mem (y := main_v76) (by decide),
   writes_sub_of_mem (y := main_call3_cst) (by decide),
   writes_sub_of_mem (y := main_call3_v0) (by decide),
   writes_sub_of_mem (y := main_call3_v1) (by decide),
   writes_sub_of_mem (y := main_call3_v2) (by decide),
   writes_sub_of_mem (y := main_call3_v3) (by decide),
   writes_sub_of_mem (y := main_call3_v4) (by decide),
   writes_sub_of_mem (y := main_call3_v5) (by decide),
   writes_sub_of_mem (y := main_call3_v6) (by decide),
   writes_sub_of_mem (y := main_call3_v7) (by decide),
   writes_sub_of_mem (y := main_call3_v8) (by decide),
   writes_sub_of_mem (y := main_call3_v9) (by decide),
   writes_sub_of_mem (y := main_call3_v10) (by decide),
   writes_sub_of_mem (y := main_call3_v11) (by decide),
   writes_sub_of_mem (y := main_v77) (by decide),
   writes_sub_of_mem (y := main_v78) (by decide),
   writes_sub_of_mem (y := main_v79) (by decide),
   writes_sub_of_mem (y := main_v80) (by decide),
   writes_sub_of_mem (y := main_v81) (by decide)⟩

/-- A buffer no operation writes holds after @main what it held before. -/
theorem arg_kept (W : Valuation τ sig (Elt F)) (r : Ref sig .tc) (h : r ∉ ops_W) :
    StableHlo.after (ops (F := F)) W (Proc.devRef .tc r) = W (Proc.devRef .tc r) :=
  StableHlo.after_of_writes_sub ops W ops_writes h

/-- The same from the launch contents, in the spelling `run`'s argument conjuncts have. -/
theorem arg_kept_launch (m : (ℓ : Loc nD τ sig) → Buf (Elt F) ℓ) (c : Dev nD) (r : Ref sig .tc) (h : r ∉ ops_W) :
    StableHlo.after (ops (F := F)) (launchContents m c) (Proc.devRef .tc r) = m ((c.tc : Thread nD τ).loc r) :=
  arg_kept (launchContents m c) r h

/-- The seventeen argument conjuncts, from what `run_seq` gives at a device and a reference. -/
theorem args_kept (m : (ℓ : Loc nD τ sig) → Buf (Elt F) ℓ) (c : Dev nD) (mem : (ℓ : Loc nD τ sig) → Buf (Elt F) ℓ)
    (h : ∀ b : Ref sig .tc, mem ((c.tc : Thread nD τ).loc b) = StableHlo.after (ops (F := F)) (launchContents m c) (Proc.devRef .tc b)) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16) :=
  ⟨(h main_arg0).trans (arg_kept_launch m c main_arg0 (by decide)),
   (h main_arg1).trans (arg_kept_launch m c main_arg1 (by decide)),
   (h main_arg2).trans (arg_kept_launch m c main_arg2 (by decide)),
   (h main_arg3).trans (arg_kept_launch m c main_arg3 (by decide)),
   (h main_arg4).trans (arg_kept_launch m c main_arg4 (by decide)),
   (h main_arg5).trans (arg_kept_launch m c main_arg5 (by decide)),
   (h main_arg6).trans (arg_kept_launch m c main_arg6 (by decide)),
   (h main_arg7).trans (arg_kept_launch m c main_arg7 (by decide)),
   (h main_arg8).trans (arg_kept_launch m c main_arg8 (by decide)),
   (h main_arg9).trans (arg_kept_launch m c main_arg9 (by decide)),
   (h main_arg10).trans (arg_kept_launch m c main_arg10 (by decide)),
   (h main_arg11).trans (arg_kept_launch m c main_arg11 (by decide)),
   (h main_arg12).trans (arg_kept_launch m c main_arg12 (by decide)),
   (h main_arg13).trans (arg_kept_launch m c main_arg13 (by decide)),
   (h main_arg14).trans (arg_kept_launch m c main_arg14 (by decide)),
   (h main_arg15).trans (arg_kept_launch m c main_arg15 (by decide)),
   (h main_arg16).trans (arg_kept_launch m c main_arg16 (by decide))⟩

/-! ## The run -/

set_option maxRecDepth 8192 in
set_option maxHeartbeats 55200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = res_main_v64 m c
      ∧ r.2.mem ((c.tc : Thread nD τ).loc main_v29) = res_main_v29 m c
      ∧ r.2.mem ((c.tc : Thread nD τ).loc main_v81) = res_main_v81 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c =>
      ⟨(h c main_v64).trans ((s64 m c).trans (Read.val_main_v64_eq m c).symm),
       (h c main_v29).trans ((s29 m c).trans (Read.val_main_v29_eq m c).symm),
       (h c main_v81).trans ((s81 m c).trans (Read.val_main_v81_eq m c).symm),
       args_kept m c r.2.mem (h c)⟩)
    (run_seq scopedRefs_eq scopedSems_eq defs main (fun _ => ops) main_eq (fun _ => ops_sub) m ρ)

end Cert.ReferenceIdeal.Value

end
-- ==== Proof.RefFrame.lean ====
/-
  The reference program is host operations only. Its run says that every weakly fair execution ends with each of
  the three results at the composed term of the operations and each argument as launched; dropping the three
  results' clauses leaves the frame claim.
-/
import proofs.«112152_j7275674599671_1_alg».proof.Defs
import proofs.«112152_j7275674599671_1_alg».proof.Proof.RefRunP
import proofs.«112152_j7275674599671_1_alg».proof.Proof.RefReadP
import proofs.«112152_j7275674599671_1_alg».proof.Proof.RefRunQ

noncomputable section

namespace Cert.Proof.RefFrame

open Idealize.ShloMosaic Idealize.SL.Sem

/-- The reference's frame: its run with the results forgotten. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2.2.2) (Cert.ReferenceIdeal.Value.run (F := Ideal) m ρ)

end Cert.Proof.RefFrame

end
-- ==== Proof.KiRunValues.lean ====
/-
  Where the results sit in the run's last boundary. The updated bonds are the bond region's first output array and
  no later item writes it; the updated atoms are the atom region's first output array, likewise; the two running
  column sums are the regions' second output arrays, read by the closing host stretches. Between the regions the
  arguments still hold their launch contents, and so do they when the atom region has ended.
-/
import proofs.«112152_j7275674599671_1_alg».proof.Proof.KiMainRun

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The bonds the bond region leaves reach the end untouched. -/
theorem St9_bonds (c : Dev nD) : St9 m c main_v30_0 = (dat0 (En0 m) c).arrAt 9 cfg0.N :=
  (StableHlo.after_of_writes_sub hostOps2_2 _ hostOps2_2_writes (by decide)).trans <| (StableHlo.after_of_writes_sub hostOps2_1 _ hostOps2_1_writes (by decide)).trans <| (StableHlo.after_of_writes_sub hostOps2 _ hostOps2_writes (by decide)).trans <|
  (St6_of_ne m c main_v30_0 (by decide)).trans <|
  (StableHlo.after_of_writes_sub hostOps1_2 _ hostOps1_2_writes (by decide)).trans <| (StableHlo.after_of_writes_sub hostOps1_1 _ hostOps1_1_writes (by decide)).trans <| (StableHlo.after_of_writes_sub hostOps1 _ hostOps1_writes (by decide)).trans <|
  St2_arr m c 9

/-- At the atom region's entry the bond array still is what the bond region left. -/
theorem St5_bonds (c : Dev nD) : St5 m c main_v30_0 = (dat0 (En0 m) c).arrAt 9 cfg0.N :=
  (StableHlo.after_of_writes_sub hostOps1_2 _ hostOps1_2_writes (by decide)).trans <| (StableHlo.after_of_writes_sub hostOps1_1 _ hostOps1_1_writes (by decide)).trans <| (StableHlo.after_of_writes_sub hostOps1 _ hostOps1_writes (by decide)).trans <|
  St2_arr m c 9

/-- The atoms the atom region leaves reach the end untouched. -/
theorem St9_atoms (c : Dev nD) : St9 m c main_v54_0 = (dat1 (En1 m) c).arrAt 8 cfg1.N :=
  (StableHlo.after_of_writes_sub hostOps2_2 _ hostOps2_2_writes (by decide)).trans <| (StableHlo.after_of_writes_sub hostOps2_1 _ hostOps2_1_writes (by decide)).trans <| (StableHlo.after_of_writes_sub hostOps2 _ hostOps2_writes (by decide)).trans <|
  St6_arr m c 8

/-- The atom column sum at the atom region's exit. -/
theorem St6_atomSum (c : Dev nD) : St6 m c main_v54_1 = (dat1 (En1 m) c).arrAt 9 cfg1.N := St6_arr m c 9

/-- The bond column sum at the atom region's exit: as the bond region left it. -/
theorem St6_bondSum (c : Dev nD) : St6 m c main_v30_1 = (dat0 (En0 m) c).arrAt 10 cfg0.N :=
  (St6_of_ne m c main_v30_1 (by decide)).trans <|
  (StableHlo.after_of_writes_sub hostOps1_2 _ hostOps1_2_writes (by decide)).trans <| (StableHlo.after_of_writes_sub hostOps1_1 _ hostOps1_1_writes (by decide)).trans <| (StableHlo.after_of_writes_sub hostOps1 _ hostOps1_writes (by decide)).trans <|
  St2_arr m c 10

/-- An argument no region stages holds its launch contents at the bond region's exit … -/
theorem St2_arg (c : Dev nD) (b : Ref sig .tc) (h0 : b ∉ hostOps0_W) (hr0 : ∀ w, Pipeline.arrRef spec0 w ≠ b) :
    St2 m c b = m ((c : Thread nD τ).loc b) :=
  (St2_of_ne m c b hr0).trans <| (StableHlo.after_of_writes_sub hostOps0 _ hostOps0_writes h0).trans rfl

/-- … and at the atom region's exit. -/
theorem St6_arg (c : Dev nD) (b : Ref sig .tc) (h0 : b ∉ hostOps0_W) (hr0 : ∀ w, Pipeline.arrRef spec0 w ≠ b)
    (h2 : b ∉ hostOps1_W) (h3 : b ∉ hostOps1_1_W) (h4 : b ∉ hostOps1_2_W) (hr1 : ∀ w, Pipeline.arrRef spec1 w ≠ b) :
    St6 m c b = m ((c : Thread nD τ).loc b) :=
  (St6_of_ne m c b hr1).trans <|
  (StableHlo.after_of_writes_sub hostOps1_2 _ hostOps1_2_writes h4).trans <|
  (StableHlo.after_of_writes_sub hostOps1_1 _ hostOps1_1_writes h3).trans <|
  (StableHlo.after_of_writes_sub hostOps1 _ hostOps1_writes h2).trans <|
  St2_arg m c b h0 hr0

end Cert.KernelIdeal.Gen

end
-- ==== Proof.Spec.lean ====
/-
  The mathematics both programs compute, stated on single rows of extended reals, with no program in sight.

  A layer is `out f = (∑ j, softplus (h j) * W₂ j f + b₂ f) + resid f` over a hidden row `h` of width 128. The two
  programs differ only in how they spell the hidden row. The reference contracts one concatenated row of width 256
  against the whole first weight matrix and then adds the bias. The kernel contracts the 64-wide pieces separately
  against the matching row bands of the matrix, folds the global row's band into the bias, and (for atoms) adds two
  bands of the matrix before contracting them against the atom row, which appears twice in the reference's
  concatenation. The neighbour mean divides a masked sum over 32 neighbours by the larger of their count and one;
  the kernel counts by adding the 0/1 mask values as reals, the reference by adding them as integers.
-/
import Idealize.ShloMosaic.PureOps.Ideal
import Idealize.ShloMosaic.PureOps.Ideal.Laws

noncomputable section

namespace Cert.Spec

open Idealize.ShloMosaic

/-- Soft-plus as both programs compute it on one extended real: `max x 0 + log (1 + exp (-|x|))`. -/
def softplus (x : EReal) : EReal := max x 0 + Ideal.log1p (Ideal.exp (-(max x (-x))))

/-- A layer's output row from its hidden row: contract the soft-plus of the hidden row against the second weight
    matrix, add the second bias, add the residual row. -/
def layerOut (h : Fin 128 → EReal) (W₂ : Fin 128 → Fin 64 → EReal) (b₂ resid : Fin 64 → EReal) (f : Fin 64) : EReal :=
  ((∑ j : Fin 128, softplus (h j) * W₂ j f) + b₂ f) + resid f

/-- Row `k` of band `b` (of four bands of 64 rows) of a 256-row matrix. -/
def band (W : Fin 256 → Fin 128 → EReal) (b : Fin 4) (k : Fin 64) (j : Fin 128) : EReal :=
  W ⟨64 * b.val + k.val, by omega⟩ j

/-- Four rows of width 64 laid side by side: entry `k` of the row of width 256. -/
def cat4 (x₀ x₁ x₂ x₃ : Fin 64 → EReal) (k : Fin 256) : EReal :=
  if h₀ : k.val < 64 then x₀ ⟨k.val, h₀⟩
  else if h₁ : k.val < 128 then x₁ ⟨k.val - 64, by omega⟩
  else if h₂ : k.val < 192 then x₂ ⟨k.val - 128, by omega⟩
  else x₃ ⟨k.val - 192, by omega⟩

/-- The hidden row as the reference spells it: one contraction of width 256, then the bias. -/
def hiddenRef (x : Fin 256 → EReal) (W : Fin 256 → Fin 128 → EReal) (b : Fin 128 → EReal) (j : Fin 128) : EReal :=
  (∑ k : Fin 256, x k * W k j) + b j

/-- The bond update's hidden row as the kernel spells it: three contractions of width 64 against bands 0, 1, 2, added
    left to right, plus the bias into which the global row's contraction against band 3 was folded. -/
def hiddenBondKer (ai aj bf g : Fin 64 → EReal) (W : Fin 256 → Fin 128 → EReal) (b : Fin 128 → EReal) (j : Fin 128) : EReal :=
  (((∑ k : Fin 64, ai k * band W 0 k j) + (∑ k : Fin 64, aj k * band W 1 k j)) + (∑ k : Fin 64, bf k * band W 2 k j))
    + (b j + ∑ k : Fin 64, g k * band W 3 k j)

/-- The atom update's hidden row as the kernel spells it: the atom row against the SUM of bands 0 and 2, the
    neighbour mean against band 1, plus the bias with the global row's contraction against band 3 folded in. -/
def hiddenAtomKer (af agg g : Fin 64 → EReal) (W : Fin 256 → Fin 128 → EReal) (b : Fin 128 → EReal) (j : Fin 128) : EReal :=
  ((∑ k : Fin 64, af k * (band W 0 k j + band W 2 k j)) + (∑ k : Fin 64, agg k * band W 1 k j))
    + (b j + ∑ k : Fin 64, g k * band W 3 k j)

/-- Three contractions of width 64 added left to right, plus a bias row: the bond kernel's hidden row over the
    arrays its body is handed. -/
def hidden3 (x₀ x₁ x₂ : Fin 64 → EReal) (W₀ W₁ W₂ : Fin 64 → Fin 128 → EReal) (b : Fin 128 → EReal) (j : Fin 128) : EReal :=
  (((∑ k : Fin 64, x₀ k * W₀ k j) + (∑ k : Fin 64, x₁ k * W₁ k j)) + (∑ k : Fin 64, x₂ k * W₂ k j)) + b j

/-- Two contractions of width 64 plus a bias row: the atom kernel's hidden row over the arrays its body is handed. -/
def hidden2 (x₀ x₁ : Fin 64 → EReal) (W₀ W₁ : Fin 64 → Fin 128 → EReal) (b : Fin 128 → EReal) (j : Fin 128) : EReal :=
  ((∑ k : Fin 64, x₀ k * W₀ k j) + (∑ k : Fin 64, x₁ k * W₁ k j)) + b j

/-- The neighbour mean, given the count: the masked sum over the 32 neighbours divided by `max count 1`. -/
def meanBy (nb : Fin 32 → Fin 64 → EReal) (mk : Fin 32 → EReal) (cnt : EReal) (f : Fin 64) : EReal :=
  Ideal.div (∑ d : Fin 32, nb d f * mk d) (max cnt 1)

/-- Three rows of width 64 laid side by side: entry `k` of the row of width 192. -/
def cat3 (x₀ x₁ x₂ : Fin 64 → EReal) (k : Fin 192) : EReal :=
  if h₀ : k.val < 64 then x₀ ⟨k.val, h₀⟩
  else if h₁ : k.val < 128 then x₁ ⟨k.val - 64, by omega⟩
  else x₂ ⟨k.val - 128, by omega⟩

/-- The global update's output row: the pooled atom row, the pooled bond row and the global row laid side by side,
    contracted against the first weight matrix, biased, soft-plussed, contracted against the second, biased, plus
    the global row. -/
def globalOut (ap bp g : Fin 64 → EReal) (W₁ : Fin 192 → Fin 128 → EReal) (b₁ : Fin 128 → EReal)
    (W₂ : Fin 128 → Fin 64 → EReal) (b₂ : Fin 64 → EReal) (f : Fin 64) : EReal :=
  ((∑ j : Fin 128, softplus ((∑ k : Fin 192, cat3 ap bp g k * W₁ k j) + b₁ j) * W₂ j f) + b₂ f) + g f

/-- The 0/1 value of a mask bit, as a real. -/
def bitVal (b : BitVec 1) : EReal := if b = 1#1 then 1 else 0

end Cert.Spec

end
-- ==== Proof.KiBondValue.lean ====
/-
  Region 0 (the bond update) as values. At each grid point the body stores one block of 8000 updated bond rows and
  adds that block's column sums into a running row of 64 sums. This module reads both as functions of the region's
  input arrays, entry by entry, over the extended reals.

  The stored block. Entry (p, f) of the block at grid point t is the layer's output on row 8000 t + p: three
  contractions of width 64 (the two gathered atom rows and the bond's own row against three bands of the first
  weights) added left to right, plus a bias row, through soft-plus, then one contraction of width 128 against the
  second weights, plus the second bias, plus the bond's own row as residual. A contraction into a zero accumulator is
  the plain sum of products; a change of float format is the identity; and the body's spelling of soft-plus, a select
  on whether x - 0 differs from itself, takes the ordinary branch because no extended real differs from itself.

  The arrays. The 100 blocks tile the 800000 rows, block n / 8000 holding row n, so the bond array after the region is
  that one function at every row. The running row starts at zero at the first point, every point adds its block's
  column sums, and it is written back once, after the last point; so it ends at the sum over the 100 blocks of their
  column sums, which regrouped over rows is the column sum of the whole bond array.
-/
import proofs.«112152_j7275674599671_1_alg».proof.Proof.KiBondData
import proofs.«112152_j7275674599671_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Tactic
import Mathlib.Algebra.BigOperators.Fin
import Mathlib.Logic.Equiv.Fin.Basic

set_option maxRecDepth 16384

noncomputable section

namespace Cert.KernelIdeal.BondValue

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.Spec

/-! ## The pieces the body's run found, read back as the payloads of the point's input blocks -/

section
variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- The activated hidden block of a grid point, from its input blocks. -/
abbrev hid0 (c : Dev nD) (t : Fin cfg0.N) : FVec F S8000x128 .bf16 :=
  k0_pay4 (iblk0 V c 0 t) (iblk0 V c 1 t) (iblk0 V c 2 t) (iblk0 V c 3 t) (iblk0 V c 4 t) (iblk0 V c 5 t) (iblk0 V c 6 t)

/-- At the first point the bond block's buffer ends with its one covering store's payload. -/
theorem out0_A_9_eq (c : Dev nD) (t : Fin cfg0.N) (h : t.val % 100 = 0) :
    out0_A_9 V c t h = k0_pay1 (iblk0 V c 2 t) (hid0 V c t) (iblk0 V c 7 t) (iblk0 V c 8 t) := by
  unfold out0_A_9
  rw [View.read_writes_eq_canon _ _ _ (cover0_A_9 V c t h)]
  unfold run0A kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S8000x64) hz2, View.ld_unit_zero (S := S64x128) hz2, View.ld_unit_zero (S := S1x128) hz2, View.ld_unit_zero (S := S128x64) hz2, View.ld_unit_zero (S := S1x64) hz2]

/-- At a later point likewise: the bond block does not depend on the running sum. -/
theorem out0_B_9_eq (c : Dev nD) (t : Fin cfg0.N) (h : ¬t.val % 100 = 0) (xo : Vec F S1x64 .f32) :
    out0_B_9 V c t h xo = k0_pay1 (iblk0 V c 2 t) (hid0 V c t) (iblk0 V c 7 t) (iblk0 V c 8 t) := by
  unfold out0_B_9
  rw [View.read_writes_eq_canon _ _ _ (cover0_B_9 V c t h xo)]
  unfold run0B kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, View.ld_unit_zero (S := S8000x64) hz2, View.ld_unit_zero (S := S64x128) hz2, View.ld_unit_zero (S := S1x128) hz2, View.ld_unit_zero (S := S128x64) hz2, View.ld_unit_zero (S := S1x64) hz2]

/-- At the first point the running sum's buffer is first reset, then read back and added to: the later store covers. -/
theorem out0_A_10_eq (c : Dev nD) (t : Fin cfg0.N) (h : t.val % 100 = 0) :
    out0_A_10 V c t h = k0_pay3 (iblk0 V c 2 t) (hid0 V c t) (iblk0 V c 7 t) (iblk0 V c 8 t) (k0_pay2 (F := F)) := by
  unfold out0_A_10
  rw [View.read_writes_eq_canon _ _ _ (cover0_A_10 V c t h)]
  unfold run0A kernelRun0_A
  dsimp only
  sl_unfold_words
  rw [View.canon_cons_unit_zero (S := S1x64) hz2, View.readCov_unit_zero (S := S1x64) _ hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S8000x64) hz2, View.ld_unit_zero (S := S64x128) hz2, View.ld_unit_zero (S := S1x128) hz2, View.ld_unit_zero (S := S128x64) hz2, View.ld_unit_zero (S := S1x64) hz2]

/-- At a later point the running sum's buffer is read at its earlier contents and added to. -/
theorem out0_B_10_eq (c : Dev nD) (t : Fin cfg0.N) (h : ¬t.val % 100 = 0) (xo : Vec F S1x64 .f32) :
    out0_B_10 V c t h xo = k0_pay3 (iblk0 V c 2 t) (hid0 V c t) (iblk0 V c 7 t) (iblk0 V c 8 t) xo := by
  unfold out0_B_10
  rw [View.read_writes_eq_canon _ _ _ (cover0_B_10 V c t h xo)]
  unfold run0B kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, View.ld_unit_zero (S := S8000x64) hz2, View.ld_unit_zero (S := S64x128) hz2, View.ld_unit_zero (S := S1x128) hz2, View.ld_unit_zero (S := S128x64) hz2, View.ld_unit_zero (S := S1x64) hz2]

end

/-! ## The two contractions of the body, read at an index -/

theorem lhsA_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhsA_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhsA_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhsA_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- Entry (p, c) of the product into the zero accumulator is the sum over the 64 contracted coordinates of the
    left operand's entry in row p times the right operand's entry in column c. -/
theorem matA_apply (x : FVec Ideal S8000x64 .bf16) (w : FVec Ideal S64x128 .bf16) (p : Fin 8000) (c : Fin 128) :
    matmul dot_S8000x64_S64x128_S8000x128_1_0_0_1_n_n none x w (constant S8000x128 .f32 0x00000000#32) (ix2 p c)
      = ∑ k : Fin 64, x (ix2 p k) * w (ix2 k c) := by
  simp only [matmul]
  rw [Ideal.matmul_constant_zero_apply, ← Equiv.sum_comp (ValueIdx.contrEquiv1 dot_S8000x64_S64x128_S8000x128_1_0_0_1_n_n 64 rfl rfl).symm]
  refine Finset.sum_congr rfl fun k _ => ?_
  have hk := ValueIdx.contrEquiv1_symm_val dot_S8000x64_S64x128_S8000x128_1_0_0_1_n_n 64 rfl rfl k
  have el : dot_S8000x64_S64x128_S8000x128_1_0_0_1_n_n.lhsIdx (ix2 p c) ((ValueIdx.contrEquiv1 dot_S8000x64_S64x128_S8000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S8000x64_S64x128_S8000x128_1_0_0_1_n_n.rhsIdx (ix2 p c) ((ValueIdx.contrEquiv1 dot_S8000x64_S64x128_S8000x128_1_0_0_1_n_n 64 rfl rfl).symm k) = ix2 k c := funext fun a => Fin.ext (by
    match a with
    | ⟨0, _⟩ => exact (rhsA_0 _ _).trans hk
    | ⟨1, _⟩ => exact rhsA_1 _ _)
  rw [el, er]

theorem lhsB_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhsB_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhsB_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhsB_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- Entry (p, c) of the product into the zero accumulator is the sum over the 128 contracted coordinates of the
    left operand's entry in row p times the right operand's entry in column c. -/
theorem matB_apply (x : FVec Ideal S8000x128 .bf16) (w : FVec Ideal S128x64 .bf16) (p : Fin 8000) (c : Fin 64) :
    matmul dot_S8000x128_S128x64_S8000x64_1_0_0_1_n_n none x w (constant S8000x64 .f32 0x00000000#32) (ix2 p c)
      = ∑ k : Fin 128, x (ix2 p k) * w (ix2 k c) := by
  simp only [matmul]
  rw [Ideal.matmul_constant_zero_apply, ← Equiv.sum_comp (ValueIdx.contrEquiv1 dot_S8000x128_S128x64_S8000x64_1_0_0_1_n_n 128 rfl rfl).symm]
  refine Finset.sum_congr rfl fun k _ => ?_
  have hk := ValueIdx.contrEquiv1_symm_val dot_S8000x128_S128x64_S8000x64_1_0_0_1_n_n 128 rfl rfl k
  have el : dot_S8000x128_S128x64_S8000x64_1_0_0_1_n_n.lhsIdx (ix2 p c) ((ValueIdx.contrEquiv1 dot_S8000x128_S128x64_S8000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S8000x128_S128x64_S8000x64_1_0_0_1_n_n.rhsIdx (ix2 p c) ((ValueIdx.contrEquiv1 dot_S8000x128_S128x64_S8000x64_1_0_0_1_n_n 128 rfl rfl).symm k) = ix2 k c := funext fun a => Fin.ext (by
    match a with
    | ⟨0, _⟩ => exact (rhsB_0 _ _).trans hk
    | ⟨1, _⟩ => exact rhsB_1 _ _)
  rw [el, er]

/-! ## The body's soft-plus on one extended real -/

/-- The body spells soft-plus as a select on whether d differs from d, with d = x - 0. On the extended reals nothing
    differs from itself, so the second branch is taken; subtracting zero or subtracting from zero is the identity or
    the negation. -/
theorem softplus_ker (x : EReal) :
    Scalar.select (Ideal.cmp .one (x - 0) (x - 0)) (x + 0)
        (max x 0 + Ideal.log1p (Ideal.exp (0 - max (x - 0) (-(x - 0))))) = softplus x := by
  have h0 : Ideal.cmp .one (x - 0) (x - 0) = 0#1 := by simp [Ideal.cmp]
  rw [h0, select_zero, sub_zero, zero_sub]
  rfl

theorem absf_vapply {s : Shape} {φ : FTy} (a : FVec Ideal s φ) (i : s.Idx) : absf a i = max (a i) (-(a i)) := rfl
theorem exp_vapply {s : Shape} {φ : FTy} (a : FVec Ideal s φ) (i : s.Idx) : exp a i = Ideal.exp (a i) := rfl
theorem log1p_vapply {s : Shape} {φ : FTy} (a : FVec Ideal s φ) (i : s.Idx) : log1p a i = Ideal.log1p (a i) := rfl
theorem cmpf_vapply {s : Shape} {φ : FTy} (p : CmpFPredicate) (a b : FVec Ideal s φ) (i : s.Idx) :
    cmpf p a b i = Ideal.cmp p (a i) (b i) := rfl
theorem scalar_zero : (Scalar.ofBits (F := Ideal) .f32 0x00000000#32 : Ideal .f32) = (0 : EReal) := Ideal.ofBits_zero_f32

/-! ## The hidden row -/

/-- The activated hidden block at (p, j): soft-plus of the three contractions of row p of the three input blocks
    against column j of the three bands, added left to right, plus the bias row's entry j. -/
theorem pay4_apply (v0 v3 v6 : Vec Ideal S8000x64 .f32) (v8 v11 v15 : Vec Ideal S64x128 .bf16) (v19 : Vec Ideal S1x128 .f32)
    (p : Fin 8000) (j : Fin 128) :
    k0_pay4 (F := Ideal) v0 v3 v6 v8 v11 v15 v19 (ix2 p j)
      = softplus (hidden3 (fun k => v0 (ix2 p k)) (fun k => v3 (ix2 p k)) (fun k => v6 (ix2 p k))
          (fun k j => v8 (ix2 k j)) (fun k j => v11 (ix2 k j)) (fun k j => v15 (ix2 k j)) (fun j => v19 (ix2 0 j)) j) := by
  unfold k0_pay4
  simp only [truncf_apply, select_apply, cmpf_vapply, addf_apply, subf_apply, maximumf_apply, broadcast_apply,
    absf_vapply, exp_vapply, log1p_vapply, matA_apply, shapeCast_self, broadcastTo_1b_ab_apply, scalar_zero]
  exact softplus_ker _

/-! ## The bond block and the column sum -/

/-- The stored block at (p, f): the activated hidden row p against column f of the second weights, plus the second
    bias, plus the residual entry. -/
theorem pay1_apply (v6 : Vec Ideal S8000x64 .f32) (v37 : FVec Ideal S8000x128 .bf16) (v38 : Vec Ideal S128x64 .bf16)
    (v41 : Vec Ideal S1x64 .f32) (p : Fin 8000) (f : Fin 64) :
    k0_pay1 (F := Ideal) v6 v37 v38 v41 (ix2 p f)
      = ((∑ j : Fin 128, v37 (ix2 p j) * v38 (ix2 j f)) + v41 (ix2 0 f)) + v6 (ix2 p f) := by
  unfold k0_pay1
  simp only [addf_apply, matB_apply, shapeCast_self, broadcastTo_1b_ab_apply]

/-- So the stored block at (p, f) is the layer's output entry f on row p of the three input blocks. -/
theorem layer_apply (v0 v3 v6 : Vec Ideal S8000x64 .f32) (v8 v11 v15 : Vec Ideal S64x128 .bf16) (v19 : Vec Ideal S1x128 .f32)
    (v38 : Vec Ideal S128x64 .bf16) (v41 : Vec Ideal S1x64 .f32) (p : Fin 8000) (f : Fin 64) :
    k0_pay1 (F := Ideal) v6 (k0_pay4 (F := Ideal) v0 v3 v6 v8 v11 v15 v19) v38 v41 (ix2 p f)
      = layerOut (hidden3 (fun k => v0 (ix2 p k)) (fun k => v3 (ix2 p k)) (fun k => v6 (ix2 p k))
          (fun k j => v8 (ix2 k j)) (fun k j => v11 (ix2 k j)) (fun k j => v15 (ix2 k j)) (fun j => v19 (ix2 0 j)))
          (fun j f => v38 (ix2 j f)) (fun f => v41 (ix2 0 f)) (fun k => v6 (ix2 p k)) f := by
  rw [pay1_apply]
  unfold layerOut
  simp only [pay4_apply]

/-- The sum over the 8000 rows of a block, read at column f. -/
theorem colsum_apply (src : FVec Ideal S8000x64 .f32) (f : Fin 64) :
    multiReduction (F := Ideal) .add [0] S64 src 0x00000000#32 reduces_S8000x64_S64 (.inl rfl) rfl (ix1 f)
      = ∑ p : Fin 8000, src (ix2 p f) := by
  refine (Ideal.multiReduction_add_single src 0x00000000#32 reduces_S8000x64_S64 (.inl rfl) rfl (ix1 f)).trans ?_
  show ∑ p : Fin 8000, src (reduces_S8000x64_S64.lift (ix1 f) p) = _
  refine Finset.sum_congr rfl fun p _ => congrArg src ?_
  funext a
  match a with
  | ⟨0, _⟩ => rfl
  | ⟨1, _⟩ => rfl

/-- The running sum's new contents at column f: its old contents there plus the block's column sum. -/
theorem pay3_apply (v6 : Vec Ideal S8000x64 .f32) (v37 : FVec Ideal S8000x128 .bf16) (v38 : Vec Ideal S128x64 .bf16)
    (v41 : Vec Ideal S1x64 .f32) (v50 : Vec Ideal S1x64 .f32) (f : Fin 64) :
    k0_pay3 (F := Ideal) v6 v37 v38 v41 v50 (ix2 0 f)
      = v50 (ix2 0 f) + ∑ p : Fin 8000, k0_pay1 (F := Ideal) v6 v37 v38 v41 (ix2 p f) := by
  unfold k0_pay3
  simp only [addf_apply, shapeCast_self, shapeCast_a_1a_apply]
  exact congrArg (v50 (ix2 0 f) + ·) (colsum_apply (k0_pay1 (F := Ideal) v6 v37 v38 v41) f)

/-- The reset value is zero everywhere. -/
theorem pay2_apply (i : S1x64.Idx) : (k0_pay2 (F := Ideal)) i = 0 := scalar_zero

/-! ## The arrays, the blocks, and where a block sits in its array -/

section
variable (V : (c : Dev nD) → (b : Ref sig .tc) → Buf (Elt Ideal) ((c : Thread nD τ).loc b))

/-- The nine input arrays of the bond update, as the region finds them. -/
abbrev aiArr (c : Dev nD) : Vec Ideal S800000x64 .f32 := V c main_v8
abbrev ajArr (c : Dev nD) : Vec Ideal S800000x64 .f32 := V c main_v17
abbrev bfArr (c : Dev nD) : Vec Ideal S800000x64 .f32 := V c main_arg1
abbrev w0Arr (c : Dev nD) : Vec Ideal S64x128 .bf16 := V c main_v19
abbrev w1Arr (c : Dev nD) : Vec Ideal S64x128 .bf16 := V c main_v21
abbrev w2Arr (c : Dev nD) : Vec Ideal S64x128 .bf16 := V c main_v23
abbrev biasArr (c : Dev nD) : Vec Ideal S1x128 .f32 := V c main_v27
abbrev w2oArr (c : Dev nD) : Vec Ideal S128x64 .bf16 := V c main_v28
abbrev b2Arr (c : Dev nD) : Vec Ideal S1x64 .f32 := V c main_v29

/-- Each input window's block at a grid point, at its literal type. -/
abbrev blk0 (c : Dev nD) (t : Fin cfg0.N) : Vec Ideal S8000x64 .f32 := iblk0 V c 0 t
abbrev blk1 (c : Dev nD) (t : Fin cfg0.N) : Vec Ideal S8000x64 .f32 := iblk0 V c 1 t
abbrev blk2 (c : Dev nD) (t : Fin cfg0.N) : Vec Ideal S8000x64 .f32 := iblk0 V c 2 t
abbrev blk3 (c : Dev nD) (t : Fin cfg0.N) : Vec Ideal S64x128 .bf16 := iblk0 V c 3 t
abbrev blk4 (c : Dev nD) (t : Fin cfg0.N) : Vec Ideal S64x128 .bf16 := iblk0 V c 4 t
abbrev blk5 (c : Dev nD) (t : Fin cfg0.N) : Vec Ideal S64x128 .bf16 := iblk0 V c 5 t
abbrev blk6 (c : Dev nD) (t : Fin cfg0.N) : Vec Ideal S1x128 .f32 := iblk0 V c 6 t
abbrev blk7 (c : Dev nD) (t : Fin cfg0.N) : Vec Ideal S128x64 .bf16 := iblk0 V c 7 t
abbrev blk8 (c : Dev nD) (t : Fin cfg0.N) : Vec Ideal S1x64 .f32 := iblk0 V c 8 t

theorem N100 : cfg0.N = 100 := N_0

/-- Row p of the block at grid point t is row 8000 t + p of the array. -/
def rowOf (t : Fin cfg0.N) (p : Fin 8000) : Fin 800000 :=
  ⟨8000 * t.val + p.val, by have := lt_of_lt_of_eq t.isLt N100; have := p.isLt; omega⟩

/-- The block index of each window at each grid point: the three row-block inputs and the bond output move with the
    point along the rows; every other window stays at block (0, 0). Decided over the grid. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx0_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx0_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- A block's entry is the array's entry at the block's offset plus the entry's own coordinates. -/
theorem blk0_apply (c : Dev nD) (t : Fin cfg0.N) (p : Fin 8000) (k : Fin 64) :
    blk0 V c t (ix2 p k) = aiArr V c (ix2 (rowOf t p) k) := by
  show iblk0 V c 0 t (ix2 p k) = _
  unfold iblk0
  rw [View.read_apply]
  show V c main_v8 _ = V c main_v8 _
  refine congrArg (V c main_v8) ?_
  funext a
  apply Fin.ext
  match a with
  | ⟨0, _⟩ => show win0_0.index t (0 : Fin 2) * 8000 + 1 * p.val = 8000 * t.val + p.val; rw [(idx0_0 t).1]; omega
  | ⟨1, _⟩ => show win0_0.index t (1 : Fin 2) * 64 + 1 * k.val = k.val; rw [(idx0_0 t).2]; omega
theorem blk1_apply (c : Dev nD) (t : Fin cfg0.N) (p : Fin 8000) (k : Fin 64) :
    blk1 V c t (ix2 p k) = ajArr V c (ix2 (rowOf t p) k) := by
  show iblk0 V c 1 t (ix2 p k) = _
  unfold iblk0
  rw [View.read_apply]
  show V c main_v17 _ = V c main_v17 _
  refine congrArg (V c main_v17) ?_
  funext a
  apply Fin.ext
  match a with
  | ⟨0, _⟩ => show win0_1.index t (0 : Fin 2) * 8000 + 1 * p.val = 8000 * t.val + p.val; rw [(idx0_1 t).1]; omega
  | ⟨1, _⟩ => show win0_1.index t (1 : Fin 2) * 64 + 1 * k.val = k.val; rw [(idx0_1 t).2]; omega
theorem blk2_apply (c : Dev nD) (t : Fin cfg0.N) (p : Fin 8000) (k : Fin 64) :
    blk2 V c t (ix2 p k) = bfArr V c (ix2 (rowOf t p) k) := by
  show iblk0 V c 2 t (ix2 p k) = _
  unfold iblk0
  rw [View.read_apply]
  show V c main_arg1 _ = V c main_arg1 _
  refine congrArg (V c main_arg1) ?_
  funext a
  apply Fin.ext
  match a with
  | ⟨0, _⟩ => show win0_2.index t (0 : Fin 2) * 8000 + 1 * p.val = 8000 * t.val + p.val; rw [(idx0_2 t).1]; omega
  | ⟨1, _⟩ => show win0_2.index t (1 : Fin 2) * 64 + 1 * k.val = k.val; rw [(idx0_2 t).2]; omega
theorem blk3_apply (c : Dev nD) (t : Fin cfg0.N) (a0 : Fin 64) (a1 : Fin 128) :
    blk3 V c t (ix2 a0 a1) = w0Arr V c (ix2 a0 a1) := by
  show iblk0 V c 3 t (ix2 a0 a1) = _
  unfold iblk0
  rw [View.read_apply]
  show V c main_v19 _ = V c main_v19 _
  refine congrArg (V c main_v19) ?_
  funext a
  apply Fin.ext
  match a with
  | ⟨0, _⟩ => show win0_3.index t (0 : Fin 2) * 64 + 1 * a0.val = a0.val; rw [(idx0_3 t).1]; omega
  | ⟨1, _⟩ => show win0_3.index t (1 : Fin 2) * 128 + 1 * a1.val = a1.val; rw [(idx0_3 t).2]; omega
theorem blk4_apply (c : Dev nD) (t : Fin cfg0.N) (a0 : Fin 64) (a1 : Fin 128) :
    blk4 V c t (ix2 a0 a1) = w1Arr V c (ix2 a0 a1) := by
  show iblk0 V c 4 t (ix2 a0 a1) = _
  unfold iblk0
  rw [View.read_apply]
  show V c main_v21 _ = V c main_v21 _
  refine congrArg (V c main_v21) ?_
  funext a
  apply Fin.ext
  match a with
  | ⟨0, _⟩ => show win0_4.index t (0 : Fin 2) * 64 + 1 * a0.val = a0.val; rw [(idx0_4 t).1]; omega
  | ⟨1, _⟩ => show win0_4.index t (1 : Fin 2) * 128 + 1 * a1.val = a1.val; rw [(idx0_4 t).2]; omega
theorem blk5_apply (c : Dev nD) (t : Fin cfg0.N) (a0 : Fin 64) (a1 : Fin 128) :
    blk5 V c t (ix2 a0 a1) = w2Arr V c (ix2 a0 a1) := by
  show iblk0 V c 5 t (ix2 a0 a1) = _
  unfold iblk0
  rw [View.read_apply]
  show V c main_v23 _ = V c main_v23 _
  refine congrArg (V c main_v23) ?_
  funext a
  apply Fin.ext
  match a with
  | ⟨0, _⟩ => show win0_5.index t (0 : Fin 2) * 64 + 1 * a0.val = a0.val; rw [(idx0_5 t).1]; omega
  | ⟨1, _⟩ => show win0_5.index t (1 : Fin 2) * 128 + 1 * a1.val = a1.val; rw [(idx0_5 t).2]; omega
theorem blk6_apply (c : Dev nD) (t : Fin cfg0.N) (a0 : Fin 1) (a1 : Fin 128) :
    blk6 V c t (ix2 a0 a1) = biasArr V c (ix2 a0 a1) := by
  show iblk0 V c 6 t (ix2 a0 a1) = _
  unfold iblk0
  rw [View.read_apply]
  show V c main_v27 _ = V c main_v27 _
  refine congrArg (V c main_v27) ?_
  funext a
  apply Fin.ext
  match a with
  | ⟨0, _⟩ => show win0_6.index t (0 : Fin 2) * 1 + 1 * a0.val = a0.val; rw [(idx0_6 t).1]; omega
  | ⟨1, _⟩ => show win0_6.index t (1 : Fin 2) * 128 + 1 * a1.val = a1.val; rw [(idx0_6 t).2]; omega
theorem blk7_apply (c : Dev nD) (t : Fin cfg0.N) (a0 : Fin 128) (a1 : Fin 64) :
    blk7 V c t (ix2 a0 a1) = w2oArr V c (ix2 a0 a1) := by
  show iblk0 V c 7 t (ix2 a0 a1) = _
  unfold iblk0
  rw [View.read_apply]
  show V c main_v28 _ = V c main_v28 _
  refine congrArg (V c main_v28) ?_
  funext a
  apply Fin.ext
  match a with
  | ⟨0, _⟩ => show win0_7.index t (0 : Fin 2) * 128 + 1 * a0.val = a0.val; rw [(idx0_7 t).1]; omega
  | ⟨1, _⟩ => show win0_7.index t (1 : Fin 2) * 64 + 1 * a1.val = a1.val; rw [(idx0_7 t).2]; omega
theorem blk8_apply (c : Dev nD) (t : Fin cfg0.N) (a0 : Fin 1) (a1 : Fin 64) :
    blk8 V c t (ix2 a0 a1) = b2Arr V c (ix2 a0 a1) := by
  show iblk0 V c 8 t (ix2 a0 a1) = _
  unfold iblk0
  rw [View.read_apply]
  show V c main_v29 _ = V c main_v29 _
  refine congrArg (V c main_v29) ?_
  funext a
  apply Fin.ext
  match a with
  | ⟨0, _⟩ => show win0_8.index t (0 : Fin 2) * 1 + 1 * a0.val = a0.val; rw [(idx0_8 t).1]; omega
  | ⟨1, _⟩ => show win0_8.index t (1 : Fin 2) * 64 + 1 * a1.val = a1.val; rw [(idx0_8 t).2]; omega

/-- The updated bond row n at feature f, from the arrays: the layer applied to row n of the three row arrays. -/
def bondOut (c : Dev nD) (n : Fin 800000) (f : Fin 64) : EReal :=
  layerOut (hidden3 (fun k => aiArr V c (ix2 n k)) (fun k => ajArr V c (ix2 n k)) (fun k => bfArr V c (ix2 n k))
      (fun k j => w0Arr V c (ix2 k j)) (fun k j => w1Arr V c (ix2 k j)) (fun k j => w2Arr V c (ix2 k j))
      (fun j => biasArr V c (ix2 0 j)))
    (fun j f => w2oArr V c (ix2 j f)) (fun f => b2Arr V c (ix2 0 f)) (fun k => bfArr V c (ix2 n k)) f

/-- The activated hidden block and the stored bond block at a grid point, from that point's input blocks. -/
abbrev hidBlk (c : Dev nD) (t : Fin cfg0.N) : FVec Ideal S8000x128 .bf16 :=
  k0_pay4 (F := Ideal) (blk0 V c t) (blk1 V c t) (blk2 V c t) (blk3 V c t) (blk4 V c t) (blk5 V c t) (blk6 V c t)
abbrev outBlk (c : Dev nD) (t : Fin cfg0.N) : Vec Ideal S8000x64 .f32 :=
  k0_pay1 (F := Ideal) (blk2 V c t) (hidBlk V c t) (blk7 V c t) (blk8 V c t)

/-- The stored bond block at (p, f) is the updated bond row 8000 t + p at f. -/
theorem outBlk_apply (c : Dev nD) (t : Fin cfg0.N) (p : Fin 8000) (f : Fin 64) :
    outBlk V c t (ix2 p f) = bondOut V c (rowOf t p) f := by
  refine (layer_apply (blk0 V c t) (blk1 V c t) (blk2 V c t) (blk3 V c t) (blk4 V c t) (blk5 V c t) (blk6 V c t)
    (blk7 V c t) (blk8 V c t) p f).trans ?_
  unfold bondOut
  simp only [blk0_apply, blk1_apply, blk2_apply, blk3_apply, blk4_apply, blk5_apply, blk6_apply, blk7_apply, blk8_apply]

end

/-! ## What the two output buffers hold after each grid point -/

section
variable (V : (c : Dev nD) → (b : Ref sig .tc) → Buf (Elt Ideal) ((c : Thread nD τ).loc b))

/-- After the body at any grid point the bond block's buffer holds that point's stored block. -/
theorem outs_fst (c : Dev nD) (t : Fin cfg0.N) : (outsAt0 V c t.val t.isLt).1 = outBlk V c t := by
  by_cases h0 : t.val % 100 = 0
  · rw [outsAt0_A V c t h0]
    dsimp only
    exact out0_A_9_eq V c t h0
  · rw [outsAt0_B V c t h0]
    dsimp only
    exact out0_B_9_eq V c t h0 _

/-- (1) The block value: after the body at grid point t, entry (p, f) of the bond block's buffer is the updated bond
    row 8000 t + p at feature f. -/
theorem block_value (c : Dev nD) (t : Fin cfg0.N) (p : Fin 8000) (f : Fin 64) :
    (outsAt0 V c t.val t.isLt).1 (ix2 p f) = bondOut V c (rowOf t p) f :=
  (congrFun (outs_fst V c t) (ix2 p f)).trans (outBlk_apply V c t p f)

/-- The column sum of the block stored at position i of the grid (zero past the grid). -/
def colSum (c : Dev nD) (f : Fin 64) (i : ℕ) : EReal :=
  if h : i < cfg0.N then ∑ p : Fin 8000, outBlk V c ⟨i, h⟩ (ix2 p f) else 0

theorem colSum_of_lt (c : Dev nD) (f : Fin 64) (i : ℕ) (h : i < cfg0.N) :
    colSum V c f i = ∑ p : Fin 8000, outBlk V c ⟨i, h⟩ (ix2 p f) := by
  unfold colSum
  rw [dif_pos h]

/-- After the body at position n the running sum's buffer holds, at column f, the sum of the column sums of the
    blocks stored at positions 0 … n: it is reset to zero at the first point, and each point adds its own. -/
theorem outs_snd (c : Dev nD) (f : Fin 64) :
    ∀ (n : ℕ) (hn : n < cfg0.N), (outsAt0 V c n hn).2 (ix2 0 f) = ∑ i ∈ Finset.range (n + 1), colSum V c f i
  | 0, hn => by
    rw [outsAt0_A V c ⟨0, hn⟩ rfl]
    dsimp only
    rw [out0_A_10_eq V c ⟨0, hn⟩ rfl]
    refine (pay3_apply (blk2 V c ⟨0, hn⟩) (hidBlk V c ⟨0, hn⟩) (blk7 V c ⟨0, hn⟩) (blk8 V c ⟨0, hn⟩) (k0_pay2 (F := Ideal)) f).trans ?_
    rw [pay2_apply, zero_add, Finset.sum_range_one]
    exact (colSum_of_lt V c f 0 hn).symm
  | n + 1, hn => by
    have hN : n + 1 < 100 := lt_of_lt_of_eq hn N100
    have hB : ¬(⟨n + 1, hn⟩ : Fin cfg0.N).val % 100 = 0 := by dsimp only; omega
    rw [outsAt0_B V c ⟨n + 1, hn⟩ hB]
    dsimp only
    rw [out0_B_10_eq V c ⟨n + 1, hn⟩ hB]
    refine (pay3_apply (blk2 V c ⟨n + 1, hn⟩) (hidBlk V c ⟨n + 1, hn⟩) (blk7 V c ⟨n + 1, hn⟩) (blk8 V c ⟨n + 1, hn⟩)
      (outsAt0 V c n (Nat.lt_of_succ_lt hn)).2 f).trans ?_
    rw [Finset.sum_range_succ]
    exact congrArg₂ (· + ·) (outs_snd c f n (Nat.lt_of_succ_lt hn)) (colSum_of_lt V c f (n + 1) hn).symm

/-! ## From the blocks to the arrays -/

/-- The bond array the region leaves, as one function of the input arrays. -/
def bondArr (c : Dev nD) : Vec Ideal S800000x64 .f32 :=
  fun i => bondOut V c ⟨(i 0).val, idx2_lt0 i⟩ ⟨(i 1).val, idx2_lt1 i⟩

/-- An index of the bond array is in the block of grid point t iff each coordinate is in the block's range. -/
theorem mem_blk9 (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v30_0).slice (win0_9.rect t)).set ↔ _
  rw [View.set_slice_whole, Rect.mem_set_unit]
  exact Iff.rfl

/-- What grid point t writes back to the bond array is block t of that one function. -/
theorem flushed9_eq (c : Dev nD) (t : Fin cfg0.N) :
    (dat0 V c).flushed 9 t = ((cfg0.win 9).blk t).view.read (Elt Ideal) (bondArr V c) := by
  show (cfg0.win 9).cut (grid0.coords t) ((dat0 V c).after 9 t) = _
  rw [after0_9]
  funext y
  obtain ⟨p, q, rfl⟩ : ∃ (p : Fin 8000) (q : Fin 64), y = ix2 p q := ⟨y 0, y 1, eq_ix2 y⟩
  rw [View.read_apply]
  show (outsAt0 V c t.val t.isLt).1 (ix2 p q) = bondArr V c (((cfg0.win 9).blk t).view.emb (ix2 p q))
  have he : ((cfg0.win 9).blk t).view.emb (ix2 p q) = ix2 (rowOf t p) q := by
    funext a
    apply Fin.ext
    match a with
    | ⟨0, _⟩ => show win0_9.index t (0 : Fin 2) * 8000 + 1 * p.val = 8000 * t.val + p.val; rw [(idx0_9 t).1]; omega
    | ⟨1, _⟩ => show win0_9.index t (1 : Fin 2) * 64 + 1 * q.val = q.val; rw [(idx0_9 t).2]; omega
  rw [he]
  exact block_value V c t p q

/-- (2) The bond array after the region: the blocks tile the rows, block n / 8000 holding row n. -/
theorem final9_arr (c : Dev nD) : (dat0 V c).arrAt 9 cfg0.N = bondArr V c :=
  (dat0 V c).arrAt_eq_of_cover 9 (bondArr V c) (fun t _ => flushed9_eq V c t) fun i => by
    have h0 : (i 0).val < 800000 := (i 0).isLt
    have h1 : (i 1).val < 64 := (i 1).isLt
    refine ⟨⟨(i 0).val / 8000, by rw [N100]; omega⟩, flush0_9 _, ?_⟩
    rw [mem_blk9]
    intro a
    match a with
    | ⟨0, _⟩ =>
      show win0_9.index _ (0 : Fin 2) * 8000 ≤ (i 0).val ∧ (i 0).val < win0_9.index _ (0 : Fin 2) * 8000 + 8000
      rw [(idx0_9 _).1]; dsimp only; omega
    | ⟨1, _⟩ =>
      show win0_9.index _ (1 : Fin 2) * 64 ≤ (i 1).val ∧ (i 1).val < win0_9.index _ (1 : Fin 2) * 64 + 64
      rw [(idx0_9 _).2]; omega

/-- The two output arrays after the region, at their literal types. -/
abbrev bondsAfter (c : Dev nD) : Vec Ideal S800000x64 .f32 := (dat0 V c).arrAt 9 cfg0.N
abbrev sumAfter (c : Dev nD) : Vec Ideal S1x64 .f32 := (dat0 V c).arrAt 10 cfg0.N

theorem final9 (c : Dev nD) (n : Fin 800000) (f : Fin 64) : bondsAfter V c (ix2 n f) = bondOut V c n f :=
  congrFun (final9_arr V c) (ix2 n f)

end

/-! ## The column sum of the whole bond array -/

section
variable (V : (c : Dev nD) → (b : Ref sig .tc) → Buf (Elt Ideal) ((c : Thread nD τ).loc b))

/-- A sum over the 800000 rows is the sum over the 100 blocks of the sums over each block's 8000 rows. -/
theorem sum_rows (g : Fin 800000 → EReal) :
    ∑ n : Fin 800000, g n
      = ∑ t : Fin 100, ∑ p : Fin 8000, g ⟨8000 * t.val + p.val, by have := t.isLt; have := p.isLt; omega⟩ := by
  rw [← (finProdFinEquiv (m := 100) (n := 8000)).sum_comp g, Fintype.sum_prod_type]
  refine Finset.sum_congr rfl fun t _ => Finset.sum_congr rfl fun p _ => ?_
  refine congrArg g (Fin.ext ?_)
  show p.val + 8000 * t.val = 8000 * t.val + p.val
  omega

theorem lastLt : 99 < cfg0.N := by rw [N100]; decide
/-- The last grid point, the only one after which the running sum is written back. -/
abbrev tLast : Fin cfg0.N := ⟨99, lastLt⟩
/-- What the running sum's buffer holds after the last grid point. -/
abbrev sumArr (c : Dev nD) : Vec Ideal S1x64 .f32 := (outsAt0 V c 99 lastLt).2

theorem mem_blk10 (t : Fin cfg0.N) (i : S1x64.Idx) :
    i ∈ ((cfg0.win 10).blk t).view.set ↔ ∀ a : Fin 2, win0_10.index t a * S1x64.size a ≤ (i a).val ∧ (i a).val < win0_10.index t a * S1x64.size a + S1x64.size a := by
  show i ∈ ((View.whole main_v30_1).slice (win0_10.rect t)).set ↔ _
  rw [View.set_slice_whole, Rect.mem_set_unit]
  exact Iff.rfl

/-- The one write-back of the running sum, after the last point, writes the buffer's contents there: its block is
    the whole one-row array. -/
theorem flushed10_eq (c : Dev nD) (t : Fin cfg0.N) (hf : (cfg0.win 10).flush t = true) :
    (dat0 V c).flushed 10 t = ((cfg0.win 10).blk t).view.read (Elt Ideal) (sumArr V c) := by
  have hN : t.val < 100 := lt_of_lt_of_eq t.isLt N100
  have h99 : t.val = 99 := by have := (flush0_10 t).mp hf; omega
  show (cfg0.win 10).cut (grid0.coords t) ((dat0 V c).after 10 t) = _
  rw [after0_10]
  funext y
  obtain ⟨u, q, rfl⟩ : ∃ (u : Fin 1) (q : Fin 64), y = ix2 u q := ⟨y 0, y 1, eq_ix2 y⟩
  show (outsAt0 V c t.val t.isLt).2 (ix2 u q) = sumArr V c (((cfg0.win 10).blk t).view.emb (ix2 u q))
  have he : ((cfg0.win 10).blk t).view.emb (ix2 u q) = ix2 u q := by
    funext a
    apply Fin.ext
    match a with
    | ⟨0, _⟩ => show win0_10.index t (0 : Fin 2) * 1 + 1 * u.val = u.val; rw [(idx0_10 t).1]; omega
    | ⟨1, _⟩ => show win0_10.index t (1 : Fin 2) * 64 + 1 * q.val = q.val; rw [(idx0_10 t).2]; omega
  rw [he]
  obtain ⟨n, hn⟩ := t
  dsimp only at h99
  subst h99
  rfl

theorem final10_arr (c : Dev nD) : (dat0 V c).arrAt 10 cfg0.N = sumArr V c :=
  (dat0 V c).arrAt_eq_of_cover 10 (sumArr V c) (flushed10_eq V c) fun i => by
    have h0 : (i 0).val < 1 := (i 0).isLt
    have h1 : (i 1).val < 64 := (i 1).isLt
    refine ⟨tLast, (flush0_10 tLast).mpr rfl, ?_⟩
    rw [mem_blk10]
    intro a
    match a with
    | ⟨0, _⟩ =>
      show win0_10.index tLast (0 : Fin 2) * 1 ≤ (i 0).val ∧ (i 0).val < win0_10.index tLast (0 : Fin 2) * 1 + 1
      rw [(idx0_10 tLast).1]; omega
    | ⟨1, _⟩ =>
      show win0_10.index tLast (1 : Fin 2) * 64 ≤ (i 1).val ∧ (i 1).val < win0_10.index tLast (1 : Fin 2) * 64 + 64
      rw [(idx0_10 tLast).2]; omega

/-- A block's column sum is the sum of the updated bond rows it holds. -/
theorem colSum_eq (c : Dev nD) (f : Fin 64) (t : Fin cfg0.N) :
    colSum V c f t.val = ∑ p : Fin 8000, bondOut V c (rowOf t p) f := by
  rw [colSum_of_lt V c f t.val t.isLt]
  exact Finset.sum_congr rfl fun p _ => outBlk_apply V c t p f

/-- (3) The running-sum array after the region is, at each feature, the sum of the bond array's column. -/
theorem final10 (c : Dev nD) (f : Fin 64) :
    sumAfter V c (ix2 0 f) = ∑ n : Fin 800000, bondsAfter V c (ix2 n f) := by
  have e9 : bondsAfter V c = bondArr V c := final9_arr V c
  have e10 : sumAfter V c = sumArr V c := final10_arr V c
  rw [e9, e10]
  show (outsAt0 V c 99 lastLt).2 (ix2 0 f) = ∑ n : Fin 800000, bondOut V c n f
  have e1 : (outsAt0 V c 99 lastLt).2 (ix2 0 f) = ∑ i ∈ Finset.range 100, colSum V c f i := outs_snd V c f 99 lastLt
  rw [e1, Finset.sum_range, sum_rows]
  refine Finset.sum_congr rfl fun t _ => ?_
  exact colSum_eq V c f ⟨t.val, by rw [N100]; exact t.isLt⟩

end

end Cert.KernelIdeal.BondValue

end
-- ==== Proof.KiHostValue.lean ====
/-
  What the host operations of the kernel program leave in the buffers its two regions read, for any contents at the
  stretch's start. Before the bond update the host cuts the first weight matrix (256 rows) into four bands of 64 rows:
  bands 0, 1, 2 are handed over as they are, band 3 is contracted against the global row and added to the first bias,
  and the atom rows at each bond's two endpoints are gathered. Between the two regions the host does the same for the
  atom update, except that bands 0 and 2 are added before they are handed over, the updated bond rows at every atom's
  neighbour slots are gathered, and the mask of real neighbours is turned into zeros and ones. Every weight and bias is
  read here at an index, as an entry of the launch arrays; the gathered arrays are left as named terms of the arrays
  they are gathered from. A change of float format is the identity on extended reals, so it disappears.
-/
import proofs.«112152_j7275674599671_1_alg».proof.Proof.Gen.KernelIdeal.Launch
import proofs.«112152_j7275674599671_1_alg».proof.Proof.Gen.KernelIdeal.Regions
import proofs.«112152_j7275674599671_1_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal
import Idealize.ShloMosaic.PureOps.Ideal.Laws
import Mathlib.Algebra.BigOperators.Fin

noncomputable section

namespace Cert.KernelIdeal.HostValue

open Cert.KernelIdeal Cert.KernelIdeal.Gen Cert.Spec Idealize.ShloMosaic Idealize.ShloMosaic.StableHlo
open Idealize.ShloMosaic.TcCoe Idealize.ShloMosaic.ValueIdx

/-! ## The launch arrays of a valuation, at their literal types -/

section Args
variable (W : Valuation τ sig (Elt Ideal))
/-- The arguments of the program as plain arrays. -/
abbrev a0 : Vec Ideal S100000x64 .f32 := W main_arg0
abbrev a2 : Vec Ideal S1x64 .f32 := W main_arg2
abbrev a3 : Vec Ideal S256x128 .f32 := W main_arg3
abbrev a4 : Vec Ideal S128 .f32 := W main_arg4
abbrev a5 : Vec Ideal S128x64 .f32 := W main_arg5
abbrev a6 : Vec Ideal S64 .f32 := W main_arg6
abbrev a7 : Vec Ideal S256x128 .f32 := W main_arg7
abbrev a8 : Vec Ideal S128 .f32 := W main_arg8
abbrev a9 : Vec Ideal S128x64 .f32 := W main_arg9
abbrev a10 : Vec Ideal S64 .f32 := W main_arg10
abbrev a15 : IVec S800000x2 32 := W main_arg15
abbrev a16 : IVec S100000x32 32 := W main_arg16
end Args

/-! ## Layout operations and the row-by-matrix product read at an index -/

section Read

/-- Rows `64 b … 64 b + 63` cut from a matrix of 256 rows are band `b` of it. -/
theorem slice_band (X : Vec Ideal S256x128 .f32) (o : ℕ) (h : S256x128.Slices ![o, 0] S64x128) (b : Fin 4)
    (ho : o = 64 * b.val) (k : Fin 64) (j : Fin 128) :
    extractStridedSlice S64x128 ![o, 0] X h (ix2 k j) = band (fun k j => X (ix2 k j)) b k j := by
  subst ho
  unfold band
  exact slice2_axis0_apply _ X h k j _ rfl

/-- A row of width 128 laid over a one-row matrix reads its own entry. -/
theorem bcast_row128 (x : Vec Ideal S128 .f32) (j : Fin 128) :
    broadcastInDim S1x128 ![1] bcast_S128_S1x128_1 x (ix2 0 j) = x (ix1 j) :=
  broadcastInDim_apply _ bcast_S128_S1x128_1 x _ (ix1 j) (fun a => match a with
    | ⟨0, _⟩ => by show j.val = if (128 : Nat) = 1 then 0 else j.val; rw [if_neg (by decide)])

/-- A row of width 64 laid over a one-row matrix reads its own entry. -/
theorem bcast_row64 (x : Vec Ideal S64 .f32) (f : Fin 64) :
    broadcastInDim S1x64 ![1] bcast_S64_S1x64_1 x (ix2 0 f) = x (ix1 f) :=
  broadcastInDim_apply _ bcast_S64_S1x64_1 x _ (ix1 f) (fun a => match a with
    | ⟨0, _⟩ => by show f.val = if (64 : Nat) = 1 then 0 else f.val; rw [if_neg (by decide)])

/-- A one-row matrix times a matrix, contracting the row's one long axis against the matrix's rows: entry `j` of the
    product is the sum over the contracted position of the products. The four hypotheses say which coordinate of the
    result or of the contracted position each operand axis reads. -/
theorem rowDot_apply {K N : ℕ} (d : DotDims (⟨2, ![1, K]⟩ : Shape) ⟨2, ![K, N]⟩ ⟨2, ![1, N]⟩)
    (hr : d.contr.rank = 1) (hs : d.contr.size ⟨0, by omega⟩ = K)
    (hl0 : ∀ (i : (⟨2, ![1, N]⟩ : Shape).Idx) (q : d.contr.Idx), (d.lhsIdx i q 0).val = (i 0).val)
    (hl1 : ∀ (i : (⟨2, ![1, N]⟩ : Shape).Idx) (q : d.contr.Idx), (d.lhsIdx i q 1).val = (q ⟨0, by omega⟩).val)
    (hr0 : ∀ (i : (⟨2, ![1, N]⟩ : Shape).Idx) (q : d.contr.Idx), (d.rhsIdx i q 0).val = (q ⟨0, by omega⟩).val)
    (hr1 : ∀ (i : (⟨2, ![1, N]⟩ : Shape).Idx) (q : d.contr.Idx), (d.rhsIdx i q 1).val = (i 1).val)
    (x : FVec Ideal ⟨2, ![1, K]⟩ .f32) (M : FVec Ideal ⟨2, ![K, N]⟩ .f32) (j : Fin N) :
    Host.dotGeneral (F := Ideal) d none x M (ix2 0 j) = ∑ k : Fin K, x (ix2 0 k) * M (ix2 k j) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 0 j) ((contrEquiv1 d K hr hs).symm k) = ix2 0 k := funext fun a => Fin.ext (by
    match a with
    | ⟨0, _⟩ => exact hl0 _ _
    | ⟨1, _⟩ => exact (hl1 _ _).trans hk)
  have er : d.rhsIdx (ix2 0 j) ((contrEquiv1 d K hr hs).symm k) = ix2 k j := funext fun a => Fin.ext (by
    match a with
    | ⟨0, _⟩ => exact (hr0 _ _).trans hk
    | ⟨1, _⟩ => exact hr1 _ _)
  rw [el, er]

/-! The axis facts of the three products' dimension numbers, each at its literal axis. -/

theorem dA_l0 (i : S1x128.Idx) (q : dot_S1x64_S64x128_S1x128_1_0_0_1_n_n.contr.Idx) :
    (dot_S1x64_S64x128_S1x128_1_0_0_1_n_n.lhsIdx i q 0).val = (i 0).val := by
  unfold DotDims.lhsIdx
  rw [dif_neg (show ¬(0 : Fin S1x64.rank) ∈ dot_S1x64_S64x128_S1x128_1_0_0_1_n_n.lhsBatch by decide),
    dif_pos (show (0 : Fin S1x64.rank) ∈ dot_S1x64_S64x128_S1x128_1_0_0_1_n_n.lhsNonContracting by decide)]
  rfl
theorem dA_l1 (i : S1x128.Idx) (q : dot_S1x64_S64x128_S1x128_1_0_0_1_n_n.contr.Idx) :
    (dot_S1x64_S64x128_S1x128_1_0_0_1_n_n.lhsIdx i q 1).val = (q ⟨0, by decide⟩).val :=
  dot_S1x64_S64x128_S1x128_1_0_0_1_n_n.lhsIdx_val_of_single rfl i q
theorem dA_r0 (i : S1x128.Idx) (q : dot_S1x64_S64x128_S1x128_1_0_0_1_n_n.contr.Idx) :
    (dot_S1x64_S64x128_S1x128_1_0_0_1_n_n.rhsIdx i q 0).val = (q ⟨0, by decide⟩).val :=
  dot_S1x64_S64x128_S1x128_1_0_0_1_n_n.rhsIdx_val_of_single rfl i q
theorem dA_r1 (i : S1x128.Idx) (q : dot_S1x64_S64x128_S1x128_1_0_0_1_n_n.contr.Idx) :
    (dot_S1x64_S64x128_S1x128_1_0_0_1_n_n.rhsIdx i q 1).val = (i 1).val := by
  unfold DotDims.rhsIdx
  rw [dif_neg (show ¬(1 : Fin S64x128.rank) ∈ dot_S1x64_S64x128_S1x128_1_0_0_1_n_n.rhsBatch by decide),
    dif_pos (show (1 : Fin S64x128.rank) ∈ dot_S1x64_S64x128_S1x128_1_0_0_1_n_n.rhsNonContracting by decide)]
  rfl

/-- The global row against one 64-row band: the product the kernel folds into a bias. -/
theorem dotA_apply (x : Vec Ideal S1x64 .f32) (M : Vec Ideal S64x128 .f32) (j : Fin 128) :
    Host.dotGeneral (F := Ideal) (φ₁ := .f32) (φ₂ := .f32) dot_S1x64_S64x128_S1x128_1_0_0_1_n_n none x M (ix2 0 j)
      = ∑ k : Fin 64, x (ix2 0 k) * M (ix2 k j) :=
  rowDot_apply dot_S1x64_S64x128_S1x128_1_0_0_1_n_n rfl rfl dA_l0 dA_l1 dA_r0 dA_r1 x M j

end Read

/-! ## The first host stretch: the buffers the bond update reads, as terms of the launch arrays and at an index -/

section Stretch0
variable (W : Valuation τ sig (Elt Ideal))

/-- A buffer the first host stretch does not write keeps its launch contents. -/
theorem keep0 (r : Ref sig .tc) (h : r ∉ hostOps0_W) : StableHlo.after (hostOps0 (F := Ideal)) W r = W r :=
  StableHlo.after_of_writes_sub hostOps0 W hostOps0_writes h

theorem v19_eq : (StableHlo.after (hostOps0 (F := Ideal)) W main_v19 : Vec Ideal S64x128 .bf16)
    = truncf (F := Ideal) .bf16 (extractStridedSlice S64x128 ![0, 0] (a3 W) slices_S256x128_S64x128_0_0) bitsLt_bf16_f32 := by
  after_results_simp
theorem v21_eq : (StableHlo.after (hostOps0 (F := Ideal)) W main_v21 : Vec Ideal S64x128 .bf16)
    = truncf (F := Ideal) .bf16 (extractStridedSlice S64x128 ![64, 0] (a3 W) slices_S256x128_S64x128_64_0) bitsLt_bf16_f32 := by
  after_results_simp
theorem v23_eq : (StableHlo.after (hostOps0 (F := Ideal)) W main_v23 : Vec Ideal S64x128 .bf16)
    = truncf (F := Ideal) .bf16 (extractStridedSlice S64x128 ![128, 0] (a3 W) slices_S256x128_S64x128_128_0) bitsLt_bf16_f32 := by
  after_results_simp
theorem v27_eq : (StableHlo.after (hostOps0 (F := Ideal)) W main_v27 : Vec Ideal S1x128 .f32)
    = addf (F := Ideal) (broadcastInDim S1x128 ![1] bcast_S128_S1x128_1 (a4 W))
        (Host.dotGeneral (F := Ideal) (φ₁ := .f32) (φ₂ := .f32) dot_S1x64_S64x128_S1x128_1_0_0_1_n_n none (a2 W)
          (extractStridedSlice S64x128 ![192, 0] (a3 W) slices_S256x128_S64x128_192_0)) := by
  after_results_simp
theorem v28_eq : (StableHlo.after (hostOps0 (F := Ideal)) W main_v28 : Vec Ideal S128x64 .bf16)
    = truncf (F := Ideal) .bf16 (a5 W) bitsLt_bf16_f32 := by
  after_results_simp
theorem v29_eq : (StableHlo.after (hostOps0 (F := Ideal)) W main_v29 : Vec Ideal S1x64 .f32)
    = broadcastInDim S1x64 ![1] bcast_S64_S1x64_1 (a6 W) := by
  after_results_simp

/-- The bond update's first weight matrix by row and column. -/
abbrev Wb1 (k : Fin 256) (j : Fin 128) : EReal := a3 W (ix2 k j)

/-- The three weight bands the bond update is handed are bands 0, 1, 2 of its first weight matrix. -/
theorem v19_apply (k : Fin 64) (j : Fin 128) :
    (StableHlo.after (hostOps0 (F := Ideal)) W main_v19 : Vec Ideal S64x128 .bf16) (ix2 k j) = band (Wb1 W) 0 k j :=
  (congrFun (v19_eq W) _).trans (slice_band (a3 W) 0 slices_S256x128_S64x128_0_0 0 (by decide) k j)
theorem v21_apply (k : Fin 64) (j : Fin 128) :
    (StableHlo.after (hostOps0 (F := Ideal)) W main_v21 : Vec Ideal S64x128 .bf16) (ix2 k j) = band (Wb1 W) 1 k j :=
  (congrFun (v21_eq W) _).trans (slice_band (a3 W) 64 slices_S256x128_S64x128_64_0 1 (by decide) k j)
theorem v23_apply (k : Fin 64) (j : Fin 128) :
    (StableHlo.after (hostOps0 (F := Ideal)) W main_v23 : Vec Ideal S64x128 .bf16) (ix2 k j) = band (Wb1 W) 2 k j :=
  (congrFun (v23_eq W) _).trans (slice_band (a3 W) 128 slices_S256x128_S64x128_128_0 2 (by decide) k j)

/-- The bias row the bond update is handed: the first bias plus the global row against band 3. -/
theorem v27_apply (j : Fin 128) :
    (StableHlo.after (hostOps0 (F := Ideal)) W main_v27 : Vec Ideal S1x128 .f32) (ix2 0 j)
      = a4 W (ix1 j) + ∑ k : Fin 64, a2 W (ix2 0 k) * band (Wb1 W) 3 k j := by
  refine (congrFun (v27_eq W) _).trans ?_
  rw [addf_apply, bcast_row128, dotA_apply]
  refine congrArg _ (Finset.sum_congr rfl fun k _ => ?_)
  rw [slice_band (a3 W) 192 slices_S256x128_S64x128_192_0 3 (by decide) k j]

/-- The second weight matrix and the second bias reach the bond update unchanged. -/
theorem v28_apply (j : Fin 128) (f : Fin 64) :
    (StableHlo.after (hostOps0 (F := Ideal)) W main_v28 : Vec Ideal S128x64 .bf16) (ix2 j f) = a5 W (ix2 j f) :=
  congrFun (v28_eq W) _
theorem v29_apply (f : Fin 64) :
    (StableHlo.after (hostOps0 (F := Ideal)) W main_v29 : Vec Ideal S1x64 .f32) (ix2 0 f) = a6 W (ix1 f) :=
  (congrFun (v29_eq W) _).trans (bcast_row64 (a6 W) f)

/-- A column of bond endpoints made usable as row numbers: an entry below zero is moved up by the number of atoms. -/
def wrapAtom (col : IVec S800000x1 32) : IVec S800000x1 32 :=
  broadcastInDim S800000x1 ![0] bcast_S800000_S800000x1_0
    (select
      (cmpi .slt (shapeCast S800000 col shapeCasts_S800000x1_S800000) (broadcastInDim S800000 ![] bcast_S_S800000 (constantI S_ 32 0#32)))
      (addi (shapeCast S800000 col shapeCasts_S800000x1_S800000) (broadcastInDim S800000 ![] bcast_S_S800000 (constantI S_ 32 100000#32)))
      (shapeCast S800000 col shapeCasts_S800000x1_S800000))

/-- The atom rows at the bonds' first endpoints. -/
def gI (A0 : Vec Ideal S100000x64 .f32) (I15 : IVec S800000x2 32) : Vec Ideal S800000x64 .f32 :=
  Host.gather gather_S100000x64_S800000x1_S800000x64_1_0_n_n_0_1_164 A0
    (wrapAtom (extractStridedSlice S800000x1 ![0, 0] I15 slices_S800000x2_S800000x1_0_0))
/-- The atom rows at the bonds' second endpoints. -/
def gJ (A0 : Vec Ideal S100000x64 .f32) (I15 : IVec S800000x2 32) : Vec Ideal S800000x64 .f32 :=
  Host.gather gather_S100000x64_S800000x1_S800000x64_1_0_n_n_0_1_164 A0
    (wrapAtom (extractStridedSlice S800000x1 ![0, 1] I15 slices_S800000x2_S800000x1_0_1))

theorem v8_eq : (StableHlo.after (hostOps0 (F := Ideal)) W main_v8 : Vec Ideal S800000x64 .f32) = gI (a0 W) (a15 W) := by
  after_results_simp <;> rfl
theorem v17_eq : (StableHlo.after (hostOps0 (F := Ideal)) W main_v17 : Vec Ideal S800000x64 .f32) = gJ (a0 W) (a15 W) := by
  after_results_simp <;> rfl

end Stretch0

/-! ## The host stretches between the two regions: the buffers the atom update reads -/

section Stretch1
variable (W : Valuation τ sig (Elt Ideal))

/-- The contents after the three host stretches that run between the two regions. -/
abbrev after1 : Valuation τ sig (Elt Ideal) :=
  StableHlo.after (hostOps1_2 (F := Ideal)) (StableHlo.after (hostOps1_1 (F := Ideal)) (StableHlo.after (hostOps1 (F := Ideal)) W))

/-- A buffer none of the three stretches writes keeps its contents. -/
theorem keep1 (r : Ref sig .tc) (h : r ∉ hostOps1_W) (h1 : r ∉ hostOps1_1_W) (h2 : r ∉ hostOps1_2_W) : after1 W r = W r :=
  (StableHlo.after_of_writes_sub hostOps1_2 _ hostOps1_2_writes h2).trans
    ((StableHlo.after_of_writes_sub hostOps1_1 _ hostOps1_1_writes h1).trans
      (StableHlo.after_of_writes_sub hostOps1 W hostOps1_writes h))

/-- The mask of real neighbours: set where the neighbour table's entry is not below zero. -/
def nbMask (I16 : IVec S100000x32 32) : IVec S100000x32 1 :=
  cmpi .sge I16 (broadcastInDim S100000x32 ![] bcast_S_S100000x32 (constantI S_ 32 0#32))
/-- One bit of that mask: atom `n`'s neighbour slot `d` holds a bond. -/
def bit (I16 : IVec S100000x32 32) (n : Fin 100000) (d : Fin 32) : BitVec 1 := IntOp.cmpi .sge (I16 (ix2 n d)) 0#32
theorem nbMask_apply (I16 : IVec S100000x32 32) (n : Fin 100000) (d : Fin 32) : nbMask I16 (ix2 n d) = bit I16 n d := by
  unfold nbMask bit
  show IntOp.cmpi .sge (I16 (ix2 n d)) (broadcastInDim S100000x32 ![] bcast_S_S100000x32 (constantI S_ 32 0#32) (ix2 n d)) = _
  rw [broadcastInDim_scalar_apply]
  rfl

/-- The neighbour table with the empty slots pointed at bond 0, then entries below zero moved up by the number of bonds. -/
def nbIdx (I16 : IVec S100000x32 32) : IVec S100000x32 32 :=
  select
    (cmpi .slt (select (nbMask I16) I16 (broadcastInDim S100000x32 ![] bcast_S_S100000x32 (constantI S_ 32 0#32)))
      (broadcastInDim S100000x32 ![] bcast_S_S100000x32 (constantI S_ 32 0#32)))
    (addi (select (nbMask I16) I16 (broadcastInDim S100000x32 ![] bcast_S_S100000x32 (constantI S_ 32 0#32)))
      (broadcastInDim S100000x32 ![] bcast_S_S100000x32 (constantI S_ 32 800000#32)))
    (select (nbMask I16) I16 (broadcastInDim S100000x32 ![] bcast_S_S100000x32 (constantI S_ 32 0#32)))

/-- The updated bond rows at every atom's 32 neighbour slots. -/
def nB (B : Vec Ideal S800000x64 .f32) (I16 : IVec S100000x32 32) : Vec Ideal S100000x32x64 .f32 :=
  Host.gather gather_S800000x64_S100000x32x1_S100000x32x64_2_0_n_n_0_2_164 B
    (broadcastInDim S100000x32x1 ![0, 1] bcast_S100000x32_S100000x32x1_0_1 (nbIdx I16))

/-- The first region's bond rows, as the stretches find them. -/
abbrev b30 : Vec Ideal S800000x64 .f32 := W main_v30_0

theorem v40_eq : (after1 W main_v40 : Vec Ideal S100000x32x64 .f32) = nB (b30 W) (a16 W) := by
  show StableHlo.after (hostOps1_2 (F := Ideal)) _ (Proc.devRef .tc main_v40) = _
  after_results_simp <;> rfl

theorem v41_eq : (after1 W main_v41 : Vec Ideal S100000x32 .f32) = uitofp (F := Ideal) .f32 (nbMask (a16 W)) := by
  show StableHlo.after (hostOps1_2 (F := Ideal)) _ (Proc.devRef .tc main_v41) = _
  after_results_simp <;> rfl

/-- The real value of a one-bit word read unsigned is its 0/1 value. -/
theorem toNat_bitVal (b : BitVec 1) : (((b.toNat : ℕ) : ℝ) : EReal) = bitVal b := by
  unfold bitVal
  rcases BitVec.eq_zero_or_eq_one b with h | h <;> subst h <;> simp

/-- The mask as reals: 1 where the slot holds a bond, 0 where it is empty. -/
theorem v41_apply (n : Fin 100000) (d : Fin 32) :
    (after1 W main_v41 : Vec Ideal S100000x32 .f32) (ix2 n d) = bitVal (bit (a16 W) n d) := by
  refine (congrFun (v41_eq W) _).trans ?_
  show (((nbMask (a16 W) (ix2 n d)).toNat : ℝ) : EReal) = _
  rw [nbMask_apply, toNat_bitVal]

theorem v45_eq : (after1 W main_v45 : Vec Ideal S64x128 .bf16)
    = truncf (F := Ideal) .bf16 (addf (F := Ideal) (extractStridedSlice S64x128 ![0, 0] (a7 W) slices_S256x128_S64x128_0_0)
        (extractStridedSlice S64x128 ![128, 0] (a7 W) slices_S256x128_S64x128_128_0)) bitsLt_bf16_f32 := by
  show StableHlo.after (hostOps1_2 (F := Ideal)) _ (Proc.devRef .tc main_v45) = _
  after_results_simp
theorem v47_eq : (after1 W main_v47 : Vec Ideal S64x128 .bf16)
    = truncf (F := Ideal) .bf16 (extractStridedSlice S64x128 ![64, 0] (a7 W) slices_S256x128_S64x128_64_0) bitsLt_bf16_f32 := by
  show StableHlo.after (hostOps1_2 (F := Ideal)) _ (Proc.devRef .tc main_v47) = _
  after_results_simp
theorem v51_eq : (after1 W main_v51 : Vec Ideal S1x128 .f32)
    = addf (F := Ideal) (broadcastInDim S1x128 ![1] bcast_S128_S1x128_1 (a8 W))
        (Host.dotGeneral (F := Ideal) (φ₁ := .f32) (φ₂ := .f32) dot_S1x64_S64x128_S1x128_1_0_0_1_n_n none (a2 W)
          (extractStridedSlice S64x128 ![192, 0] (a7 W) slices_S256x128_S64x128_192_0)) := by
  show StableHlo.after (hostOps1_2 (F := Ideal)) _ (Proc.devRef .tc main_v51) = _
  after_results_simp
theorem v52_eq : (after1 W main_v52 : Vec Ideal S128x64 .bf16) = truncf (F := Ideal) .bf16 (a9 W) bitsLt_bf16_f32 := by
  show StableHlo.after (hostOps1_2 (F := Ideal)) _ (Proc.devRef .tc main_v52) = _
  after_results_simp
theorem v53_eq : (after1 W main_v53 : Vec Ideal S1x64 .f32) = broadcastInDim S1x64 ![1] bcast_S64_S1x64_1 (a10 W) := by
  show StableHlo.after (hostOps1_2 (F := Ideal)) _ (Proc.devRef .tc main_v53) = _
  after_results_simp

/-- The atom update's first weight matrix by row and column. -/
abbrev Wa1 (k : Fin 256) (j : Fin 128) : EReal := a7 W (ix2 k j)

/-- The atom update is handed the sum of bands 0 and 2 of its first weight matrix, and band 1. -/
theorem v45_apply (k : Fin 64) (j : Fin 128) :
    (after1 W main_v45 : Vec Ideal S64x128 .bf16) (ix2 k j) = band (Wa1 W) 0 k j + band (Wa1 W) 2 k j := by
  refine (congrFun (v45_eq W) _).trans ?_
  show extractStridedSlice S64x128 ![0, 0] (a7 W) slices_S256x128_S64x128_0_0 (ix2 k j)
    + extractStridedSlice S64x128 ![128, 0] (a7 W) slices_S256x128_S64x128_128_0 (ix2 k j) = _
  rw [slice_band (a7 W) 0 slices_S256x128_S64x128_0_0 0 (by decide) k j,
    slice_band (a7 W) 128 slices_S256x128_S64x128_128_0 2 (by decide) k j]
theorem v47_apply (k : Fin 64) (j : Fin 128) :
    (after1 W main_v47 : Vec Ideal S64x128 .bf16) (ix2 k j) = band (Wa1 W) 1 k j :=
  (congrFun (v47_eq W) _).trans (slice_band (a7 W) 64 slices_S256x128_S64x128_64_0 1 (by decide) k j)

/-- The bias row the atom update is handed: the first bias plus the global row against band 3. -/
theorem v51_apply (j : Fin 128) :
    (after1 W main_v51 : Vec Ideal S1x128 .f32) (ix2 0 j)
      = a8 W (ix1 j) + ∑ k : Fin 64, a2 W (ix2 0 k) * band (Wa1 W) 3 k j := by
  refine (congrFun (v51_eq W) _).trans ?_
  rw [addf_apply, bcast_row128, dotA_apply]
  refine congrArg _ (Finset.sum_congr rfl fun k _ => ?_)
  rw [slice_band (a7 W) 192 slices_S256x128_S64x128_192_0 3 (by decide) k j]

theorem v52_apply (j : Fin 128) (f : Fin 64) :
    (after1 W main_v52 : Vec Ideal S128x64 .bf16) (ix2 j f) = a9 W (ix2 j f) :=
  congrFun (v52_eq W) _
theorem v53_apply (f : Fin 64) :
    (after1 W main_v53 : Vec Ideal S1x64 .f32) (ix2 0 f) = a10 W (ix1 f) :=
  (congrFun (v53_eq W) _).trans (bcast_row64 (a10 W) f)

end Stretch1

/-! ## Arrays the host stretches leave alone -/

section Kept
variable (W : Valuation τ sig (Elt Ideal))

/-- The bond rows the bond update reads are not written by the first host stretch. -/
theorem arg1_keep0 : StableHlo.after (hostOps0 (F := Ideal)) W main_arg1 = W main_arg1 := keep0 W _ (by decide)
/-- The atom rows the atom update reads are not written between the regions. -/
theorem arg0_keep1 : after1 W main_arg0 = W main_arg0 := keep1 W _ (by decide) (by decide) (by decide)

/-- The contents after the three host stretches that close the program. -/
abbrev after2 : Valuation τ sig (Elt Ideal) :=
  StableHlo.after (hostOps2_2 (F := Ideal)) (StableHlo.after (hostOps2_1 (F := Ideal)) (StableHlo.after (hostOps2 (F := Ideal)) W))

/-- A buffer none of the closing stretches writes keeps its contents. -/
theorem keep2 (r : Ref sig .tc) (h : r ∉ hostOps2_W) (h1 : r ∉ hostOps2_1_W) (h2 : r ∉ hostOps2_2_W) : after2 W r = W r :=
  (StableHlo.after_of_writes_sub hostOps2_2 _ hostOps2_2_writes h2).trans
    ((StableHlo.after_of_writes_sub hostOps2_1 _ hostOps2_1_writes h1).trans
      (StableHlo.after_of_writes_sub hostOps2 W hostOps2_writes h))

/-- The updated bond rows and the updated atom rows reach the end as the regions left them. -/
theorem v30_0_keep2 : after2 W main_v30_0 = W main_v30_0 := keep2 W _ (by decide) (by decide) (by decide)
theorem v54_0_keep2 : after2 W main_v54_0 = W main_v54_0 := keep2 W _ (by decide) (by decide) (by decide)

end Kept

end Cert.KernelIdeal.HostValue

end
-- ==== Proof.RefRows.lean ====
/-
  The reference's three results read at an index, as the shared row-level mathematics.

  Each result of the reference is a chain of pointwise operations, broadcasts, concatenations along the columns,
  contractions and sums. Read at one index, the chain collapses to the layer formula on single rows: a hidden row
  (one concatenated row contracted against the first weight matrix, plus a bias), its soft-plus contracted against
  the second weight matrix, plus a bias, plus the residual row. The gathered rows are carried as whole functions
  of the arrays they are gathered from and are never read at an index.
-/
import proofs.«112152_j7275674599671_1_alg».proof.Proof.RefReadP
import proofs.«112152_j7275674599671_1_alg».proof.Proof.Spec
import Idealize.ShloMosaic.Lib.Pipeline.Value
import Idealize.ShloMosaic.Lib.ValueIdx
import Idealize.ShloMosaic.Lib.IdealHost
import Idealize.ShloMosaic.PureOps.Ideal
import Idealize.ShloMosaic.PureOps.Ideal.Laws
import Idealize.ShloMosaic.PureOps.Reduce
import Mathlib.Algebra.BigOperators.Fin
import Mathlib.Algebra.BigOperators.Group.Finset.Basic
import Mathlib.Data.EReal.Basic
import Mathlib.Data.EReal.Operations
import Mathlib.Data.BitVec

noncomputable section

namespace Cert.ReferenceIdeal.RefRows

open Cert.ReferenceIdeal Cert.ReferenceIdeal.Gen Cert.ReferenceIdeal.Read Cert.Spec Idealize.ShloMosaic Idealize.ShloMosaic.ValueIdx Idealize.ShloMosaic.TcCoe Idealize.SL.Sem Idealize.ShloMosaic.StableHlo
/-- The soft-plus as the reference's program spells it on one extended real, with the zero word for its constant:
    the comparison of a value with itself for inequality never holds on a linear order, so the selection takes
    its last argument; subtracting and adding zero change nothing; the absolute value is `max x (-x)`. -/
theorem softplus_printed (x : EReal) :
    Scalar.select (FloatOps.cmpf (F := Ideal) (φ := .f32) .une (FloatOps.subf (F := Ideal) (φ := .f32) x (FloatOps.ofBits .f32 0x00000000#32)) (FloatOps.subf (F := Ideal) (φ := .f32) x (FloatOps.ofBits .f32 0x00000000#32)))
      (FloatOps.addf (F := Ideal) (φ := .f32) x (FloatOps.ofBits .f32 0x00000000#32))
      (FloatOps.addf (F := Ideal) (φ := .f32) (FloatOps.maximumf (F := Ideal) (φ := .f32) x (FloatOps.ofBits .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) x (FloatOps.ofBits .f32 0x00000000#32)))))))
      = softplus x := by
  have hc : FloatOps.cmpf (F := Ideal) (φ := .f32) .une (FloatOps.subf (F := Ideal) (φ := .f32) x (FloatOps.ofBits .f32 0x00000000#32)) (FloatOps.subf (F := Ideal) (φ := .f32) x (FloatOps.ofBits .f32 0x00000000#32)) = 0#1 := by
    rw [Ideal.cmpf_def]; unfold Ideal.cmp; simp
  rw [hc, select_zero]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.absf_def, sub_zero]
  rfl

/-- Four arrays of 64 columns laid side by side along the columns, read at row `n` and column `k`: the column's
    band of 64 says which array, and the column inside the band which entry of its row `n`. -/
theorem concat4_apply {N : Nat} (y₀ y₁ y₂ y₃ : (⟨2, ![N, 64]⟩ : Shape).Idx → EReal)
    (h : Shape.Concatenates [(⟨2, ![N, 64]⟩ : Shape), ⟨2, ![N, 64]⟩, ⟨2, ![N, 64]⟩, ⟨2, ![N, 64]⟩] (⟨2, ![N, 256]⟩ : Shape) 1)
    (n : Fin N) (k : Fin 256) :
    concatenate (⟨2, ![N, 256]⟩ : Shape) 1 [⟨(⟨2, ![N, 64]⟩ : Shape), y₀⟩, ⟨(⟨2, ![N, 64]⟩ : Shape), y₁⟩, ⟨(⟨2, ![N, 64]⟩ : Shape), y₂⟩, ⟨(⟨2, ![N, 64]⟩ : Shape), y₃⟩] h (ix2 n k)
      = cat4 (fun q => y₀ (ix2 n q)) (fun q => y₁ (ix2 n q)) (fun q => y₂ (ix2 n q)) (fun q => y₃ (ix2 n q)) k := by
  unfold cat4
  by_cases h₀ : k.val < 64
  · rw [dif_pos h₀]
    exact concatenate_apply_piece (t := (⟨2, ![N, 256]⟩ : Shape)) 1
      [⟨(⟨2, ![N, 64]⟩ : Shape), y₀⟩, ⟨(⟨2, ![N, 64]⟩ : Shape), y₁⟩, ⟨(⟨2, ![N, 64]⟩ : Shape), y₂⟩, ⟨(⟨2, ![N, 64]⟩ : Shape), y₃⟩]
      h (ix2 n k) 0 (by show 0 < 4; omega) _ y₀ rfl rfl 0 rfl (ix2 n ⟨k.val, h₀⟩)
      (fun b hb => by match b with | ⟨0, _⟩ => rfl | ⟨1, _⟩ => exact absurd rfl hb) (by show 0 + k.val = k.val; omega)
  · rw [dif_neg h₀]
    by_cases h₁ : k.val < 128
    · rw [dif_pos h₁]
      exact concatenate_apply_piece (t := (⟨2, ![N, 256]⟩ : Shape)) 1
        [⟨(⟨2, ![N, 64]⟩ : Shape), y₀⟩, ⟨(⟨2, ![N, 64]⟩ : Shape), y₁⟩, ⟨(⟨2, ![N, 64]⟩ : Shape), y₂⟩, ⟨(⟨2, ![N, 64]⟩ : Shape), y₃⟩]
        h (ix2 n k) 1 (by show 1 < 4; omega) _ y₁ rfl rfl 64 rfl (ix2 n ⟨k.val - 64, by omega⟩)
        (fun b hb => by match b with | ⟨0, _⟩ => rfl | ⟨1, _⟩ => exact absurd rfl hb) (by show 64 + (k.val - 64) = k.val; omega)
    · rw [dif_neg h₁]
      by_cases h₂ : k.val < 192
      · rw [dif_pos h₂]
        exact concatenate_apply_piece (t := (⟨2, ![N, 256]⟩ : Shape)) 1
          [⟨(⟨2, ![N, 64]⟩ : Shape), y₀⟩, ⟨(⟨2, ![N, 64]⟩ : Shape), y₁⟩, ⟨(⟨2, ![N, 64]⟩ : Shape), y₂⟩, ⟨(⟨2, ![N, 64]⟩ : Shape), y₃⟩]
          h (ix2 n k) 2 (by show 2 < 4; omega) _ y₂ rfl rfl 128 rfl (ix2 n ⟨k.val - 128, by omega⟩)
          (fun b hb => by match b with | ⟨0, _⟩ => rfl | ⟨1, _⟩ => exact absurd rfl hb) (by show 128 + (k.val - 128) = k.val; omega)
      · rw [dif_neg h₂]
        exact concatenate_apply_piece (t := (⟨2, ![N, 256]⟩ : Shape)) 1
          [⟨(⟨2, ![N, 64]⟩ : Shape), y₀⟩, ⟨(⟨2, ![N, 64]⟩ : Shape), y₁⟩, ⟨(⟨2, ![N, 64]⟩ : Shape), y₂⟩, ⟨(⟨2, ![N, 64]⟩ : Shape), y₃⟩]
          h (ix2 n k) 3 (by show 3 < 4; omega) _ y₃ rfl rfl 192 rfl (ix2 n ⟨k.val - 192, by have := k.isLt; omega⟩)
          (fun b hb => by match b with | ⟨0, _⟩ => rfl | ⟨1, _⟩ => exact absurd rfl hb) (by show 192 + (k.val - 192) = k.val; omega)

/-- The atom rows gathered at the bonds' first endpoints, exactly as the reference's program computes them: one
    function of the atom array and the endpoint array, never opened. -/
def GI (A0 : Vec Ideal S100000x64 .f32) (I15 : IVec S800000x2 32) : Vec Ideal S800000x64 .f32 :=
  val_main_v8 (F := Ideal) A0 I15

/-- The atom rows gathered at the bonds' second endpoints, likewise. -/
def GJ (A0 : Vec Ideal S100000x64 .f32) (I15 : IVec S800000x2 32) : Vec Ideal S800000x64 .f32 :=
  val_main_v17 (F := Ideal) A0 I15

/-- The bond update's hidden row at bond `n`, entry `j`: the concatenated row of width 256 (first endpoint's atom
    row, second endpoint's, the bond's own row, the global row) contracted against the first weight matrix, plus
    the first bias. -/
theorem bond_hidden (x0 : Vec Ideal S100000x64 .f32) (x1 : Vec Ideal S800000x64 .f32) (x2 : Vec Ideal S1x64 .f32)
    (x3 : Vec Ideal S256x128 .f32) (x4 : Vec Ideal S128 .f32) (x15 : IVec S800000x2 32) (n : Fin 800000) (j : Fin 128) :
    val_main_v23 (F := Ideal) x0 x1 x2 x3 x4 x15 (ix2 n j)
      = hiddenRef (cat4 (fun q => GI x0 x15 (ix2 n q)) (fun q => GJ x0 x15 (ix2 n q)) (fun q => x1 (ix2 n q)) (fun q => x2 (ix2 0 q)))
          (fun k j => x3 (ix2 k j)) (fun j => x4 (ix1 j)) j := by
  rw [val_main_v23_apply, val_main_v20_apply, val_main_v22_apply, val_main_v21_apply, Ideal.addf_def]
  unfold hiddenRef
  refine congrArg₂ (· + ·) (Finset.sum_congr rfl fun k _ => congrArg₂ (· * ·) ?_ ?_) ?_
  · have e : lidx_main_v20 (ix2 n j) k = ix2 n k :=
      funext fun a => Fin.ext (by match a with | ⟨0, _⟩ => rfl | ⟨1, _⟩ => rfl)
    rw [e]
    unfold val_main_v19
    refine (concat4_apply _ _ _ _ _ n k).trans ?_
    refine congrArg (fun y => cat4 _ _ _ y k) (funext fun q => ?_)
    rw [val_main_v18_apply]
    exact congrArg x2 (funext fun a => Fin.ext (by match a with | ⟨0, _⟩ => rfl | ⟨1, _⟩ => rfl))
  · exact congrArg x3 (funext fun a => Fin.ext (by match a with | ⟨0, _⟩ => rfl | ⟨1, _⟩ => rfl))
  · exact congrArg x4 (funext fun a => Fin.ext (by match a with | ⟨0, _⟩ => rfl))

/-- The updated bond array as a function of the plain argument arrays, read at bond `n`, feature `f`. -/
theorem bonds_val (x0 : Vec Ideal S100000x64 .f32) (x1 : Vec Ideal S800000x64 .f32) (x2 : Vec Ideal S1x64 .f32)
    (x3 : Vec Ideal S256x128 .f32) (x4 : Vec Ideal S128 .f32) (x5 : Vec Ideal S128x64 .f32) (x6 : Vec Ideal S64 .f32)
    (x15 : IVec S800000x2 32) (n : Fin 800000) (f : Fin 64) :
    val_main_v29 (F := Ideal) x0 x1 x2 x3 x4 x5 x6 x15 (ix2 n f)
      = layerOut (hiddenRef (cat4 (fun q => GI x0 x15 (ix2 n q)) (fun q => GJ x0 x15 (ix2 n q)) (fun q => x1 (ix2 n q)) (fun q => x2 (ix2 0 q)))
          (fun k j => x3 (ix2 k j)) (fun j => x4 (ix1 j))) (fun j f => x5 (ix2 j f)) (fun f => x6 (ix1 f)) (fun q => x1 (ix2 n q)) f := by
  rw [val_main_v29_apply, val_main_v28_apply, val_main_v25_apply, val_main_v27_apply, val_main_v26_apply,
    Ideal.addf_def, Ideal.addf_def]
  unfold layerOut
  refine congrArg₂ (· + ·) (congrArg₂ (· + ·) (Finset.sum_congr rfl fun j _ => congrArg₂ (· * ·) ?_ ?_) ?_) rfl
  · have e : lidx_main_v25 (ix2 n f) j = ix2 n j :=
      funext fun a => Fin.ext (by match a with | ⟨0, _⟩ => rfl | ⟨1, _⟩ => rfl)
    rw [e, val_main_v24_apply, val_main_call0_v4_apply, val_main_call0_v6_apply, val_main_call0_v11_apply,
      val_main_call0_v1_apply, val_main_call0_v10_apply, val_main_call0_v9_apply, val_main_call0_v8_apply,
      val_main_call0_v7_apply, val_main_call0_v3_apply, val_main_call0_v0_apply, val_main_call0_v2_apply,
      val_main_call0_v5_apply, val_main_call0_cst_apply]
    exact (softplus_printed _).trans (congrArg softplus (bond_hidden x0 x1 x2 x3 x4 x15 n j))
  · exact congrArg x5 (funext fun a => Fin.ext (by match a with | ⟨0, _⟩ => rfl | ⟨1, _⟩ => rfl))
  · exact congrArg x6 (funext fun a => Fin.ext (by match a with | ⟨0, _⟩ => rfl))

/-- (1) The reference's updated bonds at bond `n`, feature `f`. -/
theorem bonds_at (m' : (ℓ : Loc nD τ sig) → Buf (Elt Ideal) ℓ) (c : Dev nD) (n : Fin 800000) (f : Fin 64) :
    Cert.ReferenceIdeal.Value.res_out1 m' c (ix2 n f)
      = layerOut (hiddenRef (cat4 (fun q => GI (m' ((c.tc : Thread nD τ).loc main_arg0)) (m' ((c.tc : Thread nD τ).loc main_arg15)) (ix2 n q))
            (fun q => GJ (m' ((c.tc : Thread nD τ).loc main_arg0)) (m' ((c.tc : Thread nD τ).loc main_arg15)) (ix2 n q))
            (fun q => m' ((c.tc : Thread nD τ).loc main_arg1) (ix2 n q)) (fun q => m' ((c.tc : Thread nD τ).loc main_arg2) (ix2 0 q)))
          (fun k j => m' ((c.tc : Thread nD τ).loc main_arg3) (ix2 k j)) (fun j => m' ((c.tc : Thread nD τ).loc main_arg4) (ix1 j)))
          (fun j f => m' ((c.tc : Thread nD τ).loc main_arg5) (ix2 j f)) (fun f => m' ((c.tc : Thread nD τ).loc main_arg6) (ix1 f))
          (fun q => m' ((c.tc : Thread nD τ).loc main_arg1) (ix2 n q)) f :=
  (congrFun (val_main_v29_eq m' c) (ix2 n f)).trans (bonds_val _ _ _ _ _ _ _ _ n f)

/-- The updated-bond rows gathered along the atoms' neighbour lists, exactly as the reference's program computes
    them from an array of bond rows and the neighbour array (negative entries replaced by zero, then wrapped):
    one function of the two arrays, never opened. -/
def NB (B : Vec Ideal S800000x64 .f32) (I16 : IVec S100000x32 32) : Vec Ideal S100000x32x64 .f32 :=
  Host.gather gather_S800000x64_S100000x32x1_S100000x32x64_2_0_n_n_0_2_164 B (val_main_v38 (F := Ideal) I16)

/-- The mask bit of neighbour slot `d` of atom `n`: the signed comparison "entry ≥ 0". -/
def nbBit (I16 : IVec S100000x32 32) (n : Fin 100000) (d : Fin 32) : BitVec 1 :=
  IntOp.cmpi .sge (I16 (ix2 n d)) 0#32

/-- The number of set mask bits of atom `n` as the reference counts it: the bits widened to 32-bit words, added
    as machine integers, the sum read as a signed integer and turned into a real. -/
def nbCount (I16 : IVec S100000x32 32) (n : Fin 100000) : EReal :=
  (((∑ d : Fin 32, (nbBit I16 n d).setWidth 32 : BitVec 32).toInt : ℝ) : EReal)

theorem gathered_eq (x0 : Vec Ideal S100000x64 .f32) (x1 : Vec Ideal S800000x64 .f32) (x2 : Vec Ideal S1x64 .f32)
    (x3 : Vec Ideal S256x128 .f32) (x4 : Vec Ideal S128 .f32) (x5 : Vec Ideal S128x64 .f32) (x6 : Vec Ideal S64 .f32)
    (x15 : IVec S800000x2 32) (x16 : IVec S100000x32 32) :
    val_main_v39 (F := Ideal) x0 x1 x2 x3 x4 x5 x6 x15 x16 = NB (val_main_v29 (F := Ideal) x0 x1 x2 x3 x4 x5 x6 x15) x16 := by
  unfold val_main_v39 NB
  rfl

theorem bit_apply (x16 : IVec S100000x32 32) (n : Fin 100000) (d : Fin 32) :
    val_main_v31 (F := Ideal) x16 (ix2 n d) = nbBit x16 n d := by
  rw [val_main_v31_apply, val_main_v30_apply, val_main_c_3_apply]
  rfl

/-- A fold by machine addition from the zero word is the sum in the ring of 32-bit words. -/
theorem fold_addi_eq_sum {ι : Type} (s : Finset ι) (g : ι → BitVec 32) :
    s.fold IntOp.addi 0#32 g = ∑ i ∈ s, g i := by
  classical
  refine Finset.induction_on s ?_ ?_
  · rw [Finset.fold_empty, Finset.sum_empty]; rfl
  · intro a s ha ih
    rw [Finset.fold_insert ha, Finset.sum_insert ha, ih]
    rfl

theorem reduces_nb : S100000x32.Reduces [1] S100000 := by decide

/-- The reference's integer sum of the widened mask bits of atom `n`: a fold over the 32 neighbour slots, hence the
    sum of the widened bits in the ring of 32-bit words. -/
theorem count_apply (x16 : IVec S100000x32 32) (n : Fin 100000) :
    val_main_v45 (F := Ideal) x16 (ix1 n) = ∑ d : Fin 32, (nbBit x16 n d).setWidth 32 := by
  unfold val_main_v45
  refine (Host.reduce_eq_fold_single IntOp.addi (val_main_v44 (F := Ideal) x16) (val_main_c_7 (F := Ideal))
    reducesTo_S100000x32_S100000_d1 reduces_nb h_S_ (ix1 n)).trans ?_
  rw [val_main_c_7_apply]
  refine (fold_addi_eq_sum _ _).trans ?_
  show ∑ d : Fin 32, val_main_v44 (F := Ideal) x16 (reduces_nb.lift (ix1 n) d) = _
  refine Finset.sum_congr rfl fun (d : Fin 32) _ => ?_
  refine (congrArg (val_main_v44 (F := Ideal) x16)
    (show reduces_nb.lift (ix1 n) d = ix2 n d from
      funext fun a => Fin.ext (by match a with | ⟨0, _⟩ => rfl | ⟨1, _⟩ => rfl))).trans ?_
  rw [val_main_v44_apply, bit_apply]

/-- The real value of a mask bit read as an unsigned integer is its 0/1 value. -/
theorem natCast_bit (b : BitVec 1) : (((b.toNat : ℕ) : ℝ) : EReal) = bitVal b := by
  unfold bitVal
  rcases BitVec.eq_zero_or_eq_one b with h | h <;> subst h <;> simp

/-- The neighbour mean of atom `n`, feature `q`: the gathered rows times the 0/1 mask values, summed over the 32
    neighbour slots (the sum starts from the zero word), divided by the larger of the count and one. -/
theorem atom_mean (x0 : Vec Ideal S100000x64 .f32) (x1 : Vec Ideal S800000x64 .f32) (x2 : Vec Ideal S1x64 .f32)
    (x3 : Vec Ideal S256x128 .f32) (x4 : Vec Ideal S128 .f32) (x5 : Vec Ideal S128x64 .f32) (x6 : Vec Ideal S64 .f32)
    (x15 : IVec S800000x2 32) (x16 : IVec S100000x32 32) (n : Fin 100000) (q : Fin 64) :
    val_main_v52 (F := Ideal) x0 x1 x2 x3 x4 x5 x6 x15 x16 (ix2 n q)
      = meanBy (fun d f => NB (val_main_v29 (F := Ideal) x0 x1 x2 x3 x4 x5 x6 x15) x16 (ix3 n d f))
          (fun d => bitVal (nbBit x16 n d)) (nbCount x16 n) q := by
  rw [val_main_v52_apply, val_main_v48_apply, val_main_v51_apply, val_main_v50_apply, val_main_v47_apply,
    val_main_v46_apply, val_main_v49_apply, val_main_cst_8_apply, val_main_cst_apply,
    Ideal.hostDivf_def, Ideal.maximumf_def, Ideal.ofBits_def, Ideal.ofBits_def, Ideal.ofBits_zero_f32,
    Ideal.ofBits_one_f32, zero_add]
  unfold meanBy
  refine congrArg₂ Ideal.div (Finset.sum_congr rfl fun d _ => ?_) (congrArg (max · 1) ?_)
  · have e : idx_main_v48 (ix2 n q) d = ix3 n d q :=
      funext fun a => Fin.ext (by match a with | ⟨0, _⟩ => rfl | ⟨1, _⟩ => rfl | ⟨2, _⟩ => rfl)
    rw [e, val_main_v43_apply, Ideal.mulf_def, gathered_eq, val_main_v42_apply, val_main_v41_apply, val_main_v40_apply]
    refine congrArg₂ (· * ·) rfl ?_
    have e' : idx_main_v40 (idx_main_v42 (ix3 n d q)) = ix2 n d :=
      funext fun a => Fin.ext (by match a with | ⟨0, _⟩ => rfl | ⟨1, _⟩ => rfl)
    rw [e', bit_apply]
    exact natCast_bit _
  · have e : idx_main_v46 (idx_main_v51 (ix2 n q)) = ix1 n :=
      funext fun a => Fin.ext (by match a with | ⟨0, _⟩ => rfl)
    rw [e, count_apply]
    rfl

/-- The atom update's hidden row at atom `n`, entry `j`: the concatenated row of width 256 (the atom's row, the
    neighbour mean, the atom's row again, the global row) contracted against the first weight matrix, plus the
    first bias. -/
theorem atom_hidden (x0 : Vec Ideal S100000x64 .f32) (x1 : Vec Ideal S800000x64 .f32) (x2 : Vec Ideal S1x64 .f32)
    (x3 : Vec Ideal S256x128 .f32) (x4 : Vec Ideal S128 .f32) (x5 : Vec Ideal S128x64 .f32) (x6 : Vec Ideal S64 .f32)
    (x7 : Vec Ideal S256x128 .f32) (x8 : Vec Ideal S128 .f32)
    (x15 : IVec S800000x2 32) (x16 : IVec S100000x32 32) (n : Fin 100000) (j : Fin 128) :
    val_main_v58 (F := Ideal) x0 x1 x2 x3 x4 x5 x6 x7 x8 x15 x16 (ix2 n j)
      = hiddenRef (cat4 (fun q => x0 (ix2 n q))
            (meanBy (fun d f => NB (val_main_v29 (F := Ideal) x0 x1 x2 x3 x4 x5 x6 x15) x16 (ix3 n d f))
              (fun d => bitVal (nbBit x16 n d)) (nbCount x16 n))
            (fun q => x0 (ix2 n q)) (fun q => x2 (ix2 0 q)))
          (fun k j => x7 (ix2 k j)) (fun j => x8 (ix1 j)) j := by
  rw [val_main_v58_apply, val_main_v55_apply, val_main_v57_apply, val_main_v56_apply, Ideal.addf_def]
  unfold hiddenRef
  refine congrArg₂ (· + ·) (Finset.sum_congr rfl fun k _ => congrArg₂ (· * ·) ?_ ?_) ?_
  · have e : lidx_main_v55 (ix2 n j) k = ix2 n k :=
      funext fun a => Fin.ext (by match a with | ⟨0, _⟩ => rfl | ⟨1, _⟩ => rfl)
    rw [e]
    unfold val_main_v54
    refine (concat4_apply _ _ _ _ _ n k).trans ?_
    refine congrArg₂ (fun y₁ y₃ => cat4 _ y₁ _ y₃ k) (funext fun q => atom_mean x0 x1 x2 x3 x4 x5 x6 x15 x16 n q)
      (funext fun q => ?_)
    rw [val_main_v53_apply]
    exact congrArg x2 (funext fun a => Fin.ext (by match a with | ⟨0, _⟩ => rfl | ⟨1, _⟩ => rfl))
  · exact congrArg x7 (funext fun a => Fin.ext (by match a with | ⟨0, _⟩ => rfl | ⟨1, _⟩ => rfl))
  · exact congrArg x8 (funext fun a => Fin.ext (by match a with | ⟨0, _⟩ => rfl))

/-- The updated atom array as a function of the plain argument arrays, read at atom `n`, feature `f`. -/
theorem atoms_val (x0 : Vec Ideal S100000x64 .f32) (x1 : Vec Ideal S800000x64 .f32) (x2 : Vec Ideal S1x64 .f32)
    (x3 : Vec Ideal S256x128 .f32) (x4 : Vec Ideal S128 .f32) (x5 : Vec Ideal S128x64 .f32) (x6 : Vec Ideal S64 .f32)
    (x7 : Vec Ideal S256x128 .f32) (x8 : Vec Ideal S128 .f32) (x9 : Vec Ideal S128x64 .f32) (x10 : Vec Ideal S64 .f32)
    (x15 : IVec S800000x2 32) (x16 : IVec S100000x32 32) (n : Fin 100000) (f : Fin 64) :
    val_main_v64 (F := Ideal) x0 x1 x2 x3 x4 x5 x6 x7 x8 x9 x10 x15 x16 (ix2 n f)
      = layerOut (hiddenRef (cat4 (fun q => x0 (ix2 n q))
            (meanBy (fun d f => NB (val_main_v29 (F := Ideal) x0 x1 x2 x3 x4 x5 x6 x15) x16 (ix3 n d f))
              (fun d => bitVal (nbBit x16 n d)) (nbCount x16 n))
            (fun q => x0 (ix2 n q)) (fun q => x2 (ix2 0 q)))
          (fun k j => x7 (ix2 k j)) (fun j => x8 (ix1 j))) (fun j f => x9 (ix2 j f)) (fun f => x10 (ix1 f)) (fun q => x0 (ix2 n q)) f := by
  rw [val_main_v64_apply, val_main_v63_apply, val_main_v60_apply, val_main_v62_apply, val_main_v61_apply,
    Ideal.addf_def, Ideal.addf_def]
  unfold layerOut
  refine congrArg₂ (· + ·) (congrArg₂ (· + ·) (Finset.sum_congr rfl fun j _ => congrArg₂ (· * ·) ?_ ?_) ?_) rfl
  · have e : lidx_main_v60 (ix2 n f) j = ix2 n j :=
      funext fun a => Fin.ext (by match a with | ⟨0, _⟩ => rfl | ⟨1, _⟩ => rfl)
    rw [e, val_main_v59_apply, val_main_call2_v4_apply, val_main_call2_v6_apply, val_main_call2_v11_apply,
      val_main_call2_v1_apply, val_main_call2_v10_apply, val_main_call2_v9_apply, val_main_call2_v8_apply,
      val_main_call2_v7_apply, val_main_call2_v3_apply, val_main_call2_v0_apply, val_main_call2_v2_apply,
      val_main_call2_v5_apply, val_main_call2_cst_apply]
    exact (softplus_printed _).trans (congrArg softplus (atom_hidden x0 x1 x2 x3 x4 x5 x6 x7 x8 x15 x16 n j))
  · exact congrArg x9 (funext fun a => Fin.ext (by match a with | ⟨0, _⟩ => rfl | ⟨1, _⟩ => rfl))
  · exact congrArg x10 (funext fun a => Fin.ext (by match a with | ⟨0, _⟩ => rfl))

/-- (2) The reference's updated atoms at atom `n`, feature `f`; the gathered neighbour rows are taken from the
    reference's own updated bonds. -/
theorem atoms_at (m' : (ℓ : Loc nD τ sig) → Buf (Elt Ideal) ℓ) (c : Dev nD) (n : Fin 100000) (f : Fin 64) :
    Cert.ReferenceIdeal.Value.res_out0 m' c (ix2 n f)
      = layerOut (hiddenRef (cat4 (fun q => m' ((c.tc : Thread nD τ).loc main_arg0) (ix2 n q))
            (meanBy (fun d f => NB (Cert.ReferenceIdeal.Value.res_out1 m' c) (m' ((c.tc : Thread nD τ).loc main_arg16)) (ix3 n d f))
              (fun d => bitVal (nbBit (m' ((c.tc : Thread nD τ).loc main_arg16)) n d))
              (nbCount (m' ((c.tc : Thread nD τ).loc main_arg16)) n))
            (fun q => m' ((c.tc : Thread nD τ).loc main_arg0) (ix2 n q)) (fun q => m' ((c.tc : Thread nD τ).loc main_arg2) (ix2 0 q)))
          (fun k j => m' ((c.tc : Thread nD τ).loc main_arg7) (ix2 k j)) (fun j => m' ((c.tc : Thread nD τ).loc main_arg8) (ix1 j)))
          (fun j f => m' ((c.tc : Thread nD τ).loc main_arg9) (ix2 j f)) (fun f => m' ((c.tc : Thread nD τ).loc main_arg10) (ix1 f))
          (fun q => m' ((c.tc : Thread nD τ).loc main_arg0) (ix2 n q)) f := by
  refine (congrFun (val_main_v64_eq m' c) (ix2 n f)).trans ?_
  rw [show Cert.ReferenceIdeal.Value.res_out1 m' c = _ from val_main_v29_eq m' c]
  exact atoms_val _ _ _ _ _ _ _ _ _ _ _ _ _ n f

/-- Three one-row arrays of 64 columns laid side by side along the columns, read at column `k`. -/
theorem concat3_apply (y₀ y₁ y₂ : (⟨2, ![1, 64]⟩ : Shape).Idx → EReal)
    (h : Shape.Concatenates [(⟨2, ![1, 64]⟩ : Shape), ⟨2, ![1, 64]⟩, ⟨2, ![1, 64]⟩] (⟨2, ![1, 192]⟩ : Shape) 1)
    (k : Fin 192) :
    concatenate (⟨2, ![1, 192]⟩ : Shape) 1 [⟨(⟨2, ![1, 64]⟩ : Shape), y₀⟩, ⟨(⟨2, ![1, 64]⟩ : Shape), y₁⟩, ⟨(⟨2, ![1, 64]⟩ : Shape), y₂⟩] h (ix2 0 k)
      = cat3 (fun q => y₀ (ix2 0 q)) (fun q => y₁ (ix2 0 q)) (fun q => y₂ (ix2 0 q)) k := by
  unfold cat3
  by_cases h₀ : k.val < 64
  · rw [dif_pos h₀]
    exact concatenate_apply_piece (t := (⟨2, ![1, 192]⟩ : Shape)) 1
      [⟨(⟨2, ![1, 64]⟩ : Shape), y₀⟩, ⟨(⟨2, ![1, 64]⟩ : Shape), y₁⟩, ⟨(⟨2, ![1, 64]⟩ : Shape), y₂⟩]
      h (ix2 0 k) 0 (by show 0 < 3; omega) _ y₀ rfl rfl 0 rfl (ix2 0 ⟨k.val, h₀⟩)
      (fun b hb => by match b with | ⟨0, _⟩ => rfl | ⟨1, _⟩ => exact absurd rfl hb) (by show 0 + k.val = k.val; omega)
  · rw [dif_neg h₀]
    by_cases h₁ : k.val < 128
    · rw [dif_pos h₁]
      exact concatenate_apply_piece (t := (⟨2, ![1, 192]⟩ : Shape)) 1
        [⟨(⟨2, ![1, 64]⟩ : Shape), y₀⟩, ⟨(⟨2, ![1, 64]⟩ : Shape), y₁⟩, ⟨(⟨2, ![1, 64]⟩ : Shape), y₂⟩]
        h (ix2 0 k) 1 (by show 1 < 3; omega) _ y₁ rfl rfl 64 rfl (ix2 0 ⟨k.val - 64, by omega⟩)
        (fun b hb => by match b with | ⟨0, _⟩ => rfl | ⟨1, _⟩ => exact absurd rfl hb) (by show 64 + (k.val - 64) = k.val; omega)
    · rw [dif_neg h₁]
      exact concatenate_apply_piece (t := (⟨2, ![1, 192]⟩ : Shape)) 1
        [⟨(⟨2, ![1, 64]⟩ : Shape), y₀⟩, ⟨(⟨2, ![1, 64]⟩ : Shape), y₁⟩, ⟨(⟨2, ![1, 64]⟩ : Shape), y₂⟩]
        h (ix2 0 k) 2 (by show 2 < 3; omega) _ y₂ rfl rfl 128 rfl (ix2 0 ⟨k.val - 128, by have := k.isLt; omega⟩)
        (fun b hb => by match b with | ⟨0, _⟩ => rfl | ⟨1, _⟩ => exact absurd rfl hb) (by show 128 + (k.val - 128) = k.val; omega)

/-- The pooled atom row: the updated atoms summed over the atoms (the sum starts from the zero word), divided by
    the constant the program prints for their number. -/
theorem atom_pool (x0 : Vec Ideal S100000x64 .f32) (x1 : Vec Ideal S800000x64 .f32) (x2 : Vec Ideal S1x64 .f32)
    (x3 : Vec Ideal S256x128 .f32) (x4 : Vec Ideal S128 .f32) (x5 : Vec Ideal S128x64 .f32) (x6 : Vec Ideal S64 .f32)
    (x7 : Vec Ideal S256x128 .f32) (x8 : Vec Ideal S128 .f32) (x9 : Vec Ideal S128x64 .f32) (x10 : Vec Ideal S64 .f32)
    (x15 : IVec S800000x2 32) (x16 : IVec S100000x32 32) (q : Fin 64) :
    val_main_v68 (F := Ideal) x0 x1 x2 x3 x4 x5 x6 x7 x8 x9 x10 x15 x16 (ix2 0 q)
      = Ideal.div (∑ n : Fin 100000, val_main_v64 (F := Ideal) x0 x1 x2 x3 x4 x5 x6 x7 x8 x9 x10 x15 x16 (ix2 n q))
          (Ideal.ofBits .f32 0x47C35000#32) := by
  rw [val_main_v68_apply, val_main_v66_apply, val_main_v65_apply, val_main_v67_apply, val_main_cst_10_apply,
    val_main_cst_9_apply]
  simp only [Ideal.hostDivf_def, Ideal.ofBits_def, Ideal.ofBits_zero_f32, zero_add]
  refine congrArg₂ Ideal.div ?_ rfl
  refine Finset.sum_congr rfl fun n _ => ?_
  exact congrArg _ (funext fun a => Fin.ext (by match a with | ⟨0, _⟩ => rfl | ⟨1, _⟩ => rfl))

/-- The pooled bond row, likewise over the bonds. -/
theorem bond_pool (x0 : Vec Ideal S100000x64 .f32) (x1 : Vec Ideal S800000x64 .f32) (x2 : Vec Ideal S1x64 .f32)
    (x3 : Vec Ideal S256x128 .f32) (x4 : Vec Ideal S128 .f32) (x5 : Vec Ideal S128x64 .f32) (x6 : Vec Ideal S64 .f32)
    (x15 : IVec S800000x2 32) (q : Fin 64) :
    val_main_v72 (F := Ideal) x0 x1 x2 x3 x4 x5 x6 x15 (ix2 0 q)
      = Ideal.div (∑ n : Fin 800000, val_main_v29 (F := Ideal) x0 x1 x2 x3 x4 x5 x6 x15 (ix2 n q))
          (Ideal.ofBits .f32 0x49435000#32) := by
  rw [val_main_v72_apply, val_main_v70_apply, val_main_v69_apply, val_main_v71_apply, val_main_cst_12_apply,
    val_main_cst_11_apply]
  simp only [Ideal.hostDivf_def, Ideal.ofBits_def, Ideal.ofBits_zero_f32, zero_add]
  refine congrArg₂ Ideal.div ?_ rfl
  refine Finset.sum_congr rfl fun n _ => ?_
  exact congrArg _ (funext fun a => Fin.ext (by match a with | ⟨0, _⟩ => rfl | ⟨1, _⟩ => rfl))

/-- The updated global row as a function of the plain argument arrays, read at feature `f`. -/
theorem global_val (x0 : Vec Ideal S100000x64 .f32) (x1 : Vec Ideal S800000x64 .f32) (x2 : Vec Ideal S1x64 .f32)
    (x3 : Vec Ideal S256x128 .f32) (x4 : Vec Ideal S128 .f32) (x5 : Vec Ideal S128x64 .f32) (x6 : Vec Ideal S64 .f32)
    (x7 : Vec Ideal S256x128 .f32) (x8 : Vec Ideal S128 .f32) (x9 : Vec Ideal S128x64 .f32) (x10 : Vec Ideal S64 .f32)
    (x11 : Vec Ideal S192x128 .f32) (x12 : Vec Ideal S128 .f32) (x13 : Vec Ideal S128x64 .f32) (x14 : Vec Ideal S64 .f32)
    (x15 : IVec S800000x2 32) (x16 : IVec S100000x32 32) (f : Fin 64) :
    val_main_v81 (F := Ideal) x0 x1 x2 x3 x4 x5 x6 x7 x8 x9 x10 x11 x12 x13 x14 x15 x16 (ix2 0 f)
      = globalOut
          (fun q => Ideal.div (∑ n : Fin 100000, val_main_v64 (F := Ideal) x0 x1 x2 x3 x4 x5 x6 x7 x8 x9 x10 x15 x16 (ix2 n q))
            (Ideal.ofBits .f32 0x47C35000#32))
          (fun q => Ideal.div (∑ n : Fin 800000, val_main_v29 (F := Ideal) x0 x1 x2 x3 x4 x5 x6 x15 (ix2 n q))
            (Ideal.ofBits .f32 0x49435000#32))
          (fun q => x2 (ix2 0 q)) (fun k j => x11 (ix2 k j)) (fun j => x12 (ix1 j)) (fun j f => x13 (ix2 j f))
          (fun f => x14 (ix1 f)) f := by
  rw [val_main_v81_apply, val_main_v80_apply, val_main_v78_apply, val_main_v79_apply, Ideal.addf_def, Ideal.addf_def]
  unfold globalOut
  refine congrArg₂ (· + ·) (congrArg₂ (· + ·) (Finset.sum_congr rfl fun j _ => congrArg₂ (· * ·) ?_ ?_) ?_) rfl
  · have e : lidx_main_v78 (ix2 0 f) j = ix2 0 j :=
      funext fun a => Fin.ext (by match a with | ⟨0, _⟩ => rfl | ⟨1, _⟩ => rfl)
    rw [e, val_main_v77_apply, val_main_call3_v4_apply, val_main_call3_v6_apply, val_main_call3_v11_apply,
      val_main_call3_v1_apply, val_main_call3_v10_apply, val_main_call3_v9_apply, val_main_call3_v8_apply,
      val_main_call3_v7_apply, val_main_call3_v3_apply, val_main_call3_v0_apply, val_main_call3_v2_apply,
      val_main_call3_v5_apply, val_main_call3_cst_apply]
    refine (softplus_printed _).trans (congrArg softplus ?_)
    rw [val_main_v76_apply, val_main_v74_apply, val_main_v75_apply, Ideal.addf_def]
    refine congrArg₂ (· + ·) (Finset.sum_congr rfl fun k _ => congrArg₂ (· * ·) ?_ ?_) ?_
    · have e' : lidx_main_v74 (ix2 0 j) k = ix2 0 k :=
        funext fun a => Fin.ext (by match a with | ⟨0, _⟩ => rfl | ⟨1, _⟩ => rfl)
      rw [e']
      unfold val_main_v73
      refine (concat3_apply _ _ _ _ k).trans ?_
      exact congrArg₂ (fun y₀ y₁ => cat3 y₀ y₁ _ k)
        (funext fun q => atom_pool x0 x1 x2 x3 x4 x5 x6 x7 x8 x9 x10 x15 x16 q)
        (funext fun q => bond_pool x0 x1 x2 x3 x4 x5 x6 x15 q)
    · exact congrArg x11 (funext fun a => Fin.ext (by match a with | ⟨0, _⟩ => rfl | ⟨1, _⟩ => rfl))
    · exact congrArg x12 (funext fun a => Fin.ext (by match a with | ⟨0, _⟩ => rfl))
  · exact congrArg x13 (funext fun a => Fin.ext (by match a with | ⟨0, _⟩ => rfl | ⟨1, _⟩ => rfl))
  · exact congrArg x14 (funext fun a => Fin.ext (by match a with | ⟨0, _⟩ => rfl))

/-- (3) The reference's updated global row at feature `f`, over the reference's own updated atoms and bonds. -/
theorem global_at (m' : (ℓ : Loc nD τ sig) → Buf (Elt Ideal) ℓ) (c : Dev nD) (f : Fin 64) :
    Cert.ReferenceIdeal.Value.res_out2 m' c (ix2 0 f)
      = globalOut
          (fun q => Ideal.div (∑ n : Fin 100000, Cert.ReferenceIdeal.Value.res_out0 m' c (ix2 n q)) (Ideal.ofBits .f32 0x47C35000#32))
          (fun q => Ideal.div (∑ n : Fin 800000, Cert.ReferenceIdeal.Value.res_out1 m' c (ix2 n q)) (Ideal.ofBits .f32 0x49435000#32))
          (fun q => m' ((c.tc : Thread nD τ).loc main_arg2) (ix2 0 q))
          (fun k j => m' ((c.tc : Thread nD τ).loc main_arg11) (ix2 k j)) (fun j => m' ((c.tc : Thread nD τ).loc main_arg12) (ix1 j))
          (fun j f => m' ((c.tc : Thread nD τ).loc main_arg13) (ix2 j f)) (fun f => m' ((c.tc : Thread nD τ).loc main_arg14) (ix1 f)) f := by
  refine (congrFun (val_main_v81_eq m' c) (ix2 0 f)).trans ?_
  rw [show Cert.ReferenceIdeal.Value.res_out0 m' c = _ from val_main_v64_eq m' c,
    show Cert.ReferenceIdeal.Value.res_out1 m' c = _ from val_main_v29_eq m' c]
  exact global_val _ _ _ _ _ _ _ _ _ _ _ _ _ _ _ _ _ f

end Cert.ReferenceIdeal.RefRows

end
-- ==== Proof.GatherSame.lean ====
/-
  The two programs gather the same rows. The kernel's program and the reference's program each print the gathers
  (the atom rows at a bond's two endpoints, the updated bond rows at an atom's neighbour slots) and the neighbour
  mask as the same chain of operations — a column cut from the index array, an entry below zero moved up by the
  array's length, the gather with the same dimension numbers — over shapes, dimension numbers and side conditions that
  each program declares for itself with the same literals. So the terms the two proofs named for them are equal by
  unfolding the names on both sides; the side conditions are propositions, and any two proofs of one are the same.
-/
import proofs.«112152_j7275674599671_1_alg».proof.Proof.KiHostValue
import proofs.«112152_j7275674599671_1_alg».proof.Proof.RefRows

noncomputable section

namespace Cert.Proof.GatherSame

open Idealize.ShloMosaic

/-- The atom rows at the bonds' first endpoints: both programs print the same operations over the same literals. -/
theorem gI_eq (A0 : Vec Ideal Cert.KernelIdeal.S100000x64 .f32) (I15 : IVec Cert.KernelIdeal.S800000x2 32) :
    Cert.KernelIdeal.HostValue.gI A0 I15 = Cert.ReferenceIdeal.RefRows.GI A0 I15 := rfl
/-- The atom rows at the bonds' second endpoints, likewise. -/
theorem gJ_eq (A0 : Vec Ideal Cert.KernelIdeal.S100000x64 .f32) (I15 : IVec Cert.KernelIdeal.S800000x2 32) :
    Cert.KernelIdeal.HostValue.gJ A0 I15 = Cert.ReferenceIdeal.RefRows.GJ A0 I15 := rfl
/-- The bond rows at the atoms' neighbour slots, likewise. -/
theorem nB_eq (B : Vec Ideal Cert.KernelIdeal.S800000x64 .f32) (I16 : IVec Cert.KernelIdeal.S100000x32 32) :
    Cert.KernelIdeal.HostValue.nB B I16 = Cert.ReferenceIdeal.RefRows.NB B I16 := rfl
/-- The mask bit of one neighbour slot is the same comparison in both programs. -/
theorem bit_eq (I16 : IVec Cert.KernelIdeal.S100000x32 32) (n : Fin 100000) (d : Fin 32) :
    Cert.KernelIdeal.HostValue.bit I16 n d = Cert.ReferenceIdeal.RefRows.nbBit I16 n d := rfl

end Cert.Proof.GatherSame

end
-- ==== Proof.SpecLaws.lean ====
/-
  Laws of the row-level mathematics shared by the two programs, on extended reals: the kernel's banded spelling of a
  hidden row equals the reference's single wide contraction; a sum over tiles and a running sum; two spellings of
  soft-plus; and the count of a 0/1 mask taken as a machine integer equals the count taken as a sum of reals.
-/
import Idealize.ShloMosaic.PureOps.Ideal
import Idealize.ShloMosaic.PureOps.Ideal.Laws
import Mathlib.Algebra.BigOperators.Fin
import Mathlib.Algebra.BigOperators.Group.Finset.Basic
import Mathlib.Algebra.BigOperators.Ring.Finset
import Mathlib.Algebra.Order.BigOperators.Group.Finset
import Mathlib.Logic.Equiv.Fin.Basic
import Mathlib.Data.EReal.Basic
import Mathlib.Data.EReal.Operations
import Mathlib.Data.BitVec
import proofs.«112152_j7275674599671_1_alg».proof.Proof.Spec

noncomputable section

namespace Cert.Spec

open Idealize.ShloMosaic

/-! ### Sums over tiles and running sums -/

/-- Position `p` of tile `t` lies inside `T` tiles of `P` positions. -/
theorem tile_lt {T P t p : ℕ} (ht : t < T) (hp : p < P) : t * P + p < T * P :=
  calc t * P + p < t * P + P := Nat.add_lt_add_left hp _
    _ = (t + 1) * P := (Nat.succ_mul t P).symm
    _ ≤ T * P := Nat.mul_le_mul_right P ht

/-- A sum over `T * P` positions is the sum over the `T` tiles of the sums over each tile's `P` positions. -/
theorem sum_tiles {M : Type*} [AddCommMonoid M] (T P : ℕ) (f : Fin (T * P) → M) :
    ∑ n : Fin (T * P), f n = ∑ t : Fin T, ∑ p : Fin P, f ⟨t.val * P + p.val, tile_lt t.isLt p.isLt⟩ := by
  rw [← (finProdFinEquiv (m := T) (n := P)).sum_comp f, Fintype.sum_prod_type]
  refine Finset.sum_congr rfl (fun t _ => Finset.sum_congr rfl (fun p _ => ?_))
  refine congrArg f (Fin.ext ?_)
  show p.val + P * t.val = t.val * P + p.val
  rw [Nat.mul_comm, Nat.add_comm]

/-- A running sum that starts at `0 + s 0` and adds `s (n+1)` at each step is the sum of the first `n+1` terms. -/
theorem acc_eq_sum {M : Type*} [AddCommMonoid M] (s : ℕ → M) (a : ℕ → M) (h0 : a 0 = 0 + s 0)
    (hs : ∀ n, a (n + 1) = a n + s (n + 1)) (n : ℕ) :
    a n = ∑ t ∈ Finset.range (n + 1), s t := by
  induction n with
  | zero => rw [h0, zero_add, Finset.sum_range_one]
  | succ n ih => rw [hs n, ih, Finset.sum_range_succ _ (n + 1)]

/-! ### Soft-plus spellings -/

/-- Subtracting zero and negating by subtracting from zero change nothing on the extended reals. -/
theorem softplus_of_sub_zero (x : EReal) :
    max x 0 + Ideal.log1p (Ideal.exp (0 - max (x - 0) (-(x - 0)))) = softplus x := by
  unfold softplus
  rw [sub_zero, zero_sub]

theorem softplus_of_neg (x : EReal) :
    max x 0 + Ideal.log1p (Ideal.exp (-(max (x - 0) (-(x - 0))))) = softplus x := by
  unfold softplus
  rw [sub_zero]

/-! ### The four bands of the first weight matrix -/

/-- A sum over 256 positions, read as four bands of 64, added left to right. -/
theorem sum_four_bands {M : Type*} [AddCommMonoid M] (F : Fin 256 → M) :
    ∑ k : Fin 256, F k =
      (((∑ k : Fin 64, F ⟨k.val, by omega⟩) + (∑ k : Fin 64, F ⟨64 + k.val, by omega⟩))
        + (∑ k : Fin 64, F ⟨128 + k.val, by omega⟩)) + (∑ k : Fin 64, F ⟨192 + k.val, by omega⟩) := by
  have h := sum_tiles 4 64 F
  rw [Fin.sum_univ_four] at h
  refine h.trans ?_
  have e : ∀ (t : Fin 4) (c : ℕ) (hc : t.val * 64 = c),
      (∑ p : Fin 64, F ⟨t.val * 64 + p.val, tile_lt t.isLt p.isLt⟩)
        = ∑ p : Fin 64, F ⟨c + p.val, by have := p.isLt; have := t.isLt; omega⟩ := by
    intro t c hc
    refine Finset.sum_congr rfl (fun p _ => congrArg F (Fin.ext ?_))
    show t.val * 64 + p.val = c + p.val
    rw [hc]
  rw [e 0 0 rfl, e 1 64 rfl, e 2 128 rfl, e 3 192 rfl]
  refine congrArg (fun s => s + _ + _ + _) (Finset.sum_congr rfl (fun p _ => congrArg F (Fin.ext ?_)))
  show 0 + p.val = p.val
  rw [Nat.zero_add]

theorem cat4_at0 (x₀ x₁ x₂ x₃ : Fin 64 → EReal) (k : Fin 64) (h : k.val < 256) :
    cat4 x₀ x₁ x₂ x₃ ⟨k.val, h⟩ = x₀ k := by
  have hk := k.isLt
  simp only [cat4]
  rw [dif_pos (by omega)]

theorem cat4_at1 (x₀ x₁ x₂ x₃ : Fin 64 → EReal) (k : Fin 64) (h : 64 + k.val < 256) :
    cat4 x₀ x₁ x₂ x₃ ⟨64 + k.val, h⟩ = x₁ k := by
  have hk := k.isLt
  simp only [cat4]
  rw [dif_neg (by omega), dif_pos (by omega)]
  exact congrArg x₁ (Fin.ext (by simp))

theorem cat4_at2 (x₀ x₁ x₂ x₃ : Fin 64 → EReal) (k : Fin 64) (h : 128 + k.val < 256) :
    cat4 x₀ x₁ x₂ x₃ ⟨128 + k.val, h⟩ = x₂ k := by
  have hk := k.isLt
  simp only [cat4]
  rw [dif_neg (by omega), dif_neg (by omega), dif_pos (by omega)]
  exact congrArg x₂ (Fin.ext (by simp))

theorem cat4_at3 (x₀ x₁ x₂ x₃ : Fin 64 → EReal) (k : Fin 64) (h : 192 + k.val < 256) :
    cat4 x₀ x₁ x₂ x₃ ⟨192 + k.val, h⟩ = x₃ k := by
  have hk := k.isLt
  simp only [cat4]
  rw [dif_neg (by omega), dif_neg (by omega), dif_neg (by omega)]
  exact congrArg x₃ (Fin.ext (by simp))

theorem band_at0 (W : Fin 256 → Fin 128 → EReal) (k : Fin 64) (j : Fin 128) (h : k.val < 256) :
    W ⟨k.val, h⟩ j = band W 0 k j := by
  unfold band
  exact congrArg (fun i => W i j) (Fin.ext (by simp))

theorem band_at1 (W : Fin 256 → Fin 128 → EReal) (k : Fin 64) (j : Fin 128) (h : 64 + k.val < 256) :
    W ⟨64 + k.val, h⟩ j = band W 1 k j := by
  unfold band
  exact congrArg (fun i => W i j) (Fin.ext (by simp))

theorem band_at2 (W : Fin 256 → Fin 128 → EReal) (k : Fin 64) (j : Fin 128) (h : 128 + k.val < 256) :
    W ⟨128 + k.val, h⟩ j = band W 2 k j := by
  unfold band
  exact congrArg (fun i => W i j) (Fin.ext (by simp))

theorem band_at3 (W : Fin 256 → Fin 128 → EReal) (k : Fin 64) (j : Fin 128) (h : 192 + k.val < 256) :
    W ⟨192 + k.val, h⟩ j = band W 3 k j := by
  unfold band
  exact congrArg (fun i => W i j) (Fin.ext (by simp))

/-- The contraction of a four-piece row of width 256 against the whole matrix is the sum of the four contractions of
    the pieces against the matching bands. -/
theorem contract_cat4 (x₀ x₁ x₂ x₃ : Fin 64 → EReal) (W : Fin 256 → Fin 128 → EReal) (j : Fin 128) :
    ∑ k : Fin 256, cat4 x₀ x₁ x₂ x₃ k * W k j =
      (((∑ k : Fin 64, x₀ k * band W 0 k j) + (∑ k : Fin 64, x₁ k * band W 1 k j))
        + (∑ k : Fin 64, x₂ k * band W 2 k j)) + (∑ k : Fin 64, x₃ k * band W 3 k j) := by
  rw [sum_four_bands (fun k => cat4 x₀ x₁ x₂ x₃ k * W k j)]
  simp only [cat4_at0, cat4_at1, cat4_at2, cat4_at3, band_at0, band_at1, band_at2, band_at3]

/-! ### The hidden rows -/

theorem hiddenBondKer_eq_hidden3 (ai aj bf g : Fin 64 → EReal) (W : Fin 256 → Fin 128 → EReal)
    (b : Fin 128 → EReal) (j : Fin 128) :
    hiddenBondKer ai aj bf g W b j
      = hidden3 ai aj bf (band W 0) (band W 1) (band W 2) (fun j => b j + ∑ k : Fin 64, g k * band W 3 k j) j :=
  rfl

/-- Only the order and grouping of the additions differ: the reference adds the four band contractions and then the
    bias, the kernel adds the fourth band's contraction to the bias first. -/
theorem hiddenBondKer_eq_ref (ai aj bf g : Fin 64 → EReal) (W : Fin 256 → Fin 128 → EReal)
    (b : Fin 128 → EReal) (j : Fin 128) :
    hiddenBondKer ai aj bf g W b j = hiddenRef (cat4 ai aj bf g) W b j := by
  unfold hiddenBondKer hiddenRef
  rw [contract_cat4, add_assoc _ (∑ k : Fin 64, g k * band W 3 k j) (b j),
    add_comm (∑ k : Fin 64, g k * band W 3 k j) (b j)]

theorem hiddenAtomKer_eq_hidden2 (af agg g : Fin 64 → EReal) (W : Fin 256 → Fin 128 → EReal)
    (b : Fin 128 → EReal) (j : Fin 128) :
    hiddenAtomKer af agg g W b j
      = hidden2 af agg (fun k j => band W 0 k j + band W 2 k j) (band W 1)
          (fun j => b j + ∑ k : Fin 64, g k * band W 3 k j) j :=
  rfl

/-! ### The atom row appears twice: adding two bands before contracting -/

/-- Multiplication distributes over the sum of two entries when all three factors are real. -/
theorem real_mul_add (a x y : EReal) (ha : ∃ r : ℝ, a = (r : EReal)) (hx : ∃ r : ℝ, x = (r : EReal))
    (hy : ∃ r : ℝ, y = (r : EReal)) : a * (x + y) = a * x + a * y := by
  obtain ⟨r, rfl⟩ := ha
  obtain ⟨s, rfl⟩ := hx
  obtain ⟨t, rfl⟩ := hy
  rw [← EReal.coe_add, ← EReal.coe_mul, ← EReal.coe_mul, ← EReal.coe_mul, ← EReal.coe_add, mul_add]

/-- With a real atom row and a real weight matrix, contracting the atom row against the sum of bands 0 and 2 is the
    sum of its contractions against each; what remains is a reordering of additions, after which the bond law
    applies with the atom row in the first and third places. -/
theorem hiddenAtomKer_eq_ref (af agg g : Fin 64 → EReal) (W : Fin 256 → Fin 128 → EReal) (b : Fin 128 → EReal)
    (j : Fin 128) (haf : ∀ k, ∃ r : ℝ, af k = (r : EReal)) (hW : ∀ k j, ∃ r : ℝ, W k j = (r : EReal)) :
    hiddenAtomKer af agg g W b j = hiddenRef (cat4 af agg af g) W b j := by
  rw [← hiddenBondKer_eq_ref]
  unfold hiddenAtomKer hiddenBondKer
  have hsum : ∑ k : Fin 64, af k * (band W 0 k j + band W 2 k j)
      = (∑ k : Fin 64, af k * band W 0 k j) + ∑ k : Fin 64, af k * band W 2 k j := by
    rw [← Finset.sum_add_distrib]
    exact Finset.sum_congr rfl (fun k _ => real_mul_add _ _ _ (haf k) (hW _ j) (hW _ j))
  rw [hsum, add_right_comm (∑ k : Fin 64, af k * band W 0 k j)]

/-! ### Counting a 0/1 mask as machine integers -/

/-- The coercion from the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The natural-number value of a sum of 32-bit words is the sum of their values modulo `2^32`. -/
theorem toNat_sum {ι : Type*} (s : Finset ι) (f : ι → BitVec 32) :
    (∑ i ∈ s, f i).toNat = (∑ i ∈ s, (f i).toNat) % 2 ^ 32 := by
  classical
  refine Finset.induction_on s (by simp) ?_
  intro a s ha ih
  rw [Finset.sum_insert ha, Finset.sum_insert ha, BitVec.toNat_add, ih, Nat.add_mod_mod]

/-- The real value of a mask bit is its natural-number value. -/
theorem bitVal_eq (b : BitVec 1) : bitVal b = (((b.toNat : ℕ) : ℝ) : EReal) := by
  unfold bitVal
  rcases BitVec.eq_zero_or_eq_one b with h | h <;> subst h <;> simp

/-- Thirty-two words that are each 0 or 1 add up to at most 32, far below the point where a 32-bit sum wraps or
    its signed reading turns negative; so the signed value of the sum is the number of set bits. -/
theorem count_toInt (bits : Fin 32 → BitVec 1) :
    ((((∑ d : Fin 32, (bits d).setWidth 32 : BitVec 32).toInt : ℝ)) : EReal) = ∑ d : Fin 32, bitVal (bits d) := by
  have hN : ∑ d : Fin 32, (bits d).toNat ≤ 32 := by
    have h := Finset.sum_le_card_nsmul (Finset.univ : Finset (Fin 32)) (fun d => (bits d).toNat) 1
      (fun d _ => by have := (bits d).isLt; omega)
    simpa using h
  have hnat : (∑ d : Fin 32, (bits d).setWidth 32 : BitVec 32).toNat = ∑ d : Fin 32, (bits d).toNat := by
    rw [toNat_sum]
    have e : ∀ d : Fin 32, ((bits d).setWidth 32).toNat = (bits d).toNat := by
      intro d
      rw [BitVec.toNat_setWidth]
      have := (bits d).isLt
      omega
    rw [Finset.sum_congr rfl (fun d _ => e d)]
    omega
  have hint : (∑ d : Fin 32, (bits d).setWidth 32 : BitVec 32).toInt = ((∑ d : Fin 32, (bits d).toNat : ℕ) : ℤ) := by
    rw [BitVec.toInt_eq_toNat_cond, hnat]
    rw [if_pos (by omega)]
  rw [hint, Int.cast_natCast, Nat.cast_sum, coe_sum]
  exact Finset.sum_congr rfl (fun d _ => (bitVal_eq (bits d)).symm)

end Cert.Spec

end
-- ==== Proof.BondsEq.lean ====
/-
  The updated bonds are the same array in both programs. Row `n` of the reference's result is the bond layer applied
  to the row of width 256 made of the atom rows at the bond's two endpoints, the bond's own row and the global row,
  contracted once against the whole first weight matrix. Row `n` of the kernel's result is the same layer applied to
  three rows of width 64 contracted against bands 0, 1, 2 of that matrix, with the global row's contraction against
  band 3 already inside the bias. The arrays the kernel's region is handed are, entry by entry, those bands, that
  bias and the launch arrays; the gathered atom rows are the same terms in both programs; and the two spellings of
  the hidden row differ only in how the four band contractions and the bias are added up. The memories agree on the
  arguments, so the two rows are equal.
-/
import proofs.«112152_j7275674599671_1_alg».proof.Proof.KiRunValues
import proofs.«112152_j7275674599671_1_alg».proof.Proof.KiBondValue
import proofs.«112152_j7275674599671_1_alg».proof.Proof.KiHostValue
import proofs.«112152_j7275674599671_1_alg».proof.Proof.RefRows
import proofs.«112152_j7275674599671_1_alg».proof.Proof.GatherSame
import proofs.«112152_j7275674599671_1_alg».proof.Proof.SpecLaws
import Idealize.ShloMosaic.Lib.ValueIdx
import Mathlib.Algebra.BigOperators.Fin

noncomputable section

namespace Cert.Proof.BondsEq

open Idealize.ShloMosaic Idealize.ShloMosaic.ValueIdx Idealize.ShloMosaic.TcCoe Idealize.SL.Sem Cert.Spec

/-- A layer's output row is a function of its nine arrays. -/
theorem layer3_congr {ai ai' aj aj' bf bf' : Fin 64 → EReal} {w0 w0' w1 w1' w2 w2' : Fin 64 → Fin 128 → EReal}
    {b b' : Fin 128 → EReal} {W2 W2' : Fin 128 → Fin 64 → EReal} {b2 b2' : Fin 64 → EReal}
    (hai : ai = ai') (haj : aj = aj') (hbf : bf = bf') (h0 : w0 = w0') (h1 : w1 = w1') (h2 : w2 = w2') (hb : b = b')
    (hW2 : W2 = W2') (hb2 : b2 = b2') (f : Fin 64) :
    layerOut (hidden3 ai aj bf w0 w1 w2 b) W2 b2 bf f = layerOut (hidden3 ai' aj' bf' w0' w1' w2' b') W2' b2' bf' f := by
  subst hai haj hbf h0 h1 h2 hb hW2 hb2
  rfl

/-- The bond layer as the reference spells it (one contraction of width 256, then the bias) is the bond layer as the
    kernel spells it (three contractions of width 64 against bands 0, 1, 2, the global row's contraction against
    band 3 folded into the bias): the hidden rows agree entry by entry. -/
theorem layer_ref_eq_ker (ai aj bf g : Fin 64 → EReal) (W : Fin 256 → Fin 128 → EReal) (b : Fin 128 → EReal)
    (W2 : Fin 128 → Fin 64 → EReal) (b2 : Fin 64 → EReal) (f : Fin 64) :
    layerOut (hiddenRef (cat4 ai aj bf g) W b) W2 b2 bf f
      = layerOut (hidden3 ai aj bf (band W 0) (band W 1) (band W 2) (fun j => b j + ∑ k : Fin 64, g k * band W 3 k j))
          W2 b2 bf f :=
  congrArg (fun h => layerOut h W2 b2 bf f)
    (funext fun j => (hiddenBondKer_eq_ref ai aj bf g W b j).symm.trans (hiddenBondKer_eq_hidden3 ai aj bf g W b j))

/-- The updated bonds are the same array in both programs, from memories that agree on the arguments. -/
theorem bonds_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (c : Dev Cert.KernelIdeal.nD) :
    (Cert.ReferenceIdeal.Value.res_out1 m' c : Vec Ideal Cert.KernelIdeal.S800000x64 .f32)
      = Cert.KernelIdeal.Gen.St9 m c Cert.KernelIdeal.main_v30_0 := by
  obtain ⟨h0, h1, h2, h3, h4, h5, h6, -, -, -, -, -, -, -, -, h15, -⟩ := hagree c
  funext i
  obtain ⟨n, f, rfl⟩ : ∃ (n : Fin 800000) (f : Fin 64), i = ix2 n f := ⟨i 0, i 1, eq_ix2 i⟩
  refine (Cert.ReferenceIdeal.RefRows.bonds_at m' c n f).trans ?_
  rw [h0, h1, h2, h3, h4, h5, h6, h15]
  refine (layer_ref_eq_ker _ _ _ _ _ _ _ _ f).trans ?_
  refine Eq.trans ?_ ((congrFun (Cert.KernelIdeal.Gen.St9_bonds m c) (ix2 n f)).trans
    (Cert.KernelIdeal.BondValue.final9 (Cert.KernelIdeal.Gen.En0 m) c n f)).symm
  unfold Cert.KernelIdeal.BondValue.bondOut
  refine (layer3_congr ?_ ?_ ?_ ?_ ?_ ?_ ?_ ?_ ?_ f).symm
  · exact funext fun q => congrFun ((Cert.KernelIdeal.HostValue.v8_eq (Cert.KernelIdeal.Gen.St0 m c)).trans
      (Cert.Proof.GatherSame.gI_eq _ _)) (ix2 n q)
  · exact funext fun q => congrFun ((Cert.KernelIdeal.HostValue.v17_eq (Cert.KernelIdeal.Gen.St0 m c)).trans
      (Cert.Proof.GatherSame.gJ_eq _ _)) (ix2 n q)
  · exact funext fun q => congrFun (Cert.KernelIdeal.HostValue.arg1_keep0 (Cert.KernelIdeal.Gen.St0 m c)) (ix2 n q)
  · exact funext fun k => funext fun j => Cert.KernelIdeal.HostValue.v19_apply (Cert.KernelIdeal.Gen.St0 m c) k j
  · exact funext fun k => funext fun j => Cert.KernelIdeal.HostValue.v21_apply (Cert.KernelIdeal.Gen.St0 m c) k j
  · exact funext fun k => funext fun j => Cert.KernelIdeal.HostValue.v23_apply (Cert.KernelIdeal.Gen.St0 m c) k j
  · exact funext fun j => Cert.KernelIdeal.HostValue.v27_apply (Cert.KernelIdeal.Gen.St0 m c) j
  · exact funext fun j => funext fun f' => Cert.KernelIdeal.HostValue.v28_apply (Cert.KernelIdeal.Gen.St0 m c) j f'
  · exact funext fun f' => Cert.KernelIdeal.HostValue.v29_apply (Cert.KernelIdeal.Gen.St0 m c) f'

end Cert.Proof.BondsEq

end
-- ==== Proof.PreFinite.lean ====
/-
  From the stated precondition, that every float argument is finite, to the form the row-level laws need: every entry of
  the atom features and of the atom update's first weight matrix is a real number.
-/
import proofs.«112152_j7275674599671_1_alg».proof.Defs
import Idealize.ShloMosaic.Lib.ReduceAll
import Idealize.ShloMosaic.Lib.ValueIdx
import Idealize.ShloMosaic.PureOps.Ideal

noncomputable section

namespace Cert.Proof.PreFinite

open Idealize.ShloMosaic Idealize.SL.Sem

/-- A shape of rank zero has one index. -/
instance : Subsingleton Cert.Pre_finite_inputs.S_.Idx := ⟨fun _ _ => funext fun d => d.elim0⟩

/-- An extended real whose absolute value compares below the pattern of `+∞` is a real number: the absolute value of
    either infinity is `+∞`, which is not below itself. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by
    simp [Ideal.ofBits, Ideal.ieee]
  rw [htop] at h
  induction x using EReal.rec with
  | bot => simp [Ideal.cmp] at h
  | coe r => exact ⟨r, rfl⟩
  | top => simp [Ideal.cmp] at h

/-- One conjunct of the precondition, read back: if "all entries have absolute value below `+∞`" came out true, every
    entry is a real number. -/
theorem all_real {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ValueIdx.ix0 = 1#1)
    (i : S.Idx) : ∃ r : ℝ, x i = (r : EReal) :=
  real_of_abs_lt (x i) (Host.reduce_andi_all _ _ hr hu _ e i)

variable [hP : Cert.Pre_finite_inputs.Facts]

/-- Every entry of the atom features is a real number: the first conjunct of the precondition, which sits innermost
    in the left-nested conjunction of the fifteen. -/
theorem atoms_real (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i : Cert.KernelIdeal.S100000x64.Idx, ∃ r : ℝ,
      (m ((c.tc : Thread Cert.KernelIdeal.nD Cert.KernelIdeal.τ).loc Cert.KernelIdeal.main_arg0)
        : Cert.KernelIdeal.S100000x64.Idx → EReal) i = (r : EReal) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  have e1 := (IntOp.andi_eq_one.1 (IntOp.andi_eq_one.1 (IntOp.andi_eq_one.1 (IntOp.andi_eq_one.1 (IntOp.andi_eq_one.1
    (IntOp.andi_eq_one.1 (IntOp.andi_eq_one.1 e).1).1).1).1).1).1).1
  have e2 := (IntOp.andi_eq_one.1 (IntOp.andi_eq_one.1 (IntOp.andi_eq_one.1 (IntOp.andi_eq_one.1 (IntOp.andi_eq_one.1
    (IntOp.andi_eq_one.1 (IntOp.andi_eq_one.1 e1).1).1).1).1).1).1).1
  exact all_real _ _ _ _ e2

/-- Every entry of the atom update's first weight matrix is a real number: the eighth conjunct of the precondition. -/
theorem wa1_real (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i : Cert.KernelIdeal.S256x128.Idx, ∃ r : ℝ,
      (m ((c.tc : Thread Cert.KernelIdeal.nD Cert.KernelIdeal.τ).loc Cert.KernelIdeal.main_arg7)
        : Cert.KernelIdeal.S256x128.Idx → EReal) i = (r : EReal) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  have e1 := (IntOp.andi_eq_one.1 (IntOp.andi_eq_one.1 (IntOp.andi_eq_one.1 (IntOp.andi_eq_one.1 (IntOp.andi_eq_one.1
    (IntOp.andi_eq_one.1 (IntOp.andi_eq_one.1 e).1).1).1).1).1).1).1
  exact all_real _ _ _ _ (IntOp.andi_eq_one.1 e1).2

end Cert.Proof.PreFinite

end
-- ==== Proof.KiAtomValue.lean ====
/-
  The atom update (the second kernel region) read as values over the extended reals. At each grid point the body
  stores a block of 1000 updated atom rows and adds that block's column sums to a running row. Read at one entry,
  the stored block is the layer's output row: the hidden row is the atom row contracted with one matrix, plus the
  neighbour mean contracted with another, plus a bias row; then soft-plus, a second contraction, a second bias, and
  the atom row added back. The neighbour mean divides the masked sum over the 32 neighbours by the larger of the
  mask's sum and one. The blocks tile the 100000 atom rows, so after the region the atoms array holds the updated
  row of every atom. The running row starts from zero at the first point and is added to at every point, so after
  the last point it holds, at each feature, the sum over all atoms of their updated rows.
-/
import proofs.«112152_j7275674599671_1_alg».proof.Proof.KiAtomData
import proofs.«112152_j7275674599671_1_alg».proof.Proof.Spec
import proofs.«112152_j7275674599671_1_alg».proof.Proof.SpecLaws
import Idealize.ShloMosaic.PureOps.Ideal
import Idealize.ShloMosaic.PureOps.Ideal.Laws
import Idealize.ShloMosaic.Lib.ValueIdx
import Idealize.ShloMosaic.Lib.Pipeline.Value
import Idealize.ShloMosaic.Lib.Pipeline.FrameBody
import Idealize.ShloMosaic.Lib.ValueLayout
import Idealize.ShloMosaic.Lib.IdealHost
import Idealize.ShloMosaic.Lib.Tactic
import Mathlib.Algebra.BigOperators.Fin
import Mathlib.Algebra.BigOperators.Group.Finset.Basic

set_option maxRecDepth 16384

noncomputable section

namespace Cert.KernelIdeal.AtomValue

open Idealize.ShloMosaic Idealize.ShloMosaic.TcCoe Idealize.ShloMosaic.Tactic Idealize.ShloMosaic.ValueIdx
open Idealize.ShloMosaic.Pipeline (Dat)
open Cert.KernelIdeal Cert.KernelIdeal.Gen Cert.Spec

/-! ### The two contractions of the body, read at an index -/

theorem lhs64_0 (i : S1000x128.Idx) (q : dot_S1000x64_S64x128_S1000x128_1_0_0_1_n_n.contr.Idx) :
    (dot_S1000x64_S64x128_S1000x128_1_0_0_1_n_n.lhsIdx i q 0).val = (i 0).val := by
  unfold DotDims.lhsIdx
  rw [dif_neg (show ¬(0 : Fin S1000x64.rank) ∈ dot_S1000x64_S64x128_S1000x128_1_0_0_1_n_n.lhsBatch by decide), dif_pos (show (0 : Fin S1000x64.rank) ∈ dot_S1000x64_S64x128_S1000x128_1_0_0_1_n_n.lhsNonContracting by decide)]
  rfl
theorem lhs64_1 (i : S1000x128.Idx) (q : dot_S1000x64_S64x128_S1000x128_1_0_0_1_n_n.contr.Idx) :
    (dot_S1000x64_S64x128_S1000x128_1_0_0_1_n_n.lhsIdx i q 1).val = (q ⟨0, by decide⟩).val :=
  dot_S1000x64_S64x128_S1000x128_1_0_0_1_n_n.lhsIdx_val_of_single rfl i q
theorem rhs64_0 (i : S1000x128.Idx) (q : dot_S1000x64_S64x128_S1000x128_1_0_0_1_n_n.contr.Idx) :
    (dot_S1000x64_S64x128_S1000x128_1_0_0_1_n_n.rhsIdx i q 0).val = (q ⟨0, by decide⟩).val :=
  dot_S1000x64_S64x128_S1000x128_1_0_0_1_n_n.rhsIdx_val_of_single rfl i q
theorem rhs64_1 (i : S1000x128.Idx) (q : dot_S1000x64_S64x128_S1000x128_1_0_0_1_n_n.contr.Idx) :
    (dot_S1000x64_S64x128_S1000x128_1_0_0_1_n_n.rhsIdx i q 1).val = (i 1).val := by
  unfold DotDims.rhsIdx
  rw [dif_neg (show ¬(1 : Fin S64x128.rank) ∈ dot_S1000x64_S64x128_S1000x128_1_0_0_1_n_n.rhsBatch by decide), dif_pos (show (1 : Fin S64x128.rank) ∈ dot_S1000x64_S64x128_S1000x128_1_0_0_1_n_n.rhsNonContracting by decide)]
  rfl

/-- A row block of width 64 against a 64 × 128 matrix, into the zero accumulator: entry (p, j) is the sum over the
    64 shared positions. -/
theorem matmul64_apply (l : FVec Ideal S1000x64 .bf16) (r : FVec Ideal S64x128 .bf16) (p : Fin 1000) (j : Fin 128) :
    matmul dot_S1000x64_S64x128_S1000x128_1_0_0_1_n_n none l r (constant (F := Ideal) S1000x128 .f32 0x00000000#32) (ix2 p j)
      = ∑ k : Fin 64, l (ix2 p k) * r (ix2 k j) := by
  refine (Ideal.matmul_constant_zero_apply dot_S1000x64_S64x128_S1000x128_1_0_0_1_n_n none l r (ix2 p j)).trans ?_
  rw [← Equiv.sum_comp (contrEquiv1 dot_S1000x64_S64x128_S1000x128_1_0_0_1_n_n 64 rfl rfl).symm]
  refine Finset.sum_congr rfl fun k _ => ?_
  have hk := contrEquiv1_symm_val dot_S1000x64_S64x128_S1000x128_1_0_0_1_n_n 64 rfl rfl k
  have el : dot_S1000x64_S64x128_S1000x128_1_0_0_1_n_n.lhsIdx (ix2 p j) ((contrEquiv1 dot_S1000x64_S64x128_S1000x128_1_0_0_1_n_n 64 rfl rfl).symm k) = ix2 p k := funext fun a => Fin.ext (by
    match a with
    | ⟨0, _⟩ => exact lhs64_0 _ _
    | ⟨1, _⟩ => exact (lhs64_1 _ _).trans hk)
  have er : dot_S1000x64_S64x128_S1000x128_1_0_0_1_n_n.rhsIdx (ix2 p j) ((contrEquiv1 dot_S1000x64_S64x128_S1000x128_1_0_0_1_n_n 64 rfl rfl).symm k) = ix2 k j := funext fun a => Fin.ext (by
    match a with
    | ⟨0, _⟩ => exact (rhs64_0 _ _).trans hk
    | ⟨1, _⟩ => exact rhs64_1 _ _)
  rw [el, er]

theorem lhs128_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs128_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhs128_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhs128_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- A row block of width 128 against a 128 × 64 matrix, into the zero accumulator. -/
theorem matmul128_apply (l : FVec Ideal S1000x128 .bf16) (r : FVec Ideal S128x64 .bf16) (p : Fin 1000) (f : Fin 64) :
    matmul dot_S1000x128_S128x64_S1000x64_1_0_0_1_n_n none l r (constant (F := Ideal) S1000x64 .f32 0x00000000#32) (ix2 p f)
      = ∑ j : Fin 128, l (ix2 p j) * r (ix2 j f) := by
  refine (Ideal.matmul_constant_zero_apply dot_S1000x128_S128x64_S1000x64_1_0_0_1_n_n none l r (ix2 p f)).trans ?_
  rw [← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p f) ((contrEquiv1 dot_S1000x128_S128x64_S1000x64_1_0_0_1_n_n 128 rfl rfl).symm k) = ix2 p k := funext fun a => Fin.ext (by
    match a with
    | ⟨0, _⟩ => exact lhs128_0 _ _
    | ⟨1, _⟩ => exact (lhs128_1 _ _).trans hk)
  have er : dot_S1000x128_S128x64_S1000x64_1_0_0_1_n_n.rhsIdx (ix2 p f) ((contrEquiv1 dot_S1000x128_S128x64_S1000x64_1_0_0_1_n_n 128 rfl rfl).symm k) = ix2 k f := funext fun a => Fin.ext (by
    match a with
    | ⟨0, _⟩ => exact (rhs128_0 _ _).trans hk
    | ⟨1, _⟩ => exact rhs128_1 _ _)
  rw [el, er]

/-! ### The layout operations of the body, read at an index -/

/-- A [a, b] array viewed as [a, b, 1]: entry (p, d, u) is entry (p, d). -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (d : Fin b) (u : Fin 1) :
    shapeCast ⟨3, ![a, b, 1]⟩ x h (ix3 p d u) = x (ix2 p d) :=
  shapeCast_apply x h _ _ (by
    have hu : u.val = 0 := by omega
    rw [Shape.rowMajor_val_three, Shape.rowMajor_val_two]
    show p.val * b + d.val = (p.val * b + d.val) * 1 + u.val
    rw [hu, Nat.mul_one, Nat.add_zero])

/-- A [a] array viewed as [a, 1]: entry (p, u) is entry p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [a, b, 1] array repeated along its last axis to [a, b, c]: entry (p, d, f) is entry (p, d, 0). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (hb : b ≠ 1) (ha : a ≠ 1) (p : Fin a) (d : Fin b) (f : Fin c) :
    broadcastTo ⟨3, ![a, b, c]⟩ v h (ix3 p d f) = v (ix3 p d (0 : Fin 1)) := by
  refine broadcastTo_apply v h (ix3 p d f) (ix3 p d (0 : Fin 1)) fun ax => ?_
  match ax with
  | ⟨0, _⟩ =>
    show p.val = if a = 1 then 0 else p.val
    rw [if_neg ha]
  | ⟨1, _⟩ =>
    show d.val = if b = 1 then 0 else d.val
    rw [if_neg hb]
  | ⟨2, _⟩ => rfl

/-- A [a, 1] column repeated to [a, b]: entry (p, f) is entry (p, 0). -/
theorem broadcastTo_a1_ab_apply {α : Type} {a b : ℕ} (v : (⟨2, ![a, 1]⟩ : Shape).Idx → α)
    (h : (⟨2, ![a, 1]⟩ : Shape).Broadcasts ⟨2, ![a, b]⟩) (ha : a ≠ 1) (p : Fin a) (f : Fin b) :
    broadcastTo ⟨2, ![a, b]⟩ v h (ix2 p f) = v (ix2 p (0 : Fin 1)) := by
  refine broadcastTo_apply v h (ix2 p f) (ix2 p (0 : Fin 1)) fun ax => ?_
  match ax with
  | ⟨0, _⟩ =>
    show p.val = if a = 1 then 0 else p.val
    rw [if_neg ha]
  | ⟨1, _⟩ => rfl

/-! ### The three sums of the body, read at an index -/

/-- The sum over the 32 neighbours of a [1000, 32] block, at atom p. -/
theorem sum32_apply (v : FVec Ideal S1000x32 .f32) (hφ : FKind.Formats .f32)
    (hacc : (0x00000000#32 : BitVec 32) = 0x00000000#32) (p : Fin 1000) :
    multiReduction (F := Ideal) .add [1] S1000 v 0x00000000#32 reduces_S1000x32_S1000 hφ hacc (ix1 p)
      = ∑ d : Fin 32, v (ix2 p d) := by
  refine (Ideal.multiReduction_add_single v 0x00000000#32 reduces_S1000x32_S1000 hφ hacc (ix1 p)).trans ?_
  refine Finset.sum_congr rfl fun d _ => congrArg v (funext fun a => ?_)
  match a with
  | ⟨0, _⟩ => rfl
  | ⟨1, _⟩ => rfl

/-- The sum over the 32 neighbours of a [1000, 32, 64] block, at atom p and feature f. -/
theorem sum32x64_apply (v : FVec Ideal S1000x32x64 .f32) (hφ : FKind.Formats .f32)
    (hacc : (0x00000000#32 : BitVec 32) = 0x00000000#32) (p : Fin 1000) (f : Fin 64) :
    multiReduction (F := Ideal) .add [1] S1000x64 v 0x00000000#32 reduces_S1000x32x64_S1000x64 hφ hacc (ix2 p f)
      = ∑ d : Fin 32, v (ix3 p d f) := by
  refine (Ideal.multiReduction_add_single v 0x00000000#32 reduces_S1000x32x64_S1000x64 hφ hacc (ix2 p f)).trans ?_
  refine Finset.sum_congr rfl fun d _ => congrArg v (funext fun a => ?_)
  match a with
  | ⟨0, _⟩ => rfl
  | ⟨1, _⟩ => rfl
  | ⟨2, _⟩ => rfl

/-- The sum over the 1000 rows of a [1000, 64] block, at feature f. -/
theorem sum1000_apply (v : FVec Ideal S1000x64 .f32) (hφ : FKind.Formats .f32)
    (hacc : (0x00000000#32 : BitVec 32) = 0x00000000#32) (f : Fin 64) :
    multiReduction (F := Ideal) .add [0] S64 v 0x00000000#32 reduces_S1000x64_S64 hφ hacc (ix1 f)
      = ∑ p : Fin 1000, v (ix2 p f) := by
  refine (Ideal.multiReduction_add_single v 0x00000000#32 reduces_S1000x64_S64 hφ hacc (ix1 f)).trans ?_
  refine Finset.sum_congr rfl fun d _ => congrArg v (funext fun a => ?_)
  match a with
  | ⟨0, _⟩ => rfl
  | ⟨1, _⟩ => rfl

/-- The mask column [1000, 32, 1] repeated over the 64 features. -/
theorem bcastMask_apply {α : Type} (v : S1000x32x1.Idx → α) (p : Fin 1000) (d : Fin 32) (f : Fin 64) :
    broadcastTo S1000x32x64 v broadcasts_S1000x32x1_S1000x32x64 (ix3 p d f) = v (ix3 p d (0 : Fin 1)) :=
  broadcastTo_ab1_abc_apply v _ (by decide) (by decide) p d f

/-- The count column [1000, 1] repeated over the 64 features. -/
theorem bcastCnt_apply {α : Type} (v : S1000x1.Idx → α) (p : Fin 1000) (f : Fin 64) :
    broadcastTo S1000x64 v broadcasts_S1000x1_S1000x64 (ix2 p f) = v (ix2 p (0 : Fin 1)) :=
  broadcastTo_a1_ab_apply v _ (by decide) p f

/-- The hidden row of the body at atom p, position j: the atom row against the first matrix, the neighbour mean
    against the second, plus the bias row. -/
theorem pay4_apply (x0 : Vec Ideal S1000x64 .f32) (x1 : Vec Ideal S1000x32x64 .f32) (x2 : Vec Ideal S1000x32 .f32)
    (x3 x4 : Vec Ideal S64x128 .bf16) (x5 : Vec Ideal S1x128 .f32) (p : Fin 1000) (j : Fin 128) :
    k1_pay4 (F := Ideal) x0 x1 x2 x3 x4 x5 (ix2 p j)
      = hidden2 (fun k => x0 (ix2 p k))
          (meanBy (fun d f => x1 (ix3 p d f)) (fun d => x2 (ix2 p d)) (∑ d : Fin 32, x2 (ix2 p d)))
          (fun k j => x3 (ix2 k j)) (fun k j => x4 (ix2 k j)) (fun j => x5 (ix2 0 j)) j := by
  unfold k1_pay4
  dsimp only
  simp only [addf_apply, matmul64_apply, truncf_apply, shapeCast_self, broadcastTo_1b_ab_apply, divf_apply,
    bcastCnt_apply, maximumf_apply, shapeCast_a_a1_apply, broadcast_apply, Ideal.ofBits_def]
  unfold hidden2 meanBy
  refine congrArg₂ (· + ·) (congrArg₂ (· + ·) rfl (Finset.sum_congr rfl fun k _ => ?_)) rfl
  rw [sum32x64_apply, sum32_apply, Ideal.ofBits_one_f32]
  simp only [mulf_apply, bcastMask_apply, shapeCast_ab_ab1_apply]

theorem log1p_apply {s : Shape} {φ : FTy} (a : FVec Ideal s φ) (i : s.Idx) : log1p a i = Ideal.log1p (a i) := rfl
theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl

/-- An extended real is never different from itself. -/
theorem cmp_one_self (x : EReal) : Ideal.cmp .one x x = 0#1 := by
  simp [Ideal.cmp]

/-- The block of updated atom rows the body stores, as one function of its eight input blocks. -/
def blockOut {F : FTy → Type} [FloatOps F] (x0 : Vec F S1000x64 .f32) (x1 : Vec F S1000x32x64 .f32) (x2 : Vec F S1000x32 .f32)
    (x3 x4 : Vec F S64x128 .bf16) (x5 : Vec F S1x128 .f32) (x6 : Vec F S128x64 .bf16) (x7 : Vec F S1x64 .f32) :
    FVec F S1000x64 .f32 :=
  k1_pay1 x0 (k1_pay5 x0 x1 x2 x3 x4 x5) (k1_pay7 x0 x1 x2 x3 x4 x5) (k1_pay8 x0 x1 x2 x3 x4 x5)
    (k1_pay9 x0 x1 x2 x3 x4 x5) x6 x7

/-- The stored block at atom p, feature f: the layer's output row over the hidden row. -/
theorem blockOut_apply (x0 : Vec Ideal S1000x64 .f32) (x1 : Vec Ideal S1000x32x64 .f32) (x2 : Vec Ideal S1000x32 .f32)
    (x3 x4 : Vec Ideal S64x128 .bf16) (x5 : Vec Ideal S1x128 .f32) (x6 : Vec Ideal S128x64 .bf16) (x7 : Vec Ideal S1x64 .f32)
    (p : Fin 1000) (f : Fin 64) :
    blockOut x0 x1 x2 x3 x4 x5 x6 x7 (ix2 p f)
      = layerOut (hidden2 (fun k => x0 (ix2 p k))
          (meanBy (fun d f => x1 (ix3 p d f)) (fun d => x2 (ix2 p d)) (∑ d : Fin 32, x2 (ix2 p d)))
          (fun k j => x3 (ix2 k j)) (fun k j => x4 (ix2 k j)) (fun j => x5 (ix2 0 j)))
          (fun j f => x6 (ix2 j f)) (fun f => x7 (ix2 0 f)) (fun k => x0 (ix2 p k)) f := by
  unfold blockOut k1_pay1 k1_pay5 k1_pay7 k1_pay8 k1_pay9 k1_pay6
  dsimp only
  simp only [addf_apply, matmul128_apply, truncf_apply, shapeCast_self, broadcastTo_1b_ab_apply, select_apply,
    cmpf_apply, Ideal.cmpf_def, cmp_one_self, select_zero, log1p_apply, exp_apply, absf_apply, subf_apply,
    maximumf_apply, broadcast_apply, Ideal.ofBits_def, Ideal.ofBits_zero_f32, softplus_of_sub_zero, pay4_apply]
  rfl

/-- What the running column sum's buffer is left with: its earlier contents plus the stored block's column sums. -/
def blockSum {F : FTy → Type} [FloatOps F] (x0 : Vec F S1000x64 .f32) (x1 : Vec F S1000x32x64 .f32) (x2 : Vec F S1000x32 .f32)
    (x3 x4 : Vec F S64x128 .bf16) (x5 : Vec F S1x128 .f32) (x6 : Vec F S128x64 .bf16) (x7 : Vec F S1x64 .f32)
    (xo : Vec F S1x64 .f32) : FVec F S1x64 .f32 :=
  k1_pay3 x0 (k1_pay5 x0 x1 x2 x3 x4 x5) (k1_pay7 x0 x1 x2 x3 x4 x5) (k1_pay8 x0 x1 x2 x3 x4 x5)
    (k1_pay9 x0 x1 x2 x3 x4 x5) x6 x7 xo

/-- At feature f: the earlier contents there plus the sum over the block's 1000 rows. -/
theorem blockSum_apply (x0 : Vec Ideal S1000x64 .f32) (x1 : Vec Ideal S1000x32x64 .f32) (x2 : Vec Ideal S1000x32 .f32)
    (x3 x4 : Vec Ideal S64x128 .bf16) (x5 : Vec Ideal S1x128 .f32) (x6 : Vec Ideal S128x64 .bf16) (x7 : Vec Ideal S1x64 .f32)
    (xo : Vec Ideal S1x64 .f32) (u : Fin 1) (f : Fin 64) :
    blockSum x0 x1 x2 x3 x4 x5 x6 x7 xo (ix2 u f)
      = xo (ix2 u f) + ∑ p : Fin 1000, blockOut x0 x1 x2 x3 x4 x5 x6 x7 (ix2 p f) := by
  unfold blockSum k1_pay3
  dsimp only
  simp only [addf_apply, shapeCast_self, shapeCast_a_1a_apply]
  rw [sum1000_apply]
  rfl

/-- The reset value of the running sum is zero everywhere. -/
theorem pay2_apply (i : S1x64.Idx) : k1_pay2 (F := Ideal) i = 0 := by
  unfold k1_pay2
  exact Ideal.ofBits_zero_f32

/-! ### The pieces a whole-body run leaves, read back as the payloads of the input blocks -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point, atom block: one whole store of the block's payload. -/
theorem pieces8_A (c : Dev nD) (i : grid1.Coords) (a1 : Memref sig .tc .vmem S1000x64 .f32) (h1 : a1.IsWhole) (a2 : Memref sig .tc .vmem S1000x32x64 .f32) (h2 : a2.IsWhole) (a3 : Memref sig .tc .vmem S1000x32 .f32) (h3 : a3.IsWhole) (a4 : Memref sig .tc .vmem S64x128 .bf16) (h4 : a4.IsWhole) (a5 : Memref sig .tc .vmem S64x128 .bf16) (h5 : a5.IsWhole) (a6 : Memref sig .tc .vmem S1x128 .f32) (h6 : a6.IsWhole) (a7 : Memref sig .tc .vmem S128x64 .bf16) (h7 : a7.IsWhole) (a8 : Memref sig .tc .vmem S1x64 .f32) (h8 : a8.IsWhole) (a9 : Memref sig .tc .vmem S1000x64 .f32) (h9 : a9.IsWhole) (a10 : Memref sig .tc .vmem S1x64 .f32) (h10 : a10.IsWhole) (hc : cond1_0 i) (x0 : Vec F S1000x64 .f32) (x1 : Vec F S1000x32x64 .f32) (x2 : Vec F S1000x32 .f32) (x3 x4 : Vec F S64x128 .bf16) (x5 : Vec F S1x128 .f32) (x6 : Vec F S128x64 .bf16) (x7 : Vec F S1x64 .f32) :
    View.canon (kernelRun1_A (F := F) c i a1 h1 a2 h2 a3 h3 a4 h4 a5 h5 a6 h6 a7 h7 a8 h8 a9 h9 a10 h10 hc x0 x1 x2 x3 x4 x5 x6 x7).1 = blockOut x0 x1 x2 x3 x4 x5 x6 x7 := by
  unfold kernelRun1_A
  dsimp only
  sl_unfold_words
  rw [View.canon_unit_zero hz2]
  unfold blockOut
  simp only [View.readAt_eq_ld, h1.read_unread, h2.read_unread, h3.read_unread, h4.read_unread, h5.read_unread, h6.read_unread,
    h7.read_unread, h8.read_unread, View.ld_unit_zero (S := S1000x64) hz2, View.ld_unit_zero (S := S1000x32x64) hz3,
    View.ld_unit_zero (S := S1000x32) hz2, View.ld_unit_zero (S := S64x128) hz2, View.ld_unit_zero (S := S1x128) hz2,
    View.ld_unit_zero (S := S128x64) hz2, View.ld_unit_zero (S := S1x64) hz2]

/-- Later point, atom block: the same one store. -/
theorem pieces8_B (c : Dev nD) (i : grid1.Coords) (a1 : Memref sig .tc .vmem S1000x64 .f32) (h1 : a1.IsWhole) (a2 : Memref sig .tc .vmem S1000x32x64 .f32) (h2 : a2.IsWhole) (a3 : Memref sig .tc .vmem S1000x32 .f32) (h3 : a3.IsWhole) (a4 : Memref sig .tc .vmem S64x128 .bf16) (h4 : a4.IsWhole) (a5 : Memref sig .tc .vmem S64x128 .bf16) (h5 : a5.IsWhole) (a6 : Memref sig .tc .vmem S1x128 .f32) (h6 : a6.IsWhole) (a7 : Memref sig .tc .vmem S128x64 .bf16) (h7 : a7.IsWhole) (a8 : Memref sig .tc .vmem S1x64 .f32) (h8 : a8.IsWhole) (a9 : Memref sig .tc .vmem S1000x64 .f32) (h9 : a9.IsWhole) (a10 : Memref sig .tc .vmem S1x64 .f32) (h10 : a10.IsWhole) (hc : ¬cond1_0 i) (x0 : Vec F S1000x64 .f32) (x1 : Vec F S1000x32x64 .f32) (x2 : Vec F S1000x32 .f32) (x3 x4 : Vec F S64x128 .bf16) (x5 : Vec F S1x128 .f32) (x6 : Vec F S128x64 .bf16) (x7 : Vec F S1x64 .f32) (xo : Vec F S1x64 .f32) :
    View.canon (kernelRun1_B (F := F) c i a1 h1 a2 h2 a3 h3 a4 h4 a5 h5 a6 h6 a7 h7 a8 h8 a9 h9 a10 h10 hc x0 x1 x2 x3 x4 x5 x6 x7 xo).1 = blockOut x0 x1 x2 x3 x4 x5 x6 x7 := by
  unfold kernelRun1_B
  dsimp only
  sl_unfold_words
  rw [View.canon_unit_zero hz2]
  unfold blockOut
  simp only [View.readAt_eq_ld, h1.read_unread, h2.read_unread, h3.read_unread, h4.read_unread, h5.read_unread, h6.read_unread,
    h7.read_unread, h8.read_unread, View.ld_unit_zero (S := S1000x64) hz2, View.ld_unit_zero (S := S1000x32x64) hz3,
    View.ld_unit_zero (S := S1000x32) hz2, View.ld_unit_zero (S := S64x128) hz2, View.ld_unit_zero (S := S1x128) hz2,
    View.ld_unit_zero (S := S128x64) hz2, View.ld_unit_zero (S := S1x64) hz2]

/-- First point, running sum: the reset to zero, read back, plus the block's column sums. -/
theorem pieces9_A (c : Dev nD) (i : grid1.Coords) (a1 : Memref sig .tc .vmem S1000x64 .f32) (h1 : a1.IsWhole) (a2 : Memref sig .tc .vmem S1000x32x64 .f32) (h2 : a2.IsWhole) (a3 : Memref sig .tc .vmem S1000x32 .f32) (h3 : a3.IsWhole) (a4 : Memref sig .tc .vmem S64x128 .bf16) (h4 : a4.IsWhole) (a5 : Memref sig .tc .vmem S64x128 .bf16) (h5 : a5.IsWhole) (a6 : Memref sig .tc .vmem S1x128 .f32) (h6 : a6.IsWhole) (a7 : Memref sig .tc .vmem S128x64 .bf16) (h7 : a7.IsWhole) (a8 : Memref sig .tc .vmem S1x64 .f32) (h8 : a8.IsWhole) (a9 : Memref sig .tc .vmem S1000x64 .f32) (h9 : a9.IsWhole) (a10 : Memref sig .tc .vmem S1x64 .f32) (h10 : a10.IsWhole) (hc : cond1_0 i) (x0 : Vec F S1000x64 .f32) (x1 : Vec F S1000x32x64 .f32) (x2 : Vec F S1000x32 .f32) (x3 x4 : Vec F S64x128 .bf16) (x5 : Vec F S1x128 .f32) (x6 : Vec F S128x64 .bf16) (x7 : Vec F S1x64 .f32) :
    View.canon (kernelRun1_A (F := F) c i a1 h1 a2 h2 a3 h3 a4 h4 a5 h5 a6 h6 a7 h7 a8 h8 a9 h9 a10 h10 hc x0 x1 x2 x3 x4 x5 x6 x7).2.1 = blockSum x0 x1 x2 x3 x4 x5 x6 x7 (k1_pay2 (F := F)) := by
  unfold kernelRun1_A
  dsimp only
  sl_unfold_words
  rw [View.canon_cons_unit_zero (S := S1x64) hz2, View.readCov_unit_zero (S := S1x64) _ hz2]
  unfold blockSum
  simp only [View.readAt_eq_ld, h1.read_unread, h2.read_unread, h3.read_unread, h4.read_unread, h5.read_unread, h6.read_unread,
    h7.read_unread, h8.read_unread, View.ld_unit_zero (S := S1000x64) hz2, View.ld_unit_zero (S := S1000x32x64) hz3,
    View.ld_unit_zero (S := S1000x32) hz2, View.ld_unit_zero (S := S64x128) hz2, View.ld_unit_zero (S := S1x128) hz2,
    View.ld_unit_zero (S := S128x64) hz2, View.ld_unit_zero (S := S1x64) hz2]

/-- Later point, running sum: the earlier contents plus the block's column sums. -/
theorem pieces9_B (c : Dev nD) (i : grid1.Coords) (a1 : Memref sig .tc .vmem S1000x64 .f32) (h1 : a1.IsWhole) (a2 : Memref sig .tc .vmem S1000x32x64 .f32) (h2 : a2.IsWhole) (a3 : Memref sig .tc .vmem S1000x32 .f32) (h3 : a3.IsWhole) (a4 : Memref sig .tc .vmem S64x128 .bf16) (h4 : a4.IsWhole) (a5 : Memref sig .tc .vmem S64x128 .bf16) (h5 : a5.IsWhole) (a6 : Memref sig .tc .vmem S1x128 .f32) (h6 : a6.IsWhole) (a7 : Memref sig .tc .vmem S128x64 .bf16) (h7 : a7.IsWhole) (a8 : Memref sig .tc .vmem S1x64 .f32) (h8 : a8.IsWhole) (a9 : Memref sig .tc .vmem S1000x64 .f32) (h9 : a9.IsWhole) (a10 : Memref sig .tc .vmem S1x64 .f32) (h10 : a10.IsWhole) (hc : ¬cond1_0 i) (x0 : Vec F S1000x64 .f32) (x1 : Vec F S1000x32x64 .f32) (x2 : Vec F S1000x32 .f32) (x3 x4 : Vec F S64x128 .bf16) (x5 : Vec F S1x128 .f32) (x6 : Vec F S128x64 .bf16) (x7 : Vec F S1x64 .f32) (xo : Vec F S1x64 .f32) :
    View.canon (kernelRun1_B (F := F) c i a1 h1 a2 h2 a3 h3 a4 h4 a5 h5 a6 h6 a7 h7 a8 h8 a9 h9 a10 h10 hc x0 x1 x2 x3 x4 x5 x6 x7 xo).2.1 = blockSum x0 x1 x2 x3 x4 x5 x6 x7 xo := by
  unfold kernelRun1_B
  dsimp only
  sl_unfold_words
  rw [View.canon_unit_zero hz2]
  unfold blockSum
  simp only [View.readAt_eq_ld, h1.read_unread, h2.read_unread, h3.read_unread, h4.read_unread, h5.read_unread, h6.read_unread,
    h7.read_unread, h8.read_unread, View.ld_unit_zero (S := S1000x64) hz2, View.ld_unit_zero (S := S1000x32x64) hz3,
    View.ld_unit_zero (S := S1000x32) hz2, View.ld_unit_zero (S := S64x128) hz2, View.ld_unit_zero (S := S1x128) hz2,
    View.ld_unit_zero (S := S128x64) hz2, View.ld_unit_zero (S := S1x64) hz2, h10.read_unread]

variable (V : (c : Dev nD) → (b : Ref sig .tc) → Buf (Elt F) ((c : Thread nD τ).loc b))

/-- Input window 0's block at point t, at its literal type. -/
def blk0 (c : Dev nD) (t : Fin cfg1.N) : Vec F S1000x64 .f32 := iblk1 V c 0 t
/-- Input window 1's block at point t, at its literal type. -/
def blk1 (c : Dev nD) (t : Fin cfg1.N) : Vec F S1000x32x64 .f32 := iblk1 V c 1 t
/-- Input window 2's block at point t, at its literal type. -/
def blk2 (c : Dev nD) (t : Fin cfg1.N) : Vec F S1000x32 .f32 := iblk1 V c 2 t
/-- Input window 3's block at point t, at its literal type. -/
def blk3 (c : Dev nD) (t : Fin cfg1.N) : Vec F S64x128 .bf16 := iblk1 V c 3 t
/-- Input window 4's block at point t, at its literal type. -/
def blk4 (c : Dev nD) (t : Fin cfg1.N) : Vec F S64x128 .bf16 := iblk1 V c 4 t
/-- Input window 5's block at point t, at its literal type. -/
def blk5 (c : Dev nD) (t : Fin cfg1.N) : Vec F S1x128 .f32 := iblk1 V c 5 t
/-- Input window 6's block at point t, at its literal type. -/
def blk6 (c : Dev nD) (t : Fin cfg1.N) : Vec F S128x64 .bf16 := iblk1 V c 6 t
/-- Input window 7's block at point t, at its literal type. -/
def blk7 (c : Dev nD) (t : Fin cfg1.N) : Vec F S1x64 .f32 := iblk1 V c 7 t

theorem out8_A (c : Dev nD) (t : Fin cfg1.N) (h : t.val % 100 = 0) :
    out1_A_8 V c t h = blockOut (blk0 V c t) (blk1 V c t) (blk2 V c t) (blk3 V c t) (blk4 V c t) (blk5 V c t) (blk6 V c t) (blk7 V c t) := by
  unfold out1_A_8
  rw [View.read_writes_eq_canon _ _ _ (cover1_A_8 V c t h)]
  exact pieces8_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h) (iblk1 V c 0 t) (iblk1 V c 1 t) (iblk1 V c 2 t) (iblk1 V c 3 t) (iblk1 V c 4 t) (iblk1 V c 5 t) (iblk1 V c 6 t) (iblk1 V c 7 t)

theorem out9_A (c : Dev nD) (t : Fin cfg1.N) (h : t.val % 100 = 0) :
    out1_A_9 V c t h = blockSum (blk0 V c t) (blk1 V c t) (blk2 V c t) (blk3 V c t) (blk4 V c t) (blk5 V c t) (blk6 V c t) (blk7 V c t) (k1_pay2 (F := F)) := by
  unfold out1_A_9
  rw [View.read_writes_eq_canon _ _ _ (cover1_A_9 V c t h)]
  exact pieces9_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h) (iblk1 V c 0 t) (iblk1 V c 1 t) (iblk1 V c 2 t) (iblk1 V c 3 t) (iblk1 V c 4 t) (iblk1 V c 5 t) (iblk1 V c 6 t) (iblk1 V c 7 t)

theorem out8_B (c : Dev nD) (t : Fin cfg1.N) (h : ¬t.val % 100 = 0) (xo : Vec F S1x64 .f32) :
    out1_B_8 V c t h xo = blockOut (blk0 V c t) (blk1 V c t) (blk2 V c t) (blk3 V c t) (blk4 V c t) (blk5 V c t) (blk6 V c t) (blk7 V c t) := by
  unfold out1_B_8
  rw [View.read_writes_eq_canon _ _ _ (cover1_B_8 V c t h xo)]
  exact pieces8_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun hc => h ((hcond1_0 t).mp hc)) (iblk1 V c 0 t) (iblk1 V c 1 t) (iblk1 V c 2 t) (iblk1 V c 3 t) (iblk1 V c 4 t) (iblk1 V c 5 t) (iblk1 V c 6 t) (iblk1 V c 7 t) xo

theorem out9_B (c : Dev nD) (t : Fin cfg1.N) (h : ¬t.val % 100 = 0) (xo : Vec F S1x64 .f32) :
    out1_B_9 V c t h xo = blockSum (blk0 V c t) (blk1 V c t) (blk2 V c t) (blk3 V c t) (blk4 V c t) (blk5 V c t) (blk6 V c t) (blk7 V c t) xo := by
  unfold out1_B_9
  rw [View.read_writes_eq_canon _ _ _ (cover1_B_9 V c t h xo)]
  exact pieces9_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun hc => h ((hcond1_0 t).mp hc)) (iblk1 V c 0 t) (iblk1 V c 1 t) (iblk1 V c 2 t) (iblk1 V c 3 t) (iblk1 V c 4 t) (iblk1 V c 5 t) (iblk1 V c 6 t) (iblk1 V c 7 t) xo

end Pieces

/-! ### From the blocks to the arrays -/

section Value
variable (V : (c : Dev nD) → (b : Ref sig .tc) → Buf (Elt Ideal) ((c : Thread nD τ).loc b))

/-- Window 0's array as the region finds it. -/
abbrev afArr (c : Dev nD) : Vec Ideal S100000x64 .f32 := V c main_arg0
/-- Window 1's array as the region finds it. -/
abbrev nbArr (c : Dev nD) : Vec Ideal S100000x32x64 .f32 := V c main_v40
/-- Window 2's array as the region finds it. -/
abbrev mkArr (c : Dev nD) : Vec Ideal S100000x32 .f32 := V c main_v41
/-- Window 3's array as the region finds it. -/
abbrev w3Arr (c : Dev nD) : Vec Ideal S64x128 .bf16 := V c main_v45
/-- Window 4's array as the region finds it. -/
abbrev w4Arr (c : Dev nD) : Vec Ideal S64x128 .bf16 := V c main_v47
/-- Window 5's array as the region finds it. -/
abbrev biasArr (c : Dev nD) : Vec Ideal S1x128 .f32 := V c main_v51
/-- Window 6's array as the region finds it. -/
abbrev w6Arr (c : Dev nD) : Vec Ideal S128x64 .bf16 := V c main_v52
/-- Window 7's array as the region finds it. -/
abbrev b7Arr (c : Dev nD) : Vec Ideal S1x64 .f32 := V c main_v53

/-- Row p of point t's tile lies inside the 100000 atom rows. -/
theorem row_lt (n : ℕ) (hn : n < cfg1.N) (p : Fin 1000) : 1000 * n + p.val < 100000 := by
  have hN : cfg1.N = 100 := N_1
  have := p.isLt
  omega

/-- The updated row of atom n at feature f, as one function of the region's input arrays. -/
def atomVal (c : Dev nD) (n : Fin 100000) (f : Fin 64) : EReal :=
  layerOut (hidden2 (fun k => afArr V c (ix2 n k))
      (meanBy (fun d f => nbArr V c (ix3 n d f)) (fun d => mkArr V c (ix2 n d)) (∑ d : Fin 32, mkArr V c (ix2 n d)))
      (fun k j => w3Arr V c (ix2 k j)) (fun k j => w4Arr V c (ix2 k j)) (fun j => biasArr V c (ix2 0 j)))
    (fun j f => w6Arr V c (ix2 j f)) (fun f => b7Arr V c (ix2 0 f)) (fun k => afArr V c (ix2 n k)) f

/-! The index maps, decided over the grid: the three tiled inputs and the tiled output move one tile of 1000 rows per
    point; the weights, the biases and the running sum stay at their one block. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, win1_1.index t (0 : Fin 3) = t.val ∧ win1_1.index t (1 : Fin 3) = 0 ∧ win1_1.index t (2 : Fin 3) = 0)
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)
theorem idx1_8 : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)

/-- The atom rows' block at point t is rows 1000 t … 1000 t + 999 of the array. -/
theorem blk0_apply (c : Dev nD) (t : Fin cfg1.N) (p : Fin 1000) (k : Fin 64) :
    blk0 V c t (ix2 p k) = afArr V c (ix2 ⟨1000 * t.val + p.val, row_lt t.val t.isLt p⟩ k) := by
  have hi := idx1_0 t
  unfold blk0 iblk1
  rw [View.read_apply]
  show V c main_arg0 _ = V c main_arg0 _
  congr 1
  funext a
  apply Fin.ext
  match a with
  | ⟨0, _⟩ => show win1_0.index t 0 * 1000 + 1 * p.val = 1000 * t.val + p.val; rw [hi.1]; omega
  | ⟨1, _⟩ => show win1_0.index t 1 * 64 + 1 * k.val = k.val; rw [hi.2]; omega

/-- The neighbour rows' block likewise. -/
theorem blk1_apply (c : Dev nD) (t : Fin cfg1.N) (p : Fin 1000) (d : Fin 32) (f : Fin 64) :
    blk1 V c t (ix3 p d f) = nbArr V c (ix3 ⟨1000 * t.val + p.val, row_lt t.val t.isLt p⟩ d f) := by
  have hi := idx1_1 t
  unfold blk1 iblk1
  rw [View.read_apply]
  show V c main_v40 _ = V c main_v40 _
  congr 1
  funext a
  apply Fin.ext
  match a with
  | ⟨0, _⟩ => show win1_1.index t 0 * 1000 + 1 * p.val = 1000 * t.val + p.val; rw [hi.1]; omega
  | ⟨1, _⟩ => show win1_1.index t 1 * 32 + 1 * d.val = d.val; rw [hi.2.1]; omega
  | ⟨2, _⟩ => show win1_1.index t 2 * 64 + 1 * f.val = f.val; rw [hi.2.2]; omega

/-- The mask's block likewise. -/
theorem blk2_apply (c : Dev nD) (t : Fin cfg1.N) (p : Fin 1000) (d : Fin 32) :
    blk2 V c t (ix2 p d) = mkArr V c (ix2 ⟨1000 * t.val + p.val, row_lt t.val t.isLt p⟩ d) := by
  have hi := idx1_2 t
  unfold blk2 iblk1
  rw [View.read_apply]
  show V c main_v41 _ = V c main_v41 _
  congr 1
  funext a
  apply Fin.ext
  match a with
  | ⟨0, _⟩ => show win1_2.index t 0 * 1000 + 1 * p.val = 1000 * t.val + p.val; rw [hi.1]; omega
  | ⟨1, _⟩ => show win1_2.index t 1 * 32 + 1 * d.val = d.val; rw [hi.2]; omega

/-- Window 3's one block is its whole array. -/
theorem blk3_apply (c : Dev nD) (t : Fin cfg1.N) (k : Fin 64) (j : Fin 128) :
    blk3 V c t (ix2 k j) = w3Arr V c (ix2 k j) := by
  have hi := idx1_3 t
  unfold blk3 iblk1
  rw [View.read_apply]
  show V c main_v45 _ = V c main_v45 _
  congr 1
  funext a
  apply Fin.ext
  match a with
  | ⟨0, _⟩ => show win1_3.index t 0 * 64 + 1 * k.val = k.val; rw [hi.1]; omega
  | ⟨1, _⟩ => show win1_3.index t 1 * 128 + 1 * j.val = j.val; rw [hi.2]; omega

/-- Window 4's one block is its whole array. -/
theorem blk4_apply (c : Dev nD) (t : Fin cfg1.N) (k : Fin 64) (j : Fin 128) :
    blk4 V c t (ix2 k j) = w4Arr V c (ix2 k j) := by
  have hi := idx1_4 t
  unfold blk4 iblk1
  rw [View.read_apply]
  show V c main_v47 _ = V c main_v47 _
  congr 1
  funext a
  apply Fin.ext
  match a with
  | ⟨0, _⟩ => show win1_4.index t 0 * 64 + 1 * k.val = k.val; rw [hi.1]; omega
  | ⟨1, _⟩ => show win1_4.index t 1 * 128 + 1 * j.val = j.val; rw [hi.2]; omega

/-- Window 5's one block is its whole array. -/
theorem blk5_apply (c : Dev nD) (t : Fin cfg1.N) (u : Fin 1) (j : Fin 128) :
    blk5 V c t (ix2 u j) = biasArr V c (ix2 u j) := by
  have hi := idx1_5 t
  unfold blk5 iblk1
  rw [View.read_apply]
  show V c main_v51 _ = V c main_v51 _
  congr 1
  funext a
  apply Fin.ext
  match a with
  | ⟨0, _⟩ => show win1_5.index t 0 * 1 + 1 * u.val = u.val; rw [hi.1]; omega
  | ⟨1, _⟩ => show win1_5.index t 1 * 128 + 1 * j.val = j.val; rw [hi.2]; omega

/-- Window 6's one block is its whole array. -/
theorem blk6_apply (c : Dev nD) (t : Fin cfg1.N) (j : Fin 128) (f : Fin 64) :
    blk6 V c t (ix2 j f) = w6Arr V c (ix2 j f) := by
  have hi := idx1_6 t
  unfold blk6 iblk1
  rw [View.read_apply]
  show V c main_v52 _ = V c main_v52 _
  congr 1
  funext a
  apply Fin.ext
  match a with
  | ⟨0, _⟩ => show win1_6.index t 0 * 128 + 1 * j.val = j.val; rw [hi.1]; omega
  | ⟨1, _⟩ => show win1_6.index t 1 * 64 + 1 * f.val = f.val; rw [hi.2]; omega

/-- Window 7's one block is its whole array. -/
theorem blk7_apply (c : Dev nD) (t : Fin cfg1.N) (u : Fin 1) (f : Fin 64) :
    blk7 V c t (ix2 u f) = b7Arr V c (ix2 u f) := by
  have hi := idx1_7 t
  unfold blk7 iblk1
  rw [View.read_apply]
  show V c main_v53 _ = V c main_v53 _
  congr 1
  funext a
  apply Fin.ext
  match a with
  | ⟨0, _⟩ => show win1_7.index t 0 * 1 + 1 * u.val = u.val; rw [hi.1]; omega
  | ⟨1, _⟩ => show win1_7.index t 1 * 64 + 1 * f.val = f.val; rw [hi.2]; omega

/-- The stored block of point t at row p is the updated row of atom 1000 t + p. -/
theorem blockOut_blk (c : Dev nD) (t : Fin cfg1.N) (p : Fin 1000) (f : Fin 64) :
    blockOut (blk0 V c t) (blk1 V c t) (blk2 V c t) (blk3 V c t) (blk4 V c t) (blk5 V c t) (blk6 V c t) (blk7 V c t) (ix2 p f) = atomVal V c ⟨1000 * t.val + p.val, row_lt t.val t.isLt p⟩ f := by
  refine (blockOut_apply (blk0 V c t) (blk1 V c t) (blk2 V c t) (blk3 V c t) (blk4 V c t) (blk5 V c t) (blk6 V c t) (blk7 V c t) p f).trans ?_
  unfold atomVal
  simp only [blk0_apply, blk1_apply, blk2_apply, blk3_apply, blk4_apply, blk5_apply, blk6_apply, blk7_apply]

/-- What the atom block's buffer holds after the body at point t, at either kind of point. -/
theorem outs8_eq (c : Dev nD) (t : Fin cfg1.N) :
    (outsAt1 V c t.val t.isLt).1 = blockOut (blk0 V c t) (blk1 V c t) (blk2 V c t) (blk3 V c t) (blk4 V c t) (blk5 V c t) (blk6 V c t) (blk7 V c t) := by
  by_cases h0 : t.val % 100 = 0
  · rw [outsAt1_A V c t h0]
    dsimp only
    exact out8_A V c t h0
  · rw [outsAt1_B V c t h0]
    dsimp only
    exact out8_B V c t h0 _

/-- (1) The block value: row p of point t's stored block is the updated row of atom 1000 t + p. -/
theorem block8 (c : Dev nD) (t : Fin cfg1.N) (p : Fin 1000) (f : Fin 64) :
    (outsAt1 V c t.val t.isLt).1 (ix2 p f) = atomVal V c ⟨1000 * t.val + p.val, row_lt t.val t.isLt p⟩ f :=
  (congrFun (outs8_eq V c t) (ix2 p f)).trans (blockOut_blk V c t p f)

/-- The whole array of updated atom rows. -/
def atomsArr (c : Dev nD) : Vec Ideal S100000x64 .f32 :=
  fun i => atomVal V c ⟨(i 0).val, idx2_lt0 i⟩ ⟨(i 1).val, idx2_lt1 i⟩

/-- What point t writes back is its tile of that array. -/
theorem flushed8_eq (c : Dev nD) (t : Fin cfg1.N) :
    (dat1 V c).flushed 8 t = ((cfg1.win 8).blk t).view.read (Elt Ideal) (atomsArr V c) := by
  show (cfg1.win 8).cut (grid1.coords t) ((dat1 V c).after 8 t) = _
  rw [after1_8]
  have hi := idx1_8 t
  have key : (outsAt1 V c t.val t.isLt).1 = fun j : S1000x64.Idx => atomsArr V c (((cfg1.win 8).blk t).view.emb j) := by
    funext j
    obtain ⟨p, f, rfl⟩ : ∃ (p : Fin 1000) (f : Fin 64), j = ix2 p f := ⟨j 0, j 1, eq_ix2 j⟩
    rw [block8 V c t p f]
    unfold atomsArr
    refine congrArg₂ (atomVal V c) (Fin.ext ?_) (Fin.ext ?_)
    · show 1000 * t.val + p.val = win1_8.index t 0 * 1000 + 1 * p.val
      rw [hi.1]; omega
    · show f.val = win1_8.index t 1 * 64 + 1 * f.val
      rw [hi.2]; omega
  funext j
  exact congrFun key j

/-- (2) After the region the atoms array holds the updated rows. -/
theorem final8_arr (c : Dev nD) : (dat1 V c).arrAt 8 cfg1.N = atomsArr V c :=
  (dat1 V c).arrAt_eq_of_cover 8 (atomsArr V c) (fun t _ => flushed8_eq V c t) fun i => by
    have hN : cfg1.N = 100 := N_1
    have h0 : (i 0 : Nat) < 100000 := (i 0).isLt
    have h1 : (i 1 : Nat) < 64 := (i 1).isLt
    have ht : (i 0 : Nat) / 1000 < cfg1.N := by rw [hN]; omega
    have hi := idx1_8 ⟨(i 0 : Nat) / 1000, ht⟩
    refine ⟨⟨(i 0 : Nat) / 1000, ht⟩, flush1_8 _, ?_⟩
    show i ∈ ((View.whole main_v54_0).slice (win1_8.rect ⟨(i 0 : Nat) / 1000, ht⟩)).set
    rw [View.set_slice_whole, Rect.mem_set_unit]
    intro a
    match a with
    | ⟨0, _⟩ =>
      show win1_8.index ⟨(i 0 : Nat) / 1000, ht⟩ 0 * 1000 ≤ (i 0 : Nat) ∧ (i 0 : Nat) < win1_8.index ⟨(i 0 : Nat) / 1000, ht⟩ 0 * 1000 + 1000
      rw [hi.1]
      show (i 0 : Nat) / 1000 * 1000 ≤ (i 0 : Nat) ∧ (i 0 : Nat) < (i 0 : Nat) / 1000 * 1000 + 1000
      omega
    | ⟨1, _⟩ =>
      show win1_8.index ⟨(i 0 : Nat) / 1000, ht⟩ 1 * 64 ≤ (i 1 : Nat) ∧ (i 1 : Nat) < win1_8.index ⟨(i 0 : Nat) / 1000, ht⟩ 1 * 64 + 64
      rw [hi.2]
      omega

/-- The atoms array after the region, at its literal type. -/
abbrev atomsAfter (c : Dev nD) : Vec Ideal S100000x64 .f32 := (dat1 V c).arrAt 8 cfg1.N
/-- The column-sum row after the region, at its literal type. -/
abbrev sumAfter (c : Dev nD) : Vec Ideal S1x64 .f32 := (dat1 V c).arrAt 9 cfg1.N

theorem final8 (c : Dev nD) (n : Fin 100000) (f : Fin 64) :
    atomsAfter V c (ix2 n f) = atomVal V c n f := by
  show (dat1 V c).arrAt 8 cfg1.N (ix2 n f) = _
  rw [final8_arr]
  rfl

/-! ### The running column sum -/

/-- Row m's updated value at feature f, zero past the last atom. -/
def rowVal (c : Dev nD) (f : Fin 64) (m : ℕ) : EReal := if h : m < 100000 then atomVal V c ⟨m, h⟩ f else 0

/-- The column sums of point n's stored block are the sums of its 1000 atoms' updated rows. -/
theorem colsum_block (c : Dev nD) (n : ℕ) (hn : n < cfg1.N) (f : Fin 64) :
    ∑ p : Fin 1000, blockOut (blk0 V c ⟨n, hn⟩) (blk1 V c ⟨n, hn⟩) (blk2 V c ⟨n, hn⟩) (blk3 V c ⟨n, hn⟩) (blk4 V c ⟨n, hn⟩) (blk5 V c ⟨n, hn⟩) (blk6 V c ⟨n, hn⟩) (blk7 V c ⟨n, hn⟩) (ix2 p f)
      = ∑ p ∈ Finset.range 1000, rowVal V c f (1000 * n + p) := by
  rw [Finset.sum_range]
  refine Finset.sum_congr rfl fun p _ => ?_
  rw [blockOut_blk V c ⟨n, hn⟩ p f]
  unfold rowVal
  rw [dif_pos (row_lt n hn p)]

/-- After point n the running sum holds, at feature f, the sum over points 0 … n of the blocks' column sums. -/
theorem acc9 (c : Dev nD) (f : Fin 64) : ∀ (n : ℕ) (hn : n < cfg1.N),
    (outsAt1 V c n hn).2 (ix2 0 f) = ∑ t ∈ Finset.range (n + 1), ∑ p ∈ Finset.range 1000, rowVal V c f (1000 * t + p)
  | 0, hn => by
    rw [outsAt1_A V c ⟨0, hn⟩ (Nat.zero_mod _)]
    dsimp only
    rw [out9_A V c ⟨0, hn⟩ (Nat.zero_mod _)]
    refine (blockSum_apply (blk0 V c ⟨0, hn⟩) (blk1 V c ⟨0, hn⟩) (blk2 V c ⟨0, hn⟩) (blk3 V c ⟨0, hn⟩) (blk4 V c ⟨0, hn⟩) (blk5 V c ⟨0, hn⟩) (blk6 V c ⟨0, hn⟩) (blk7 V c ⟨0, hn⟩) (k1_pay2 (F := Ideal)) 0 f).trans ?_
    rw [pay2_apply, zero_add, Finset.sum_range_one, colsum_block V c 0 hn f]
  | n + 1, hn => by
    have hN : cfg1.N = 100 := N_1
    have hB : ¬(⟨n + 1, hn⟩ : Fin cfg1.N).val % 100 = 0 := by dsimp only; omega
    rw [outsAt1_B V c ⟨n + 1, hn⟩ hB]
    dsimp only
    rw [out9_B V c ⟨n + 1, hn⟩ hB _]
    refine (blockSum_apply (blk0 V c ⟨n + 1, hn⟩) (blk1 V c ⟨n + 1, hn⟩) (blk2 V c ⟨n + 1, hn⟩) (blk3 V c ⟨n + 1, hn⟩) (blk4 V c ⟨n + 1, hn⟩) (blk5 V c ⟨n + 1, hn⟩) (blk6 V c ⟨n + 1, hn⟩) (blk7 V c ⟨n + 1, hn⟩) _ 0 f).trans ?_
    rw [Finset.sum_range_succ _ (n + 1), colsum_block V c (n + 1) hn f]
    exact congrArg (· + ∑ p ∈ Finset.range 1000, rowVal V c f (1000 * (n + 1) + p)) (acc9 c f n (Nat.lt_of_succ_lt hn))

theorem h99 : 99 < cfg1.N := by
  have hN : cfg1.N = 100 := N_1
  omega

/-- The running sum after the last point. -/
def sumArr (c : Dev nD) : Vec Ideal S1x64 .f32 := (outsAt1 V c 99 h99).2

/-- The running sum is written back once, after the last point, whole. -/
theorem flushed9_eq (c : Dev nD) (t : Fin cfg1.N) (hf : (cfg1.win 9).flush t = true) :
    (dat1 V c).flushed 9 t = ((cfg1.win 9).blk t).view.read (Elt Ideal) (sumArr V c) := by
  have hN : cfg1.N = 100 := N_1
  have h3 : t.val = 99 := by have := (flush1_9 t).mp hf; have := t.isLt; omega
  obtain rfl : t = ⟨99, h99⟩ := Fin.ext h3
  show (cfg1.win 9).cut (grid1.coords ⟨99, h99⟩) ((dat1 V c).after 9 ⟨99, h99⟩) = _
  rw [after1_9]
  have hi := idx1_9 ⟨99, h99⟩
  have key : (outsAt1 V c 99 h99).2 = fun j : S1x64.Idx => sumArr V c (((cfg1.win 9).blk ⟨99, h99⟩).view.emb j) := by
    funext j
    unfold sumArr
    refine congrArg (outsAt1 V c 99 h99).2 (funext fun a => Fin.ext ?_)
    match a with
    | ⟨0, _⟩ => show (j 0).val = win1_9.index ⟨99, h99⟩ 0 * 1 + 1 * (j 0).val; rw [hi.1]; omega
    | ⟨1, _⟩ => show (j 1).val = win1_9.index ⟨99, h99⟩ 1 * 64 + 1 * (j 1).val; rw [hi.2]; omega
  funext j
  exact congrFun key j

theorem final9_arr (c : Dev nD) : (dat1 V c).arrAt 9 cfg1.N = sumArr V c :=
  (dat1 V c).arrAt_eq_of_cover 9 (sumArr V c) (flushed9_eq V c) fun i => by
    have h0 : (i 0 : Nat) < 1 := (i 0).isLt
    have h1 : (i 1 : Nat) < 64 := (i 1).isLt
    have hi := idx1_9 ⟨99, h99⟩
    refine ⟨⟨99, h99⟩, (flush1_9 _).mpr rfl, ?_⟩
    show i ∈ ((View.whole main_v54_1).slice (win1_9.rect ⟨99, h99⟩)).set
    rw [View.set_slice_whole, Rect.mem_set_unit]
    intro a
    match a with
    | ⟨0, _⟩ =>
      show win1_9.index ⟨99, h99⟩ 0 * 1 ≤ (i 0 : Nat) ∧ (i 0 : Nat) < win1_9.index ⟨99, h99⟩ 0 * 1 + 1
      rw [hi.1]; omega
    | ⟨1, _⟩ =>
      show win1_9.index ⟨99, h99⟩ 1 * 64 ≤ (i 1 : Nat) ∧ (i 1 : Nat) < win1_9.index ⟨99, h99⟩ 1 * 64 + 64
      rw [hi.2]; omega

/-- (3) After the region the column-sum row holds, at each feature, the sum of the updated rows of all atoms. -/
theorem final9 (c : Dev nD) (f : Fin 64) :
    sumAfter V c (ix2 0 f) = ∑ n : Fin 100000, atomsAfter V c (ix2 n f) := by
  simp only [final8]
  show (dat1 V c).arrAt 9 cfg1.N (ix2 0 f) = _
  rw [final9_arr]
  unfold sumArr
  rw [acc9 V c f 99 h99]
  have e : ∑ n : Fin 100000, atomVal V c n f
      = ∑ t : Fin 100, ∑ p : Fin 1000, atomVal V c ⟨t.val * 1000 + p.val, tile_lt t.isLt p.isLt⟩ f :=
    sum_tiles 100 1000 (fun n : Fin (100 * 1000) => atomVal V c n f)
  rw [e]
  refine (Finset.sum_range (n := 100) (fun t => ∑ p ∈ Finset.range 1000, rowVal V c f (1000 * t + p))).trans ?_
  refine Finset.sum_congr rfl fun t _ => ?_
  refine (Finset.sum_range (n := 1000) (fun p => rowVal V c f (1000 * t.val + p))).trans ?_
  refine Finset.sum_congr rfl fun p _ => ?_
  unfold rowVal
  rw [dif_pos (by have := t.isLt; have := p.isLt; omega)]
  exact congrArg (fun n => atomVal V c n f) (Fin.ext (by show 1000 * t.val + p.val = t.val * 1000 + p.val; omega))

end Value

end Cert.KernelIdeal.AtomValue

end
-- ==== Proof.AtomsEq.lean ====
/-
  The updated atoms are the same array in both programs, given that the updated bonds are.

  Entry (n, f) of the reference's updated atoms is its layer on atom n: the row of width 256 made of the atom's
  features, the mean of the updated bond rows at the atom's real neighbour slots, the atom's features again and the
  global row, contracted against the whole first weight matrix, plus a bias, through soft-plus, against the second
  weight matrix, plus a bias, plus the atom's features. The neighbour rows are gathered from the reference's own
  updated bonds, and the number of real neighbours is counted as a machine integer.

  Entry (n, f) of the kernel's updated atoms is the atom region's first output array, the kernel's layer on what the
  region is entered with. The host operations between the two regions leave the atom features and the second weights
  as launched, gather the neighbour rows from the bond array the bond region left with the same operations the
  reference prints, turn the neighbour mask into zeros and ones, hand over the sum of bands 0 and 2 and band 1 of the
  first weight matrix, and fold the global row's contraction against band 3 into the bias. The number of real
  neighbours is the sum of the zeros and ones.

  With the launch arrays agreeing and the two bond arrays equal, both layers are over the same rows. The two counts are
  the same number. The two hidden rows are equal because the atom features and the first weight matrix are real under
  the precondition, so the atom row distributes over the sum of the two bands; the rest is regrouping one contraction
  of width 256 into its four bands.
-/
import proofs.«112152_j7275674599671_1_alg».proof.Defs
import proofs.«112152_j7275674599671_1_alg».proof.Proof.Spec
import proofs.«112152_j7275674599671_1_alg».proof.Proof.SpecLaws
import proofs.«112152_j7275674599671_1_alg».proof.Proof.PreFinite
import proofs.«112152_j7275674599671_1_alg».proof.Proof.KiHostValue
import proofs.«112152_j7275674599671_1_alg».proof.Proof.KiRunValues
import proofs.«112152_j7275674599671_1_alg».proof.Proof.KiAtomValue
import proofs.«112152_j7275674599671_1_alg».proof.Proof.RefRows
import proofs.«112152_j7275674599671_1_alg».proof.Proof.GatherSame
import Idealize.ShloMosaic.Lib.ValueIdx
import Idealize.ShloMosaic.PureOps.Ideal
import Mathlib.Algebra.BigOperators.Fin

set_option maxRecDepth 16384

noncomputable section

namespace Cert.Proof.AtomsEq

open Idealize.ShloMosaic Idealize.ShloMosaic.TcCoe Idealize.ShloMosaic.ValueIdx Idealize.SL.Sem Cert.Spec
open Cert.KernelIdeal Cert.KernelIdeal.Gen

/-! ## The two spellings of the atom layer on one row -/

/-- On one atom row the reference's layer and the kernel's layer agree. The reference contracts the row of width 256
    (atom row, neighbour mean, atom row again, global row) against the whole first weight matrix and counts the
    neighbours as a machine integer; the kernel contracts the atom row against the sum of bands 0 and 2, the mean
    against band 1, folds the global row's band into the bias, and counts the neighbours as a sum of reals. The two
    counts are the same number; the two hidden rows are equal because the atom row and the weights are real, so the
    atom row distributes over the sum of the two bands. -/
theorem layer_row_eq (af g : Fin 64 → EReal) (nb : Fin 32 → Fin 64 → EReal) (bits : Fin 32 → BitVec 1)
    (Wa : Fin 256 → Fin 128 → EReal) (b8 : Fin 128 → EReal) (W9 : Fin 128 → Fin 64 → EReal) (b10 : Fin 64 → EReal)
    (haf : ∀ k, ∃ r : ℝ, af k = (r : EReal)) (hW : ∀ k j, ∃ r : ℝ, Wa k j = (r : EReal)) (f : Fin 64) :
    layerOut (hiddenRef (cat4 af
          (meanBy nb (fun d => bitVal (bits d)) ((((∑ d : Fin 32, (bits d).setWidth 32 : BitVec 32).toInt : ℝ)) : EReal))
          af g) Wa b8) W9 b10 af f
      = layerOut (hidden2 af (meanBy nb (fun d => bitVal (bits d)) (∑ d : Fin 32, bitVal (bits d)))
          (fun k j => band Wa 0 k j + band Wa 2 k j) (fun k j => band Wa 1 k j)
          (fun j => b8 j + ∑ k : Fin 64, g k * band Wa 3 k j)) W9 b10 af f := by
  rw [count_toInt]
  refine congrArg (fun h => layerOut h W9 b10 af f) (funext fun j => ?_)
  exact ((hiddenAtomKer_eq_hidden2 af _ g Wa b8 j).symm.trans (hiddenAtomKer_eq_ref af _ g Wa b8 j haf hW)).symm

/-! ## The two layers on the programs' own arrays -/

/-- The reference's atom layer at atom n, feature f, as a function of plain arrays: the atom features, an array of bond
    rows to gather the neighbours from, the neighbour table, the global row, the two weight matrices and biases. -/
def refRow (A0 : Vec Ideal S100000x64 .f32) (B : Vec Ideal S800000x64 .f32) (A16 : IVec S100000x32 32)
    (A2 : Vec Ideal S1x64 .f32) (A7 : Vec Ideal S256x128 .f32) (A8 : Vec Ideal S128 .f32) (A9 : Vec Ideal S128x64 .f32)
    (A10 : Vec Ideal S64 .f32) (n : Fin 100000) (f : Fin 64) : EReal :=
  layerOut (hiddenRef (cat4 (fun q => A0 (ix2 n q))
        (meanBy (fun d f => Cert.ReferenceIdeal.RefRows.NB B A16 (ix3 n d f))
          (fun d => bitVal (Cert.ReferenceIdeal.RefRows.nbBit A16 n d)) (Cert.ReferenceIdeal.RefRows.nbCount A16 n))
        (fun q => A0 (ix2 n q)) (fun q => A2 (ix2 0 q)))
      (fun k j => A7 (ix2 k j)) (fun j => A8 (ix1 j)))
    (fun j f => A9 (ix2 j f)) (fun f => A10 (ix1 f)) (fun q => A0 (ix2 n q)) f

/-- The kernel's atom layer at atom n, feature f, as a function of the contents the atom region is entered with. -/
def kerRow (V : (c : Dev nD) → (b : Ref sig .tc) → Buf (Elt Ideal) ((c : Thread nD τ).loc b)) (c : Dev nD)
    (n : Fin 100000) (f : Fin 64) : EReal :=
  layerOut (hidden2 (fun k => (V c main_arg0 : S100000x64.Idx → EReal) (ix2 n k))
      (meanBy (fun d f => (V c main_v40 : S100000x32x64.Idx → EReal) (ix3 n d f)) (fun d => (V c main_v41 : S100000x32.Idx → EReal) (ix2 n d))
        (∑ d : Fin 32, (V c main_v41 : S100000x32.Idx → EReal) (ix2 n d)))
      (fun k j => (V c main_v45 : S64x128.Idx → EReal) (ix2 k j)) (fun k j => (V c main_v47 : S64x128.Idx → EReal) (ix2 k j))
      (fun j => (V c main_v51 : S1x128.Idx → EReal) (ix2 0 j)))
    (fun j f => (V c main_v52 : S128x64.Idx → EReal) (ix2 j f)) (fun f => (V c main_v53 : S1x64.Idx → EReal) (ix2 0 f))
    (fun k => (V c main_arg0 : S100000x64.Idx → EReal) (ix2 n k)) f

section
variable (m : (ℓ : Loc Cert.KernelIdeal.nD Cert.KernelIdeal.τ Cert.KernelIdeal.sig) → Buf (Elt Ideal) ℓ)

/-- The kernel program's launch arrays that the atom update depends on, and the bond array its run ends with, at their
    literal types. -/
abbrev kA0 (c : Dev nD) : Vec Ideal S100000x64 .f32 := m ((c : Thread nD τ).loc main_arg0)
abbrev kA2 (c : Dev nD) : Vec Ideal S1x64 .f32 := m ((c : Thread nD τ).loc main_arg2)
abbrev kA7 (c : Dev nD) : Vec Ideal S256x128 .f32 := m ((c : Thread nD τ).loc main_arg7)
abbrev kA8 (c : Dev nD) : Vec Ideal S128 .f32 := m ((c : Thread nD τ).loc main_arg8)
abbrev kA9 (c : Dev nD) : Vec Ideal S128x64 .f32 := m ((c : Thread nD τ).loc main_arg9)
abbrev kA10 (c : Dev nD) : Vec Ideal S64 .f32 := m ((c : Thread nD τ).loc main_arg10)
abbrev kA16 (c : Dev nD) : IVec S100000x32 32 := m ((c : Thread nD τ).loc main_arg16)
abbrev kB (c : Dev nD) : Vec Ideal S800000x64 .f32 := St9 m c main_v30_0
/-- The atom update's first weight matrix by row and column. -/
abbrev kWa (c : Dev nD) (k : Fin 256) (j : Fin 128) : EReal := kA7 m c (ix2 k j)

/-- The kernel's layer, entered with what the host operations between the two regions leave, read over the launch
    arrays and the bond array the bond region left: the atom rows and the second weights unchanged, the gathered
    neighbour rows and the mask as both programs compute them, the first weights as the sum of bands 0 and 2 and
    band 1, the bias with the global row's band folded in. -/
theorem kerRow_entry (c : Dev nD) (n : Fin 100000) (f : Fin 64) :
    kerRow (En1 m) c n f
      = layerOut (hidden2 (fun k => kA0 m c (ix2 n k))
          (meanBy (fun d f => Cert.ReferenceIdeal.RefRows.NB (kB m c) (kA16 m c) (ix3 n d f))
            (fun d => bitVal (Cert.ReferenceIdeal.RefRows.nbBit (kA16 m c) n d))
            (∑ d : Fin 32, bitVal (Cert.ReferenceIdeal.RefRows.nbBit (kA16 m c) n d)))
          (fun k j => band (kWa m c) 0 k j
            + band (kWa m c) 2 k j)
          (fun k j => band (kWa m c) 1 k j)
          (fun j => kA8 m c (ix1 j)
            + ∑ k : Fin 64, kA2 m c (ix2 0 k)
                * band (kWa m c) 3 k j))
        (fun j f => kA9 m c (ix2 j f))
        (fun f => kA10 m c (ix1 f))
        (fun k => kA0 m c (ix2 n k)) f := by
  have eA0 : HostValue.a0 (St2 m c) = m ((c : Thread nD τ).loc main_arg0) := St2_arg m c main_arg0 (by decide) (by decide)
  have eA2 : HostValue.a2 (St2 m c) = m ((c : Thread nD τ).loc main_arg2) := St2_arg m c main_arg2 (by decide) (by decide)
  have eA7 : HostValue.a7 (St2 m c) = m ((c : Thread nD τ).loc main_arg7) := St2_arg m c main_arg7 (by decide) (by decide)
  have eA8 : HostValue.a8 (St2 m c) = m ((c : Thread nD τ).loc main_arg8) := St2_arg m c main_arg8 (by decide) (by decide)
  have eA9 : HostValue.a9 (St2 m c) = m ((c : Thread nD τ).loc main_arg9) := St2_arg m c main_arg9 (by decide) (by decide)
  have eA10 : HostValue.a10 (St2 m c) = m ((c : Thread nD τ).loc main_arg10) := St2_arg m c main_arg10 (by decide) (by decide)
  have eA16 : HostValue.a16 (St2 m c) = m ((c : Thread nD τ).loc main_arg16) := St2_arg m c main_arg16 (by decide) (by decide)
  have eB : HostValue.b30 (St2 m c) = St9 m c main_v30_0 := (St2_arr m c 9).trans (St9_bonds m c).symm
  have eWa : HostValue.Wa1 (St2 m c) = kWa m c :=
    funext fun k => funext fun j => congrFun eA7 (ix2 k j)
  have p0 : (fun k => (En1 m c main_arg0 : S100000x64.Idx → EReal) (ix2 n k))
      = fun k => kA0 m c (ix2 n k) :=
    funext fun k => congrFun ((HostValue.arg0_keep1 (St2 m c)).trans eA0) (ix2 n k)
  have p40 : (fun d f => (En1 m c main_v40 : S100000x32x64.Idx → EReal) (ix3 n d f))
      = fun d f => Cert.ReferenceIdeal.RefRows.NB (kB m c) (kA16 m c) (ix3 n d f) := by
    funext d f
    have e := HostValue.v40_eq (St2 m c)
    rw [eB, eA16, Cert.Proof.GatherSame.nB_eq] at e
    exact congrFun e (ix3 n d f)
  have p41 : (fun d => (En1 m c main_v41 : S100000x32.Idx → EReal) (ix2 n d))
      = fun d => bitVal (Cert.ReferenceIdeal.RefRows.nbBit (kA16 m c) n d) := by
    funext d
    have e := HostValue.v41_apply (St2 m c) n d
    rw [eA16, Cert.Proof.GatherSame.bit_eq] at e
    exact e
  have p45 : (fun k j => (En1 m c main_v45 : S64x128.Idx → EReal) (ix2 k j))
      = fun k j => band (kWa m c) 0 k j
          + band (kWa m c) 2 k j := by
    funext k j
    have e := HostValue.v45_apply (St2 m c) k j
    rw [eWa] at e
    exact e
  have p47 : (fun k j => (En1 m c main_v47 : S64x128.Idx → EReal) (ix2 k j))
      = fun k j => band (kWa m c) 1 k j := by
    funext k j
    have e := HostValue.v47_apply (St2 m c) k j
    rw [eWa] at e
    exact e
  have p51 : (fun j => (En1 m c main_v51 : S1x128.Idx → EReal) (ix2 0 j))
      = fun j => kA8 m c (ix1 j)
          + ∑ k : Fin 64, kA2 m c (ix2 0 k)
              * band (kWa m c) 3 k j := by
    funext j
    have e := HostValue.v51_apply (St2 m c) j
    rw [eWa, eA8, eA2] at e
    exact e
  have p52 : (fun j f => (En1 m c main_v52 : S128x64.Idx → EReal) (ix2 j f))
      = fun j f => kA9 m c (ix2 j f) := by
    funext j f
    have e := HostValue.v52_apply (St2 m c) j f
    rw [eA9] at e
    exact e
  have p53 : (fun f => (En1 m c main_v53 : S1x64.Idx → EReal) (ix2 0 f))
      = fun f => kA10 m c (ix1 f) := by
    funext f
    have e := HostValue.v53_apply (St2 m c) f
    rw [eA10] at e
    exact e
  unfold kerRow
  simp only [p0, p40, p41, p45, p47, p51, p52, p53]

end

/-! ## The updated atoms -/

/-- Given equal bond arrays, the two programs end with equal atom arrays. Entry by entry: the reference's atom row is
    its layer on the reference's arguments and its own bonds, which are the kernel's arguments and the kernel's bonds;
    the kernel's is the atom region's output array, the kernel's layer on what the region is entered with; and on one
    row the two layers agree, the atom features and the first weight matrix being real under the precondition. -/
theorem atoms_eq [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := hP) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (c : Dev Cert.KernelIdeal.nD)
    (hb : Cert.ReferenceIdeal.Value.res_out1 m' c = Cert.KernelIdeal.Gen.St9 m c Cert.KernelIdeal.main_v30_0) :
    Cert.ReferenceIdeal.Value.res_out0 m' c = Cert.KernelIdeal.Gen.St9 m c Cert.KernelIdeal.main_v54_0 := by
  obtain ⟨h0, h1, h2, h3, h4, h5, h6, h7, h8, h9, h10, h11, h12, h13, h14, h15, h16⟩ := hagree c
  funext i
  obtain ⟨n, f, rfl⟩ : ∃ (n : Fin 100000) (f : Fin 64), i = ix2 n f := ⟨i 0, i 1, eq_ix2 i⟩
  have hL : Cert.ReferenceIdeal.Value.res_out0 m' c (ix2 n f)
      = refRow (kA0 m c) (kB m c) (kA16 m c) (kA2 m c) (kA7 m c) (kA8 m c) (kA9 m c) (kA10 m c) n f := by
    show _ = refRow (m ((c : Thread nD τ).loc main_arg0)) (St9 m c main_v30_0) (m ((c : Thread nD τ).loc main_arg16))
          (m ((c : Thread nD τ).loc main_arg2)) (m ((c : Thread nD τ).loc main_arg7)) (m ((c : Thread nD τ).loc main_arg8))
          (m ((c : Thread nD τ).loc main_arg9)) (m ((c : Thread nD τ).loc main_arg10)) n f
    rw [← h0, ← h16, ← h2, ← h7, ← h8, ← h9, ← h10, ← hb]
    exact Cert.ReferenceIdeal.RefRows.atoms_at m' c n f
  have hR : (St9 m c main_v54_0 : S100000x64.Idx → EReal) (ix2 n f) = kerRow (En1 m) c n f :=
    (congrFun (St9_atoms m c) (ix2 n f)).trans (Cert.KernelIdeal.AtomValue.final8 (En1 m) c n f)
  refine hL.trans (Eq.trans ?_ hR.symm)
  rw [kerRow_entry m c n f]
  unfold refRow Cert.ReferenceIdeal.RefRows.nbCount
  exact layer_row_eq (fun k => kA0 m c (ix2 n k)) (fun k => kA2 m c (ix2 0 k)) _ (Cert.ReferenceIdeal.RefRows.nbBit (kA16 m c) n) (kWa m c) _ _ _
    (fun k => Cert.Proof.PreFinite.atoms_real m hpre c (ix2 n k))
    (fun k j => Cert.Proof.PreFinite.wa1_real m hpre c (ix2 k j)) f

end Cert.Proof.AtomsEq

end
-- ==== Proof.KiTailValue.lean ====
/-
  The kernel program's global update, read off its three host stretches: from any contents before them, the updated
  global row is the row-level formula of the shared definitions. Each stretch is first read back as one composed term
  of vector operations, then each term is read at an index: contractions as sums over the contracted axis, broadcasts
  as their operand's entry, the three-piece concatenation as the piece whose span holds the column.
-/
import proofs.«112152_j7275674599671_1_alg».proof.Proof.Gen.KernelIdeal.Launch
import proofs.«112152_j7275674599671_1_alg».proof.Proof.Spec
import proofs.«112152_j7275674599671_1_alg».proof.Proof.SpecLaws
import Idealize.ShloMosaic.Lib.StableHlo.Run
import Idealize.ShloMosaic.Lib.ValueIdx
import Idealize.ShloMosaic.Lib.Pipeline.Value
import Idealize.ShloMosaic.PureOps.Ideal
import Idealize.ShloMosaic.PureOps.Ideal.Laws
import Mathlib.Algebra.BigOperators.Fin
import Mathlib.Algebra.BigOperators.Group.Finset.Basic

noncomputable section

namespace Cert.KernelIdeal.TailValue

open Cert.KernelIdeal Cert.KernelIdeal.Gen Cert.Spec Idealize.ShloMosaic Idealize.ShloMosaic.StableHlo Idealize.ShloMosaic.TcCoe
open Idealize.ShloMosaic.ValueIdx

/-! #### The contraction S1x192 · S192x128 read at an index -/

theorem lhsA_0 (i : S1x128.Idx) (q : dot_S1x192_S192x128_S1x128_1_0_0_1_n_n.contr.Idx) :
    (dot_S1x192_S192x128_S1x128_1_0_0_1_n_n.lhsIdx i q 0).val = (i 0).val := by
  unfold DotDims.lhsIdx
  rw [dif_neg (show ¬(0 : Fin S1x192.rank) ∈ dot_S1x192_S192x128_S1x128_1_0_0_1_n_n.lhsBatch by decide), dif_pos (show (0 : Fin S1x192.rank) ∈ dot_S1x192_S192x128_S1x128_1_0_0_1_n_n.lhsNonContracting by decide)]
  rfl
theorem lhsA_1 (i : S1x128.Idx) (q : dot_S1x192_S192x128_S1x128_1_0_0_1_n_n.contr.Idx) :
    (dot_S1x192_S192x128_S1x128_1_0_0_1_n_n.lhsIdx i q 1).val = (q ⟨0, by decide⟩).val :=
  dot_S1x192_S192x128_S1x128_1_0_0_1_n_n.lhsIdx_val_of_single rfl i q
theorem rhsA_0 (i : S1x128.Idx) (q : dot_S1x192_S192x128_S1x128_1_0_0_1_n_n.contr.Idx) :
    (dot_S1x192_S192x128_S1x128_1_0_0_1_n_n.rhsIdx i q 0).val = (q ⟨0, by decide⟩).val :=
  dot_S1x192_S192x128_S1x128_1_0_0_1_n_n.rhsIdx_val_of_single rfl i q
theorem rhsA_1 (i : S1x128.Idx) (q : dot_S1x192_S192x128_S1x128_1_0_0_1_n_n.contr.Idx) :
    (dot_S1x192_S192x128_S1x128_1_0_0_1_n_n.rhsIdx i q 1).val = (i 1).val := by
  unfold DotDims.rhsIdx
  rw [dif_neg (show ¬(1 : Fin S192x128.rank) ∈ dot_S1x192_S192x128_S1x128_1_0_0_1_n_n.rhsBatch by decide), dif_pos (show (1 : Fin S192x128.rank) ∈ dot_S1x192_S192x128_S1x128_1_0_0_1_n_n.rhsNonContracting by decide)]
  rfl

/-- The host's contraction of a row of width 192 against a 192-row matrix, at column `j`, is the sum over the
    contracted axis of the products. -/
theorem dotA_at (l : S1x192.Idx → EReal) (r : S192x128.Idx → EReal) (j : Fin 128) :
    (Host.dotGeneral (F := Ideal) (φ₁ := .f32) (φ₂ := .f32) dot_S1x192_S192x128_S1x128_1_0_0_1_n_n none
        (l : FVec Ideal S1x192 .f32) (r : FVec Ideal S192x128 .f32)) (ix2 0 j)
      = ∑ k : Fin 192, l (ix2 0 k) * r (ix2 k j) := by
  simp only [Host.dotGeneral]
  rw [Ideal.dotGeneral_apply, ← Equiv.sum_comp (ValueIdx.contrEquiv1 dot_S1x192_S192x128_S1x128_1_0_0_1_n_n 192 rfl rfl).symm]
  refine Finset.sum_congr rfl fun k _ => ?_
  have hk := ValueIdx.contrEquiv1_symm_val dot_S1x192_S192x128_S1x128_1_0_0_1_n_n 192 rfl rfl k
  have el : dot_S1x192_S192x128_S1x128_1_0_0_1_n_n.lhsIdx (ix2 0 j) ((ValueIdx.contrEquiv1 dot_S1x192_S192x128_S1x128_1_0_0_1_n_n 192 rfl rfl).symm k) = ix2 0 k := funext fun a => Fin.ext (by
    match a with
    | ⟨0, _⟩ => exact lhsA_0 _ _
    | ⟨1, _⟩ => exact (lhsA_1 _ _).trans hk)
  have er : dot_S1x192_S192x128_S1x128_1_0_0_1_n_n.rhsIdx (ix2 0 j) ((ValueIdx.contrEquiv1 dot_S1x192_S192x128_S1x128_1_0_0_1_n_n 192 rfl rfl).symm k) = ix2 k j := funext fun a => Fin.ext (by
    match a with
    | ⟨0, _⟩ => exact (rhsA_0 _ _).trans hk
    | ⟨1, _⟩ => exact rhsA_1 _ _)
  rw [el, er]

/-! #### The contraction S1x128 · S128x64 read at an index -/

theorem lhsB_0 (i : S1x64.Idx) (q : dot_S1x128_S128x64_S1x64_1_0_0_1_n_n.contr.Idx) :
    (dot_S1x128_S128x64_S1x64_1_0_0_1_n_n.lhsIdx i q 0).val = (i 0).val := by
  unfold DotDims.lhsIdx
  rw [dif_neg (show ¬(0 : Fin S1x128.rank) ∈ dot_S1x128_S128x64_S1x64_1_0_0_1_n_n.lhsBatch by decide), dif_pos (show (0 : Fin S1x128.rank) ∈ dot_S1x128_S128x64_S1x64_1_0_0_1_n_n.lhsNonContracting by decide)]
  rfl
theorem lhsB_1 (i : S1x64.Idx) (q : dot_S1x128_S128x64_S1x64_1_0_0_1_n_n.contr.Idx) :
    (dot_S1x128_S128x64_S1x64_1_0_0_1_n_n.lhsIdx i q 1).val = (q ⟨0, by decide⟩).val :=
  dot_S1x128_S128x64_S1x64_1_0_0_1_n_n.lhsIdx_val_of_single rfl i q
theorem rhsB_0 (i : S1x64.Idx) (q : dot_S1x128_S128x64_S1x64_1_0_0_1_n_n.contr.Idx) :
    (dot_S1x128_S128x64_S1x64_1_0_0_1_n_n.rhsIdx i q 0).val = (q ⟨0, by decide⟩).val :=
  dot_S1x128_S128x64_S1x64_1_0_0_1_n_n.rhsIdx_val_of_single rfl i q
theorem rhsB_1 (i : S1x64.Idx) (q : dot_S1x128_S128x64_S1x64_1_0_0_1_n_n.contr.Idx) :
    (dot_S1x128_S128x64_S1x64_1_0_0_1_n_n.rhsIdx i q 1).val = (i 1).val := by
  unfold DotDims.rhsIdx
  rw [dif_neg (show ¬(1 : Fin S128x64.rank) ∈ dot_S1x128_S128x64_S1x64_1_0_0_1_n_n.rhsBatch by decide), dif_pos (show (1 : Fin S128x64.rank) ∈ dot_S1x128_S128x64_S1x64_1_0_0_1_n_n.rhsNonContracting by decide)]
  rfl

/-- The host's contraction of a row of width 128 against a 128-row matrix, at column `j`, is the sum over the
    contracted axis of the products. -/
theorem dotB_at (l : S1x128.Idx → EReal) (r : S128x64.Idx → EReal) (j : Fin 64) :
    (Host.dotGeneral (F := Ideal) (φ₁ := .f32) (φ₂ := .f32) dot_S1x128_S128x64_S1x64_1_0_0_1_n_n none
        (l : FVec Ideal S1x128 .f32) (r : FVec Ideal S128x64 .f32)) (ix2 0 j)
      = ∑ k : Fin 128, l (ix2 0 k) * r (ix2 k j) := by
  simp only [Host.dotGeneral]
  rw [Ideal.dotGeneral_apply, ← Equiv.sum_comp (ValueIdx.contrEquiv1 dot_S1x128_S128x64_S1x64_1_0_0_1_n_n 128 rfl rfl).symm]
  refine Finset.sum_congr rfl fun k _ => ?_
  have hk := ValueIdx.contrEquiv1_symm_val dot_S1x128_S128x64_S1x64_1_0_0_1_n_n 128 rfl rfl k
  have el : dot_S1x128_S128x64_S1x64_1_0_0_1_n_n.lhsIdx (ix2 0 j) ((ValueIdx.contrEquiv1 dot_S1x128_S128x64_S1x64_1_0_0_1_n_n 128 rfl rfl).symm k) = ix2 0 k := funext fun a => Fin.ext (by
    match a with
    | ⟨0, _⟩ => exact lhsB_0 _ _
    | ⟨1, _⟩ => exact (lhsB_1 _ _).trans hk)
  have er : dot_S1x128_S128x64_S1x64_1_0_0_1_n_n.rhsIdx (ix2 0 j) ((ValueIdx.contrEquiv1 dot_S1x128_S128x64_S1x64_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! #### Broadcasts and the concatenation read at an index -/

theorem bcast128_at (x : S128.Idx → EReal) (j : Fin 128) :
    broadcastInDim S1x128 ![1] bcast_S128_S1x128_1 x (ix2 0 j) = x (ix1 j) :=
  broadcastInDim_apply _ bcast_S128_S1x128_1 x (ix2 0 j) (ix1 j) (fun a => match a with
    | ⟨0, _⟩ => by show j.val = if (128 : Nat) = 1 then 0 else j.val; rw [if_neg (by decide)])

theorem bcast64_at (x : S64.Idx → EReal) (f : Fin 64) :
    broadcastInDim S1x64 ![1] bcast_S64_S1x64_1 x (ix2 0 f) = x (ix1 f) :=
  broadcastInDim_apply _ bcast_S64_S1x64_1 x (ix2 0 f) (ix1 f) (fun a => match a with
    | ⟨0, _⟩ => by show f.val = if (64 : Nat) = 1 then 0 else f.val; rw [if_neg (by decide)])

/-- Three rows of width 64 concatenated along the second axis, read at column `k`: the piece whose span holds `k`. -/
theorem concat3_at (x₀ x₁ x₂ : S1x64.Idx → EReal) (k : Fin 192) :
    concatenate S1x192 1 [⟨S1x64, x₀⟩, ⟨S1x64, x₁⟩, ⟨S1x64, x₂⟩] concatenates_S1x64_S1x64_S1x64_S1x192_d1 (ix2 0 k)
      = cat3 (fun f => x₀ (ix2 0 f)) (fun f => x₁ (ix2 0 f)) (fun f => x₂ (ix2 0 f)) k := by
  have hk := k.isLt
  have hoff : ∀ (i : S1x64.Idx) (hi0 : (i 0).val = 0), ∀ b : Fin S1x64.rank, b.cast (rfl : S1x64.rank = S1x192.rank) ≠ (1 : Fin S1x192.rank) →
      (i b).val = ((ix2 (0 : Fin 1) k : S1x192.Idx) (b.cast (rfl : S1x64.rank = S1x192.rank))).val := by
    intro i hi0 b hb
    match b with
    | ⟨0, _⟩ => exact hi0
    | ⟨1, _⟩ => exact absurd rfl hb
  unfold cat3
  by_cases h₀ : k.val < 64
  · rw [dif_pos h₀]
    exact concatenate_apply_piece 1 _ _ (ix2 0 k) 0 (by show (0 : ℕ) < 3; omega) S1x64 x₀ rfl rfl 0 rfl (ix2 0 ⟨k.val, h₀⟩)
      (hoff _ rfl) (by show 0 + k.val = k.val; omega)
  · rw [dif_neg h₀]
    by_cases h₁ : k.val < 128
    · rw [dif_pos h₁]
      exact concatenate_apply_piece 1 _ _ (ix2 0 k) 1 (by show (1 : ℕ) < 3; omega) S1x64 x₁ rfl rfl 64 rfl (ix2 0 ⟨k.val - 64, by omega⟩)
        (hoff _ rfl) (by show 64 + (k.val - 64) = k.val; omega)
    · rw [dif_neg h₁]
      exact concatenate_apply_piece 1 _ _ (ix2 0 k) 2 (by show (2 : ℕ) < 3; omega) S1x64 x₂ rfl rfl 128 rfl (ix2 0 ⟨k.val - 128, by omega⟩)
        (hoff _ rfl) (by show 128 + (k.val - 128) = k.val; omega)

/-! #### The three stretches' terms read at an index -/

theorem cmp_une_self (a : EReal) : Ideal.cmp .une a a = 0#1 := by simp [Ideal.cmp]

/-- The last stretch's term at an index: the second contraction, its bias, the residual row. -/
theorem out_fun (x : S1x128.Idx → EReal) (w : S128x64.Idx → EReal) (b : S64.Idx → EReal) (g : S1x64.Idx → EReal) (f : Fin 64) :
    (addf (addf (Host.dotGeneral (F := Ideal) (φ₁ := .f32) (φ₂ := .f32) dot_S1x128_S128x64_S1x64_1_0_0_1_n_n none x w)
              (broadcastInDim S1x64 ![1] bcast_S64_S1x64_1 b)) g) (ix2 0 f)
      = ((∑ j : Fin 128, x (ix2 0 j) * w (ix2 j f)) + b (ix1 f)) + g (ix2 0 f) := by
  rw [ValueIdx.addf_apply, ValueIdx.addf_apply, dotB_at, bcast64_at]

/-- The soft-plus stretch's term at an index: comparing a value with itself for "not equal" is false at the ideal
    values, so the selected branch is the soft-plus. -/
theorem sp_fun (x : S1x128.Idx → EReal) (i : S1x128.Idx) :
    (select
          (cmpf .une (subf x (broadcastInDim S1x128 ![] bcast_S_S1x128 (constant (F := Ideal) S_ .f32 0x00000000#32))) (subf x (broadcastInDim S1x128 ![] bcast_S_S1x128 (constant (F := Ideal) S_ .f32 0x00000000#32))))
          (addf x (broadcastInDim S1x128 ![] bcast_S_S1x128 (constant (F := Ideal) S_ .f32 0x00000000#32)))
          (addf (maximumf x (broadcastInDim S1x128 ![] bcast_S_S1x128 (constant (F := Ideal) S_ .f32 0x00000000#32))) (Host.log1p (Host.exp (Host.negf (Host.absf (subf x (broadcastInDim S1x128 ![] bcast_S_S1x128 (constant (F := Ideal) S_ .f32 0x00000000#32))))))))) i = softplus (x i) := by
  show Scalar.select
      (Ideal.cmp .une (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (-(max (x i - Ideal.ofBits .f32 0x00000000#32) (-(x i - Ideal.ofBits .f32 0x00000000#32)))))) = _
  rw [Ideal.ofBits_zero_f32, cmp_une_self, ValueIdx.select_zero, softplus_of_neg]

/-- The first stretch's term at an index: the three-piece row contracted against the first weight matrix, plus the bias. -/
theorem hid_fun (p q g : S1x64.Idx → EReal) (w : S192x128.Idx → EReal) (b : S128.Idx → EReal) (j : Fin 128) :
    (addf (Host.dotGeneral (F := Ideal) (φ₁ := .f32) (φ₂ := .f32) dot_S1x192_S192x128_S1x128_1_0_0_1_n_n none
              (concatenate S1x192 1 [⟨S1x64, p⟩, ⟨S1x64, q⟩, ⟨S1x64, g⟩] concatenates_S1x64_S1x64_S1x64_S1x192_d1)
              w)
          (broadcastInDim S1x128 ![1] bcast_S128_S1x128_1 b)) (ix2 0 j)
      = (∑ k : Fin 192, cat3 (fun f => p (ix2 0 f)) (fun f => q (ix2 0 f)) (fun f => g (ix2 0 f)) k * w (ix2 k j)) + b (ix1 j) := by
  rw [ValueIdx.addf_apply, dotA_at, bcast128_at]
  refine congrArg (· + _) (Finset.sum_congr rfl fun k _ => ?_)
  rw [concat3_at]

/-! #### The three host stretches as terms -/

variable (V : Valuation τ sig (Elt Ideal))

theorem out_e : (StableHlo.after (hostOps2_2 (F := Ideal)) V main_v67 : S1x64.Idx → EReal)
      = addf (addf (Host.dotGeneral (F := Ideal) (φ₁ := .f32) (φ₂ := .f32) dot_S1x128_S128x64_S1x64_1_0_0_1_n_n none (V main_v63 : S1x128.Idx → EReal) (V main_arg13 : S128x64.Idx → EReal))
              (broadcastInDim S1x64 ![1] bcast_S64_S1x64_1 (V main_arg14 : S64.Idx → EReal))) (V main_arg2 : S1x64.Idx → EReal) := by
  after_results_simp <;> rfl

theorem sp_e : (StableHlo.after (hostOps2_1 (F := Ideal)) V main_v63 : S1x128.Idx → EReal)
      = select
          (cmpf .une (subf (V main_v62 : S1x128.Idx → EReal) (broadcastInDim S1x128 ![] bcast_S_S1x128 (constant (F := Ideal) S_ .f32 0x00000000#32))) (subf (V main_v62 : S1x128.Idx → EReal) (broadcastInDim S1x128 ![] bcast_S_S1x128 (constant (F := Ideal) S_ .f32 0x00000000#32))))
          (addf (V main_v62 : S1x128.Idx → EReal) (broadcastInDim S1x128 ![] bcast_S_S1x128 (constant (F := Ideal) S_ .f32 0x00000000#32)))
          (addf (maximumf (V main_v62 : S1x128.Idx → EReal) (broadcastInDim S1x128 ![] bcast_S_S1x128 (constant (F := Ideal) S_ .f32 0x00000000#32))) (Host.log1p (Host.exp (Host.negf (Host.absf (subf (V main_v62 : S1x128.Idx → EReal) (broadcastInDim S1x128 ![] bcast_S_S1x128 (constant (F := Ideal) S_ .f32 0x00000000#32)))))))) := by
  after_results_simp <;> (try simp only [TRef.ofBuf, TRef.toBuf, cast_eq]) <;> rfl

/-- The second half of the first stretch, from any contents: concatenate, contract, add the broadcast bias. -/
theorem hid2 : (StableHlo.after (List.drop 6 (hostOps2 (F := Ideal))) V main_v62 : S1x128.Idx → EReal)
      = addf (Host.dotGeneral (F := Ideal) (φ₁ := .f32) (φ₂ := .f32) dot_S1x192_S192x128_S1x128_1_0_0_1_n_n none
              (concatenate S1x192 1 [⟨S1x64, (V main_v56 : S1x64.Idx → EReal)⟩, ⟨S1x64, (V main_v58 : S1x64.Idx → EReal)⟩, ⟨S1x64, (V main_arg2 : S1x64.Idx → EReal)⟩] concatenates_S1x64_S1x64_S1x64_S1x192_d1)
              (V main_arg11 : S192x128.Idx → EReal))
          (broadcastInDim S1x128 ![1] bcast_S128_S1x128_1 (V main_arg12 : S128.Idx → EReal)) := by
  simp only [hostOps2, List.drop_succ_cons, List.drop_zero]
  after_results_simp <;> rfl

/-- The first half of the first stretch: the two pooled rows divided by the broadcast counts; the arguments untouched. -/
theorem h56 : (StableHlo.after (List.take 6 (hostOps2 (F := Ideal))) V main_v56 : S1x64.Idx → EReal)
    = Host.divf (V main_v54_1 : S1x64.Idx → EReal) (broadcastInDim S1x64 ![] bcast_S_S1x64 (constant (F := Ideal) S_ .f32 0x47C35000#32)) := by
  simp only [hostOps2, List.take_succ_cons, List.take_zero]
  after_results_simp <;> rfl
theorem h58 : (StableHlo.after (List.take 6 (hostOps2 (F := Ideal))) V main_v58 : S1x64.Idx → EReal)
    = Host.divf (V main_v30_1 : S1x64.Idx → EReal) (broadcastInDim S1x64 ![] bcast_S_S1x64 (constant (F := Ideal) S_ .f32 0x49435000#32)) := by
  simp only [hostOps2, List.take_succ_cons, List.take_zero]
  after_results_simp <;> rfl
theorem h2 : (StableHlo.after (List.take 6 (hostOps2 (F := Ideal))) V main_arg2 : S1x64.Idx → EReal) = (V main_arg2 : S1x64.Idx → EReal) := by
  simp only [hostOps2, List.take_succ_cons, List.take_zero]
  after_results_simp <;> rfl
theorem h11 : (StableHlo.after (List.take 6 (hostOps2 (F := Ideal))) V main_arg11 : S192x128.Idx → EReal) = (V main_arg11 : S192x128.Idx → EReal) := by
  simp only [hostOps2, List.take_succ_cons, List.take_zero]
  after_results_simp <;> rfl
theorem h12 : (StableHlo.after (List.take 6 (hostOps2 (F := Ideal))) V main_arg12 : S128.Idx → EReal) = (V main_arg12 : S128.Idx → EReal) := by
  simp only [hostOps2, List.take_succ_cons, List.take_zero]
  after_results_simp <;> rfl

theorem hid_e : (StableHlo.after (hostOps2 (F := Ideal)) V main_v62 : S1x128.Idx → EReal)
      = addf (Host.dotGeneral (F := Ideal) (φ₁ := .f32) (φ₂ := .f32) dot_S1x192_S192x128_S1x128_1_0_0_1_n_n none
              (concatenate S1x192 1 [⟨S1x64, (Host.divf (V main_v54_1 : S1x64.Idx → EReal) (broadcastInDim S1x64 ![] bcast_S_S1x64 (constant (F := Ideal) S_ .f32 0x47C35000#32)))⟩, ⟨S1x64, (Host.divf (V main_v30_1 : S1x64.Idx → EReal) (broadcastInDim S1x64 ![] bcast_S_S1x64 (constant (F := Ideal) S_ .f32 0x49435000#32)))⟩, ⟨S1x64, (V main_arg2 : S1x64.Idx → EReal)⟩] concatenates_S1x64_S1x64_S1x64_S1x192_d1)
              (V main_arg11 : S192x128.Idx → EReal))
          (broadcastInDim S1x128 ![1] bcast_S128_S1x128_1 (V main_arg12 : S128.Idx → EReal)) := by
  show (StableHlo.after (List.drop 6 (hostOps2 (F := Ideal))) (StableHlo.after (List.take 6 (hostOps2 (F := Ideal))) V) main_v62
      : S1x128.Idx → EReal) = _
  rw [hid2, h56, h58, h2, h11, h12]

/-! #### What the stretches leave alone, and the assembly -/

theorem keep1_13 : (StableHlo.after (hostOps2_1 (F := Ideal)) V main_arg13 : S128x64.Idx → EReal) = (V main_arg13 : S128x64.Idx → EReal) := by
  after_results_simp <;> rfl
theorem keep1_14 : (StableHlo.after (hostOps2_1 (F := Ideal)) V main_arg14 : S64.Idx → EReal) = (V main_arg14 : S64.Idx → EReal) := by
  after_results_simp <;> rfl
theorem keep1_2 : (StableHlo.after (hostOps2_1 (F := Ideal)) V main_arg2 : S1x64.Idx → EReal) = (V main_arg2 : S1x64.Idx → EReal) := by
  after_results_simp <;> rfl
theorem keep0_13 : (StableHlo.after (hostOps2 (F := Ideal)) V main_arg13 : S128x64.Idx → EReal) = (V main_arg13 : S128x64.Idx → EReal) := by
  after_results_simp <;> rfl
theorem keep0_14 : (StableHlo.after (hostOps2 (F := Ideal)) V main_arg14 : S64.Idx → EReal) = (V main_arg14 : S64.Idx → EReal) := by
  after_results_simp <;> rfl
theorem keep0_2 : (StableHlo.after (hostOps2 (F := Ideal)) V main_arg2 : S1x64.Idx → EReal) = (V main_arg2 : S1x64.Idx → EReal) := by
  after_results_simp <;> rfl

/-- The program's global update, from any contents `W` before its three host stretches: the updated global row is
    the row-level `globalOut` of the two pooled rows (each divided by its count), the global row and the weights. -/
theorem global_at (W : Valuation τ sig (Elt Ideal)) (f : Fin 64) :
    (StableHlo.after (hostOps2_2 (F := Ideal)) (StableHlo.after (hostOps2_1 (F := Ideal)) (StableHlo.after (hostOps2 (F := Ideal)) W)) main_v67
        : S1x64.Idx → EReal) (ix2 0 f)
      = globalOut
          (fun f => Ideal.div ((W main_v54_1 : S1x64.Idx → EReal) (ix2 0 f)) (Ideal.ofBits .f32 0x47C35000#32))
          (fun f => Ideal.div ((W main_v30_1 : S1x64.Idx → EReal) (ix2 0 f)) (Ideal.ofBits .f32 0x49435000#32))
          (fun k => (W main_arg2 : S1x64.Idx → EReal) (ix2 0 k))
          (fun k j => (W main_arg11 : S192x128.Idx → EReal) (ix2 k j))
          (fun j => (W main_arg12 : S128.Idx → EReal) (ix1 j))
          (fun j f => (W main_arg13 : S128x64.Idx → EReal) (ix2 j f))
          (fun f => (W main_arg14 : S64.Idx → EReal) (ix1 f)) f := by
  rw [out_e, out_fun, keep1_13, keep1_14, keep1_2, keep0_13, keep0_14, keep0_2]
  unfold globalOut
  refine congrArg (· + _) (congrArg (· + _) (Finset.sum_congr rfl fun j _ => ?_))
  rw [sp_e, sp_fun, hid_e, hid_fun]
  rfl

end Cert.KernelIdeal.TailValue

end
-- ==== Proof.GlobalEq.lean ====
/-
  The third result, given the first two. Both programs compute the global update's output row as one and the same
  function of seven rows and matrices: the pooled atom row, the pooled bond row, the global row and the four global
  weight arrays. The reference pools its own updated atoms and bonds; the kernel reads the two running column sums
  its regions leave, which are the sums over all rows of the regions' row outputs. Once the updated atoms and bonds
  of the two programs agree, so do the pooled rows; the other five arguments are argument arrays on which the two
  memories agree and which nothing writes before the closing stretches read them.
-/
import proofs.«112152_j7275674599671_1_alg».proof.Proof.RefRows
import proofs.«112152_j7275674599671_1_alg».proof.Proof.KiRunValues
import proofs.«112152_j7275674599671_1_alg».proof.Proof.KiBondValue
import proofs.«112152_j7275674599671_1_alg».proof.Proof.KiAtomValue
import proofs.«112152_j7275674599671_1_alg».proof.Proof.KiTailValue
import Idealize.ShloMosaic.Lib.ValueIdx
import Idealize.ShloMosaic.PureOps.Ideal
import Mathlib.Algebra.BigOperators.Fin

set_option maxRecDepth 16384

noncomputable section

namespace Cert.Proof.GlobalEq

open Cert.Spec Idealize.ShloMosaic Idealize.ShloMosaic.ValueIdx Idealize.ShloMosaic.TcCoe Idealize.SL.Sem

/-- The global update's output row depends on its seven arguments only through their values. -/
theorem globalOut_congr {ap ap' bp bp' g g' : Fin 64 → EReal} {W₁ W₁' : Fin 192 → Fin 128 → EReal}
    {b₁ b₁' : Fin 128 → EReal} {W₂ W₂' : Fin 128 → Fin 64 → EReal} {b₂ b₂' : Fin 64 → EReal}
    (h₁ : ap = ap') (h₂ : bp = bp') (h₃ : g = g') (h₄ : W₁ = W₁') (h₅ : b₁ = b₁') (h₆ : W₂ = W₂') (h₇ : b₂ = b₂')
    (f : Fin 64) : globalOut ap bp g W₁ b₁ W₂ b₂ f = globalOut ap' bp' g' W₁' b₁' W₂' b₂' f := by
  subst h₁ h₂ h₃ h₄ h₅ h₆ h₇
  rfl

/-- The third result. Both programs compute the global update's output row from the column sums of the updated
    atoms and of the updated bonds (divided by the same two constants), the global row and the four global weight
    arrays. The kernel's two column sums are the running sums its regions leave, which are the sums over all rows of
    the regions' row outputs; the reference sums its own updated atoms and bonds. So once the first two results
    agree, the pooled rows agree, the remaining arguments are the agreeing argument arrays, and the third results
    are the same function of equal arguments. -/
theorem global_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (c : Dev Cert.KernelIdeal.nD)
    (hbonds : Cert.ReferenceIdeal.Value.res_out1 m' c = Cert.KernelIdeal.Gen.St9 m c Cert.KernelIdeal.main_v30_0)
    (hatoms : Cert.ReferenceIdeal.Value.res_out0 m' c = Cert.KernelIdeal.Gen.St9 m c Cert.KernelIdeal.main_v54_0) :
    Cert.ReferenceIdeal.Value.res_out2 m' c = Cert.KernelIdeal.Gen.St9 m c Cert.KernelIdeal.main_v67 := by
  obtain ⟨_, _, a2, _, _, _, _, _, _, _, _, a11, a12, a13, a14, _, _⟩ := hagree c
  have key : ∀ f : Fin 64, Cert.ReferenceIdeal.Value.res_out2 m' c (ix2 0 f)
      = (Cert.KernelIdeal.Gen.St9 m c Cert.KernelIdeal.main_v67 : Cert.KernelIdeal.S1x64.Idx → EReal) (ix2 0 f) := by
    intro f
    refine (Cert.ReferenceIdeal.RefRows.global_at m' c f).trans ?_
    refine Eq.trans ?_ (Cert.KernelIdeal.TailValue.global_at (Cert.KernelIdeal.Gen.St6 m c) f).symm
    refine globalOut_congr (funext fun q => ?_) (funext fun q => ?_) (funext fun q => ?_)
      (funext fun k => funext fun j => ?_) (funext fun j => ?_) (funext fun j => funext fun q => ?_)
      (funext fun q => ?_) f
    · refine congrArg₂ Ideal.div ?_ rfl
      refine Eq.trans ?_ ((congrFun (Cert.KernelIdeal.Gen.St6_atomSum m c) (ix2 0 q)).trans
        (Cert.KernelIdeal.AtomValue.final9 (Cert.KernelIdeal.Gen.En1 m) c q)).symm
      refine Finset.sum_congr rfl fun n _ => ?_
      exact congrFun (hatoms.trans (Cert.KernelIdeal.Gen.St9_atoms m c)) (ix2 n q)
    · refine congrArg₂ Ideal.div ?_ rfl
      refine Eq.trans ?_ ((congrFun (Cert.KernelIdeal.Gen.St6_bondSum m c) (ix2 0 q)).trans
        (Cert.KernelIdeal.BondValue.final10 (Cert.KernelIdeal.Gen.En0 m) c q)).symm
      refine Finset.sum_congr rfl fun n _ => ?_
      exact congrFun (hbonds.trans (Cert.KernelIdeal.Gen.St9_bonds m c)) (ix2 n q)
    · exact congrFun (a2.trans (Cert.KernelIdeal.Gen.St6_arg m c Cert.KernelIdeal.main_arg2
        (by decide) (by decide) (by decide) (by decide) (by decide) (by decide)).symm) (ix2 0 q)
    · exact congrFun (a11.trans (Cert.KernelIdeal.Gen.St6_arg m c Cert.KernelIdeal.main_arg11
        (by decide) (by decide) (by decide) (by decide) (by decide) (by decide)).symm) (ix2 k j)
    · exact congrFun (a12.trans (Cert.KernelIdeal.Gen.St6_arg m c Cert.KernelIdeal.main_arg12
        (by decide) (by decide) (by decide) (by decide) (by decide) (by decide)).symm) (ix1 j)
    · exact congrFun (a13.trans (Cert.KernelIdeal.Gen.St6_arg m c Cert.KernelIdeal.main_arg13
        (by decide) (by decide) (by decide) (by decide) (by decide) (by decide)).symm) (ix2 j q)
    · exact congrFun (a14.trans (Cert.KernelIdeal.Gen.St6_arg m c Cert.KernelIdeal.main_arg14
        (by decide) (by decide) (by decide) (by decide) (by decide) (by decide)).symm) (ix1 q)
  refine funext fun (i : Cert.ReferenceIdeal.S1x64.Idx) => ?_
  have hi : i = ix2 (0 : Fin 1) (i 1) := by
    refine (eq_ix2 i).trans ?_
    have h0 : i 0 = (0 : Fin 1) := Fin.ext (by have := idx2_lt0 i; show (i 0).val = 0; omega)
    rw [h0]
    rfl
  rw [hi]
  exact key (i 1)

end Cert.Proof.GlobalEq

end
-- ==== Proof.Algebraic.lean ====
/-
  The value claim. Both programs run to the end from memories that agree on the seventeen arguments; the idealized
  kernel's three results are read off the last boundary of its run (the updated atoms and bonds are the two regions'
  first output arrays, the updated global row is written by the closing host operations), the reference's are its
  run's composed terms, and the two triples are equal: the bonds by regrouping one contraction of width 256 into its
  four bands, the atoms by the same regrouping together with distributing the atom row over the sum of two bands
  (this is where the inputs' finiteness is used) and counting the neighbours as reals or as integers, the global row
  because both programs apply the same operations to the column sums of equal arrays.
-/
import proofs.«112152_j7275674599671_1_alg».proof.Defs
import proofs.«112152_j7275674599671_1_alg».proof.Proof.KiRunValues
import proofs.«112152_j7275674599671_1_alg».proof.Proof.BondsEq
import proofs.«112152_j7275674599671_1_alg».proof.Proof.AtomsEq
import proofs.«112152_j7275674599671_1_alg».proof.Proof.GlobalEq
import proofs.«112152_j7275674599671_1_alg».proof.Proof.RefRunQ

noncomputable section

namespace Cert.Proof.Algebraic

open Idealize.ShloMosaic Idealize.ShloMosaic.TcCoe Idealize.SL.Sem
open Cert.KernelIdeal Cert.KernelIdeal.Gen

/-- The idealized kernel and the idealized reference end with equal results. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨fun c => St9 (F := Ideal) m c main_v54_0, fun c => St9 (F := Ideal) m c main_v30_0, fun c => St9 (F := Ideal) m c main_v67, ?_, ?_⟩
  · exact (θ_run _ _ _).mono (fun r h c =>
      ⟨h c _ (mem_uc main_v54_0 (by decide)), h c _ (mem_uc main_v30_0 (by decide)), h c _ (mem_uc main_v67 (by decide)),
        args_kept m r.2.mem h c⟩) (run_all (F := Ideal) m ρ)
  · refine (θ_run Cert.ReferenceIdeal.defs _ _).mono (fun _ h c => ?_) (Cert.ReferenceIdeal.Value.run (F := Ideal) m' ρ')
    have hb := Cert.Proof.BondsEq.bonds_eq m m' hagree c
    have ha := Cert.Proof.AtomsEq.atoms_eq m m' hpre hagree c hb
    exact ⟨(h c).1.trans ha, (h c).2.1.trans hb, (h c).2.2.1.trans (Cert.Proof.GlobalEq.global_eq m m' hagree c hb ha), (h c).2.2.2⟩

end Cert.Proof.Algebraic

end
-- ==== Proof.lean ====
/-
  The certificate's claim: the two frames of the kernel program (as printed, and idealized), the reference's frame,
  the idealization's ledger (empty: the idealized program is the printed text read over the extended reals), and the
  equality of the two idealized programs' results. Each kernel program is two pipelined regions among host
  operations; its frame and its run are proved over the several-regions launch from each region's body, run whole
  per case of its one branch ("the first grid point"). The reference is host operations only.
-/
import proofs.«112152_j7275674599671_1_alg».proof.Defs
import proofs.«112152_j7275674599671_1_alg».proof.Proof.Gen.Kernel
import proofs.«112152_j7275674599671_1_alg».proof.Proof.Gen.KernelIdeal
import proofs.«112152_j7275674599671_1_alg».proof.Proof.Gen.ReferenceIdeal
import proofs.«112152_j7275674599671_1_alg».proof.Proof.Gen.Pre_finite_inputs
import proofs.«112152_j7275674599671_1_alg».proof.Proof.KMainRun
import proofs.«112152_j7275674599671_1_alg».proof.Proof.KiMainRun
import proofs.«112152_j7275674599671_1_alg».proof.Proof.RefFrame
import proofs.«112152_j7275674599671_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame (F := Bits) m ρ,
    fun m ρ _ => Cert.KernelIdeal.Gen.frame (F := Ideal) m ρ,
    Cert.Proof.RefFrame.frame_ri,
    trivial,
    Cert.Proof.Algebraic.algebraic⟩

end Cert.Proof

end
